-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S262144x256 : Shape := ⟨2, ![262144, 256]⟩
abbrev S131072x256 : Shape := ⟨2, ![131072, 256]⟩
abbrev S262144 : Shape := ⟨1, ![262144]⟩
abbrev S256x256 : Shape := ⟨2, ![256, 256]⟩
abbrev S256 : Shape := ⟨1, ![256]⟩
abbrev S32x256 : Shape := ⟨2, ![32, 256]⟩
abbrev S32 : Shape := ⟨1, ![32]⟩
abbrev S256x32 : Shape := ⟨2, ![256, 32]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S262144x256 : S_.BroadcastsInDim S262144x256 (![] : Fin 0 → Fin S262144x256.rank)
  reducesTo_S262144x256_S_d0_1 : S262144x256.ReducesTo [0, 1] S_
  bcast_S_S131072x256 : S_.BroadcastsInDim S131072x256 (![] : Fin 0 → Fin S131072x256.rank)
  reducesTo_S131072x256_S_d0_1 : S131072x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S256x32 : S_.BroadcastsInDim S256x32 (![] : Fin 0 → Fin S256x32.rank)
  reducesTo_S256x32_S_d0_1 : S256x32.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S32 .f32) (main_arg13 : FVec F S256x32 .f32) (main_arg14 : FVec F S256 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S256x32 .f32 := Host.absf main_arg13
  let main_cst_22 : FVec F S_ .f32 := constant S_ .f32 0x7F800000#32
  let main_v60 : FVec F S256x32 .f32 := broadcastInDim S256x32 ![] bcast_S_S256x32 main_cst_22
  let main_v61 : IVec S256x32 1 := cmpf .olt main_v59 main_v60
  let main_c_23 : IVec S_ 1 := constantI S_ 1 1#1
  let main_v62 : IVec S_ 1 := (fun x v => Host.reduce IntOp.andi x v reducesTo_S256x32_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg8 : FVec F S256 .f32) (main_arg9 : FVec F S32x256 .f32) (main_arg10 : FVec F S32 .f32) (main_arg11 : FVec F S32 .f32) (main_arg12 : FVec F S32 .f32) (main_arg13 : FVec F S256x32 .f32) (main_arg14 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S32x256 .f32 := Host.absf main_arg9
  let main_cst_14 : FVec F S_ .f32 := constant S_ .f32 0x7F800000#32
  let main_v40 : FVec F S32x256 .f32 := broadcastInDim S32x256 ![] bcast_S_S32x256 main_cst_14
  let main_v41 : IVec S32x256 1 := cmpf .olt main_v39 main_v40
  let main_c_15 : IVec S_ 1 := constantI S_ 1 1#1
  let main_v42 : IVec S_ 1 := (fun x v => Host.reduce IntOp.andi x v reducesTo_S32x256_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_v48 main_v49 main_v50

def fn_part1 {F : FTy → Type} [FloatOps F] (main_arg5 : FVec F S256 .f32) (main_arg6 : FVec F S256 .f32) (main_arg7 : FVec F S256 .f32) (main_arg8 : FVec F S256 .f32) (main_arg9 : FVec F S32x256 .f32) (main_arg10 : FVec F S32 .f32) (main_arg11 : FVec F S32 .f32) (main_arg12 : FVec F S32 .f32) (main_arg13 : FVec F S256x32 .f32) (main_arg14 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S262144x3 .f32) (main_arg1 : FVec F S262144x256 .f32) (main_arg2 : FVec F S131072x256 .f32) (main_arg3 : IVec S262144 32) (main_arg4 : FVec F S256x256 .f32) (main_arg5 : FVec F S256 .f32) (main_arg6 : FVec F S256 .f32) (main_arg7 : FVec F S256 .f32) (main_arg8 : FVec F S256 .f32) (main_arg9 : FVec F S32x256 .f32) (main_arg10 : FVec F S32 .f32) (main_arg11 : FVec F S32 .f32) (main_arg12 : FVec F S32 .f32) (main_arg13 : FVec F S256x32 .f32) (main_arg14 : FVec F S256 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_arg14 main_v13 main_v16
-- ==== Kernel.lean ====
abbrev S262144x3 : Shape := ⟨2, ![262144, 3]⟩
abbrev S262144x256 : Shape := ⟨2, ![262144, 256]⟩
abbrev S131072x256 : Shape := ⟨2, ![131072, 256]⟩
abbrev S262144 : Shape := ⟨1, ![262144]⟩
abbrev S256x256 : Shape := ⟨2, ![256, 256]⟩
abbrev S256 : Shape := ⟨1, ![256]⟩
abbrev S32x256 : Shape := ⟨2, ![32, 256]⟩
abbrev S32 : Shape := ⟨1, ![32]⟩
abbrev S256x32 : Shape := ⟨2, ![256, 32]⟩
abbrev S_ : Shape := ⟨0, ![]⟩
abbrev S262144x1 : Shape := ⟨2, ![262144, 1]⟩
abbrev S1x256 : Shape := ⟨2, ![1, 256]⟩
abbrev S1x32 : Shape := ⟨2, ![1, 32]⟩
abbrev S2048x256 : Shape := ⟨2, ![2048, 256]⟩
abbrev S262144x32 : Shape := ⟨2, ![262144, 32]⟩
abbrev S2048x32 : Shape := ⟨2, ![2048, 32]⟩
abbrev S2048 : Shape := ⟨1, ![2048]⟩
abbrev S2048x1 : Shape := ⟨2, ![2048, 1]⟩

abbrev nBuf : Space → Nat
  | .hbm => 47
  | .vmem => 51
  | .smem => 0
  | _ => 0

abbrev bufTy : (tb : Table) → Fin (tcTables nBuf tb) → BufTy
  | .hbm, ⟨0, _⟩ => ⟨S262144x3, .f32⟩
  | .hbm, ⟨1, _⟩ => ⟨S262144x256, .f32⟩
  | .hbm, ⟨2, _⟩ => ⟨S131072x256, .f32⟩
  | .hbm, ⟨3, _⟩ => ⟨S262144, .i32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S32x256, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S256x32, .f32⟩
  | .hbm, ⟨14, _⟩ => ⟨S256, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x256, .f32⟩
  | .hbm, ⟨24, _⟩ => ⟨S1x256, .f32⟩
  | .hbm, ⟨25, _⟩ => ⟨S1x256, .f32⟩
  | .hbm, ⟨26, _⟩ => ⟨S1x32, .f32⟩
  | .hbm, ⟨27, _⟩ => ⟨S1x32, .f32⟩
  | .hbm, ⟨28, _⟩ => ⟨S1x256, .f32⟩
  | .hbm, ⟨29, _⟩ => ⟨S1x256, .f32⟩
  | .hbm, ⟨30, _⟩ => ⟨S1x32, .f32⟩
  | .hbm, ⟨31, _⟩ => ⟨S1x256, .f32⟩
  | .hbm, ⟨32, _⟩ => ⟨S256x32, .f32⟩
  | .hbm, ⟨33, _⟩ => ⟨S256x32, .bf16⟩
  | .hbm, ⟨34, _⟩ => ⟨S32x256, .f32⟩
  | .hbm, ⟨35, _⟩ => ⟨S32x256, .bf16⟩
  | .hbm, ⟨36, _⟩ => ⟨S256x256, .f32⟩
  | .hbm, ⟨37, _⟩ => ⟨S256x256, .bf16⟩
  | .hbm, ⟨38, _⟩ => ⟨S1x256, .f32⟩
  | .hbm, ⟨39, _⟩ => ⟨S1x256, .f32⟩
  | .hbm, ⟨40, _⟩ => ⟨S262144x32, .f32⟩
  | .hbm, ⟨41, _⟩ => ⟨S1x32, .f32⟩
  | .hbm, ⟨42, _⟩ => ⟨S1x32, .f32⟩
  | .hbm, ⟨43, _⟩ => ⟨S262144x256, .f32⟩
  | .hbm, ⟨44, _⟩ => ⟨S1x256, .f32⟩
  | .hbm, ⟨45, _⟩ => ⟨S1x256, .f32⟩
  | .hbm, ⟨46, _⟩ => ⟨S262144x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x32, .bf16⟩
  | .local _ .vmem, ⟨17, _⟩ => ⟨S1x32, .f32⟩
  | .local _ .vmem, ⟨18, _⟩ => ⟨S2048x32, .f32⟩
  | .local _ .vmem, ⟨19, _⟩ => ⟨S2048x32, .f32⟩
  | .local _ .vmem, ⟨20, _⟩ => ⟨S1x32, .f32⟩
  | .local _ .vmem, ⟨21, _⟩ => ⟨S1x32, .f32⟩
  | .local _ .vmem, ⟨22, _⟩ => ⟨S1x32, .f32⟩
  | .local _ .vmem, ⟨23, _⟩ => ⟨S1x32, .f32⟩
  | .local _ .vmem, ⟨24, _⟩ => ⟨S2048x32, .f32⟩
  | .local _ .vmem, ⟨25, _⟩ => ⟨S2048x32, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S1x32, .f32⟩
  | .local _ .vmem, ⟨31, _⟩ => ⟨S1x32, .f32⟩
  | .local _ .vmem, ⟨32, _⟩ => ⟨S1x32, .f32⟩
  | .local _ .vmem, ⟨33, _⟩ => ⟨S1x32, .f32⟩
  | .local _ .vmem, ⟨34, _⟩ => ⟨S32x256, .bf16⟩
  | .local _ .vmem, ⟨35, _⟩ => ⟨S1x256, .f32⟩
  | .local _ .vmem, ⟨36, _⟩ => ⟨S256x256, .bf16⟩
  | .local _ .vmem, ⟨37, _⟩ => ⟨S2048x256, .f32⟩
  | .local _ .vmem, ⟨38, _⟩ => ⟨S2048x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S2048x256, .f32⟩
  | .local _ .vmem, ⟨44, _⟩ => ⟨S2048x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S2048x256, .f32⟩
  | .local _ .vmem, ⟨50, _⟩ => ⟨S2048x256, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v22_0 : Ref sig .tc := ⟨.hbm, 40, rfl⟩
abbrev main_v22_1 : Ref sig .tc := ⟨.hbm, 41, rfl⟩
abbrev main_v22_2 : Ref sig .tc := ⟨.hbm, 42, rfl⟩
abbrev main_v23_0 : Ref sig .tc := ⟨.hbm, 43, rfl⟩
abbrev main_v23_1 : Ref sig .tc := ⟨.hbm, 44, rfl⟩
abbrev main_v23_2 : Ref sig .tc := ⟨.hbm, 45, rfl⟩
abbrev main_v24 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg10_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg10_0 : Ref sig .tc := ⟨.vmem, 37, rfl⟩
abbrev cc2_stg10_1 : Ref sig .tc := ⟨.vmem, 38, rfl⟩
abbrev cc2_stg11_0 : Ref sig .tc := ⟨.vmem, 39, rfl⟩
abbrev cc2_stg12_0 : Ref sig .tc := ⟨.vmem, 40, rfl⟩
abbrev cc2_scratch0 : Ref sig .tc := ⟨.vmem, 41, rfl⟩
abbrev cc2_scratch1 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg5_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc1_sem9_0 : DmaSem sig := 18
abbrev cc1_sem10_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem10_1 : DmaSem sig := 34
abbrev cc2_sem11_0 : DmaSem sig := 35
abbrev cc2_sem12_0 : DmaSem sig := 36
abbrev cc3_sem0_0 : DmaSem sig := 37
abbrev cc3_sem0_1 : DmaSem sig := 38
abbrev cc3_sem1_0 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem5_1 : DmaSem sig := 44

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v22 : BitVec 1 := Scalar.cmpi .eq arg0 c127_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![128], ![false]⟩

def k1_cond2 (i : grid1.Coords) : BitVec 1 :=
  let arg0 : BitVec 32 := BitVec.ofNat 32 (i 0).val
  let c127_i32 : BitVec 32 := 127#32
  let v52 : BitVec 1 := Scalar.cmpi .eq arg0 c127_i32
  let v53 : BitVec 32 := Scalar.extui v52
  let c0_i32_30 : BitVec 32 := 0#32
  let v54 : BitVec 1 := Scalar.cmpi .ne v53 c0_i32_30
  v54

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x32 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![128], ![false]⟩

def k2_cond2 (i : grid2.Coords) : BitVec 1 :=
  let arg0 : BitVec 32 := BitVec.ofNat 32 (i 0).val
  let c127_i32 : BitVec 32 := 127#32
  let v70 : BitVec 1 := Scalar.cmpi .eq arg0 c127_i32
  let v71 : BitVec 32 := Scalar.extui v70
  let c0_i32_38 : BitVec 32 := 0#32
  let v72 : BitVec 1 := Scalar.cmpi .ne v71 c0_i32_38
  v72

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x256 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2048x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 1 → Memref sig .tc .vmem S1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  shapeCasts_S256_S1x256 : S256.ShapeCasts S1x256
  shapeCasts_S32_S1x32 : S32.ShapeCasts S1x32
  transposes_S32x256_S256x32_1_0 : S32x256.Transposes [1, 0] S256x32
  bitsLt_bf16_f32 : FTy.bits .bf16 < FTy.bits .f32
  transposes_S256x32_S32x256_1_0 : S256x32.Transposes [1, 0] S32x256
  transposes_S256x256_S256x256_1_0 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S256 : S2048x256.Reduces [0] S256
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x256_S2048x256 : S1x256.Broadcasts S2048x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  reduces_S2048x32_S32 : S2048x32.Reduces [0] S32
  shapeCasts_S2048x32_S2048x32 : S2048x32.ShapeCasts S2048x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  reduces_S2048x256_S2048 : S2048x256.Reduces [1] S2048
  shapeCasts_S2048_S2048x1 : S2048.ShapeCasts S2048x1
  broadcasts_S2048x1_S2048x256 : S2048x1.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S131072x256_S262144x1_S262144x256_1_0_n_n_0_1_1256_wf : GatherDims.WF S131072x256 S262144x1 S262144x256 [1] [0] [] [0] [] 1 ![1, 256]
  dot_S2048x256_S256x32_S2048x32_1_0_0_1_n_n_wf : DotDims.WF S2048x256 S256x32 S2048x32 [1] [0] [0] [1] [] []
  dot_S2048x32_S32x256_S2048x256_1_0_0_1_n_n_wf : DotDims.WF S2048x32 S32x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S262144x256.size a
  hwx0_1 : ∀ i : grid0.Coords, EltTy.bits .f32 = 32 ∨ (Rect.block (s := S262144x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S262144x256.size a
  hwx1_0 : ∀ i : grid1.Coords, EltTy.bits .f32 = 32 ∨ (Rect.block (s := S262144x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S262144x256.size a
  hwx1_1 : ∀ i : grid1.Coords, EltTy.bits .f32 = 32 ∨ (Rect.block (s := S262144x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x32.size a ≤ S256x32.size a
  hwx1_6 : ∀ i : grid1.Coords, EltTy.bits .bf16 = 32 ∨ (Rect.block (s := S256x32) S256x32.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x32.size a ≤ S262144x32.size a
  hwx1_8 : ∀ i : grid1.Coords, EltTy.bits .f32 = 32 ∨ (Rect.block (s := S262144x32) S2048x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x32.size a ≤ S262144x32.size a
  hwx2_0 : ∀ i : grid2.Coords, EltTy.bits .f32 = 32 ∨ (Rect.block (s := S262144x32) S2048x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S262144x256.size a
  hwx2_1 : ∀ i : grid2.Coords, EltTy.bits .f32 = 32 ∨ (Rect.block (s := S262144x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S262144x256.size a
  hwx2_2 : ∀ i : grid2.Coords, EltTy.bits .f32 = 32 ∨ (Rect.block (s := S262144x256) S2048x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x256.size a ≤ S32x256.size a
  hwx2_7 : ∀ i : grid2.Coords, EltTy.bits .bf16 = 32 ∨ (Rect.block (s := S32x256) S32x256.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x256.size a ≤ S256x256.size a
  hwx2_9 : ∀ i : grid2.Coords, EltTy.bits .bf16 = 32 ∨ (Rect.block (s := S256x256) S256x256.size (cc2_transform_9 i) (hinb2_9 i)).WholeWords (EltTy.packing .bf16)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x256.size a ≤ S262144x256.size a
  hwx2_10 : ∀ i : grid2.Coords, EltTy.bits .f32 = 32 ∨ (Rect.block (s := S262144x256) S2048x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x256.size a ≤ S1x256.size a
  hwx2_11 : ∀ i : grid2.Coords, EltTy.bits .f32 = 32 ∨ (Rect.block (s := S1x256) S1x256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x256.size a ≤ S1x256.size a
  hwx2_12 : ∀ i : grid2.Coords, EltTy.bits .f32 = 32 ∨ (Rect.block (s := S1x256) S1x256.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S262144x256.size a
  hwx3_0 : ∀ i : grid3.Coords, EltTy.bits .f32 = 32 ∨ (Rect.block (s := S262144x256) S2048x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x256.size a ≤ S262144x256.size a
  hwx3_5 : ∀ i : grid3.Coords, EltTy.bits .f32 = 32 ∨ (Rect.block (s := S262144x256) S2048x256.size (cc3_transform_5 i) (hinb3_5 i)).WholeWords (EltTy.packing .f32)

variable [Facts₀]

def gather_S131072x256_S262144x1_S262144x256_1_0_n_n_0_1_1256 : GatherDims S131072x256 S262144x1 S262144x256 where
  offsetDims := [1]
  collapsedSliceDims := [0]
  operandBatchingDims := []
  startIndicesBatchingDims := []
  startIndexMap := [0]
  indexVectorDim := 1
  sliceSizes := ![1, 256]
  wf := gather_S131072x256_S262144x1_S262144x256_1_0_n_n_0_1_1256_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x32_S32x256_S2048x256_1_0_0_1_n_n : DotDims S2048x32 S32x256 S2048x256 where
  lhsContracting := [1]
  rhsContracting := [0]
  lhsNonContracting := [0]
  rhsNonContracting := [1]
  lhsBatch := []
  rhsBatch := []
  wf := dot_S2048x32_S32x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21_0) S1x256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21_1) S1x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21_0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21_1) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S256x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22_0) S2048x32.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v22_1) S1x32.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v22_2) S1x32.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | 10 => fun i => !(k1_cond2 i == 1#1) | ⟨_ + 11, h⟩ => absurd h (Nat.not_lt.2 (Nat.le_add_left _ _))

abbrev win2_0 : Pipeline.Window sig grid2 :=
  Pipeline.Window.ofSpec (Memref.whole main_v22_0) S2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S2048x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22_1) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22_2) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S32x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v14) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v20) S256x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v23_0) S2048x256.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v23_1) S1x256.size cc2_transform_11 reads2_11 true true 1 stage2_11 sem2_11
    hrank2 hreads2_11 hinb2_11 nbuf2_11 (Memref.isWhole_whole _) hwx2_11 hstage2_11

abbrev win2_12 : Pipeline.Window sig grid2 :=
  Pipeline.Window.ofSpec (Memref.whole main_v23_2) S1x256.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev idle2 : Fin 13 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k2_cond2 i == 1#1) | 12 => fun i => !(k2_cond2 i == 1#1) | ⟨_ + 13, h⟩ => absurd h (Nat.not_lt.2 (Nat.le_add_left _ _))

abbrev win3_0 : Pipeline.Window sig grid3 :=
  Pipeline.Window.ofSpec (Memref.whole main_v23_0) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23_1) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23_2) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v24) S2048x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S262144x3 : Shape := ⟨2, ![262144, 3]⟩
abbrev S262144x256 : Shape := ⟨2, ![262144, 256]⟩
abbrev S131072x256 : Shape := ⟨2, ![131072, 256]⟩
abbrev S262144 : Shape := ⟨1, ![262144]⟩
abbrev S256x256 : Shape := ⟨2, ![256, 256]⟩
abbrev S256 : Shape := ⟨1, ![256]⟩
abbrev S32x256 : Shape := ⟨2, ![32, 256]⟩
abbrev S32 : Shape := ⟨1, ![32]⟩
abbrev S256x32 : Shape := ⟨2, ![256, 32]⟩
abbrev S_ : Shape := ⟨0, ![]⟩
abbrev S262144x1 : Shape := ⟨2, ![262144, 1]⟩
abbrev S1x256 : Shape := ⟨2, ![1, 256]⟩
abbrev S262144x32 : Shape := ⟨2, ![262144, 32]⟩
abbrev S1x32 : Shape := ⟨2, ![1, 32]⟩

abbrev nBuf : Space → Nat
  | .hbm => 152
  | .vmem => 0
  | .smem => 0
  | _ => 0

abbrev hbmTy0_0 (i : Nat) : BufTy := match i % 128 with
  | 0 => ⟨S262144x3, .f32⟩
  | 1 => ⟨S262144x256, .f32⟩
  | 2 => ⟨S131072x256, .f32⟩
  | 3 => ⟨S262144, .i32⟩
  | 4 => ⟨S256x256, .f32⟩
  | 5 => ⟨S256, .f32⟩
  | 6 => ⟨S256, .f32⟩
  | 7 => ⟨S256, .f32⟩
  | 8 => ⟨S256, .f32⟩
  | 9 => ⟨S32x256, .f32⟩
  | 10 => ⟨S32, .f32⟩
  | 11 => ⟨S32, .f32⟩
  | 12 => ⟨S32, .f32⟩
  | 13 => ⟨S256x32, .f32⟩
  | 14 => ⟨S256, .f32⟩
  | 15 => ⟨S_, .i32⟩
  | 16 => ⟨S262144, .i32⟩
  | 17 => ⟨S262144, .i1⟩
  | 18 => ⟨S_, .i32⟩
  | 19 => ⟨S262144, .i32⟩
  | 20 => ⟨S262144, .i32⟩
  | 21 => ⟨S262144, .i32⟩
  | 22 => ⟨S262144x1, .i32⟩
  | 23 => ⟨S262144x256, .f32⟩
  | 24 => ⟨S262144x256, .f32⟩
  | 25 => ⟨S_, .f32⟩
  | 26 => ⟨S256, .f32⟩
  | 27 => ⟨S_, .f32⟩
  | 28 => ⟨S256, .f32⟩
  | 29 => ⟨S256, .f32⟩
  | 30 => ⟨S1x256, .f32⟩
  | 31 => ⟨S262144x256, .f32⟩
  | 32 => ⟨S262144x256, .f32⟩
  | 33 => ⟨S262144x256, .f32⟩
  | 34 => ⟨S_, .f32⟩
  | 35 => ⟨S256, .f32⟩
  | 36 => ⟨S_, .f32⟩
  | 37 => ⟨S256, .f32⟩
  | 38 => ⟨S256, .f32⟩
  | 39 => ⟨S1x256, .f32⟩
  | 40 => ⟨S262144x256, .f32⟩
  | 41 => ⟨S262144x256, .f32⟩
  | 42 => ⟨S_, .f32⟩
  | 43 => ⟨S256, .f32⟩
  | 44 => ⟨S256, .f32⟩
  | 45 => ⟨S256, .f32⟩
  | 46 => ⟨S1x256, .f32⟩
  | 47 => ⟨S262144x256, .f32⟩
  | 48 => ⟨S262144x256, .f32⟩
  | 49 => ⟨S1x256, .f32⟩
  | 50 => ⟨S262144x256, .f32⟩
  | 51 => ⟨S262144x256, .f32⟩
  | 52 => ⟨S1x256, .f32⟩
  | 53 => ⟨S262144x256, .f32⟩
  | 54 => ⟨S262144x256, .f32⟩
  | 55 => ⟨S_, .f32⟩
  | 56 => ⟨S262144x256, .f32⟩
  | 57 => ⟨S262144x256, .f32⟩
  | 58 => ⟨S256x32, .f32⟩
  | 59 => ⟨S262144x32, .f32⟩
  | 60 => ⟨S1x32, .f32⟩
  | 61 => ⟨S262144x32, .f32⟩
  | 62 => ⟨S262144x32, .f32⟩
  | 63 => ⟨S_, .f32⟩
  | 64 => ⟨S32, .f32⟩
  | 65 => ⟨S_, .f32⟩
  | 66 => ⟨S32, .f32⟩
  | 67 => ⟨S32, .f32⟩
  | 68 => ⟨S1x32, .f32⟩
  | 69 => ⟨S262144x32, .f32⟩
  | 70 => ⟨S262144x32, .f32⟩
  | 71 => ⟨S262144x32, .f32⟩
  | 72 => ⟨S_, .f32⟩
  | 73 => ⟨S32, .f32⟩
  | 74 => ⟨S_, .f32⟩
  | 75 => ⟨S32, .f32⟩
  | 76 => ⟨S32, .f32⟩
  | 77 => ⟨S1x32, .f32⟩
  | 78 => ⟨S262144x32, .f32⟩
  | 79 => ⟨S262144x32, .f32⟩
  | 80 => ⟨S_, .f32⟩
  | 81 => ⟨S32, .f32⟩
  | 82 => ⟨S32, .f32⟩
  | 83 => ⟨S32, .f32⟩
  | 84 => ⟨S1x32, .f32⟩
  | 85 => ⟨S262144x32, .f32⟩
  | 86 => ⟨S262144x32, .f32⟩
  | 87 => ⟨S1x32, .f32⟩
  | 88 => ⟨S262144x32, .f32⟩
  | 89 => ⟨S262144x32, .f32⟩
  | 90 => ⟨S1x32, .f32⟩
  | 91 => ⟨S262144x32, .f32⟩
  | 92 => ⟨S262144x32, .f32⟩
  | 93 => ⟨S_, .f32⟩
  | 94 => ⟨S262144x32, .f32⟩
  | 95 => ⟨S262144x32, .f32⟩
  | 96 => ⟨S32x256, .f32⟩
  | 97 => ⟨S262144x256, .f32⟩
  | 98 => ⟨S1x256, .f32⟩
  | 99 => ⟨S262144x256, .f32⟩
  | 100 => ⟨S262144x256, .f32⟩
  | 101 => ⟨S_, .f32⟩
  | 102 => ⟨S262144, .f32⟩
  | 103 => ⟨S_, .f32⟩
  | 104 => ⟨S262144, .f32⟩
  | 105 => ⟨S262144, .f32⟩
  | 106 => ⟨S262144x1, .f32⟩
  | 107 => ⟨S262144x256, .f32⟩
  | 108 => ⟨S262144x256, .f32⟩
  | 109 => ⟨S262144x256, .f32⟩
  | 110 => ⟨S_, .f32⟩
  | 111 => ⟨S262144, .f32⟩
  | 112 => ⟨S262144x1, .f32⟩
  | 113 => ⟨S262144x256, .f32⟩
  | 114 => ⟨S262144x256, .f32⟩
  | 115 => ⟨S262144x256, .f32⟩
  | 116 => ⟨S262144x256, .f32⟩
  | 117 => ⟨S256x256, .f32⟩
  | 118 => ⟨S262144x256, .f32⟩
  | 119 => ⟨S_, .f32⟩
  | 120 => ⟨S256, .f32⟩
  | 121 => ⟨S_, .f32⟩
  | 122 => ⟨S256, .f32⟩
  | 123 => ⟨S256, .f32⟩
  | 124 => ⟨S1x256, .f32⟩
  | 125 => ⟨S262144x256, .f32⟩
  | 126 => ⟨S262144x256, .f32⟩
  | 127 => ⟨S262144x256, .f32⟩
  | _ => ⟨S262144x3, .f32⟩

abbrev hbmTy0_1 (i : Nat) : BufTy := match i % 128 with
  | 0 => ⟨S_, .f32⟩
  | 1 => ⟨S256, .f32⟩
  | 2 => ⟨S_, .f32⟩
  | 3 => ⟨S256, .f32⟩
  | 4 => ⟨S256, .f32⟩
  | 5 => ⟨S1x256, .f32⟩
  | 6 => ⟨S262144x256, .f32⟩
  | 7 => ⟨S262144x256, .f32⟩
  | 8 => ⟨S_, .f32⟩
  | 9 => ⟨S256, .f32⟩
  | 10 => ⟨S256, .f32⟩
  | 11 => ⟨S256, .f32⟩
  | 12 => ⟨S1x256, .f32⟩
  | 13 => ⟨S262144x256, .f32⟩
  | 14 => ⟨S262144x256, .f32⟩
  | 15 => ⟨S1x256, .f32⟩
  | 16 => ⟨S262144x256, .f32⟩
  | 17 => ⟨S262144x256, .f32⟩
  | 18 => ⟨S1x256, .f32⟩
  | 19 => ⟨S262144x256, .f32⟩
  | 20 => ⟨S262144x256, .f32⟩
  | 21 => ⟨S_, .f32⟩
  | 22 => ⟨S262144x256, .f32⟩
  | 23 => ⟨S262144x256, .f32⟩
  | _ => ⟨S262144x3, .f32⟩

abbrev hbmTy (i : Nat) : BufTy := match i / 128 with
  | 0 => hbmTy0_0 i
  | 1 => hbmTy0_1 i
  | _ => ⟨S262144x3, .f32⟩

abbrev bufTy : (tb : Table) → Fin (tcTables nBuf tb) → BufTy
  | .hbm, ⟨i, _⟩ => hbmTy i
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call0_cst : Ref sig .tc := ⟨.hbm, 55, rfl⟩
abbrev main_call0_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call1_cst : Ref sig .tc := ⟨.hbm, 93, rfl⟩
abbrev main_call1_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_10 : Ref sig .tc := ⟨.hbm, 101, rfl⟩
abbrev main_v70 : Ref sig .tc := ⟨.hbm, 102, rfl⟩
abbrev main_cst_11 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_12 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_13 : Ref sig .tc := ⟨.hbm, 119, rfl⟩
abbrev main_v85 : Ref sig .tc := ⟨.hbm, 120, rfl⟩
abbrev main_cst_14 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_15 : Ref sig .tc := ⟨.hbm, 128, rfl⟩
abbrev main_v92 : Ref sig .tc := ⟨.hbm, 129, rfl⟩
abbrev main_cst_16 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_17 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_call2_cst : Ref sig .tc := ⟨.hbm, 149, rfl⟩
abbrev main_call2_v0 : Ref sig .tc := ⟨.hbm, 150, rfl⟩
abbrev main_v110 : Ref sig .tc := ⟨.hbm, 151, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x256_S256_d0 : S262144x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S32x256_S256x32_1_0 : S32x256.Transposes [1, 0] S256x32
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  reducesTo_S262144x32_S32_d0 : S262144x32.ReducesTo [0] S32
  bcast_S_S32 : S_.BroadcastsInDim S32 (![] : Fin 0 → Fin S32.rank)
  bcast_S_S262144x32 : S_.BroadcastsInDim S262144x32 (![] : Fin 0 → Fin S262144x32.rank)
  transposes_S256x32_S32x256_1_0 : S256x32.Transposes [1, 0] S32x256
  reducesTo_S262144x256_S262144_d1 : S262144x256.ReducesTo [1] S262144
  bcast_S262144x1_S262144x256_0_1 : S262144x1.BroadcastsInDim S262144x256 (![0, 1] : Fin 2 → Fin S262144x256.rank)
  transposes_S256x256_S256x256_1_0 : S256x256.Transposes [1, 0] S256x256
  gather_S131072x256_S262144x1_S262144x256_1_0_n_n_0_1_1256_wf : GatherDims.WF S131072x256 S262144x1 S262144x256 [1] [0] [] [0] [] 1 ![1, 256]
  dot_S262144x256_S256x32_S262144x32_1_0_0_1_n_n_wf : DotDims.WF S262144x256 S256x32 S262144x32 [1] [0] [0] [1] [] []
  dot_S262144x32_S32x256_S262144x256_1_0_0_1_n_n_wf : DotDims.WF S262144x32 S32x256 S262144x256 [1] [0] [0] [1] [] []
  dot_S262144x256_S256x256_S262144x256_1_0_0_1_n_n_wf : DotDims.WF S262144x256 S256x256 S262144x256 [1] [0] [0] [1] [] []

variable [Facts₀]

def gather_S131072x256_S262144x1_S262144x256_1_0_n_n_0_1_1256 : GatherDims S131072x256 S262144x1 S262144x256 where
  offsetDims := [1]
  collapsedSliceDims := [0]
  operandBatchingDims := []
  startIndicesBatchingDims := []
  startIndexMap := [0]
  indexVectorDim := 1
  sliceSizes := ![1, 256]
  wf := gather_S131072x256_S262144x1_S262144x256_1_0_n_n_0_1_1256_wf
def dot_S262144x256_S256x32_S262144x32_1_0_0_1_n_n : DotDims S262144x256 S256x32 S262144x32 where
  lhsContracting := [1]
  rhsContracting := [0]
  lhsNonContracting := [0]
  rhsNonContracting := [1]
  lhsBatch := []
  rhsBatch := []
  wf := dot_S262144x256_S256x32_S262144x32_1_0_0_1_n_n_wf
def dot_S262144x32_S32x256_S262144x256_1_0_0_1_n_n : DotDims S262144x32 S32x256 S262144x256 where
  lhsContracting := [1]
  rhsContracting := [0]
  lhsNonContracting := [0]
  rhsNonContracting := [1]
  lhsBatch := []
  rhsBatch := []
  wf := dot_S262144x32_S32x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.LibRegionHeld.lean ====
/-
  A kernel region of a TensorCore program whose main function is followed through ONE valuation of the core's
  unscoped buffers.

  Between two items of such a program (a stretch of host operations, a kernel region) a core holds every unscoped
  TensorCore buffer whole, at a valuation `W c`, beside its generator register at some state and the fact that it
  owes nothing. A stretch of host operations moves the valuation along its fold. This file says what a kernel region
  does to it, as the pipeline library's region record:

    * at the entry the windows' arrays are cut out of the unscoped buffers, at the contents the proof data name
      for them (`hA`), the other unscoped buffers bypassing the region;
    * the generator register and the scoped buffers no window stages travel through the class invariant `ΦA`, from
      which the proof data's own invariant is reached at the first point (`hΦin`) and into which it falls back at
      the last (`hΦout`);
    * the body owes nothing at any point, holds every input array whole, and the kernel has no cell of its own;
    * at the exit the arrays return at what the write-backs leave, `Dat.arrAt · N`, and with the bypassing buffers
      they are the unscoped buffers again, whole at any valuation `W' c` that has the arrays there (`hF`) and
      agrees with `W c` everywhere else (`hrest`).

  The region is then entered from "the unscoped buffers at `W`" and left at "the unscoped buffers at `W'`", the
  same shape a host stretch is entered from and left at, so that the items of a main function chain by reflexivity.
-/
import Idealize.ShloMosaic.Lib.Pipeline.Kit
import Idealize.ShloMosaic.Lib.Pipeline.Frame
import Idealize.ShloMosaic.Lib.Pipeline.FrameSuffix
import Idealize.ShloMosaic.Lib.Pipeline.Regions
import Idealize.ShloMosaic.Lib.Pipeline.RegionsLoop

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open PCS
open Idealize.ShloMosaic.Rounds

variable {nD : Nat} {τ : Topo} {sig : RefSig} {Val : EltTy → Type} {Λ₀ : SL.Sem.Labels}

/-! ## A core that owes nothing, and a proof data's account of what it owes -/

section Owing

variable {Ix : Type} [DecidableEq Ix] {Name : Type} [DecidableEq Name] {U : Type} [URA U] {Lvl : Type}
variable {cfg : Cfg sig Λ₀} {c : Dev nD} (dat : Dat τ Val Ix Name U Lvl cfg c)

local notation "𝕄" => MT nD τ sig Ix Val Name U Lvl

/-- A core that owes nothing, whatever pairs its waits have recorded, is the proof data's account before point `t`
    when the data owe nothing there and put no bound on the recorded pairs. -/
theorem Dat.owesAt_of_owes_nothing (ι : Ix) (t : Fin (cfg.N + 1)) (h0 : dat.owed t = 0) (hrec : dat.recorded t = Set.univ) :
    (iprop(∃ S, owes (c : Thread nD τ) (0 : CellTallies nD τ sig Ix) S) : sProp 𝕄) ⊢ dat.owesAt ι t := by
  unfold Dat.owesAt owesWithin
  rw [h0]
  iintro ⟨%S, Howe⟩
  iexists S
  isplitr
  · ipureintro
    intro x _
    exact Or.inl (by rw [hrec]; exact Set.mem_univ x)
  iexact Howe

/-- Conversely the account before a point where the data owe nothing is a core that owes nothing. -/
theorem Dat.owes_nothing_of_owesAt (ι : Ix) (t : Fin (cfg.N + 1)) (h0 : dat.owed t = 0) :
    dat.owesAt ι t ⊢ (iprop(∃ S, owes (c : Thread nD τ) (0 : CellTallies nD τ sig Ix) S) : sProp 𝕄) := by
  unfold Dat.owesAt owesWithin
  rw [h0]
  iintro ⟨%S, -, Howe⟩
  iexists S
  iexact Howe

/-- A pipeline with no prefetched table holds none: there is nothing to ask for. -/
theorem emp_prefHeld_of_no_table (pre : Prefetch sig) (hK : pre.K = 0) (c : Dev nD) (q : Fin pre.K → PosShare TreeShare)
    (V : pre.Contents Val) : (BI.emp : sProp 𝕄) ⊢ prefHeld pre c q V := by
  haveI : IsEmpty (Fin pre.K) := ⟨fun k => absurd k.isLt (by omega)⟩
  unfold prefHeld
  rw [Finset.univ_eq_empty, BI.bigSep_empty]

end Owing

/-! ## The exit valuation: the entry valuation with the arrays replaced -/

section Exit

variable {gr : Nat} {Wn : Nat} (win : Fin Wn → WinSpec sig gr) (c : Dev nD) (V : Valuation τ sig Val)
  (A : (w : Fin Wn) → Buf Val ((win w).arr.view.loc (c : Thread nD τ)))

/-- `withArrays` has each array at the contents given for it (the arrays being distinct buffers), -/
theorem withArrays_hF (hinj : Function.Injective (arrRef win)) (w : Fin Wn) :
    A w = withArrays win c V A (Proc.devRef .tc (arrRef win w)) :=
  (withArrays_arr win hinj c V A w).symm

/-- and every buffer that is no window's array at the valuation it started from. -/
theorem withArrays_hrest (b : Ref sig .tc) (hb : b ∉ Finset.univ.image (arrRef win)) :
    withArrays win c V A (Proc.devRef .tc b) = V (Proc.devRef .tc b) :=
  withArrays_of_ne win c V A b fun w e => hb (Finset.mem_image.mpr ⟨w, Finset.mem_univ w, e⟩)

end Exit

/-! ## The thread state between two items, and the region over it -/

section Held

variable {U : Type} [URA U] {P : Type} [Fintype P]

local notation "𝕄" => MT nD τ sig Unit Val ℕ U ℕ

/-- What rides beside the unscoped buffers between two items of the main function: the core's generator register at
    some state, and the core owing nothing. -/
abbrev idleRest (c : Dev nD) : sProp 𝕄 :=
  iprop((∃ r, prngReg c r) ∗ ∃ S, owes (c : Thread nD τ) (0 : CellTallies nD τ sig Unit) S)

/-- The thread state between two items: every unscoped TensorCore buffer whole at the valuation, beside `idleRest`. -/
abbrev heldIdle (W : Dev nD → Valuation τ sig Val) (c : Dev nD) : sProp 𝕄 :=
  iprop(StableHlo.held (c : Thread nD τ) (ucRefs τ sig) (W c) ∗ idleRest c)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

-- the library's lemmas on the arrays are stated over `pin pcs a p`; meeting them from a goal that names the pipeline's
-- own fields takes unfolding plain definitions inside types
set_option backward.isDefEq.respectTransparency.types false in
/-- THE REGION OVER A HELD VALUATION. Pipeline `p`'s region, entered from `heldIdle W` and left at `heldIdle W'`:
    given the layout the launch decides (`hw`, `hpos`, `harr`, `hstage`), no prefetched table to hold (`hpre`), the
    body obligation of proof data that hold every input array whole (`hq`), owe nothing (`howed`, `hrec`), enter
    at the arrays' contents under `W` (`hA`) and reach `W'` (`hF`, `hrest`), and whose invariant begins below and ends
    above the class invariant `ΦA` (`hΦin`, `hΦout`). The kernel has no semaphore of its own. -/
def RegionSeg.ofHeld (p : P)
    (hw : WinFacts (pin pcs a p).spec)
    (hpos : ∀ w : Fin (pin pcs a p).W, 0 < ((pin pcs a p).spec w).block.numel)
    (harr : ∀ w : Fin (pin pcs a p).W, ((pin pcs a p).spec w).arr.IsWhole)
    (hstage : ∀ (w : Fin (pin pcs a p).W) (s : Fin ((pin pcs a p).spec w).nbuf), (((pin pcs a p).spec w).stage s).IsWhole)
    (hpre : ∀ c : Dev nD, (BI.emp : sProp 𝕄) ⊢ prefHeld (pcs p).pre c (fun _ => fullShare) (a p).1)
    (hbody : ∀ c : Dev nD, BodyObligation (pdats p c) defs₀ 𝒱₀ () Set.univ)
    (hq : ∀ (c : Dev nD) (w : Fin (pin pcs a p).W), (pdats p c).q w = fullShare)
    (howed : ∀ (c : Dev nD) (t : Fin ((pin pcs a p).N + 1)), (pdats p c).owed t = 0)
    (hrec : ∀ c : Dev nD, (pdats p c).recorded 0 = Set.univ)
    (W W' : Dev nD → Valuation τ sig Val)
    (hA : ∀ (c : Dev nD) (w : Fin (pin pcs a p).W), (pdats p c).A w = W c (Proc.devRef .tc (arrRef (pin pcs a p).spec w)))
    (hF : ∀ (c : Dev nD) (w : Fin (pin pcs a p).W),
      (pdats p c).arrAt w (pin pcs a p).N = W' c (Proc.devRef .tc (arrRef (pin pcs a p).spec w)))
    (hrest : ∀ (c : Dev nD) (b : Ref sig .tc), b ∉ Finset.univ.image (arrRef (pin pcs a p).spec) →
      W' c (Proc.devRef .tc b) = W c (Proc.devRef .tc b))
    (hΦin : ∀ c : Dev nD, (ΦA (pin pcs a p).spec c : sProp 𝕄) ⊢ (pdats p c).Φ 0)
    (hΦout : ∀ c : Dev nD, (pdats p c).Φ (Fin.last (pin pcs a p).N) ⊢ (ΦA (pin pcs a p).spec c : sProp 𝕄)) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre := heldIdle W
  post := heldIdle W'
  -- into the invariant and out of it: the generator register
  X c := iprop(∃ r, prngReg c r)
  Y c := iprop(∃ r, prngReg c r)
  -- past the region: the unscoped buffers that are no window's array, as entered
  Z c := unscopedRest (Ix := Unit) (Name := ℕ) (U := U) (Lvl := ℕ) (pin pcs a p).spec c (fun b => W c (Proc.devRef .tc b))
  hentry c := by
    have hcut : (StableHlo.held (c : Thread nD τ) (ucRefs τ sig) (W c) : sProp 𝕄)
        ⊢ iprop((pdats p c).arrays ((pdats p c).arrAt · 0)
            ∗ unscopedRest (pin pcs a p).spec c (fun b => W c (Proc.devRef .tc b))) := by
      rw [← unscopedBufs_held]
      exact arrays_of_unscopedBufs pcs a pdats hw harr c ((pdats p c).share_full (hq c))
        (fun b => W c (Proc.devRef .tc b)) (hA c)
    iintro ⟨⟨Hbufs, Hgen, Howe⟩, -, -⟩
    ihave Hsplit := hcut $$ Hbufs
    icases Hsplit with ⟨Harr, Hby⟩
    imodintro
    isplitl [Harr]; · iexact Harr
    isplitr
    · iapply (hpre c); iempintro
    isplitl [Howe]
    · iapply ((pdats p c).owesAt_of_owes_nothing () 0 (howed c 0) (hrec c)); iexact Howe
    isplitl [Hgen]; · iexact Hgen
    iexact Hby
  hin c := by
    refine Entails.trans ?_ (hΦin c)
    unfold ΦA
    iintro ⟨Hgen, -, Hsc⟩
    isplitl [Hsc]; · iexact Hsc
    iexact Hgen
  hout c := by
    refine (hΦout c).trans ?_
    rw [ownSems0_none]
    unfold ΦA
    iintro ⟨Hsc, Hgen⟩
    isplitl [Hgen]; · iexact Hgen
    isplitr; · iempintro
    iexact Hsc
  hexit c := by
    have hglue : iprop((pdats p c).arrays ((pdats p c).arrAt · (pin pcs a p).N)
            ∗ unscopedRest (pin pcs a p).spec c (fun b => W c (Proc.devRef .tc b)))
        ⊢ (StableHlo.held (c : Thread nD τ) (ucRefs τ sig) (W' c) : sProp 𝕄) := by
      rw [← unscopedBufs_held]
      exact unscopedBufs_of_arrays pcs a hw harr c pdats ((pdats p c).share_full (hq c))
        (fun b => W c (Proc.devRef .tc b)) (fun b => W' c (Proc.devRef .tc b))
        ((pdats p c).arrAt · (pin pcs a p).N) (hF c) (hrest c)
    iintro ⟨Harr, Howe, Hgen, Hby⟩
    imodintro
    isplitl [Harr Hby]
    · iapply hglue; isplitl [Harr] <;> iassumption
    isplitl [Hgen]; · iexact Hgen
    iapply ((pdats p c).owes_nothing_of_owesAt () _ (howed c _)); iexact Howe

end Held

end Pipeline

end Idealize.ShloMosaic

end
-- ==== Proof.K.Reg0Runs.lean ====
import proofs.«145083_j84052509982728_1_alg».proof.Proof.Gen.Kernel.Launch
import proofs.«145083_j84052509982728_1_alg».proof.Proof.Gen.Kernel.Skeleton
import proofs.«145083_j84052509982728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the statistics kernel): what its three control cases share -/

section Blocks

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's staging buffer holds its block of the array at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the gathered tile. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's two conditions on the grid coordinate -/

/-- The first conditional's test: the grid coordinate is 0 (the accumulators are reset). -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 128 = 0 :=
  (by decide +kernel : ∀ t : Fin grid0.N, cond0_0 (grid0.coords t) ↔ t.val % 128 = 0)

/-- The second conditional's test: the grid coordinate is 127 (the statistics are written out). -/
abbrev cond0_1 (i : grid0.Coords) : Prop := k0_cond2 i = 1#1
/-- It holds at point 127 only. -/
theorem hcond0_1 : ∀ t : Fin cfg0.N, cond0_1 (grid0.coords t) ↔ t.val % 128 = 127 :=
  (by decide +kernel : ∀ t : Fin grid0.N, cond0_1 (grid0.coords t) ↔ t.val % 128 = 127)

/-! ## Where the windows are idle -/

/-- The two input tiles are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point nothing is stored into the mean's block and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it is stored. -/
theorem liveAt0_2 : ∀ t : Fin cfg0.N, cond0_1 (grid0.coords t) → cfg0.idle 2 (grid0.coords t) = false := by decide +kernel
/-- The same for the variance's block. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called on -/

/-- Each window's current staging memref at point t, as the body is called on it, and its wholeness. -/
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
/-- The two accumulators: whole scoped buffers of the kernel's own (the columns' sums; the sums of squares). -/
abbrev scM0_0 : Memref sig .tc .vmem S1x256 .f32 := Memref.whole cc0_scratch0
abbrev scM0_1 : Memref sig .tc .vmem S1x256 .f32 := Memref.whole cc0_scratch1
/-- The views through which the accumulators' and the two outputs' contents are stated. -/
abbrev VS0_0 : View sig .tc .vmem S1x256 .f32 := scM0_0.view
abbrev VS0_1 : View sig .tc .vmem S1x256 .f32 := scM0_1.view
abbrev VO0_2 : View sig .tc .vmem S1x256 .f32 := (Memref.whole cc0_stg2_0 : Memref sig .tc .vmem S1x256 .f32).view
abbrev VO0_3 : View sig .tc .vmem S1x256 .f32 := (Memref.whole cc0_stg3_0 : Memref sig .tc .vmem S1x256 .f32).view

/-- The class invariant with the two accumulators as memrefs owned at some contents, the other scoped buffers
    unopened beside them. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.K.Reg0RunA.lean ====
import proofs.«145083_j84052509982728_1_alg».proof.Proof.K.Reg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT THE FIRST POINT (the reset taken, the write-out not). On whole memrefs — the two tiles at `x0`, `x1`,
    the two statistics blocks at contents handed back untouched, the two accumulators at anything — the body runs to
    the continuation holding the tiles and the statistics blocks as they were and each accumulator with the pieces
    its stores wrote (the reset, then the update; found by the run). -/
noncomputable def kernelRun0_A (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : cond0_0 i) (hc1 : ¬cond0_1 i)
    (x0 : Vec F S2048x256 .f32) (x1 : Vec F S2048x256 .f32) :
    Σ' (LS0 : List (View.Piece (Elt F) S1x256 .f32)), { LS1 : List (View.Piece (Elt F) S1x256 .f32) //
      ∀ (xi2 : Vec F S1x256 .f32) (xi3 : Vec F S1x256 .f32) (E : Set ℕ) (K : PUnit → sProp 𝕄),
        iprop(owns (c : Thread nD τ) arg1 fullShare x0 ∗ owns (c : Thread nD τ) arg2 fullShare x1
            ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, fun xi2 xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1
    obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.K.Reg0RunB.lean ====
import proofs.«145083_j84052509982728_1_alg».proof.Proof.K.Reg0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A MIDDLE POINT (neither conditional taken). On whole memrefs — the two tiles at `x0`, `x1`, the two
    statistics blocks at contents handed back untouched, the two accumulators at what the point before left
    (`xs0`, `xs1`) — the body runs to the continuation holding the tiles and the statistics blocks as they were and
    each accumulator with the pieces its stores wrote (found by the run). -/
noncomputable def kernelRun0_B (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : ¬cond0_1 i)
    (x0 : Vec F S2048x256 .f32) (x1 : Vec F S2048x256 .f32) (xs0 : Vec F S1x256 .f32) (xs1 : Vec F S1x256 .f32) :
    Σ' (LS0 : List (View.Piece (Elt F) S1x256 .f32)), { LS1 : List (View.Piece (Elt F) S1x256 .f32) //
      ∀ (xi2 : Vec F S1x256 .f32) (xi3 : Vec F S1x256 .f32) (E : Set ℕ) (K : PUnit → sProp 𝕄),
        iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, fun xi2 xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1
    obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.K.Reg0RunC.lean ====
import proofs.«145083_j84052509982728_1_alg».proof.Proof.K.Reg0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT THE LAST POINT (the reset not taken, the write-out taken). On whole memrefs — the two tiles at `x0`,
    `x1`, the two statistics blocks at anything, the two accumulators at what the point before left (`xs0`, `xs1`) — the
    body runs to the continuation holding the tiles as they were and each statistics block and each accumulator with
    the pieces its stores wrote (found by the run). -/
noncomputable def kernelRun0_C (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i)
    (x0 : Vec F S2048x256 .f32) (x1 : Vec F S2048x256 .f32) (xs0 : Vec F S1x256 .f32) (xs1 : Vec F S1x256 .f32) :
    Σ' (L2 : List (View.Piece (Elt F) S1x256 .f32)) (L3 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.K.Reg0.lean ====
import proofs.«145083_j84052509982728_1_alg».proof.Proof.K.Reg0RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave: the pieces the runs found, read as the skeleton's payloads -/

/-- The zero offsets of a whole-buffer access, in either shape. -/
theorem hzS : (![0, 0] : Fin S1x256.rank → ℕ) = fun _ => 0 := by funext a; fin_cases a <;> rfl
theorem hzT : (![0, 0] : Fin S2048x256.rank → ℕ) = fun _ => 0 := by funext a; fin_cases a <;> rfl

/-- At the first point the stores into the sums' accumulator (the reset, then the update) cover it. -/
theorem scover0_A_0 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : cond0_0 i) (hc1 : ¬cond0_1 i) (x0 : Vec F S2048x256 .f32) (x1 : Vec F S2048x256 .f32) (y : S1x256.Idx) :
    ∃ pc ∈ (kernelRun0_A c i arg1 harg1 arg2 harg2 arg3 harg3 arg4 harg4 arg5 harg5 arg6 harg6 hc0 hc1 x0 x1).1, y ∈ pc.1.set :=
  View.cover_of_tiledL (kernelRun0_A c i arg1 harg1 arg2 harg2 arg3 harg3 arg4 harg4 arg5 harg5 arg6 harg6 hc0 hc1 x0 x1).1 S1x256.size (by sl_kernel_rfl) y

/-- At the first point the stores into the squares' accumulator cover it. -/
theorem scover0_A_1 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : cond0_0 i) (hc1 : ¬cond0_1 i) (x0 : Vec F S2048x256 .f32) (x1 : Vec F S2048x256 .f32) (y : S1x256.Idx) :
    ∃ pc ∈ (kernelRun0_A c i arg1 harg1 arg2 harg2 arg3 harg3 arg4 harg4 arg5 harg5 arg6 harg6 hc0 hc1 x0 x1).2.1, y ∈ pc.1.set :=
  View.cover_of_tiledL (kernelRun0_A c i arg1 harg1 arg2 harg2 arg3 harg3 arg4 harg4 arg5 harg5 arg6 harg6 hc0 hc1 x0 x1).2.1 S1x256.size (by sl_kernel_rfl) y

/-- At a middle point the store into the sums' accumulator covers it. -/
theorem scover0_B_0 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : ¬cond0_1 i) (x0 : Vec F S2048x256 .f32) (x1 : Vec F S2048x256 .f32) (xs0 : Vec F S1x256 .f32) (xs1 : Vec F S1x256 .f32) (y : S1x256.Idx) :
    ∃ pc ∈ (kernelRun0_B c i arg1 harg1 arg2 harg2 arg3 harg3 arg4 harg4 arg5 harg5 arg6 harg6 hc0 hc1 x0 x1 xs0 xs1).1, y ∈ pc.1.set :=
  View.cover_of_tiledL (kernelRun0_B c i arg1 harg1 arg2 harg2 arg3 harg3 arg4 harg4 arg5 harg5 arg6 harg6 hc0 hc1 x0 x1 xs0 xs1).1 S1x256.size (by sl_kernel_rfl) y

/-- At a middle point the store into the squares' accumulator covers it. -/
theorem scover0_B_1 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : ¬cond0_1 i) (x0 : Vec F S2048x256 .f32) (x1 : Vec F S2048x256 .f32) (xs0 : Vec F S1x256 .f32) (xs1 : Vec F S1x256 .f32) (y : S1x256.Idx) :
    ∃ pc ∈ (kernelRun0_B c i arg1 harg1 arg2 harg2 arg3 harg3 arg4 harg4 arg5 harg5 arg6 harg6 hc0 hc1 x0 x1 xs0 xs1).2.1, y ∈ pc.1.set :=
  View.cover_of_tiledL (kernelRun0_B c i arg1 harg1 arg2 harg2 arg3 harg3 arg4 harg4 arg5 harg5 arg6 harg6 hc0 hc1 x0 x1 xs0 xs1).2.1 S1x256.size (by sl_kernel_rfl) y

/-- At the last point the store into the mean's block covers it. -/
theorem cover0_C_2 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 hc0 hc1 x0 x1 xs0 xs1).1, y ∈ pc.1.set :=
  View.cover_of_tiledL (kernelRun0_C c i arg1 harg1 arg2 harg2 arg3 harg3 arg4 harg4 arg5 harg5 arg6 harg6 hc0 hc1 x0 x1 xs0 xs1).1 S1x256.size (by sl_kernel_rfl) y

/-- At the last point the store into the variance's block covers it. -/
theorem cover0_C_3 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 hc0 hc1 x0 x1 xs0 xs1).2.1, y ∈ pc.1.set :=
  View.cover_of_tiledL (kernelRun0_C c i arg1 harg1 arg2 harg2 arg3 harg3 arg4 harg4 arg5 harg5 arg6 harg6 hc0 hc1 x0 x1 xs0 xs1).2.1 S1x256.size (by sl_kernel_rfl) y

/-- At the last point the store into the sums' accumulator covers it. -/
theorem scover0_C_0 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 hc0 hc1 x0 x1 xs0 xs1).2.2.1, y ∈ pc.1.set :=
  View.cover_of_tiledL (kernelRun0_C c i arg1 harg1 arg2 harg2 arg3 harg3 arg4 harg4 arg5 harg5 arg6 harg6 hc0 hc1 x0 x1 xs0 xs1).2.2.1 S1x256.size (by sl_kernel_rfl) y

/-- At the last point the store into the squares' accumulator covers it. -/
theorem scover0_C_1 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 hc0 hc1 x0 x1 xs0 xs1).2.2.2.1, y ∈ pc.1.set :=
  View.cover_of_tiledL (kernelRun0_C c i arg1 harg1 arg2 harg2 arg3 harg3 arg4 harg4 arg5 harg5 arg6 harg6 hc0 hc1 x0 x1 xs0 xs1).2.2.2.1 S1x256.size (by sl_kernel_rfl) y

/-- After the first point the sums' accumulator holds the tile's column sums added to the reset value, whatever view and prior contents it is read through. -/
theorem sread0_A_0 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : cond0_0 i) (hc1 : ¬cond0_1 i) (x0 : Vec F S2048x256 .f32) (x1 : Vec F S2048x256 .f32)
    {κ : Kind} {sp : Space} (v : View sig κ sp S1x256 .f32) (f : v.ty.Contents (Elt F)) :
    v.read (Elt F) (v.writes (Elt F) f (kernelRun0_A c i arg1 harg1 arg2 harg2 arg3 harg3 arg4 harg4 arg5 harg5 arg6 harg6 hc0 hc1 x0 x1).1) = k0_pay4 x0 x1 (k0_pay1 (F := F)) := by
  rw [View.read_writes_eq_canon _ _ _ (scover0_A_0 c i arg1 harg1 arg2 harg2 arg3 harg3 arg4 harg4 arg5 harg5 arg6 harg6 hc0 hc1 x0 x1)]
  unfold kernelRun0_A
  dsimp only
  sl_unfold_words
  rw [View.canon_cons_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- After the first point the squares' accumulator holds the tile's column sums of squares added to the reset value. -/
theorem sread0_A_1 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : cond0_0 i) (hc1 : ¬cond0_1 i) (x0 : Vec F S2048x256 .f32) (x1 : Vec F S2048x256 .f32)
    {κ : Kind} {sp : Space} (v : View sig κ sp S1x256 .f32) (f : v.ty.Contents (Elt F)) :
    v.read (Elt F) (v.writes (Elt F) f (kernelRun0_A c i arg1 harg1 arg2 harg2 arg3 harg3 arg4 harg4 arg5 harg5 arg6 harg6 hc0 hc1 x0 x1).2.1) = k0_pay5 x0 x1 (k0_pay2 (F := F)) := by
  rw [View.read_writes_eq_canon _ _ _ (scover0_A_1 c i arg1 harg1 arg2 harg2 arg3 harg3 arg4 harg4 arg5 harg5 arg6 harg6 hc0 hc1 x0 x1)]
  unfold kernelRun0_A
  dsimp only
  sl_unfold_words
  rw [View.canon_cons_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- After a middle point the sums' accumulator holds the tile's column sums added to what it held. -/
theorem sread0_B_0 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : ¬cond0_1 i) (x0 : Vec F S2048x256 .f32) (x1 : Vec F S2048x256 .f32) (xs0 : Vec F S1x256 .f32) (xs1 : Vec F S1x256 .f32)
    {κ : Kind} {sp : Space} (v : View sig κ sp S1x256 .f32) (f : v.ty.Contents (Elt F)) :
    v.read (Elt F) (v.writes (Elt F) f (kernelRun0_B c i arg1 harg1 arg2 harg2 arg3 harg3 arg4 harg4 arg5 harg5 arg6 harg6 hc0 hc1 x0 x1 xs0 xs1).1) = k0_pay4 x0 x1 xs0 := by
  rw [View.read_writes_eq_canon _ _ _ (scover0_B_0 c i arg1 harg1 arg2 harg2 arg3 harg3 arg4 harg4 arg5 harg5 arg6 harg6 hc0 hc1 x0 x1 xs0 xs1)]
  unfold kernelRun0_B
  dsimp only
  sl_unfold_words
  rw [View.canon_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- After a middle point the squares' accumulator holds the tile's column sums of squares added to what it held. -/
theorem sread0_B_1 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : ¬cond0_1 i) (x0 : Vec F S2048x256 .f32) (x1 : Vec F S2048x256 .f32) (xs0 : Vec F S1x256 .f32) (xs1 : Vec F S1x256 .f32)
    {κ : Kind} {sp : Space} (v : View sig κ sp S1x256 .f32) (f : v.ty.Contents (Elt F)) :
    v.read (Elt F) (v.writes (Elt F) f (kernelRun0_B c i arg1 harg1 arg2 harg2 arg3 harg3 arg4 harg4 arg5 harg5 arg6 harg6 hc0 hc1 x0 x1 xs0 xs1).2.1) = k0_pay5 x0 x1 xs1 := by
  rw [View.read_writes_eq_canon _ _ _ (scover0_B_1 c i arg1 harg1 arg2 harg2 arg3 harg3 arg4 harg4 arg5 harg5 arg6 harg6 hc0 hc1 x0 x1 xs0 xs1)]
  unfold kernelRun0_B
  dsimp only
  sl_unfold_words
  rw [View.canon_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- After the last point the sums' accumulator holds the tile's column sums added to what it held. -/
theorem sread0_C_0 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32)
    {κ : Kind} {sp : Space} (v : View sig κ sp S1x256 .f32) (f : v.ty.Contents (Elt F)) :
    v.read (Elt F) (v.writes (Elt F) f (kernelRun0_C c i arg1 harg1 arg2 harg2 arg3 harg3 arg4 harg4 arg5 harg5 arg6 harg6 hc0 hc1 x0 x1 xs0 xs1).2.2.1) = k0_pay4 x0 x1 xs0 := by
  rw [View.read_writes_eq_canon _ _ _ (scover0_C_0 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- After the last point the squares' accumulator holds the tile's column sums of squares added to what it held. -/
theorem sread0_C_1 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32)
    {κ : Kind} {sp : Space} (v : View sig κ sp S1x256 .f32) (f : v.ty.Contents (Elt F)) :
    v.read (Elt F) (v.writes (Elt F) f (kernelRun0_C c i arg1 harg1 arg2 harg2 arg3 harg3 arg4 harg4 arg5 harg5 arg6 harg6 hc0 hc1 x0 x1 xs0 xs1).2.2.2.1) = k0_pay5 x0 x1 xs1 := by
  rw [View.read_writes_eq_canon _ _ _ (scover0_C_1 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- The last point leaves the mean's block at the final sums scaled. -/
theorem read0_C_2 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32)
    {κ : Kind} {sp : Space} (v : View sig κ sp S1x256 .f32) (f : v.ty.Contents (Elt F)) :
    v.read (Elt F) (v.writes (Elt F) f (kernelRun0_C c i arg1 harg1 arg2 harg2 arg3 harg3 arg4 harg4 arg5 harg5 arg6 harg6 hc0 hc1 x0 x1 xs0 xs1).1) = k0_pay6 (k0_pay4 x0 x1 xs0) := by
  rw [View.read_writes_eq_canon _ _ _ (cover0_C_2 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- The last point leaves the variance's block at the final sums of squares scaled, less the mean squared. -/
theorem read0_C_3 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32)
    {κ : Kind} {sp : Space} (v : View sig κ sp S1x256 .f32) (f : v.ty.Contents (Elt F)) :
    v.read (Elt F) (v.writes (Elt F) f (kernelRun0_C c i arg1 harg1 arg2 harg2 arg3 harg3 arg4 harg4 arg5 harg5 arg6 harg6 hc0 hc1 x0 x1 xs0 xs1).2.1) = k0_pay7 (k0_pay4 x0 x1 xs0) (k0_pay5 x0 x1 xs1) := by
  rw [View.read_writes_eq_canon _ _ _ (cover0_C_3 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-! # Region 0 at the entry contents `V`: the accumulators point by point, the proof data, the body obligation -/

section Frame

variable (V : (c : Dev nD) → (b : Ref sig .tc) → Buf (Elt F) ((c : Thread nD τ).loc b))

/-- The two accumulators (the columns' sums; the sums of squares) after point n: the tile's contribution added to
    the reset value at the first point, to what the point before left afterwards. -/
def acc0 (c : Dev nD) : (n : ℕ) → n < cfg0.N → Vec F S1x256 .f32 × Vec F S1x256 .f32
  | 0, h => (k0_pay4 (iblk0 V c 0 ⟨0, h⟩) (iblk0 V c 1 ⟨0, h⟩) (k0_pay1 (F := F)), k0_pay5 (iblk0 V c 0 ⟨0, h⟩) (iblk0 V c 1 ⟨0, h⟩) (k0_pay2 (F := F)))
  | n + 1, h => (k0_pay4 (iblk0 V c 0 ⟨n + 1, h⟩) (iblk0 V c 1 ⟨n + 1, h⟩) (acc0 c n (Nat.lt_of_succ_lt h)).1,
                 k0_pay5 (iblk0 V c 0 ⟨n + 1, h⟩) (iblk0 V c 1 ⟨n + 1, h⟩) (acc0 c n (Nat.lt_of_succ_lt h)).2)

theorem acc0_zero (c : Dev nD) (h : 0 < cfg0.N) :
    acc0 V c 0 h = (k0_pay4 (iblk0 V c 0 ⟨0, h⟩) (iblk0 V c 1 ⟨0, h⟩) (k0_pay1 (F := F)), k0_pay5 (iblk0 V c 0 ⟨0, h⟩) (iblk0 V c 1 ⟨0, h⟩) (k0_pay2 (F := F))) := rfl
theorem acc0_succ (c : Dev nD) (n : ℕ) (h : n + 1 < cfg0.N) :
    acc0 V c (n + 1) h = (k0_pay4 (iblk0 V c 0 ⟨n + 1, h⟩) (iblk0 V c 1 ⟨n + 1, h⟩) (acc0 V c n (Nat.lt_of_succ_lt h)).1,
                          k0_pay5 (iblk0 V c 0 ⟨n + 1, h⟩) (iblk0 V c 1 ⟨n + 1, h⟩) (acc0 V c n (Nat.lt_of_succ_lt h)).2) := rfl

/-- The accumulators after the first point, component by component, at a point of the grid. -/
theorem acc0_first_1 (c : Dev nD) (t : Fin cfg0.N) (hz : t.val = 0) :
    (acc0 V c t.val t.isLt).1 = k0_pay4 (iblk0 V c 0 t) (iblk0 V c 1 t) (k0_pay1 (F := F)) := by
  obtain ⟨n, hn⟩ := t
  cases n with
  | zero => rfl
  | succ n => exact absurd hz (Nat.succ_ne_zero n)
theorem acc0_first_2 (c : Dev nD) (t : Fin cfg0.N) (hz : t.val = 0) :
    (acc0 V c t.val t.isLt).2 = k0_pay5 (iblk0 V c 0 t) (iblk0 V c 1 t) (k0_pay2 (F := F)) := by
  obtain ⟨n, hn⟩ := t
  cases n with
  | zero => rfl
  | succ n => exact absurd hz (Nat.succ_ne_zero n)
/-- After a later point: over what the point before left. -/
theorem acc0_later_1 (c : Dev nD) (t : Fin cfg0.N) (hz : t.val ≠ 0) (hp : t.val - 1 < cfg0.N) :
    (acc0 V c t.val t.isLt).1 = k0_pay4 (iblk0 V c 0 t) (iblk0 V c 1 t) (acc0 V c (t.val - 1) hp).1 := by
  obtain ⟨n, hn⟩ := t
  cases n with
  | zero => exact absurd rfl hz
  | succ n => rfl
theorem acc0_later_2 (c : Dev nD) (t : Fin cfg0.N) (hz : t.val ≠ 0) (hp : t.val - 1 < cfg0.N) :
    (acc0 V c t.val t.isLt).2 = k0_pay5 (iblk0 V c 0 t) (iblk0 V c 1 t) (acc0 V c (t.val - 1) hp).2 := by
  obtain ⟨n, hn⟩ := t
  cases n with
  | zero => exact absurd rfl hz
  | succ n => rfl

/-- The region invariant before position n: before the first point the class invariant (every scoped buffer that
    is no staging buffer at anything, the generator register at some state); afterwards the same with the two
    accumulators at what the point before left. -/
def PhiS0 (c : Dev nD) : (n : ℕ) → n ≤ cfg0.N → sProp 𝕄
  | 0, _ => Pipeline.ΦA spec0 c
  | n + 1, hn => iprop(iprop(iprop(owns (c : Thread nD τ) scM0_0 fullShare ((acc0 V c n hn).1) ∗ owns (c : Thread nD τ) scM0_1 fullShare ((acc0 V c n hn).2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((acc0 V c n hn).1) ∗ owns (c : Thread nD τ) scM0_1 fullShare ((acc0 V c n hn).2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) (hp : n - 1 < cfg0.N) :
    PhiS0 V c n h = iprop(iprop(iprop(owns (c : Thread nD τ) scM0_0 fullShare ((acc0 V c (n - 1) hp).1) ∗ owns (c : Thread nD τ) scM0_1 fullShare ((acc0 V c (n - 1) hp).2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of region 0 on core c: the arrays as the region finds them; after the body at point t each
    tile's buffer at its block, the mean's block at the sums after t scaled, the variance's block at the sums of
    squares after t scaled less the mean squared (read at the last point only: elsewhere the two are idle); the
    invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (acc0 V c t.val t.isLt).1
    | ⟨3, _⟩ => k0_pay7 (acc0 V c t.val t.isLt).1 (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (acc0 V c t.val t.isLt).1 := by dsimp only [dat0]
theorem after0_3 (c : Dev nD) (t : Fin cfg0.N) : (dat0 V c).after 3 t = k0_pay7 (acc0 V c t.val t.isLt).1 (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the tiles' memrefs hold their blocks; the closed forms say which case the point is in;
    the invariant hands the body the two accumulators at what the point before left (at anything at the first
    point) and takes them back at this point's sums; away from the last point the two statistics blocks go back as
    they came, at the last point they hold the scaled sums; the rest of the invariant and what the core owes pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  have hp : t.val - 1 < cfg0.N := Nat.lt_of_le_of_lt (Nat.sub_le _ _) t.isLt
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 128 = 127
  · have h0 : ¬t.val % 128 = 0 := by omega
    have hz : t.val ≠ 0 := by omega
    have hc0 : ¬cond0_0 (grid0.coords t) := fun h => h0 ((hcond0_0 t).mp h)
    have hc1 : cond0_1 (grid0.coords t) := (hcond0_1 t).mpr h1
    rw [show (dat0 V c).leavesExact 2 t = owns (c : Thread nD τ) (ms0_2 t) fullShare ((dat0 V c).after 2 t) from by
      unfold Dat.leavesExact; rw [liveAt0_2 t hc1], after0_2]
    rw [show (dat0 V c).leavesExact 3 t = owns (c : Thread nD τ) (ms0_3 t) fullShare ((dat0 V c).after 3 t) from by
      unfold Dat.leavesExact; rw [liveAt0_3 t hc1], after0_3]
    rw [PhiS0_castSucc V c t, PhiS0_pos V c _ _ hz hp]
    iintro ⟨⟨⟨⟨HS0, HS1⟩, HR⟩, Hg⟩, Ho, ⟨%d0, H0⟩, ⟨%d1, H1⟩, ⟨%d2, H2⟩, ⟨%d3, H3⟩⟩
    iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; rw [acc0_later_1 V c t hz hp]
            exact sread0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2 _ _
          · unfold owns; iexists _; isplitr
            swap; · iexact HS1
            ipureintro; rw [acc0_later_2 V c t hz hp]
            exact sread0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2 _ _
        iexact HR
      iexact Hg
    isplitl [Ho]; · iexact Ho
    isplitl [H0]; · iexact H0
    isplitl [H1]; · iexact H1
    isplitl [H2]
    · unfold owns; iexists _; isplitr
      swap; · iexact H2
      ipureintro; rw [acc0_later_1 V c t hz hp]
      exact read0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2 _ _
    · unfold owns; iexists _; isplitr
      swap; · iexact H3
      ipureintro; rw [acc0_later_1 V c t hz hp, acc0_later_2 V c t hz hp]
      exact read0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2 _ _
  · have hc1 : ¬cond0_1 (grid0.coords t) := fun h => h1 ((hcond0_1 t).mp h)
    rw [Dat.leavesExact_idle (dat0 V c) 2 t (idleAt0_2 t hc1) (noFlush0_2 t hc1)]
    rw [Dat.leavesExact_idle (dat0 V c) 3 t (idleAt0_3 t hc1) (noFlush0_3 t hc1)]
    by_cases h0 : t.val % 128 = 0
    · have hz : t.val = 0 := by omega
      have hc0 : cond0_0 (grid0.coords t) := (hcond0_0 t).mpr h0
      rw [PhiS0_castSucc V c t, PhiS0_zero V c _ _ hz, PhiA0_eq]
      iintro ⟨⟨⟨⟨HS0, HS1⟩, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; rw [acc0_first_1 V c t hz]
              exact sread0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) _ _
            · unfold owns; iexists _; isplitr
              swap; · iexact HS1
              ipureintro; rw [acc0_first_2 V c t hz]
              exact sread0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) _ _
          iexact HR
        iexact Hg
      isplitl [Ho]; · iexact Ho
      isplitl [H0]; · iexact H0
      isplitl [H1]; · iexact H1
      isplitl [H2]; · iexists _; iexact H2
      iexists _; iexact H3
    · have hz : t.val ≠ 0 := by omega
      have hc0 : ¬cond0_0 (grid0.coords t) := fun h => h0 ((hcond0_0 t).mp h)
      rw [PhiS0_castSucc V c t, PhiS0_pos V c _ _ hz hp]
      iintro ⟨⟨⟨⟨HS0, HS1⟩, HR⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; rw [acc0_later_1 V c t hz hp]
              exact sread0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2 _ _
            · unfold owns; iexists _; isplitr
              swap; · iexact HS1
              ipureintro; rw [acc0_later_2 V c t hz hp]
              exact sread0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2 _ _
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the accumulators' named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl,
    PhiS0_pos V c _ _ ht (Nat.lt_of_lt_of_le (Nat.sub_lt (Nat.pos_of_ne_zero ht) Nat.one_pos) (Nat.le_of_lt_succ t.isLt)), PhiA0_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 128 := N_0; omega)

/-! ## What the last point writes back -/

/-- The mean's array receives the final sums scaled. -/
theorem flushed0_2 (c : Dev nD) (t : Fin cfg0.N) (ht : t.val % 128 = 127) : (dat0 V c).flushed 2 t = k0_pay6 (acc0 V c t.val t.isLt).1 := by
  show (cfg0.win 2).cut (grid0.coords t) ((dat0 V c).after 2 t) = _; rw [after0_2]; rfl
/-- The variance's array receives the final sums of squares scaled, less the mean squared. -/
theorem flushed0_3 (c : Dev nD) (t : Fin cfg0.N) (ht : t.val % 128 = 127) : (dat0 V c).flushed 3 t = k0_pay7 (acc0 V c t.val t.isLt).1 (acc0 V c t.val t.isLt).2 := by
  show (cfg0.win 3).cut (grid0.coords t) ((dat0 V c).after 3 t) = _; rw [after0_3]; rfl

end Frame

end Cert.Kernel.Hand

end
-- ==== Proof.K.Reg1Runs.lean ====
/- Region 1 (the per-tile projection h1 = relu(bn(x − aug)) · W1ᵀ + b1 with its column sums): what the three control cases of the body share — the windows' blocks, the branch conditions decided over the grid, where the two statistics windows are idle, the memrefs the body is called on, and the class invariant with the two accumulators named. -/
import proofs.«145083_j84052509982728_1_alg».proof.Proof.Gen.Kernel.Launch
import proofs.«145083_j84052509982728_1_alg».proof.Proof.Gen.Kernel.Skeleton
import proofs.«145083_j84052509982728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of h1 the body computes from the point's blocks: relu of the normalised difference of the two row tiles,
    rounded to bf16, times W1ᵀ, plus the bias row — the value the body's first sixty statements return. -/
def h1blk (x aug : Vec F S2048x256 .f32) (mean var g b : Vec F S1x256 .f32) (w1t : Vec F S256x32 .bf16) (b1 : Vec F S1x32 .f32) : FVec F S2048x32 .f32 :=
  k1_pay7 x aug mean var g b w1t b1

/-- Input window 0's current staging buffer holds its block at every point, fetched there or not (unfetched, its index
    has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, its index
    has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, its index
    has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, its index
    has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, its index
    has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, its index
    has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, its index
    has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (unfetched, its index
    has not moved), for any proof data whose array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the reset of the two accumulators), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 128 = 0 :=
  (by decide +kernel : ∀ t : Fin grid1.N, cond1_0 (grid1.coords t) ↔ t.val % 128 = 0)

/-- The condition of the body's second `scf.if` (the two statistics rows are stored). -/
abbrev cond1_1 (i : grid1.Coords) : Prop := k1_cond2 i = 1#1
/-- It holds at the last point only. -/
theorem hcond1_1 : ∀ t : Fin cfg1.N, cond1_1 (grid1.coords t) ↔ t.val % 128 = 127 :=
  (by decide +kernel : ∀ t : Fin grid1.N, cond1_1 (grid1.coords t) ↔ t.val % 128 = 127)

/-! ## Where the statistics windows are idle -/

/-- Where the second condition fails window 9 is idle and is not written back; where it holds the window is live. -/
theorem idleAt1_9 : ∀ t : Fin cfg1.N, ¬cond1_1 (grid1.coords t) → cfg1.idle 9 (grid1.coords t) = true := by decide +kernel
theorem noFlush1_9 : ∀ t : Fin cfg1.N, ¬cond1_1 (grid1.coords t) → (cfg1.win 9).flush t = false := by decide +kernel
theorem liveAt1_9 : ∀ t : Fin cfg1.N, cond1_1 (grid1.coords t) → cfg1.idle 9 (grid1.coords t) = false := by decide +kernel

/-- Where the second condition fails window 10 is idle and is not written back; where it holds the window is live. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
theorem liveAt1_10 : ∀ t : Fin cfg1.N, cond1_1 (grid1.coords t) → cfg1.idle 10 (grid1.coords t) = false := by decide +kernel

/-! ## The staging and scratch memrefs the body is called on -/

abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x32 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x32 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x32 .f32 := win1_10.stage (cfg1.slots t 10)
abbrev hs1_10 (t : Fin cfg1.N) : (ms1_10 t).IsWhole := hstage1_10 ((cfg1.slots t 10).cast nbuf1_10)
/-- The two accumulators: whole scoped buffers of the kernel's own, carried from point to point. -/
abbrev scM1_0 : Memref sig .tc .vmem S1x32 .f32 := Memref.whole cc1_scratch0
abbrev scM1_1 : Memref sig .tc .vmem S1x32 .f32 := Memref.whole cc1_scratch1

/-- The scoped buffers of the core that are neither staging buffers nor the two accumulators, at some contents each. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The class invariant with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 (F := F) c) ∗ (∃ r, prngReg c r)) := by
  unfold Pipeline.ΦA; rw [scopedRest1_split]; simp only [scM1_0, scM1_1, owns_whole]; try rfl

end Cert.Kernel.Hand

end
-- ==== Proof.K.Reg1RunA.lean ====
/- Region 1 (the per-tile projection h1 = relu(bn(x − aug)) · W1ᵀ + b1 with its column sums): the body's run at the first grid point. -/
import proofs.«145083_j84052509982728_1_alg».proof.Proof.K.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE A (the first point: the accumulators are reset, then updated; no statistics row is stored).
    What the body's stores leave in the h1 tile's buffer and in the two accumulators, as pieces (last first), with the proof
    that on whole memrefs — the inputs' at their blocks, the h1 tile's at anything, the two statistics rows' handed back untouched, the accumulators at anything —
    the body runs to the continuation holding the inputs as they were and each stored buffer with its pieces written. -/
noncomputable def kernelRun1_A (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) :
    Σ' (L8 : List (View.Piece (Elt F) S2048x32 .f32)) (LS0 : List (View.Piece (Elt F) S1x32 .f32)), { LS1 : List (View.Piece (Elt F) S1x32 .f32) //
      ∀ (xi9 xi10 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__apply_a_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 xi10 E K => ?run⟩
  case run =>
    simp only [cc1__apply_a_kernel_eq_skeleton]; unfold cc1__apply_a_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel.Hand

end
-- ==== Proof.K.Reg1RunB.lean ====
/- Region 1 (the per-tile projection h1 = relu(bn(x − aug)) · W1ᵀ + b1 with its column sums): the body's run at a middle grid point. -/
import proofs.«145083_j84052509982728_1_alg».proof.Proof.K.Reg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE B (a middle point: the accumulators are updated; no statistics row is stored).
    What the body's stores leave in the h1 tile's buffer and in the two accumulators, as pieces (last first), with the proof
    that on whole memrefs — the inputs' at their blocks, the h1 tile's at anything, the two statistics rows' handed back untouched, the accumulators at what the point before left —
    the body runs to the continuation holding the inputs as they were and each stored buffer with its pieces written. -/
noncomputable def kernelRun1_B (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) :
    Σ' (L8 : List (View.Piece (Elt F) S2048x32 .f32)) (LS0 : List (View.Piece (Elt F) S1x32 .f32)), { LS1 : List (View.Piece (Elt F) S1x32 .f32) //
      ∀ (xi9 xi10 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__apply_a_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 xi10 E K => ?run⟩
  case run =>
    simp only [cc1__apply_a_kernel_eq_skeleton]; unfold cc1__apply_a_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel.Hand

end
-- ==== Proof.K.Reg1RunC.lean ====
/- Region 1 (the per-tile projection h1 = relu(bn(x − aug)) · W1ᵀ + b1 with its column sums): the body's run at the last grid point. -/
import proofs.«145083_j84052509982728_1_alg».proof.Proof.K.Reg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE C (the last point: the accumulators are updated, then the two statistics rows are stored).
    What the body's stores leave in the h1 tile's buffer, in the two statistics rows' buffers and in the two accumulators, as pieces (last first), with the proof
    that on whole memrefs — the inputs' at their blocks, the three outputs' at anything, the accumulators at what the point before left —
    the body runs to the continuation holding the inputs as they were and each stored buffer with its pieces written. -/
noncomputable def kernelRun1_C (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) :
    Σ' (L8 : List (View.Piece (Elt F) S2048x32 .f32)) (L9 : List (View.Piece (Elt F) S1x32 .f32)) (L10 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__apply_a_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc1__apply_a_kernel_eq_skeleton]; unfold cc1__apply_a_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]; · iexists _; iexact HS0
    iexists _; iexact HS1

end Cert.Kernel.Hand

end
-- ==== Proof.K.Reg1.lean ====
/- Region 1 (the per-tile projection h1 = relu(bn(x − aug)) · W1ᵀ + b1 with its column sums): the frame half — what each case's stores leave, read as the skeleton's payloads; the two accumulators after each point; the region invariant; the pipeline's proof data; the body obligation; how the invariant begins and ends at the class's; and what the write-backs write. -/
import proofs.«145083_j84052509982728_1_alg».proof.Proof.K.Reg1RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer access of a rank-two buffer, however spelt. -/
theorem zero2_reg1 : (![0, 0] : Fin 2 → ℕ) = fun _ => 0 := by funext a; fin_cases a <;> rfl

/-! ## Case A: what its pieces cover and read as -/

/-- Case A's pieces for this buffer tile it, so they cover it. -/
theorem cover1_A_L8 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) (y : S2048x32.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1 S2048x32.size (by sl_kernel_rfl) y

/-- Case A's pieces for this buffer tile it, so they cover it. -/
theorem cover1_A_LS0 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) (y : S1x32.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1 S1x32.size (by sl_kernel_rfl) y

/-- Case A's pieces for this buffer tile it, so they cover it. -/
theorem cover1_A_LS1 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) (y : S1x32.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 S1x32.size (by sl_kernel_rfl) y

/-- What case A leaves in the h1 tile's buffer: the last whole-buffer store's payload, each load before it read back as the contents it found. -/
theorem piece1_A_L8 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) :
    View.canon (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1 = (h1blk x0 x1 x2 x3 x4 x5 x6 x7) := by
  unfold h1blk kernelRun1_A; dsimp only; sl_unfold_words
  rw [View.canon_cons_unit_zero (S := S2048x32) zero2_reg1]
  simp only [View.readAt_eq_ld, harg1.read_unread, harg2.read_unread, harg3.read_unread, harg4.read_unread, harg5.read_unread, harg6.read_unread, harg7.read_unread, harg8.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case A leaves in the first accumulator (column sums): the last whole-buffer store's payload, each load before it read back as the contents it found. -/
theorem piece1_A_LS0 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) :
    View.canon (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1 = k1_pay1 (h1blk x0 x1 x2 x3 x4 x5 x6 x7) (k1_pay5 (F := F)) := by
  unfold h1blk kernelRun1_A; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case A leaves in the second accumulator (column sums of squares): the last whole-buffer store's payload, each load before it read back as the contents it found. -/
theorem piece1_A_LS1 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) :
    View.canon (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 = k1_pay2 (h1blk x0 x1 x2 x3 x4 x5 x6 x7) (k1_pay6 (F := F)) := by
  unfold h1blk kernelRun1_A; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-! ## Case B: what its pieces cover and read as -/

/-- Case B's pieces for this buffer tile it, so they cover it. -/
theorem cover1_B_L8 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) (y : S2048x32.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S2048x32.size (by sl_kernel_rfl) y

/-- Case B's pieces for this buffer tile it, so they cover it. -/
theorem cover1_B_LS0 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) (y : S1x32.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S1x32.size (by sl_kernel_rfl) y

/-- Case B's pieces for this buffer tile it, so they cover it. -/
theorem cover1_B_LS1 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) (y : S1x32.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S1x32.size (by sl_kernel_rfl) y

/-- What case B leaves in the h1 tile's buffer: the last whole-buffer store's payload, each load before it read back as the contents it found. -/
theorem piece1_B_L8 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 = (h1blk x0 x1 x2 x3 x4 x5 x6 x7) := by
  unfold h1blk kernelRun1_B; dsimp only; sl_unfold_words
  rw [View.canon_cons_unit_zero (S := S2048x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case B leaves in the first accumulator (column sums): the last whole-buffer store's payload, each load before it read back as the contents it found. -/
theorem piece1_B_LS0 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 = k1_pay1 (h1blk x0 x1 x2 x3 x4 x5 x6 x7) xs0 := by
  unfold h1blk kernelRun1_B; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case B leaves in the second accumulator (column sums of squares): the last whole-buffer store's payload, each load before it read back as the contents it found. -/
theorem piece1_B_LS1 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 = k1_pay2 (h1blk x0 x1 x2 x3 x4 x5 x6 x7) xs1 := by
  unfold h1blk kernelRun1_B; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-! ## Case C: what its pieces cover and read as -/

/-- Case C's pieces for this buffer tile it, so they cover it. -/
theorem cover1_C_L8 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) (y : S2048x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S2048x32.size (by sl_kernel_rfl) y

/-- Case C's pieces for this buffer tile it, so they cover it. -/
theorem cover1_C_L9 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) (y : S1x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S1x32.size (by sl_kernel_rfl) y

/-- Case C's pieces for this buffer tile it, so they cover it. -/
theorem cover1_C_L10 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) (y : S1x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S1x32.size (by sl_kernel_rfl) y

/-- Case C's pieces for this buffer tile it, so they cover it. -/
theorem cover1_C_LS0 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) (y : S1x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 S1x32.size (by sl_kernel_rfl) y

/-- Case C's pieces for this buffer tile it, so they cover it. -/
theorem cover1_C_LS1 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) (y : S1x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.2.1 S1x32.size (by sl_kernel_rfl) y

/-- What case C leaves in the h1 tile's buffer: the last whole-buffer store's payload, each load before it read back as the contents it found. -/
theorem piece1_C_L8 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 = (h1blk x0 x1 x2 x3 x4 x5 x6 x7) := by
  unfold h1blk kernelRun1_C; dsimp only; sl_unfold_words
  rw [View.canon_cons_unit_zero (S := S2048x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case C leaves in the mean row's buffer: the last whole-buffer store's payload, each load before it read back as the contents it found. -/
theorem piece1_C_L9 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 = k1_pay3 (k1_pay1 (h1blk x0 x1 x2 x3 x4 x5 x6 x7) xs0) := by
  unfold h1blk kernelRun1_C; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case C leaves in the variance row's buffer: the last whole-buffer store's payload, each load before it read back as the contents it found. -/
theorem piece1_C_L10 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 = k1_pay4 (k1_pay1 (h1blk x0 x1 x2 x3 x4 x5 x6 x7) xs0) (k1_pay2 (h1blk x0 x1 x2 x3 x4 x5 x6 x7) xs1) := by
  unfold h1blk kernelRun1_C; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case C leaves in the first accumulator (column sums): the last whole-buffer store's payload, each load before it read back as the contents it found. -/
theorem piece1_C_LS0 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 = k1_pay1 (h1blk x0 x1 x2 x3 x4 x5 x6 x7) xs0 := by
  unfold h1blk kernelRun1_C; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case C leaves in the second accumulator (column sums of squares): the last whole-buffer store's payload, each load before it read back as the contents it found. -/
theorem piece1_C_LS1 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.2.1 = k1_pay2 (h1blk x0 x1 x2 x3 x4 x5 x6 x7) xs1 := by
  unfold h1blk kernelRun1_C; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]
/-! ## The two accumulators after each point -/

/-- The two [1,32] accumulators after point n: the column sums of the h1 tiles of points 0..n and the column sums of their
    squares — the accumulating stores over the zero resets at the first point, over what the point before left afterwards. -/
def acc1 (c : Dev nD) : (n : ℕ) → n < cfg1.N → Vec F S1x32 .f32 × Vec F S1x32 .f32
  | 0, hn => (k1_pay1 (h1blk (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩)) (k1_pay5 (F := F)),
              k1_pay2 (h1blk (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩)) (k1_pay6 (F := F)))
  | n + 1, hn => (k1_pay1 (h1blk (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩)) (acc1 c n (Nat.lt_of_succ_lt hn)).1,
                  k1_pay2 (h1blk (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩)) (acc1 c n (Nat.lt_of_succ_lt hn)).2)

theorem acc1_zero (c : Dev nD) (h : 0 < cfg1.N) :
    acc1 V c 0 h = (k1_pay1 (h1blk (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩)) (k1_pay5 (F := F)),
                    k1_pay2 (h1blk (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩)) (k1_pay6 (F := F))) := rfl

theorem acc1_succ (c : Dev nD) (n : ℕ) (h : n + 1 < cfg1.N) :
    acc1 V c (n + 1) h = (k1_pay1 (h1blk (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩)) (acc1 V c n (Nat.lt_of_succ_lt h)).1,
                          k1_pay2 (h1blk (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩)) (acc1 V c n (Nat.lt_of_succ_lt h)).2) := rfl

/-- The accumulators after the first point, stated at the point. -/
theorem acc1_first (c : Dev nD) (t : Fin cfg1.N) (hz : t.val = 0) :
    acc1 V c t.val t.isLt = (k1_pay1 (h1blk (iblk1 V c 0 t) (iblk1 V c 1 t) (iblk1 V c 2 t) (iblk1 V c 3 t) (iblk1 V c 4 t) (iblk1 V c 5 t) (iblk1 V c 6 t) (iblk1 V c 7 t)) (k1_pay5 (F := F)), k1_pay2 (h1blk (iblk1 V c 0 t) (iblk1 V c 1 t) (iblk1 V c 2 t) (iblk1 V c 3 t) (iblk1 V c 4 t) (iblk1 V c 5 t) (iblk1 V c 6 t) (iblk1 V c 7 t)) (k1_pay6 (F := F))) := by
  obtain ⟨n, hn⟩ := t
  cases n with
  | zero => exact rfl
  | succ n => exact absurd hz (Nat.succ_ne_zero n)

/-- The accumulators after a later point, over what the point before left. -/
theorem acc1_later (c : Dev nD) (t : Fin cfg1.N) (hz : t.val ≠ 0) :
    acc1 V c t.val t.isLt = (k1_pay1 (h1blk (iblk1 V c 0 t) (iblk1 V c 1 t) (iblk1 V c 2 t) (iblk1 V c 3 t) (iblk1 V c 4 t) (iblk1 V c 5 t) (iblk1 V c 6 t) (iblk1 V c 7 t)) (acc1 V c (t.val - 1) (Nat.lt_of_le_of_lt (Nat.sub_le _ _) t.isLt)).1, k1_pay2 (h1blk (iblk1 V c 0 t) (iblk1 V c 1 t) (iblk1 V c 2 t) (iblk1 V c 3 t) (iblk1 V c 4 t) (iblk1 V c 5 t) (iblk1 V c 6 t) (iblk1 V c 7 t)) (acc1 V c (t.val - 1) (Nat.lt_of_le_of_lt (Nat.sub_le _ _) t.isLt)).2) := by
  obtain ⟨n, hn⟩ := t
  cases n with
  | zero => exact absurd rfl hz
  | succ n => exact rfl

/-! ## The region invariant -/

/-- The invariant before position n: before the first point the class's (every scratch at anything); afterwards the two
    accumulators at what the point before left, the other scoped buffers at anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (acc1 V c n hn).1 ∗ owns (c : Thread nD τ) scM1_1 fullShare (acc1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (acc1 V c n hn).1 ∗ owns (c : Thread nD τ) scM1_1 fullShare (acc1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (acc1 V c (n - 1) (by omega)).1 ∗ owns (c : Thread nD τ) scM1_1 fullShare (acc1 V c (n - 1) (by omega)).2) ∗ rest1 (F := F) c) ∗ (∃ r, prngReg c r)) := by
  cases n with
  | zero => exact absurd rfl hz
  | succ n => rfl

/-! ## The pipeline's proof data -/

/-- The proof data of region 1 on core c: the arrays as the region finds them; after the body at point t each input's buffer
    at its block, the h1 tile's at the tile computed from the point's blocks, the two statistics rows' at the mean and variance
    of the accumulators there (read at the last point only); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (h1blk (iblk1 V c 0 t) (iblk1 V c 1 t) (iblk1 V c 2 t) (iblk1 V c 3 t) (iblk1 V c 4 t) (iblk1 V c 5 t) (iblk1 V c 6 t) (iblk1 V c 7 t))
    | ⟨9, _⟩ => k1_pay3 (acc1 V c t.val t.isLt).1
    | ⟨10, _⟩ => k1_pay4 (acc1 V c t.val t.isLt).1 (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (h1blk (iblk1 V c 0 t) (iblk1 V c 1 t) (iblk1 V c 2 t) (iblk1 V c 3 t) (iblk1 V c 4 t) (iblk1 V c 5 t) (iblk1 V c 6 t) (iblk1 V c 7 t)) := by dsimp only [dat1]
theorem after1_9 (c : Dev nD) (t : Fin cfg1.N) : (dat1 V c).after 9 t = k1_pay3 (acc1 V c t.val t.isLt).1 := by dsimp only [dat1]
theorem after1_10 (c : Dev nD) (t : Fin cfg1.N) : (dat1 V c).after 10 t = k1_pay4 (acc1 V c t.val t.isLt).1 (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
/-- The body at any point. The inputs' memrefs hold their blocks; the point's position on the grid says which case it is in; the
    invariant hands the body the two accumulators at what the point before left (at anything at the first point) and takes them
    back at this point's; the h1 tile's buffer comes back at the tile computed from the blocks; the statistics rows' buffers come
    back untouched, except at the last point, where they hold the mean and the variance of the accumulators. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  have hN : t.val < 128 := lt_of_lt_of_eq t.isLt (show cfg1.N = 128 from N_1)
  by_cases h0 : t.val % 128 = 0
  · have h1 : ¬t.val % 128 = 127 := by omega
    have hz : t.val = 0 := by omega
    rw [Dat.leavesExact_idle (dat1 V c) 9 t (idleAt1_9 t (fun h => h1 ((hcond1_1 t).mp h))) (noFlush1_9 t (fun h => h1 ((hcond1_1 t).mp h)))]
    rw [Dat.leavesExact_idle (dat1 V c) 10 t (idleAt1_10 t (fun h => h1 ((hcond1_1 t).mp h))) (noFlush1_10 t (fun h => h1 ((hcond1_1 t).mp h)))]
    rw [PhiS1_castSucc V c t, PhiS1_zero V c _ _ hz, PhiA1_eq, acc1_first V c t hz]
    dsimp only
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    isplitl [HS1]; · iexact HS1
    iintro ⟨H0, H1, H2, H3, H4, H5, H6, H7, ⟨%e8, H8⟩, H9, H10, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro
            exact (View.read_writes_eq_canon _ _ _ (cover1_A_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))).trans
              (piece1_A_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))
          · unfold owns; iexists _; isplitr
            swap; · iexact HS1
            ipureintro
            exact (View.read_writes_eq_canon _ _ _ (cover1_A_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))).trans
              (piece1_A_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))
        · iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      exact (View.read_writes_eq_canon _ _ _ (cover1_A_L8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))).trans
        (piece1_A_L8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))
    isplitl [H9]; · iexists _; iexact H9
    iexists _; iexact H10
  · have hz : t.val ≠ 0 := fun h => h0 (by omega)
    by_cases h1 : t.val % 128 = 127
    · rw [show (dat1 V c).leavesExact 9 t = owns (c : Thread nD τ) (ms1_9 t) fullShare ((dat1 V c).after 9 t) from by
        unfold Dat.leavesExact; rw [liveAt1_9 t ((hcond1_1 t).mpr h1)], after1_9]
      rw [show (dat1 V c).leavesExact 10 t = owns (c : Thread nD τ) (ms1_10 t) fullShare ((dat1 V c).after 10 t) from by
        unfold Dat.leavesExact; rw [liveAt1_10 t ((hcond1_1 t).mpr h1)], after1_10]
      rw [PhiS1_castSucc V c t, PhiS1_pos V c _ _ hz, acc1_later V c t hz]
      dsimp only
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, ⟨%e8, H8⟩, ⟨%e9, H9⟩, ⟨%e10, H10⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro
              exact (View.read_writes_eq_canon _ _ _ (cover1_C_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
                (piece1_C_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
            · unfold owns; iexists _; isplitr
              swap; · iexact HS1
              ipureintro
              exact (View.read_writes_eq_canon _ _ _ (cover1_C_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
                (piece1_C_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        exact (View.read_writes_eq_canon _ _ _ (cover1_C_L8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
          (piece1_C_L8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
      isplitl [H9]
      · unfold owns; iexists _; isplitr
        swap; · iexact H9
        ipureintro
        exact (View.read_writes_eq_canon _ _ _ (cover1_C_L9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
          (piece1_C_L9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
      unfold owns; iexists _; isplitr
      swap; · iexact H10
      ipureintro
      exact (View.read_writes_eq_canon _ _ _ (cover1_C_L10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
        (piece1_C_L10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
    · rw [Dat.leavesExact_idle (dat1 V c) 9 t (idleAt1_9 t (fun h => h1 ((hcond1_1 t).mp h))) (noFlush1_9 t (fun h => h1 ((hcond1_1 t).mp h)))]
      rw [Dat.leavesExact_idle (dat1 V c) 10 t (idleAt1_10 t (fun h => h1 ((hcond1_1 t).mp h))) (noFlush1_10 t (fun h => h1 ((hcond1_1 t).mp h)))]
      rw [PhiS1_castSucc V c t, PhiS1_pos V c _ _ hz, acc1_later V c t hz]
      dsimp only
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexact HS0
      isplitl [HS1]; · iexact HS1
      iintro ⟨H0, H1, H2, H3, H4, H5, H6, H7, ⟨%e8, H8⟩, H9, H10, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro
              exact (View.read_writes_eq_canon _ _ _ (cover1_B_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
                (piece1_B_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
            · unfold owns; iexists _; isplitr
              swap; · iexact HS1
              ipureintro
              exact (View.read_writes_eq_canon _ _ _ (cover1_B_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
                (piece1_B_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        exact (View.read_writes_eq_canon _ _ _ (cover1_B_L8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
          (piece1_B_L8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
      isplitl [H9]; · iexists _; iexact H9
      iexists _; iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 128 := N_1; omega)

/-! ## What the write-backs write -/

/-- The h1 tile written back at point t: the tile computed from the point's blocks. -/
theorem flushed1_8 (c : Dev nD) (t : Fin cfg1.N) :
    (dat1 V c).flushed 8 t = h1blk (iblk1 V c 0 t) (iblk1 V c 1 t) (iblk1 V c 2 t) (iblk1 V c 3 t) (iblk1 V c 4 t) (iblk1 V c 5 t) (iblk1 V c 6 t) (iblk1 V c 7 t) := by
  show (cfg1.win 8).cut (grid1.coords t) ((dat1 V c).after 8 t) = _
  rw [after1_8]; try rfl

/-- The mean row written back at the last point: the column sums there, scaled. -/
theorem flushed1_9 (c : Dev nD) (t : Fin cfg1.N) (ht : t.val % 128 = 127) :
    (dat1 V c).flushed 9 t = k1_pay3 (acc1 V c t.val t.isLt).1 := by
  show (cfg1.win 9).cut (grid1.coords t) ((dat1 V c).after 9 t) = _
  rw [after1_9]; try rfl

/-- The variance row written back at the last point: the scaled sums of squares less the squared mean. -/
theorem flushed1_10 (c : Dev nD) (t : Fin cfg1.N) (ht : t.val % 128 = 127) :
    (dat1 V c).flushed 10 t = k1_pay4 (acc1 V c t.val t.isLt).1 (acc1 V c t.val t.isLt).2 := by
  show (cfg1.win 10).cut (grid1.coords t) ((dat1 V c).after 10 t) = _
  rw [after1_10]; try rfl

end Cert.Kernel.Hand

end
-- ==== Proof.K.Reg2Runs.lean ====
import proofs.«145083_j84052509982728_1_alg».proof.Proof.Gen.Kernel.Launch
import proofs.«145083_j84052509982728_1_alg».proof.Proof.Gen.Kernel.Skeleton
import proofs.«145083_j84052509982728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the pipeline of `cc2__apply_b_kernel`, at the entry contents `V` -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched the block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched the block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched the block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is not
    fetched the block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it is not
    fetched the block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: where it is not
    fetched the block index has not moved, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: where it is not
    fetched the block index has not moved, and the body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: where it is not
    fetched the block index has not moved, and the body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not: where it is not
    fetched the block index has not moved, and the body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not: where it is not
    fetched the block index has not moved, and the body leaves the block in place. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the reset of the two accumulators), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 128 = 0 :=
  (by decide +kernel : ∀ t : Fin grid2.N, cond2_0 (grid2.coords t) ↔ t.val % 128 = 0)

/-- The condition of the body's second conditional (the two statistics written out), from the grid coordinate. -/
abbrev cond2_1 (i : grid2.Coords) : Prop := k2_cond2 i = 1#1
/-- It holds at the last point only. -/
theorem hcond2_1 : ∀ t : Fin cfg2.N, cond2_1 (grid2.coords t) ↔ t.val % 128 = 127 :=
  (by decide +kernel : ∀ t : Fin grid2.N, cond2_1 (grid2.coords t) ↔ t.val % 128 = 127)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem liveAt2_9 : ∀ t : Fin cfg2.N, cfg2.idle 9 (grid2.coords t) = false := by decide +kernel
theorem liveAt2_10 : ∀ t : Fin cfg2.N, cfg2.idle 10 (grid2.coords t) = false := by decide +kernel
/-- Before the last point nothing is stored into window 11: it is idle there, and not written back. -/
theorem idleAt2_11 : ∀ t : Fin cfg2.N, ¬cond2_1 (grid2.coords t) → cfg2.idle 11 (grid2.coords t) = true := by decide +kernel
theorem noFlush2_11 : ∀ t : Fin cfg2.N, ¬cond2_1 (grid2.coords t) → (cfg2.win 11).flush t = false := by decide +kernel
/-- At the last point window 11 is stored into. -/
theorem liveAt2_11 : ∀ t : Fin cfg2.N, cond2_1 (grid2.coords t) → cfg2.idle 11 (grid2.coords t) = false := by decide +kernel
/-- Before the last point nothing is stored into window 12: it is idle there, and not written back. -/
theorem idleAt2_12 : ∀ t : Fin cfg2.N, ¬cond2_1 (grid2.coords t) → cfg2.idle 12 (grid2.coords t) = true := by decide +kernel
theorem noFlush2_12 : ∀ t : Fin cfg2.N, ¬cond2_1 (grid2.coords t) → (cfg2.win 12).flush t = false := by decide +kernel
/-- At the last point window 12 is stored into. -/
theorem liveAt2_12 : ∀ t : Fin cfg2.N, cond2_1 (grid2.coords t) → cfg2.idle 12 (grid2.coords t) = false := by decide +kernel

/-! ## The staging and scratch memrefs -/

abbrev ms2_0 (t : Fin cfg2.N) : Memref sig .tc .vmem S2048x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x32 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S32x256 .bf16 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x256 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S256x256 .bf16 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S2048x256 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x256 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S1x256 .f32 := win2_12.stage (cfg2.slots t 12)
abbrev hs2_12 (t : Fin cfg2.N) : (ms2_12 t).IsWhole := hstage2_12 ((cfg2.slots t 12).cast nbuf2_12)
/-- The two accumulators the body carries from point to point: whole scoped buffers of the kernel's own. -/
abbrev scM2_0 : Memref sig .tc .vmem S1x256 .f32 := Memref.whole cc2_scratch0
abbrev scM2_1 : Memref sig .tc .vmem S1x256 .f32 := Memref.whole cc2_scratch1

/-- The class invariant with the two accumulators as memrefs owned at some contents, the other scoped buffers carried unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

/-! ## The values the body computes -/

/-- The tile of the product the body computes from the point's blocks: the rows normalised by the batch statistics,
    scaled, shifted and clipped at zero; their product with the first weight matrix plus its bias; the row-wise
    softmax of that, times the gathered rows, plus the input rows; rounded, and multiplied by the second weight matrix. -/
def mmblk (h1 : Vec F S2048x32 .f32) (aug x : Vec F S2048x256 .f32) (mean var g b : Vec F S1x32 .f32) (w2t : Vec F S32x256 .bf16) (b2 : Vec F S1x256 .f32) (wlint : Vec F S256x256 .bf16) : FVec F S2048x256 .f32 :=
  k2_pay7 (k2_pay5 h1 mean var g b w2t b2) (k2_pay6 h1 mean var g b w2t b2) x aug wlint

/-- One point's step of the two running sums: the column sums of the point's tile added to the first, the column sums of
    its squares to the second. -/
def accStep2 (h1 : Vec F S2048x32 .f32) (aug x : Vec F S2048x256 .f32) (mean var g b : Vec F S1x32 .f32) (w2t : Vec F S32x256 .bf16) (b2 : Vec F S1x256 .f32) (wlint : Vec F S256x256 .bf16)
    (s0 s1 : Vec F S1x256 .f32) : Vec F S1x256 .f32 × Vec F S1x256 .f32 :=
  (k2_pay8 (k2_pay5 h1 mean var g b w2t b2) (k2_pay6 h1 mean var g b w2t b2) x aug wlint s0,
   k2_pay9 (k2_pay5 h1 mean var g b w2t b2) (k2_pay6 h1 mean var g b w2t b2) x aug wlint s1)

/-- The two running sums after the point at position `n`: the column sums of the tiles up to it and of their squares,
    from zero at the first point. -/
def acc2 (c : Dev nD) : (n : ℕ) → n < cfg2.N → Vec F S1x256 .f32 × Vec F S1x256 .f32
  | 0, h =>
    (k2_pay8 (k2_pay5 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (k2_pay6 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (iblk2 V c 2 ⟨0, h⟩) (iblk2 V c 1 ⟨0, h⟩) (iblk2 V c 9 ⟨0, h⟩) (k2_pay3 (F := F)),
     k2_pay9 (k2_pay5 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (k2_pay6 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (iblk2 V c 2 ⟨0, h⟩) (iblk2 V c 1 ⟨0, h⟩) (iblk2 V c 9 ⟨0, h⟩) (k2_pay4 (F := F)))
  | n + 1, h =>
    (k2_pay8 (k2_pay5 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (k2_pay6 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (iblk2 V c 2 ⟨n + 1, h⟩) (iblk2 V c 1 ⟨n + 1, h⟩) (iblk2 V c 9 ⟨n + 1, h⟩) (acc2 c n (Nat.lt_of_succ_lt h)).1,
     k2_pay9 (k2_pay5 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (k2_pay6 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (iblk2 V c 2 ⟨n + 1, h⟩) (iblk2 V c 1 ⟨n + 1, h⟩) (iblk2 V c 9 ⟨n + 1, h⟩) (acc2 c n (Nat.lt_of_succ_lt h)).2)

theorem acc2_zero (c : Dev nD) (h : 0 < cfg2.N) : acc2 V c 0 h =
    (k2_pay8 (k2_pay5 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (k2_pay6 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (iblk2 V c 2 ⟨0, h⟩) (iblk2 V c 1 ⟨0, h⟩) (iblk2 V c 9 ⟨0, h⟩) (k2_pay3 (F := F)),
     k2_pay9 (k2_pay5 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (k2_pay6 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (iblk2 V c 2 ⟨0, h⟩) (iblk2 V c 1 ⟨0, h⟩) (iblk2 V c 9 ⟨0, h⟩) (k2_pay4 (F := F))) := rfl

theorem acc2_succ (c : Dev nD) (n : ℕ) (h : n + 1 < cfg2.N) : acc2 V c (n + 1) h =
    (k2_pay8 (k2_pay5 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (k2_pay6 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (iblk2 V c 2 ⟨n + 1, h⟩) (iblk2 V c 1 ⟨n + 1, h⟩) (iblk2 V c 9 ⟨n + 1, h⟩) (acc2 V c n (Nat.lt_of_succ_lt h)).1,
     k2_pay9 (k2_pay5 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (k2_pay6 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (iblk2 V c 2 ⟨n + 1, h⟩) (iblk2 V c 1 ⟨n + 1, h⟩) (iblk2 V c 9 ⟨n + 1, h⟩) (acc2 V c n (Nat.lt_of_succ_lt h)).2) := rfl

/-- The running sums at a point after the first, over those at the point before. -/
theorem acc2_pos (c : Dev nD) (t : Fin cfg2.N) (ht : t.val ≠ 0) : acc2 V c t.val t.isLt =
    (k2_pay8 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (acc2 V c (t.val - 1) (Nat.lt_of_le_of_lt (Nat.sub_le _ _) t.isLt)).1,
     k2_pay9 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (acc2 V c (t.val - 1) (Nat.lt_of_le_of_lt (Nat.sub_le _ _) t.isLt)).2) := by
  obtain ⟨n, hn⟩ := t
  cases n with
  | zero => exact absurd rfl ht
  | succ n => rfl

/-- The running sums at the first point. -/
theorem acc2_first (c : Dev nD) (t : Fin cfg2.N) (ht : t.val = 0) : acc2 V c t.val t.isLt =
    (k2_pay8 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (k2_pay3 (F := F)),
     k2_pay9 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (k2_pay4 (F := F))) := by
  obtain ⟨n, hn⟩ := t
  cases n with
  | zero => rfl
  | succ n => exact absurd ht (Nat.succ_ne_zero n)

end Cert.Kernel.Hand

end
-- ==== Proof.K.Reg2RunA.lean ====
import proofs.«145083_j84052509982728_1_alg».proof.Proof.K.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- THE FIRST POINT (the accumulators reset, the statistics not written). What the body's stores leave in the tile
    output and in the two accumulators, as pieces (last first), with the proof that on whole memrefs — the inputs' at their
    contents, the tile output's at anything, the two statistics outputs' handed back untouched, the accumulators at
    anything — the body runs to the continuation holding the inputs' as they were and each stored buffer with its pieces
    written. The pieces are the witness the run finds. -/
noncomputable def kernelRun2_A (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) :
    Σ' (L10 : List (View.Piece (Elt F) S2048x256 .f32)) (LS0 : List (View.Piece (Elt F) S1x256 .f32)), { LS1 : List (View.Piece (Elt F) S1x256 .f32) //
      ∀ (xi11 xi12 : Vec F S1x256 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ (∃ d, owns (c : Thread nD τ) arg11 fullShare d)
            ∗ owns (c : Thread nD τ) arg12 fullShare xi11
            ∗ owns (c : Thread nD τ) arg13 fullShare xi12
            ∗ (∃ d, owns (c : Thread nD τ) arg14 fullShare d)
            ∗ (∃ d, owns (c : Thread nD τ) arg15 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ owns (c : Thread nD τ) arg10 fullShare x9
                ∗ (∃ f, arg11.view.loc (c : Thread nD τ) ↦[arg11.view.set]{fullShare} arg11.view.writes (Elt F) f L10)
                ∗ owns (c : Thread nD τ) arg12 fullShare xi11
                ∗ owns (c : Thread nD τ) arg13 fullShare xi12
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)) -∗ K ⟨⟩))
          ⊢ wp frame (wpE (defs₀ (F := F)) Variants.none c none) E (cc2__apply_b_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 xi12 E K => ?run⟩
  case run =>
    simp only [cc2__apply_b_kernel_eq_skeleton]; unfold cc2__apply_b_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Hand

end
-- ==== Proof.K.Reg2RunB.lean ====
import proofs.«145083_j84052509982728_1_alg».proof.Proof.K.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A MIDDLE POINT (no reset, the statistics not written). What the body's stores leave in the tile output and in the
    two accumulators, as pieces (last first), with the proof that on whole memrefs — the inputs' at their contents, the tile
    output's at anything, the two statistics outputs' handed back untouched, the accumulators at what the point before left —
    the body runs to the continuation holding the inputs' as they were and each stored buffer with its pieces written.
    The pieces are the witness the run finds. -/
noncomputable def kernelRun2_B (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) :
    Σ' (L10 : List (View.Piece (Elt F) S2048x256 .f32)) (LS0 : List (View.Piece (Elt F) S1x256 .f32)), { LS1 : List (View.Piece (Elt F) S1x256 .f32) //
      ∀ (xi11 xi12 : Vec F S1x256 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ (∃ d, owns (c : Thread nD τ) arg11 fullShare d)
            ∗ owns (c : Thread nD τ) arg12 fullShare xi11
            ∗ owns (c : Thread nD τ) arg13 fullShare xi12
            ∗ owns (c : Thread nD τ) arg14 fullShare xs0
            ∗ owns (c : Thread nD τ) arg15 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ owns (c : Thread nD τ) arg10 fullShare x9
                ∗ (∃ f, arg11.view.loc (c : Thread nD τ) ↦[arg11.view.set]{fullShare} arg11.view.writes (Elt F) f L10)
                ∗ owns (c : Thread nD τ) arg12 fullShare xi11
                ∗ owns (c : Thread nD τ) arg13 fullShare xi12
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)) -∗ K ⟨⟩))
          ⊢ wp frame (wpE (defs₀ (F := F)) Variants.none c none) E (cc2__apply_b_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 xi12 E K => ?run⟩
  case run =>
    simp only [cc2__apply_b_kernel_eq_skeleton]; unfold cc2__apply_b_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Hand

end
-- ==== Proof.K.Reg2RunC.lean ====
import proofs.«145083_j84052509982728_1_alg».proof.Proof.K.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- THE LAST POINT (no reset, the statistics written). What the body's stores leave in the three outputs and in the two
    accumulators, as pieces (last first), with the proof that on whole memrefs — the inputs' at their contents, the outputs'
    at anything, the accumulators at what the point before left — the body runs to the continuation holding the inputs' as
    they were and each stored buffer with its pieces written. The pieces are the witness the run finds. -/
noncomputable def kernelRun2_C (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) :
    Σ' (L10 : List (View.Piece (Elt F) S2048x256 .f32)) (L11 : List (View.Piece (Elt F) S1x256 .f32)) (L12 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ (∃ d, owns (c : Thread nD τ) arg11 fullShare d)
            ∗ (∃ d, owns (c : Thread nD τ) arg12 fullShare d)
            ∗ (∃ d, owns (c : Thread nD τ) arg13 fullShare d)
            ∗ owns (c : Thread nD τ) arg14 fullShare xs0
            ∗ owns (c : Thread nD τ) arg15 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ owns (c : Thread nD τ) arg10 fullShare x9
                ∗ (∃ f, arg11.view.loc (c : Thread nD τ) ↦[arg11.view.set]{fullShare} arg11.view.writes (Elt F) f L10)
                ∗ (∃ f, arg12.view.loc (c : Thread nD τ) ↦[arg12.view.set]{fullShare} arg12.view.writes (Elt F) f L11)
                ∗ (∃ f, arg13.view.loc (c : Thread nD τ) ↦[arg13.view.set]{fullShare} arg13.view.writes (Elt F) f L12)
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)) -∗ K ⟨⟩))
          ⊢ wp frame (wpE (defs₀ (F := F)) Variants.none c none) E (cc2__apply_b_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc2__apply_b_kernel_eq_skeleton]; unfold cc2__apply_b_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [HS0]; · iexists _; iexact HS0
    iexists _; iexact HS1

end Cert.Kernel.Hand

end
-- ==== Proof.K.Reg2.lean ====
import proofs.«145083_j84052509982728_1_alg».proof.Proof.K.Reg2RunA
import proofs.«145083_j84052509982728_1_alg».proof.Proof.K.Reg2RunB
import proofs.«145083_j84052509982728_1_alg».proof.Proof.K.Reg2RunC
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: what each case's stores leave, the proof data, the body obligation -/

/-- The zero offset of every access of this body. -/
theorem hz2 : (![0, 0] : Fin 2 → ℕ) = fun _ => 0 := funext fun a => by fin_cases a <;> rfl

/-! ## Each case's pieces cover their buffers -/

theorem cover2_A_10 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (y : S2048x256.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1, y ∈ pc.1.set :=
  View.cover_of_tiledL _ S2048x256.size (by sl_kernel_rfl) y
theorem cover2_A_s0 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (y : S1x256.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1, y ∈ pc.1.set :=
  View.cover_of_tiledL _ S1x256.size (by sl_kernel_rfl) y
theorem cover2_A_s1 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (y : S1x256.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1, y ∈ pc.1.set :=
  View.cover_of_tiledL _ S1x256.size (by sl_kernel_rfl) y
theorem cover2_B_10 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S2048x256.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1, y ∈ pc.1.set :=
  View.cover_of_tiledL _ S2048x256.size (by sl_kernel_rfl) y
theorem cover2_B_s0 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S1x256.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1, y ∈ pc.1.set :=
  View.cover_of_tiledL _ S1x256.size (by sl_kernel_rfl) y
theorem cover2_B_s1 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S1x256.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL _ S1x256.size (by sl_kernel_rfl) y
theorem cover2_C_10 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S2048x256.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1, y ∈ pc.1.set :=
  View.cover_of_tiledL _ S2048x256.size (by sl_kernel_rfl) y
theorem cover2_C_11 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S1x256.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1, y ∈ pc.1.set :=
  View.cover_of_tiledL _ S1x256.size (by sl_kernel_rfl) y
theorem cover2_C_12 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S1x256.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL _ S1x256.size (by sl_kernel_rfl) y
theorem cover2_C_s0 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S1x256.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1, y ∈ pc.1.set :=
  View.cover_of_tiledL _ S1x256.size (by sl_kernel_rfl) y
theorem cover2_C_s1 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S1x256.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.2.1, y ∈ pc.1.set :=
  View.cover_of_tiledL _ S1x256.size (by sl_kernel_rfl) y

/-! ## What each case's pieces read back as: the payloads of the loads -/

theorem piece2_A_10 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16)
    (v : View sig .tc .vmem S2048x256 .f32) (f : v.ty.Contents (Elt F)) :
    v.read (Elt F) (v.writes (Elt F) f (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1) = (mmblk x0 x1 x2 x3 x4 x5 x6 x7 x8 x9) := by
  rw [View.read_writes_eq_canon _ _ _ (cover2_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun2_A mmblk; dsimp only; sl_unfold_words
  rw [View.canon_unit_zero (S := S2048x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_A_s0 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16)
    (v : View sig .tc .vmem S1x256 .f32) (f : v.ty.Contents (Elt F)) :
    v.read (Elt F) (v.writes (Elt F) f (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1) = (k2_pay8 (k2_pay5 x0 x3 x4 x5 x6 x7 x8) (k2_pay6 x0 x3 x4 x5 x6 x7 x8) x2 x1 x9 (k2_pay3 (F := F))) := by
  rw [View.read_writes_eq_canon _ _ _ (cover2_A_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun2_A; dsimp only; sl_unfold_words
  rw [View.canon_cons_unit_zero (S := S1x256) hz2, View.readCov_unit_zero (S := S1x256) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_A_s1 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16)
    (v : View sig .tc .vmem S1x256 .f32) (f : v.ty.Contents (Elt F)) :
    v.read (Elt F) (v.writes (Elt F) f (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1) = (k2_pay9 (k2_pay5 x0 x3 x4 x5 x6 x7 x8) (k2_pay6 x0 x3 x4 x5 x6 x7 x8) x2 x1 x9 (k2_pay4 (F := F))) := by
  rw [View.read_writes_eq_canon _ _ _ (cover2_A_s1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun2_A; dsimp only; sl_unfold_words
  rw [View.canon_cons_unit_zero (S := S1x256) hz2, View.readCov_unit_zero (S := S1x256) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_B_10 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S2048x256 .f32) (f : v.ty.Contents (Elt F)) :
    v.read (Elt F) (v.writes (Elt F) f (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1) = (mmblk x0 x1 x2 x3 x4 x5 x6 x7 x8 x9) := by
  rw [View.read_writes_eq_canon _ _ _ (cover2_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_B mmblk; dsimp only; sl_unfold_words
  rw [View.canon_unit_zero (S := S2048x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_B_s0 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S1x256 .f32) (f : v.ty.Contents (Elt F)) :
    v.read (Elt F) (v.writes (Elt F) f (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1) = (k2_pay8 (k2_pay5 x0 x3 x4 x5 x6 x7 x8) (k2_pay6 x0 x3 x4 x5 x6 x7 x8) x2 x1 x9 xs0) := by
  rw [View.read_writes_eq_canon _ _ _ (cover2_B_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_B; dsimp only; sl_unfold_words
  rw [View.canon_unit_zero (S := S1x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_B_s1 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S1x256 .f32) (f : v.ty.Contents (Elt F)) :
    v.read (Elt F) (v.writes (Elt F) f (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1) = (k2_pay9 (k2_pay5 x0 x3 x4 x5 x6 x7 x8) (k2_pay6 x0 x3 x4 x5 x6 x7 x8) x2 x1 x9 xs1) := by
  rw [View.read_writes_eq_canon _ _ _ (cover2_B_s1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_B; dsimp only; sl_unfold_words
  rw [View.canon_unit_zero (S := S1x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_C_10 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S2048x256 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1) = (mmblk x0 x1 x2 x3 x4 x5 x6 x7 x8 x9) := by
  rw [View.read_writes_eq_canon _ _ _ (cover2_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_C mmblk; dsimp only; sl_unfold_words
  rw [View.canon_unit_zero (S := S2048x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_C_11 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S1x256 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1) = (k2_pay1 (k2_pay8 (k2_pay5 x0 x3 x4 x5 x6 x7 x8) (k2_pay6 x0 x3 x4 x5 x6 x7 x8) x2 x1 x9 xs0)) := by
  rw [View.read_writes_eq_canon _ _ _ (cover2_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_C; dsimp only; sl_unfold_words
  rw [View.canon_unit_zero (S := S1x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_C_12 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S1x256 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1) = (k2_pay2 (k2_pay8 (k2_pay5 x0 x3 x4 x5 x6 x7 x8) (k2_pay6 x0 x3 x4 x5 x6 x7 x8) x2 x1 x9 xs0) (k2_pay9 (k2_pay5 x0 x3 x4 x5 x6 x7 x8) (k2_pay6 x0 x3 x4 x5 x6 x7 x8) x2 x1 x9 xs1)) := by
  rw [View.read_writes_eq_canon _ _ _ (cover2_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_C; dsimp only; sl_unfold_words
  rw [View.canon_unit_zero (S := S1x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_C_s0 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S1x256 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1) = (k2_pay8 (k2_pay5 x0 x3 x4 x5 x6 x7 x8) (k2_pay6 x0 x3 x4 x5 x6 x7 x8) x2 x1 x9 xs0) := by
  rw [View.read_writes_eq_canon _ _ _ (cover2_C_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_C; dsimp only; sl_unfold_words
  rw [View.canon_unit_zero (S := S1x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_C_s1 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S1x256 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.2.1) = (k2_pay9 (k2_pay5 x0 x3 x4 x5 x6 x7 x8) (k2_pay6 x0 x3 x4 x5 x6 x7 x8) x2 x1 x9 xs1) := by
  rw [View.read_writes_eq_canon _ _ _ (cover2_C_s1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_C; dsimp only; sl_unfold_words
  rw [View.canon_unit_zero (S := S1x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

/-! ## The body's triple per case, its post stated through the payloads -/

/-- At the first point: on whole memrefs, the inputs' at their contents, the body runs to the continuation holding the
    inputs' as they were, the tile output at the product tile, the accumulators reset and then advanced; the two statistics outputs are handed back untouched. -/
theorem sound_kernel2_A (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16)
    (xi11 xi12 : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ owns (c : Thread nD τ) arg12 fullShare xi11
        ∗ owns (c : Thread nD τ) arg13 fullShare xi12
        ∗ (∃ d, owns (c : Thread nD τ) arg14 fullShare d)
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (mmblk x0 x1 x2 x3 x4 x5 x6 x7 x8 x9)
            ∗ owns (c : Thread nD τ) arg12 fullShare xi11
            ∗ owns (c : Thread nD τ) arg13 fullShare xi12
            ∗ owns (c : Thread nD τ) arg14 fullShare (k2_pay8 (k2_pay5 x0 x3 x4 x5 x6 x7 x8) (k2_pay6 x0 x3 x4 x5 x6 x7 x8) x2 x1 x9 (k2_pay3 (F := F)))
            ∗ owns (c : Thread nD τ) arg15 fullShare (k2_pay9 (k2_pay5 x0 x3 x4 x5 x6 x7 x8) (k2_pay6 x0 x3 x4 x5 x6 x7 x8) x2 x1 x9 (k2_pay4 (F := F)))) -∗ K ⟨⟩))
      ⊢ wp frame (wpE (defs₀ (F := F)) Variants.none c none) E (cc2__apply_b_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, HS1, Hk⟩
  iapply ((kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2 xi11 xi12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, H11, H12, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact piece2_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 _ _
  isplitl [H11]; · iexact H11
  isplitl [H12]; · iexact H12
  isplitl [HS0]
  · unfold owns; iexists _; isplitr
    swap; · iexact HS0
    ipureintro; exact piece2_A_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 _ _
  unfold owns; iexists _; isplitr
  swap; · iexact HS1
  ipureintro; exact piece2_A_s1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 _ _

/-- At a middle point: on whole memrefs, the inputs' at their contents, the body runs to the continuation holding the
    inputs' as they were, the tile output at the product tile, the accumulators advanced from what they held; the two statistics outputs are handed back untouched. -/
theorem sound_kernel2_B (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (xi11 xi12 : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ owns (c : Thread nD τ) arg12 fullShare xi11
        ∗ owns (c : Thread nD τ) arg13 fullShare xi12
        ∗ owns (c : Thread nD τ) arg14 fullShare xs0
        ∗ owns (c : Thread nD τ) arg15 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (mmblk x0 x1 x2 x3 x4 x5 x6 x7 x8 x9)
            ∗ owns (c : Thread nD τ) arg12 fullShare xi11
            ∗ owns (c : Thread nD τ) arg13 fullShare xi12
            ∗ owns (c : Thread nD τ) arg14 fullShare (k2_pay8 (k2_pay5 x0 x3 x4 x5 x6 x7 x8) (k2_pay6 x0 x3 x4 x5 x6 x7 x8) x2 x1 x9 xs0)
            ∗ owns (c : Thread nD τ) arg15 fullShare (k2_pay9 (k2_pay5 x0 x3 x4 x5 x6 x7 x8) (k2_pay6 x0 x3 x4 x5 x6 x7 x8) x2 x1 x9 xs1)) -∗ K ⟨⟩))
      ⊢ wp frame (wpE (defs₀ (F := F)) Variants.none c none) E (cc2__apply_b_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, HS1, Hk⟩
  iapply ((kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2 xi11 xi12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, H11, H12, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact piece2_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _
  isplitl [H11]; · iexact H11
  isplitl [H12]; · iexact H12
  isplitl [HS0]
  · unfold owns; iexists _; isplitr
    swap; · iexact HS0
    ipureintro; exact piece2_B_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _
  unfold owns; iexists _; isplitr
  swap; · iexact HS1
  ipureintro; exact piece2_B_s1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _

/-- At the last point: on whole memrefs, the inputs' at their contents, the body runs to the continuation holding the
    inputs' as they were, the tile output at the product tile, the accumulators advanced from what they held, and the two statistics outputs at the mean and the variance of the accumulated sums. -/
theorem sound_kernel2_C (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (∃ d, owns (c : Thread nD τ) arg12 fullShare d)
        ∗ (∃ d, owns (c : Thread nD τ) arg13 fullShare d)
        ∗ owns (c : Thread nD τ) arg14 fullShare xs0
        ∗ owns (c : Thread nD τ) arg15 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (mmblk x0 x1 x2 x3 x4 x5 x6 x7 x8 x9)
            ∗ owns (c : Thread nD τ) arg12 fullShare (k2_pay1 (k2_pay8 (k2_pay5 x0 x3 x4 x5 x6 x7 x8) (k2_pay6 x0 x3 x4 x5 x6 x7 x8) x2 x1 x9 xs0))
            ∗ owns (c : Thread nD τ) arg13 fullShare (k2_pay2 (k2_pay8 (k2_pay5 x0 x3 x4 x5 x6 x7 x8) (k2_pay6 x0 x3 x4 x5 x6 x7 x8) x2 x1 x9 xs0) (k2_pay9 (k2_pay5 x0 x3 x4 x5 x6 x7 x8) (k2_pay6 x0 x3 x4 x5 x6 x7 x8) x2 x1 x9 xs1))
            ∗ owns (c : Thread nD τ) arg14 fullShare (k2_pay8 (k2_pay5 x0 x3 x4 x5 x6 x7 x8) (k2_pay6 x0 x3 x4 x5 x6 x7 x8) x2 x1 x9 xs0)
            ∗ owns (c : Thread nD τ) arg15 fullShare (k2_pay9 (k2_pay5 x0 x3 x4 x5 x6 x7 x8) (k2_pay6 x0 x3 x4 x5 x6 x7 x8) x2 x1 x9 xs1)) -∗ K ⟨⟩))
      ⊢ wp frame (wpE (defs₀ (F := F)) Variants.none c none) E (cc2__apply_b_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, HS1, Hk⟩
  iapply ((kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, ⟨%e11, H11⟩, ⟨%e12, H12⟩, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact piece2_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _
  isplitl [H11]
  · unfold owns; iexists _; isplitr
    swap; · iexact H11
    ipureintro; exact piece2_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _
  isplitl [H12]
  · unfold owns; iexists _; isplitr
    swap; · iexact H12
    ipureintro; exact piece2_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _
  isplitl [HS0]
  · unfold owns; iexists _; isplitr
    swap; · iexact HS0
    ipureintro; exact piece2_C_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _
  unfold owns; iexists _; isplitr
  swap; · iexact HS1
  ipureintro; exact piece2_C_s1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _

/-! ## The running sums, by components -/

theorem acc2_pos_fst (c : Dev nD) (t : Fin cfg2.N) (ht : t.val ≠ 0) : (acc2 V c t.val t.isLt).1 =
    k2_pay8 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (acc2 V c (t.val - 1) (Nat.lt_of_le_of_lt (Nat.sub_le _ _) t.isLt)).1 :=
  congrArg Prod.fst (acc2_pos V c t ht)
theorem acc2_pos_snd (c : Dev nD) (t : Fin cfg2.N) (ht : t.val ≠ 0) : (acc2 V c t.val t.isLt).2 =
    k2_pay9 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (acc2 V c (t.val - 1) (Nat.lt_of_le_of_lt (Nat.sub_le _ _) t.isLt)).2 :=
  congrArg Prod.snd (acc2_pos V c t ht)
theorem acc2_first_fst (c : Dev nD) (t : Fin cfg2.N) (ht : t.val = 0) : (acc2 V c t.val t.isLt).1 =
    k2_pay8 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (k2_pay3 (F := F)) :=
  congrArg Prod.fst (acc2_first V c t ht)
theorem acc2_first_snd (c : Dev nD) (t : Fin cfg2.N) (ht : t.val = 0) : (acc2 V c t.val t.isLt).2 =
    k2_pay9 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (k2_pay4 (F := F)) :=
  congrArg Prod.snd (acc2_first V c t ht)

/-! ## The region invariant -/

/-- The invariant before position `n`: before the first point the class's (every scoped buffer that is no staging buffer
    at anything, the generator register at some state); afterwards the two accumulators at the running sums after the
    point before, the other scoped buffers carried unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare (acc2 V c n hn).1 ∗ owns (c : Thread nD τ) scM2_1 fullShare (acc2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare (acc2 V c (n - 1) (by omega)).1 ∗ owns (c : Thread nD τ) scM2_1 fullShare (acc2 V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of pipeline 2 on core `c`: the arrays as the region finds them; after the body at point `t` each
    input's buffer at its block, the tile output at the product tile of the point's blocks, the two statistics outputs at
    the mean and the variance of the running sums (consulted at the last point only: elsewhere the windows are idle);
    the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => mmblk (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    | ⟨11, _⟩ => k2_pay1 (acc2 V c t.val t.isLt).1
    | ⟨12, _⟩ => k2_pay2 (acc2 V c t.val t.isLt).1 (acc2 V c t.val t.isLt).2
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = mmblk (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]
theorem after2_11 (c : Dev nD) (t : Fin cfg2.N) : (dat2 V c).after 11 t = k2_pay1 (acc2 V c t.val t.isLt).1 := by dsimp only [dat2]
theorem after2_12 (c : Dev nD) (t : Fin cfg2.N) : (dat2 V c).after 12 t = k2_pay2 (acc2 V c t.val t.isLt).1 (acc2 V c t.val t.isLt).2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t)

set_option maxHeartbeats 8000000 in
/-- The body at any point: the inputs' memrefs hold their blocks; the closed forms say which case the point is in; the
    invariant hands the body the two accumulators at the running sums after the point before (at anything at the first
    point) and takes them back at this point's; the other scoped buffers, the generator register and what the core owes
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  by_cases h1 : t.val % 128 = 127
  · have h0 : ¬t.val % 128 = 0 := by omega
    have hz : t.val ≠ 0 := by omega
    rw [show (dat2 V c).leavesExact 11 t = owns (c : Thread nD τ) (ms2_11 t) fullShare ((dat2 V c).after 11 t) from by
      unfold Dat.leavesExact; rw [liveAt2_11 t ((hcond2_1 t).mpr h1)], after2_11]
    rw [show (dat2 V c).leavesExact 12 t = owns (c : Thread nD τ) (ms2_12 t) fullShare ((dat2 V c).after 12 t) from by
      unfold Dat.leavesExact; rw [liveAt2_12 t ((hcond2_1 t).mpr h1)], after2_12]
    rw [PhiS2_castSucc V c t, PhiS2_pos V c _ _ hz]
    rw [acc2_pos_fst V c t hz, acc2_pos_snd V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_kernel2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) ((hcond2_1 t).mpr h1)
      (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (acc2 V c (t.val - 1) (Nat.lt_of_le_of_lt (Nat.sub_le _ _) t.isLt)).1 (acc2 V c (t.val - 1) (Nat.lt_of_le_of_lt (Nat.sub_le _ _) t.isLt)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, H11, H12, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases h0 : t.val % 128 = 0
    · have hz : t.val = 0 := by omega
      rw [Dat.leavesExact_idle (dat2 V c) 11 t (idleAt2_11 t (fun h => h1 ((hcond2_1 t).mp h))) (noFlush2_11 t (fun h => h1 ((hcond2_1 t).mp h)))]
      rw [Dat.leavesExact_idle (dat2 V c) 12 t (idleAt2_12 t (fun h => h1 ((hcond2_1 t).mp h))) (noFlush2_12 t (fun h => h1 ((hcond2_1 t).mp h)))]
      rw [PhiS2_castSucc V c t, PhiS2_zero V c _ _ hz, PhiA2_eq]
      rw [acc2_first_fst V c t hz, acc2_first_snd V c t hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (sound_kernel2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) ((hcond2_0 t).mpr h0) (fun h => h1 ((hcond2_1 t).mp h))
        (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · have hz : t.val ≠ 0 := by omega
      rw [Dat.leavesExact_idle (dat2 V c) 11 t (idleAt2_11 t (fun h => h1 ((hcond2_1 t).mp h))) (noFlush2_11 t (fun h => h1 ((hcond2_1 t).mp h)))]
      rw [Dat.leavesExact_idle (dat2 V c) 12 t (idleAt2_12 t (fun h => h1 ((hcond2_1 t).mp h))) (noFlush2_12 t (fun h => h1 ((hcond2_1 t).mp h)))]
      rw [PhiS2_castSucc V c t, PhiS2_pos V c _ _ hz]
      rw [acc2_pos_fst V c t hz, acc2_pos_snd V c t hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (sound_kernel2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) (fun h => h1 ((hcond2_1 t).mp h))
        (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (acc2 V c (t.val - 1) (Nat.lt_of_le_of_lt (Nat.sub_le _ _) t.isLt)).1 (acc2 V c (t.val - 1) (Nat.lt_of_le_of_lt (Nat.sub_le _ _) t.isLt)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: what the accumulators hold is forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), PhiA2_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-! ## What the write-backs write -/

/-- The tile output's write-back at any point writes the product tile of the point's blocks. -/
theorem flushed2_10 (c : Dev nD) (t : Fin cfg2.N) : (dat2 V c).flushed 10 t = mmblk (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by
  show (cfg2.win 10).cut (grid2.coords t) ((dat2 V c).after 10 t) = _
  rw [after2_10]; rfl

/-- At the last point the first statistics output's write-back writes the mean of the accumulated column sums, -/
theorem flushed2_11 (c : Dev nD) (t : Fin cfg2.N) (ht : t.val % 128 = 127) : (dat2 V c).flushed 11 t = k2_pay1 (acc2 V c t.val t.isLt).1 := by
  show (cfg2.win 11).cut (grid2.coords t) ((dat2 V c).after 11 t) = _
  rw [after2_11]; rfl

/-- and the second's the variance: the mean of the accumulated squares less the squared mean. -/
theorem flushed2_12 (c : Dev nD) (t : Fin cfg2.N) (ht : t.val % 128 = 127) : (dat2 V c).flushed 12 t = k2_pay2 (acc2 V c t.val t.isLt).1 (acc2 V c t.val t.isLt).2 := by
  show (cfg2.win 12).cut (grid2.coords t) ((dat2 V c).after 12 t) = _
  rw [after2_12]; rfl

end Cert.Kernel.Hand

end
-- ==== Proof.K.Reg3.lean ====
import proofs.«145083_j84052509982728_1_alg».proof.Proof.Gen.Kernel.Launch
import proofs.«145083_j84052509982728_1_alg».proof.Proof.Gen.Kernel.Skeleton
import proofs.«145083_j84052509982728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 3: the normalise-and-clamp pass over the matrix-product tiles, at the entry contents `V`

Six windows on a grid of 128 points: window 0 is the point's tile of 2048 rows by 256 columns of the matrix product;
windows 1 to 4 are the four rows of 256 column statistics and parameters (the column mean, the column variance, the
scale and the shift), the same block at every point; window 5 is the point's output tile. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, fetched there or not, for any proof
data whose array is `V`'s and whose body leaves the block in place: where the window is not fetched its block index
has not moved, so the previous point's block is this point's. Every window is uncut and never idle. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole buffer -/

abbrev r3_t : Rect S2048x256 := Rect.unit (s := S2048x256) ![0, 0] S2048x256.size inb_S2048x256_S2048x256_0_0
abbrev r3_r : Rect S1x256 := Rect.unit (s := S1x256) ![0, 0] S1x256.size inb_S1x256_S1x256_0_0

/-! ## What the body leaves in the output window's buffer -/

/-- Window 5's staging buffer after the body, from the input windows' blocks: its one store as a piece, the payload
    the normalised, scaled, shifted and clamped tile of the five loaded blocks. -/
def out3_5 (x0 : Vec F S2048x256 .f32) (x1 x2 x3 x4 : Vec F S1x256 .f32) : Vec F S2048x256 .f32 :=
  View.canon [⟨r3_t, k3_pay1 (View.ld x0 r3_t) (View.ld x1 r3_r) (View.ld x2 r3_r) (View.ld x3 r3_r) (View.ld x4 r3_r)⟩]

/-- The one store is the whole buffer, so it covers it. -/
theorem cover3_5 (p0 : Vec F S2048x256 .f32) (y : S2048x256.Idx) :
    ∃ pc ∈ ([⟨r3_t, p0⟩] : List (View.Piece (Elt F) S2048x256 .f32)), y ∈ pc.1.set :=
  View.cover_of_tiled [⟨r3_t, p0⟩] S2048x256.size (by rfl) y

/-! ## The body's triple -/

set_option maxHeartbeats 4000000 in
/-- The body on whole staging memrefs, the five inputs' at read contents and the output's at anything, runs to the
    continuation holding the inputs' as they were and the output's at `out3_5` of the inputs'. -/
theorem sound_kernel3 (c : Dev nD) (E : Set ℕ) (i : grid3.Coords)
    (arg0 : Memref sig .tc .vmem S2048x256 .f32) (harg0 : arg0.IsWhole) (arg1 : Memref sig .tc .vmem S1x256 .f32) (harg1 : arg1.IsWhole)
    (arg2 : Memref sig .tc .vmem S1x256 .f32) (harg2 : arg2.IsWhole) (arg3 : Memref sig .tc .vmem S1x256 .f32) (harg3 : arg3.IsWhole)
    (arg4 : Memref sig .tc .vmem S1x256 .f32) (harg4 : arg4.IsWhole) (arg5 : Memref sig .tc .vmem S2048x256 .f32) (harg5 : arg5.IsWhole)
    (x0 : Vec F S2048x256 .f32) (x1 x2 x3 x4 : Vec F S1x256 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__apply_main_kernel i arg0 harg0 arg1 harg1 arg2 harg2 arg3 harg3 arg4 harg4 arg5 harg5) K := by
  simp only [cc3__apply_main_kernel_eq_skeleton]; unfold cc3__apply_main_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and the output's at `out3_5` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant begins and ends at the class's -/

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := .rfl

/-! ## What a point writes back -/

theorem hz3 : (![0, 0] : Fin 2 → Nat) = fun _ => 0 := funext fun a => by fin_cases a <;> rfl

/-- The output tile a point writes back is the store's payload of the point's five blocks: the one store and the five
    loads are each the whole buffer. -/
theorem flushed3_5 (c : Dev nD) (t : Fin cfg3.N) :
    (dat3 V c).flushed 5 t = k3_pay1 (iblk3 V c 0 t) (iblk3 V c 1 t) (iblk3 V c 2 t) (iblk3 V c 3 t) (iblk3 V c 4 t) := by
  show (cfg3.win 5).cut (grid3.coords t) ((dat3 V c).after 5 t) = _
  rw [after3_5]
  unfold out3_5
  rw [View.canon_unit_zero hz3]
  simp only [View.ld_unit_zero (S := S2048x256) hz3, View.ld_unit_zero (S := S1x256) hz3]
  rfl

end Cert.Kernel.Hand

end
-- ==== Proof.K.Main.lean ====
/-
  The program's run: four kernel regions after one stretch of host operations.

  Between two items a core holds every unscoped buffer whole at a valuation. The host stretch moves the launch
  contents along its operations' fold. Each region is entered at the valuation before it and left at the valuation
  that has the region's output arrays at what its write-backs leave and every other buffer as entered: region 0 leaves
  the relation's column mean and variance, region 1 the hidden array and its statistics, region 2 the mixed array
  and its statistics, region 3 the result. The regions' records are chained through the conditional run, whose post
  names the result array's last contents beside the unchanged arguments.
-/
import proofs.«145083_j84052509982728_1_alg».proof.Proof.K.RunCond
import proofs.«145083_j84052509982728_1_alg».proof.Proof.LibRegionHeld
import proofs.«145083_j84052509982728_1_alg».proof.Proof.K.Reg0
import proofs.«145083_j84052509982728_1_alg».proof.Proof.K.Reg1
import proofs.«145083_j84052509982728_1_alg».proof.Proof.K.Reg2
import proofs.«145083_j84052509982728_1_alg».proof.Proof.K.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each region leaves, and the contents between the items -/

section Run

variable (m : (ℓ : Loc nD τ sig) → Buf (Elt F) ℓ)

/-- A valuation read at the TensorCore's references: the parameter a region's proof data take. -/
abbrev asV (W : Dev nD → Valuation τ sig (Elt F)) : (c : Dev nD) → (b : Ref sig .tc) → Buf (Elt F) ((c : Thread nD τ).loc b) :=
  fun c b => W c b

/-- What region 0 leaves in the two statistics arrays (every other reference: as entered). -/
def o2 (c : Dev nD) (r : Ref sig .tc) : Buf (Elt F) ((c : Thread nD τ).loc r) :=
  if h : r = main_v21_0 then h ▸ (show Buf (Elt F) ((c : Thread nD τ).loc main_v21_0) from (dat0 (asV (Gen.V1 m)) c).arrAt 2 cfg0.N)
  else if h : r = main_v21_1 then h ▸ (show Buf (Elt F) ((c : Thread nD τ).loc main_v21_1) from (dat0 (asV (Gen.V1 m)) c).arrAt 3 cfg0.N)
  else Gen.V1 m c r

/-- The contents after region 0. -/
abbrev U2 (c : Dev nD) : Valuation τ sig (Elt F) :=
  Function.update (Function.update (Gen.V1 m c) main_v21_0 (o2 m c main_v21_0)) main_v21_1 (o2 m c main_v21_1)

/-- What region 1 leaves in the hidden array and its two statistics arrays. -/
def o3 (c : Dev nD) (r : Ref sig .tc) : Buf (Elt F) ((c : Thread nD τ).loc r) :=
  if h : r = main_v22_0 then h ▸ (show Buf (Elt F) ((c : Thread nD τ).loc main_v22_0) from (dat1 (asV (U2 m)) c).arrAt 8 cfg1.N)
  else if h : r = main_v22_1 then h ▸ (show Buf (Elt F) ((c : Thread nD τ).loc main_v22_1) from (dat1 (asV (U2 m)) c).arrAt 9 cfg1.N)
  else if h : r = main_v22_2 then h ▸ (show Buf (Elt F) ((c : Thread nD τ).loc main_v22_2) from (dat1 (asV (U2 m)) c).arrAt 10 cfg1.N)
  else U2 m c r

/-- The contents after region 1. -/
abbrev U3 (c : Dev nD) : Valuation τ sig (Elt F) :=
  Function.update (Function.update (Function.update (U2 m c) main_v22_0 (o3 m c main_v22_0)) main_v22_1 (o3 m c main_v22_1)) main_v22_2 (o3 m c main_v22_2)

/-- What region 2 leaves in the mixed array and its two statistics arrays. -/
def o4 (c : Dev nD) (r : Ref sig .tc) : Buf (Elt F) ((c : Thread nD τ).loc r) :=
  if h : r = main_v23_0 then h ▸ (show Buf (Elt F) ((c : Thread nD τ).loc main_v23_0) from (dat2 (asV (U3 m)) c).arrAt 10 cfg2.N)
  else if h : r = main_v23_1 then h ▸ (show Buf (Elt F) ((c : Thread nD τ).loc main_v23_1) from (dat2 (asV (U3 m)) c).arrAt 11 cfg2.N)
  else if h : r = main_v23_2 then h ▸ (show Buf (Elt F) ((c : Thread nD τ).loc main_v23_2) from (dat2 (asV (U3 m)) c).arrAt 12 cfg2.N)
  else U3 m c r

/-- The contents after region 2. -/
abbrev U4 (c : Dev nD) : Valuation τ sig (Elt F) :=
  Function.update (Function.update (Function.update (U3 m c) main_v23_0 (o4 m c main_v23_0)) main_v23_1 (o4 m c main_v23_1)) main_v23_2 (o4 m c main_v23_2)

/-- What region 3 leaves in the result array. -/
def o5 (c : Dev nD) (r : Ref sig .tc) : Buf (Elt F) ((c : Thread nD τ).loc r) :=
  if h : r = main_v24 then h ▸ (show Buf (Elt F) ((c : Thread nD τ).loc main_v24) from (dat3 (asV (U4 m)) c).arrAt 5 cfg3.N)
  else U4 m c r

/-- What the regions leave, item by item (the family the generated valuations are written over). -/
def outs : Gen.Outs (F := F) := fun J r c =>
  match J with
  | 2 => o2 m c r
  | 3 => o3 m c r
  | 4 => o4 m c r
  | 5 => o5 m c r
  | _ => Gen.V1 m c r

theorem V2_eq (c : Dev nD) : Gen.V2 m (outs m) c = U2 m c := rfl
theorem V3_eq (c : Dev nD) : Gen.V3 m (outs m) c = U3 m c := rfl
theorem V4_eq (c : Dev nD) : Gen.V4 m (outs m) c = U4 m c := rfl

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (asV (Gen.V1 m)) c
  | ⟨1, _⟩ => fun c => dat1 (asV (U2 m)) c
  | ⟨2, _⟩ => fun c => dat2 (asV (U3 m)) c
  | ⟨3, _⟩ => fun c => dat3 (asV (U4 m)) c

end Run

/-! ## The regions as segments over the valuations between the items -/

section Segs

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0

/-! ### Region 0 -/

theorem hF0_0 (c : Dev nD) : (dat0 (asV (Gen.V1 m)) c).arrAt 0 cfg0.N = Gen.V2 m (outs m) c (Proc.devRef .tc main_arg1) :=
  ((dat0 (asV (Gen.V1 m)) c).arrAt_in 0 rfl _).trans ((A_eq0 (asV (Gen.V1 m)) c 0).trans (Gen.V2_of m (outs m) c main_arg1 (by decide)).symm)
theorem hF0_1 (c : Dev nD) : (dat0 (asV (Gen.V1 m)) c).arrAt 1 cfg0.N = Gen.V2 m (outs m) c (Proc.devRef .tc main_v6) :=
  ((dat0 (asV (Gen.V1 m)) c).arrAt_in 1 rfl _).trans ((A_eq0 (asV (Gen.V1 m)) c 1).trans (Gen.V2_of m (outs m) c main_v6 (by decide)).symm)
theorem hF0_2 (c : Dev nD) : (dat0 (asV (Gen.V1 m)) c).arrAt 2 cfg0.N = Gen.V2 m (outs m) c (Proc.devRef .tc main_v21_0) := by
  show _ = U2 m c main_v21_0
  unfold U2
  rw [Function.update_of_ne (StableHlo.devRef_ne_of_ne (by decide)), Function.update_self]
  unfold o2; rw [dif_pos rfl]; try rfl
theorem hF0_3 (c : Dev nD) : (dat0 (asV (Gen.V1 m)) c).arrAt 3 cfg0.N = Gen.V2 m (outs m) c (Proc.devRef .tc main_v21_1) := by
  show _ = U2 m c main_v21_1
  unfold U2
  rw [Function.update_self]
  unfold o2; rw [dif_neg (by decide), dif_pos rfl]; try rfl

/-- Region 0 returns its two input arrays as entered and its two statistics arrays at what the last point wrote back. -/
theorem hF0 (c : Dev nD) : ∀ w : Fin cfg0.W,
    (dat0 (asV (Gen.V1 m)) c).arrAt w cfg0.N = Gen.V2 m (outs m) c (Proc.devRef .tc (Pipeline.arrRef spec0 w))
  | ⟨0, _⟩ => hF0_0 m c
  | ⟨1, _⟩ => hF0_1 m c
  | ⟨2, _⟩ => hF0_2 m c
  | ⟨3, _⟩ => hF0_3 m c

theorem hrest0 (c : Dev nD) (b : Ref sig .tc) (hb : b ∉ Finset.univ.image (Pipeline.arrRef spec0)) :
    Gen.V2 m (outs m) c (Proc.devRef .tc b) = Gen.V1 m c (Proc.devRef .tc b) :=
  Gen.V2_of m (outs m) c b fun h => hb (by
    simp only [List.mem_cons, List.mem_nil_iff, or_false] at h
    rcases h with rfl | rfl
    · exact Finset.mem_image.mpr ⟨2, Finset.mem_univ _, rfl⟩
    · exact Finset.mem_image.mpr ⟨3, Finset.mem_univ _, rfl⟩)

set_option backward.isDefEq.respectTransparency.types false in
/-- Region 0 over the valuations before and after it. -/
def reg0 : Pipeline.RegionSeg (pcfgs (F := F)) Gen.adm (pdats m) () defs₀ Variants.none L lv 0 :=
  Pipeline.RegionSeg.ofHeld (pcfgs (F := F)) Gen.adm (pdats m) defs₀ Variants.none L lv 0
    winFacts0 block_pos0 arr_whole0 stage_whole0
    (fun c => Pipeline.emp_prefHeld_of_no_table _ rfl c _ _)
    (fun c => body_obligation0 (asV (Gen.V1 m)) c)
    (fun _ _ => rfl) (fun _ _ => rfl) (fun _ => rfl)
    (Gen.V1 m) (Gen.V2 m (outs m))
    (fun c w => A_eq0 (asV (Gen.V1 m)) c w) (hF0 m) (hrest0 m)
    (fun c => hin0 (asV (Gen.V1 m)) c) (fun c => hout0 (asV (Gen.V1 m)) c)

/-! ### Region 1 -/

theorem hF1_0 (c : Dev nD) : (dat1 (asV (U2 m)) c).arrAt 0 cfg1.N = Gen.V3 m (outs m) c (Proc.devRef .tc main_arg1) :=
  ((dat1 (asV (U2 m)) c).arrAt_in 0 rfl _).trans ((A_eq1 (asV (U2 m)) c 0).trans (Gen.V3_of m (outs m) c main_arg1 (by decide)).symm)
theorem hF1_1 (c : Dev nD) : (dat1 (asV (U2 m)) c).arrAt 1 cfg1.N = Gen.V3 m (outs m) c (Proc.devRef .tc main_v6) :=
  ((dat1 (asV (U2 m)) c).arrAt_in 1 rfl _).trans ((A_eq1 (asV (U2 m)) c 1).trans (Gen.V3_of m (outs m) c main_v6 (by decide)).symm)
theorem hF1_2 (c : Dev nD) : (dat1 (asV (U2 m)) c).arrAt 2 cfg1.N = Gen.V3 m (outs m) c (Proc.devRef .tc main_v21_0) :=
  ((dat1 (asV (U2 m)) c).arrAt_in 2 rfl _).trans ((A_eq1 (asV (U2 m)) c 2).trans (Gen.V3_of m (outs m) c main_v21_0 (by decide)).symm)
theorem hF1_3 (c : Dev nD) : (dat1 (asV (U2 m)) c).arrAt 3 cfg1.N = Gen.V3 m (outs m) c (Proc.devRef .tc main_v21_1) :=
  ((dat1 (asV (U2 m)) c).arrAt_in 3 rfl _).trans ((A_eq1 (asV (U2 m)) c 3).trans (Gen.V3_of m (outs m) c main_v21_1 (by decide)).symm)
theorem hF1_4 (c : Dev nD) : (dat1 (asV (U2 m)) c).arrAt 4 cfg1.N = Gen.V3 m (outs m) c (Proc.devRef .tc main_v7) :=
  ((dat1 (asV (U2 m)) c).arrAt_in 4 rfl _).trans ((A_eq1 (asV (U2 m)) c 4).trans (Gen.V3_of m (outs m) c main_v7 (by decide)).symm)
theorem hF1_5 (c : Dev nD) : (dat1 (asV (U2 m)) c).arrAt 5 cfg1.N = Gen.V3 m (outs m) c (Proc.devRef .tc main_v8) :=
  ((dat1 (asV (U2 m)) c).arrAt_in 5 rfl _).trans ((A_eq1 (asV (U2 m)) c 5).trans (Gen.V3_of m (outs m) c main_v8 (by decide)).symm)
theorem hF1_6 (c : Dev nD) : (dat1 (asV (U2 m)) c).arrAt 6 cfg1.N = Gen.V3 m (outs m) c (Proc.devRef .tc main_v16) :=
  ((dat1 (asV (U2 m)) c).arrAt_in 6 rfl _).trans ((A_eq1 (asV (U2 m)) c 6).trans (Gen.V3_of m (outs m) c main_v16 (by decide)).symm)
theorem hF1_7 (c : Dev nD) : (dat1 (asV (U2 m)) c).arrAt 7 cfg1.N = Gen.V3 m (outs m) c (Proc.devRef .tc main_v13) :=
  ((dat1 (asV (U2 m)) c).arrAt_in 7 rfl _).trans ((A_eq1 (asV (U2 m)) c 7).trans (Gen.V3_of m (outs m) c main_v13 (by decide)).symm)
theorem hF1_8 (c : Dev nD) : (dat1 (asV (U2 m)) c).arrAt 8 cfg1.N = Gen.V3 m (outs m) c (Proc.devRef .tc main_v22_0) := by
  show _ = U3 m c main_v22_0
  unfold U3
  rw [Function.update_of_ne (StableHlo.devRef_ne_of_ne (by decide)), Function.update_of_ne (StableHlo.devRef_ne_of_ne (by decide)), Function.update_self]
  unfold o3; rw [dif_pos rfl]; try rfl
theorem hF1_9 (c : Dev nD) : (dat1 (asV (U2 m)) c).arrAt 9 cfg1.N = Gen.V3 m (outs m) c (Proc.devRef .tc main_v22_1) := by
  show _ = U3 m c main_v22_1
  unfold U3
  rw [Function.update_of_ne (StableHlo.devRef_ne_of_ne (by decide)), Function.update_self]
  unfold o3; rw [dif_neg (by decide), dif_pos rfl]; try rfl
theorem hF1_10 (c : Dev nD) : (dat1 (asV (U2 m)) c).arrAt 10 cfg1.N = Gen.V3 m (outs m) c (Proc.devRef .tc main_v22_2) := by
  show _ = U3 m c main_v22_2
  unfold U3
  rw [Function.update_self]
  unfold o3; rw [dif_neg (by decide), dif_neg (by decide), dif_pos rfl]; try rfl

/-- Region 1 returns its eight input arrays as entered, the hidden array at its tiles' write-backs and the two statistics arrays at what the last point wrote back. -/
theorem hF1 (c : Dev nD) : ∀ w : Fin cfg1.W,
    (dat1 (asV (U2 m)) c).arrAt w cfg1.N = Gen.V3 m (outs m) c (Proc.devRef .tc (Pipeline.arrRef spec1 w))
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => hF1_7 m c
  | ⟨8, _⟩ => hF1_8 m c
  | ⟨9, _⟩ => hF1_9 m c
  | ⟨10, _⟩ => hF1_10 m c

theorem hrest1 (c : Dev nD) (b : Ref sig .tc) (hb : b ∉ Finset.univ.image (Pipeline.arrRef spec1)) :
    Gen.V3 m (outs m) c (Proc.devRef .tc b) = Gen.V2 m (outs m) c (Proc.devRef .tc b) :=
  Gen.V3_of m (outs m) c b fun h => hb (by
    simp only [List.mem_cons, List.mem_nil_iff, or_false] at h
    rcases h with rfl | rfl | rfl
    · exact Finset.mem_image.mpr ⟨8, Finset.mem_univ _, rfl⟩
    · exact Finset.mem_image.mpr ⟨9, Finset.mem_univ _, rfl⟩
    · exact Finset.mem_image.mpr ⟨10, Finset.mem_univ _, rfl⟩)

set_option backward.isDefEq.respectTransparency.types false in
/-- Region 1 over the valuations before and after it. -/
def reg1 : Pipeline.RegionSeg (pcfgs (F := F)) Gen.adm (pdats m) () defs₀ Variants.none L lv 1 :=
  Pipeline.RegionSeg.ofHeld (pcfgs (F := F)) Gen.adm (pdats m) defs₀ Variants.none L lv 1
    winFacts1 block_pos1 arr_whole1 stage_whole1
    (fun c => Pipeline.emp_prefHeld_of_no_table _ rfl c _ _)
    (fun c => body_obligation1 (asV (U2 m)) c)
    (fun _ _ => rfl) (fun _ _ => rfl) (fun _ => rfl)
    (Gen.V2 m (outs m)) (Gen.V3 m (outs m))
    (fun c w => A_eq1 (asV (U2 m)) c w) (hF1 m) (hrest1 m)
    (fun c => hin1 (asV (U2 m)) c) (fun c => hout1 (asV (U2 m)) c)

/-! ### Region 2 -/

theorem hF2_0 (c : Dev nD) : (dat2 (asV (U3 m)) c).arrAt 0 cfg2.N = Gen.V4 m (outs m) c (Proc.devRef .tc main_v22_0) :=
  ((dat2 (asV (U3 m)) c).arrAt_in 0 rfl _).trans ((A_eq2 (asV (U3 m)) c 0).trans (Gen.V4_of m (outs m) c main_v22_0 (by decide)).symm)
theorem hF2_1 (c : Dev nD) : (dat2 (asV (U3 m)) c).arrAt 1 cfg2.N = Gen.V4 m (outs m) c (Proc.devRef .tc main_v6) :=
  ((dat2 (asV (U3 m)) c).arrAt_in 1 rfl _).trans ((A_eq2 (asV (U3 m)) c 1).trans (Gen.V4_of m (outs m) c main_v6 (by decide)).symm)
theorem hF2_2 (c : Dev nD) : (dat2 (asV (U3 m)) c).arrAt 2 cfg2.N = Gen.V4 m (outs m) c (Proc.devRef .tc main_arg1) :=
  ((dat2 (asV (U3 m)) c).arrAt_in 2 rfl _).trans ((A_eq2 (asV (U3 m)) c 2).trans (Gen.V4_of m (outs m) c main_arg1 (by decide)).symm)
theorem hF2_3 (c : Dev nD) : (dat2 (asV (U3 m)) c).arrAt 3 cfg2.N = Gen.V4 m (outs m) c (Proc.devRef .tc main_v22_1) :=
  ((dat2 (asV (U3 m)) c).arrAt_in 3 rfl _).trans ((A_eq2 (asV (U3 m)) c 3).trans (Gen.V4_of m (outs m) c main_v22_1 (by decide)).symm)
theorem hF2_4 (c : Dev nD) : (dat2 (asV (U3 m)) c).arrAt 4 cfg2.N = Gen.V4 m (outs m) c (Proc.devRef .tc main_v22_2) :=
  ((dat2 (asV (U3 m)) c).arrAt_in 4 rfl _).trans ((A_eq2 (asV (U3 m)) c 4).trans (Gen.V4_of m (outs m) c main_v22_2 (by decide)).symm)
theorem hF2_5 (c : Dev nD) : (dat2 (asV (U3 m)) c).arrAt 5 cfg2.N = Gen.V4 m (outs m) c (Proc.devRef .tc main_v9) :=
  ((dat2 (asV (U3 m)) c).arrAt_in 5 rfl _).trans ((A_eq2 (asV (U3 m)) c 5).trans (Gen.V4_of m (outs m) c main_v9 (by decide)).symm)
theorem hF2_6 (c : Dev nD) : (dat2 (asV (U3 m)) c).arrAt 6 cfg2.N = Gen.V4 m (outs m) c (Proc.devRef .tc main_v10) :=
  ((dat2 (asV (U3 m)) c).arrAt_in 6 rfl _).trans ((A_eq2 (asV (U3 m)) c 6).trans (Gen.V4_of m (outs m) c main_v10 (by decide)).symm)
theorem hF2_7 (c : Dev nD) : (dat2 (asV (U3 m)) c).arrAt 7 cfg2.N = Gen.V4 m (outs m) c (Proc.devRef .tc main_v18) :=
  ((dat2 (asV (U3 m)) c).arrAt_in 7 rfl _).trans ((A_eq2 (asV (U3 m)) c 7).trans (Gen.V4_of m (outs m) c main_v18 (by decide)).symm)
theorem hF2_8 (c : Dev nD) : (dat2 (asV (U3 m)) c).arrAt 8 cfg2.N = Gen.V4 m (outs m) c (Proc.devRef .tc main_v14) :=
  ((dat2 (asV (U3 m)) c).arrAt_in 8 rfl _).trans ((A_eq2 (asV (U3 m)) c 8).trans (Gen.V4_of m (outs m) c main_v14 (by decide)).symm)
theorem hF2_9 (c : Dev nD) : (dat2 (asV (U3 m)) c).arrAt 9 cfg2.N = Gen.V4 m (outs m) c (Proc.devRef .tc main_v20) :=
  ((dat2 (asV (U3 m)) c).arrAt_in 9 rfl _).trans ((A_eq2 (asV (U3 m)) c 9).trans (Gen.V4_of m (outs m) c main_v20 (by decide)).symm)
theorem hF2_10 (c : Dev nD) : (dat2 (asV (U3 m)) c).arrAt 10 cfg2.N = Gen.V4 m (outs m) c (Proc.devRef .tc main_v23_0) := by
  show _ = U4 m c main_v23_0
  unfold U4
  rw [Function.update_of_ne (StableHlo.devRef_ne_of_ne (by decide)), Function.update_of_ne (StableHlo.devRef_ne_of_ne (by decide)), Function.update_self]
  unfold o4; rw [dif_pos rfl]; try rfl
theorem hF2_11 (c : Dev nD) : (dat2 (asV (U3 m)) c).arrAt 11 cfg2.N = Gen.V4 m (outs m) c (Proc.devRef .tc main_v23_1) := by
  show _ = U4 m c main_v23_1
  unfold U4
  rw [Function.update_of_ne (StableHlo.devRef_ne_of_ne (by decide)), Function.update_self]
  unfold o4; rw [dif_neg (by decide), dif_pos rfl]; try rfl
theorem hF2_12 (c : Dev nD) : (dat2 (asV (U3 m)) c).arrAt 12 cfg2.N = Gen.V4 m (outs m) c (Proc.devRef .tc main_v23_2) := by
  show _ = U4 m c main_v23_2
  unfold U4
  rw [Function.update_self]
  unfold o4; rw [dif_neg (by decide), dif_neg (by decide), dif_pos rfl]; try rfl

/-- Region 2 returns its ten input arrays as entered, the mixed array at its tiles' write-backs and the two statistics arrays at what the last point wrote back. -/
theorem hF2 (c : Dev nD) : ∀ w : Fin cfg2.W,
    (dat2 (asV (U3 m)) c).arrAt w cfg2.N = Gen.V4 m (outs m) c (Proc.devRef .tc (Pipeline.arrRef spec2 w))
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c
  | ⟨8, _⟩ => hF2_8 m c
  | ⟨9, _⟩ => hF2_9 m c
  | ⟨10, _⟩ => hF2_10 m c
  | ⟨11, _⟩ => hF2_11 m c
  | ⟨12, _⟩ => hF2_12 m c

theorem hrest2 (c : Dev nD) (b : Ref sig .tc) (hb : b ∉ Finset.univ.image (Pipeline.arrRef spec2)) :
    Gen.V4 m (outs m) c (Proc.devRef .tc b) = Gen.V3 m (outs m) c (Proc.devRef .tc b) :=
  Gen.V4_of m (outs m) c b fun h => hb (by
    simp only [List.mem_cons, List.mem_nil_iff, or_false] at h
    rcases h with rfl | rfl | rfl
    · exact Finset.mem_image.mpr ⟨10, Finset.mem_univ _, rfl⟩
    · exact Finset.mem_image.mpr ⟨11, Finset.mem_univ _, rfl⟩
    · exact Finset.mem_image.mpr ⟨12, Finset.mem_univ _, rfl⟩)

set_option backward.isDefEq.respectTransparency.types false in
/-- Region 2 over the valuations before and after it. -/
def reg2 : Pipeline.RegionSeg (pcfgs (F := F)) Gen.adm (pdats m) () defs₀ Variants.none L lv 2 :=
  Pipeline.RegionSeg.ofHeld (pcfgs (F := F)) Gen.adm (pdats m) defs₀ Variants.none L lv 2
    winFacts2 block_pos2 arr_whole2 stage_whole2
    (fun c => Pipeline.emp_prefHeld_of_no_table _ rfl c _ _)
    (fun c => body_obligation2 (asV (U3 m)) c)
    (fun _ _ => rfl) (fun _ _ => rfl) (fun _ => rfl)
    (Gen.V3 m (outs m)) (Gen.V4 m (outs m))
    (fun c w => A_eq2 (asV (U3 m)) c w) (hF2 m) (hrest2 m)
    (fun c => hin2 (asV (U3 m)) c) (fun c => hout2 (asV (U3 m)) c)

/-! ### Region 3 -/

theorem hF3_0 (c : Dev nD) : (dat3 (asV (U4 m)) c).arrAt 0 cfg3.N = Gen.V5 m (outs m) c (Proc.devRef .tc main_v23_0) :=
  ((dat3 (asV (U4 m)) c).arrAt_in 0 rfl _).trans ((A_eq3 (asV (U4 m)) c 0).trans (Gen.V5_of m (outs m) c main_v23_0 (by decide)).symm)
theorem hF3_1 (c : Dev nD) : (dat3 (asV (U4 m)) c).arrAt 1 cfg3.N = Gen.V5 m (outs m) c (Proc.devRef .tc main_v23_1) :=
  ((dat3 (asV (U4 m)) c).arrAt_in 1 rfl _).trans ((A_eq3 (asV (U4 m)) c 1).trans (Gen.V5_of m (outs m) c main_v23_1 (by decide)).symm)
theorem hF3_2 (c : Dev nD) : (dat3 (asV (U4 m)) c).arrAt 2 cfg3.N = Gen.V5 m (outs m) c (Proc.devRef .tc main_v23_2) :=
  ((dat3 (asV (U4 m)) c).arrAt_in 2 rfl _).trans ((A_eq3 (asV (U4 m)) c 2).trans (Gen.V5_of m (outs m) c main_v23_2 (by decide)).symm)
theorem hF3_3 (c : Dev nD) : (dat3 (asV (U4 m)) c).arrAt 3 cfg3.N = Gen.V5 m (outs m) c (Proc.devRef .tc main_v11) :=
  ((dat3 (asV (U4 m)) c).arrAt_in 3 rfl _).trans ((A_eq3 (asV (U4 m)) c 3).trans (Gen.V5_of m (outs m) c main_v11 (by decide)).symm)
theorem hF3_4 (c : Dev nD) : (dat3 (asV (U4 m)) c).arrAt 4 cfg3.N = Gen.V5 m (outs m) c (Proc.devRef .tc main_v12) :=
  ((dat3 (asV (U4 m)) c).arrAt_in 4 rfl _).trans ((A_eq3 (asV (U4 m)) c 4).trans (Gen.V5_of m (outs m) c main_v12 (by decide)).symm)
theorem hF3_5 (c : Dev nD) : (dat3 (asV (U4 m)) c).arrAt 5 cfg3.N = Gen.V5 m (outs m) c (Proc.devRef .tc main_v24) := by
  show _ = Function.update (U4 m c) main_v24 (o5 m c main_v24) main_v24
  rw [Function.update_self]
  unfold o5; rw [dif_pos rfl]; try rfl

/-- Region 3 returns its five input arrays as entered and the result array at its tiles' write-backs. -/
theorem hF3 (c : Dev nD) : ∀ w : Fin cfg3.W,
    (dat3 (asV (U4 m)) c).arrAt w cfg3.N = Gen.V5 m (outs m) c (Proc.devRef .tc (Pipeline.arrRef spec3 w))
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c

theorem hrest3 (c : Dev nD) (b : Ref sig .tc) (hb : b ∉ Finset.univ.image (Pipeline.arrRef spec3)) :
    Gen.V5 m (outs m) c (Proc.devRef .tc b) = Gen.V4 m (outs m) c (Proc.devRef .tc b) :=
  Gen.V5_of m (outs m) c b fun h => hb (by
    simp only [List.mem_cons, List.mem_nil_iff, or_false] at h
    obtain rfl := h
    exact Finset.mem_image.mpr ⟨5, Finset.mem_univ _, rfl⟩)

set_option backward.isDefEq.respectTransparency.types false in
/-- Region 3 over the valuations before and after it. -/
def reg3 : Pipeline.RegionSeg (pcfgs (F := F)) Gen.adm (pdats m) () defs₀ Variants.none L lv 3 :=
  Pipeline.RegionSeg.ofHeld (pcfgs (F := F)) Gen.adm (pdats m) defs₀ Variants.none L lv 3
    winFacts3 block_pos3 arr_whole3 stage_whole3
    (fun c => Pipeline.emp_prefHeld_of_no_table _ rfl c _ _)
    (fun c => body_obligation3 (asV (U4 m)) c)
    (fun _ _ => rfl) (fun _ _ => rfl) (fun _ => rfl)
    (Gen.V4 m (outs m)) (Gen.V5 m (outs m))
    (fun c w => A_eq3 (asV (U4 m)) c w) (hF3 m) (hrest3 m)
    (fun c => hin3 (asV (U4 m)) c) (fun c => hout3 (asV (U4 m)) c)

end Segs

/-! ## The run -/

section TheRun

variable (m : (ℓ : Loc nD τ sig) → Buf (Elt F) ℓ) (ρ : Dev nD → PrngReg)

-- the conditional run's implicit arguments are found by unifying its conclusion with this one, which takes unfolding
-- plain definitions in a metavariable's type
set_option backward.isDefEq.respectTransparency.types false in
/-- THE RUN. From any memory with zero counters every weakly fair execution of the main function terminates, the
    result array ends at the last valuation's contents (what region 3's write-backs leave: `V5_result`), and every
    argument array ends as launched. -/
theorem run_main : θ_run defs (onTc (τ := τ) (main (F := F))) ⟨m, fun _ => 0, ρ⟩ (fun r => ∀ c : Dev nD,
      r.2.mem ((c.tc : Thread nD τ).loc main_v24) = Gen.V5 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.run_cond m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Pipeline.idleRest c)
    (hE0 := by
      refine Pipeline.initEach L lv fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)

/-- The result array's last contents are what region 3's write-backs leave. -/
theorem V5_result (c : Dev nD) : Gen.V5 m (outs m) c main_v24 = (dat3 (asV (U4 m)) c).arrAt 5 cfg3.N := by
  show Function.update (U4 m c) main_v24 (o5 m c main_v24) main_v24 = _
  rw [Function.update_self]
  unfold o5; rw [dif_pos rfl]; try rfl

end TheRun

end Cert.Kernel.Hand

end
-- ==== Proof.KI.Reg0Runs.lean ====
import proofs.«145083_j84052509982728_1_alg».proof.Proof.Gen.KernelIdeal.Launch
import proofs.«145083_j84052509982728_1_alg».proof.Proof.Gen.KernelIdeal.Skeleton
import proofs.«145083_j84052509982728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the statistics kernel): what its three control cases share -/

section Blocks

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's staging buffer holds its block of the array at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the gathered tile. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's two conditions on the grid coordinate -/

/-- The first conditional's test: the grid coordinate is 0 (the accumulators are reset). -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 128 = 0 :=
  (by decide +kernel : ∀ t : Fin grid0.N, cond0_0 (grid0.coords t) ↔ t.val % 128 = 0)

/-- The second conditional's test: the grid coordinate is 127 (the statistics are written out). -/
abbrev cond0_1 (i : grid0.Coords) : Prop := k0_cond2 i = 1#1
/-- It holds at point 127 only. -/
theorem hcond0_1 : ∀ t : Fin cfg0.N, cond0_1 (grid0.coords t) ↔ t.val % 128 = 127 :=
  (by decide +kernel : ∀ t : Fin grid0.N, cond0_1 (grid0.coords t) ↔ t.val % 128 = 127)

/-! ## Where the windows are idle -/

/-- The two input tiles are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point nothing is stored into the mean's block and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it is stored. -/
theorem liveAt0_2 : ∀ t : Fin cfg0.N, cond0_1 (grid0.coords t) → cfg0.idle 2 (grid0.coords t) = false := by decide +kernel
/-- The same for the variance's block. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called on -/

/-- Each window's current staging memref at point t, as the body is called on it, and its wholeness. -/
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
/-- The two accumulators: whole scoped buffers of the kernel's own (the columns' sums; the sums of squares). -/
abbrev scM0_0 : Memref sig .tc .vmem S1x256 .f32 := Memref.whole cc0_scratch0
abbrev scM0_1 : Memref sig .tc .vmem S1x256 .f32 := Memref.whole cc0_scratch1
/-- The views through which the accumulators' and the two outputs' contents are stated. -/
abbrev VS0_0 : View sig .tc .vmem S1x256 .f32 := scM0_0.view
abbrev VS0_1 : View sig .tc .vmem S1x256 .f32 := scM0_1.view
abbrev VO0_2 : View sig .tc .vmem S1x256 .f32 := (Memref.whole cc0_stg2_0 : Memref sig .tc .vmem S1x256 .f32).view
abbrev VO0_3 : View sig .tc .vmem S1x256 .f32 := (Memref.whole cc0_stg3_0 : Memref sig .tc .vmem S1x256 .f32).view

/-- The class invariant with the two accumulators as memrefs owned at some contents, the other scoped buffers
    unopened beside them. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KI.Reg0RunA.lean ====
import proofs.«145083_j84052509982728_1_alg».proof.Proof.KI.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT THE FIRST POINT (the reset taken, the write-out not). On whole memrefs — the two tiles at `x0`, `x1`,
    the two statistics blocks at contents handed back untouched, the two accumulators at anything — the body runs to
    the continuation holding the tiles and the statistics blocks as they were and each accumulator with the pieces
    its stores wrote (the reset, then the update; found by the run). -/
noncomputable def kernelRun0_A (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : cond0_0 i) (hc1 : ¬cond0_1 i)
    (x0 : Vec F S2048x256 .f32) (x1 : Vec F S2048x256 .f32) :
    Σ' (LS0 : List (View.Piece (Elt F) S1x256 .f32)), { LS1 : List (View.Piece (Elt F) S1x256 .f32) //
      ∀ (xi2 : Vec F S1x256 .f32) (xi3 : Vec F S1x256 .f32) (E : Set ℕ) (K : PUnit → sProp 𝕄),
        iprop(owns (c : Thread nD τ) arg1 fullShare x0 ∗ owns (c : Thread nD τ) arg2 fullShare x1
            ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, fun xi2 xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1
    obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.Reg0RunB.lean ====
import proofs.«145083_j84052509982728_1_alg».proof.Proof.KI.Reg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A MIDDLE POINT (neither conditional taken). On whole memrefs — the two tiles at `x0`, `x1`, the two
    statistics blocks at contents handed back untouched, the two accumulators at what the point before left
    (`xs0`, `xs1`) — the body runs to the continuation holding the tiles and the statistics blocks as they were and
    each accumulator with the pieces its stores wrote (found by the run). -/
noncomputable def kernelRun0_B (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : ¬cond0_1 i)
    (x0 : Vec F S2048x256 .f32) (x1 : Vec F S2048x256 .f32) (xs0 : Vec F S1x256 .f32) (xs1 : Vec F S1x256 .f32) :
    Σ' (LS0 : List (View.Piece (Elt F) S1x256 .f32)), { LS1 : List (View.Piece (Elt F) S1x256 .f32) //
      ∀ (xi2 : Vec F S1x256 .f32) (xi3 : Vec F S1x256 .f32) (E : Set ℕ) (K : PUnit → sProp 𝕄),
        iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, fun xi2 xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1
    obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.Reg0RunC.lean ====
import proofs.«145083_j84052509982728_1_alg».proof.Proof.KI.Reg0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT THE LAST POINT (the reset not taken, the write-out taken). On whole memrefs — the two tiles at `x0`,
    `x1`, the two statistics blocks at anything, the two accumulators at what the point before left (`xs0`, `xs1`) — the
    body runs to the continuation holding the tiles as they were and each statistics block and each accumulator with
    the pieces its stores wrote (found by the run). -/
noncomputable def kernelRun0_C (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i)
    (x0 : Vec F S2048x256 .f32) (x1 : Vec F S2048x256 .f32) (xs0 : Vec F S1x256 .f32) (xs1 : Vec F S1x256 .f32) :
    Σ' (L2 : List (View.Piece (Elt F) S1x256 .f32)) (L3 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.Reg0.lean ====
import proofs.«145083_j84052509982728_1_alg».proof.Proof.KI.Reg0RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave: the pieces the runs found, read as the skeleton's payloads -/

/-- The zero offsets of a whole-buffer access, in either shape. -/
theorem hzS : (![0, 0] : Fin S1x256.rank → ℕ) = fun _ => 0 := by funext a; fin_cases a <;> rfl
theorem hzT : (![0, 0] : Fin S2048x256.rank → ℕ) = fun _ => 0 := by funext a; fin_cases a <;> rfl

/-- At the first point the stores into the sums' accumulator (the reset, then the update) cover it. -/
theorem scover0_A_0 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : cond0_0 i) (hc1 : ¬cond0_1 i) (x0 : Vec F S2048x256 .f32) (x1 : Vec F S2048x256 .f32) (y : S1x256.Idx) :
    ∃ pc ∈ (kernelRun0_A c i arg1 harg1 arg2 harg2 arg3 harg3 arg4 harg4 arg5 harg5 arg6 harg6 hc0 hc1 x0 x1).1, y ∈ pc.1.set :=
  View.cover_of_tiledL (kernelRun0_A c i arg1 harg1 arg2 harg2 arg3 harg3 arg4 harg4 arg5 harg5 arg6 harg6 hc0 hc1 x0 x1).1 S1x256.size (by sl_kernel_rfl) y

/-- At the first point the stores into the squares' accumulator cover it. -/
theorem scover0_A_1 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : cond0_0 i) (hc1 : ¬cond0_1 i) (x0 : Vec F S2048x256 .f32) (x1 : Vec F S2048x256 .f32) (y : S1x256.Idx) :
    ∃ pc ∈ (kernelRun0_A c i arg1 harg1 arg2 harg2 arg3 harg3 arg4 harg4 arg5 harg5 arg6 harg6 hc0 hc1 x0 x1).2.1, y ∈ pc.1.set :=
  View.cover_of_tiledL (kernelRun0_A c i arg1 harg1 arg2 harg2 arg3 harg3 arg4 harg4 arg5 harg5 arg6 harg6 hc0 hc1 x0 x1).2.1 S1x256.size (by sl_kernel_rfl) y

/-- At a middle point the store into the sums' accumulator covers it. -/
theorem scover0_B_0 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : ¬cond0_1 i) (x0 : Vec F S2048x256 .f32) (x1 : Vec F S2048x256 .f32) (xs0 : Vec F S1x256 .f32) (xs1 : Vec F S1x256 .f32) (y : S1x256.Idx) :
    ∃ pc ∈ (kernelRun0_B c i arg1 harg1 arg2 harg2 arg3 harg3 arg4 harg4 arg5 harg5 arg6 harg6 hc0 hc1 x0 x1 xs0 xs1).1, y ∈ pc.1.set :=
  View.cover_of_tiledL (kernelRun0_B c i arg1 harg1 arg2 harg2 arg3 harg3 arg4 harg4 arg5 harg5 arg6 harg6 hc0 hc1 x0 x1 xs0 xs1).1 S1x256.size (by sl_kernel_rfl) y

/-- At a middle point the store into the squares' accumulator covers it. -/
theorem scover0_B_1 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : ¬cond0_1 i) (x0 : Vec F S2048x256 .f32) (x1 : Vec F S2048x256 .f32) (xs0 : Vec F S1x256 .f32) (xs1 : Vec F S1x256 .f32) (y : S1x256.Idx) :
    ∃ pc ∈ (kernelRun0_B c i arg1 harg1 arg2 harg2 arg3 harg3 arg4 harg4 arg5 harg5 arg6 harg6 hc0 hc1 x0 x1 xs0 xs1).2.1, y ∈ pc.1.set :=
  View.cover_of_tiledL (kernelRun0_B c i arg1 harg1 arg2 harg2 arg3 harg3 arg4 harg4 arg5 harg5 arg6 harg6 hc0 hc1 x0 x1 xs0 xs1).2.1 S1x256.size (by sl_kernel_rfl) y

/-- At the last point the store into the mean's block covers it. -/
theorem cover0_C_2 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 hc0 hc1 x0 x1 xs0 xs1).1, y ∈ pc.1.set :=
  View.cover_of_tiledL (kernelRun0_C c i arg1 harg1 arg2 harg2 arg3 harg3 arg4 harg4 arg5 harg5 arg6 harg6 hc0 hc1 x0 x1 xs0 xs1).1 S1x256.size (by sl_kernel_rfl) y

/-- At the last point the store into the variance's block covers it. -/
theorem cover0_C_3 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 hc0 hc1 x0 x1 xs0 xs1).2.1, y ∈ pc.1.set :=
  View.cover_of_tiledL (kernelRun0_C c i arg1 harg1 arg2 harg2 arg3 harg3 arg4 harg4 arg5 harg5 arg6 harg6 hc0 hc1 x0 x1 xs0 xs1).2.1 S1x256.size (by sl_kernel_rfl) y

/-- At the last point the store into the sums' accumulator covers it. -/
theorem scover0_C_0 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 hc0 hc1 x0 x1 xs0 xs1).2.2.1, y ∈ pc.1.set :=
  View.cover_of_tiledL (kernelRun0_C c i arg1 harg1 arg2 harg2 arg3 harg3 arg4 harg4 arg5 harg5 arg6 harg6 hc0 hc1 x0 x1 xs0 xs1).2.2.1 S1x256.size (by sl_kernel_rfl) y

/-- At the last point the store into the squares' accumulator covers it. -/
theorem scover0_C_1 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32) (y : S1x256.Idx) :
    ∃ pc ∈ (kernelRun0_C c i arg1 harg1 arg2 harg2 arg3 harg3 arg4 harg4 arg5 harg5 arg6 harg6 hc0 hc1 x0 x1 xs0 xs1).2.2.2.1, y ∈ pc.1.set :=
  View.cover_of_tiledL (kernelRun0_C c i arg1 harg1 arg2 harg2 arg3 harg3 arg4 harg4 arg5 harg5 arg6 harg6 hc0 hc1 x0 x1 xs0 xs1).2.2.2.1 S1x256.size (by sl_kernel_rfl) y

/-- After the first point the sums' accumulator holds the tile's column sums added to the reset value, whatever view and prior contents it is read through. -/
theorem sread0_A_0 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : cond0_0 i) (hc1 : ¬cond0_1 i) (x0 : Vec F S2048x256 .f32) (x1 : Vec F S2048x256 .f32)
    {κ : Kind} {sp : Space} (v : View sig κ sp S1x256 .f32) (f : v.ty.Contents (Elt F)) :
    v.read (Elt F) (v.writes (Elt F) f (kernelRun0_A c i arg1 harg1 arg2 harg2 arg3 harg3 arg4 harg4 arg5 harg5 arg6 harg6 hc0 hc1 x0 x1).1) = k0_pay4 x0 x1 (k0_pay1 (F := F)) := by
  rw [View.read_writes_eq_canon _ _ _ (scover0_A_0 c i arg1 harg1 arg2 harg2 arg3 harg3 arg4 harg4 arg5 harg5 arg6 harg6 hc0 hc1 x0 x1)]
  unfold kernelRun0_A
  dsimp only
  sl_unfold_words
  rw [View.canon_cons_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- After the first point the squares' accumulator holds the tile's column sums of squares added to the reset value. -/
theorem sread0_A_1 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : cond0_0 i) (hc1 : ¬cond0_1 i) (x0 : Vec F S2048x256 .f32) (x1 : Vec F S2048x256 .f32)
    {κ : Kind} {sp : Space} (v : View sig κ sp S1x256 .f32) (f : v.ty.Contents (Elt F)) :
    v.read (Elt F) (v.writes (Elt F) f (kernelRun0_A c i arg1 harg1 arg2 harg2 arg3 harg3 arg4 harg4 arg5 harg5 arg6 harg6 hc0 hc1 x0 x1).2.1) = k0_pay5 x0 x1 (k0_pay2 (F := F)) := by
  rw [View.read_writes_eq_canon _ _ _ (scover0_A_1 c i arg1 harg1 arg2 harg2 arg3 harg3 arg4 harg4 arg5 harg5 arg6 harg6 hc0 hc1 x0 x1)]
  unfold kernelRun0_A
  dsimp only
  sl_unfold_words
  rw [View.canon_cons_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- After a middle point the sums' accumulator holds the tile's column sums added to what it held. -/
theorem sread0_B_0 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : ¬cond0_1 i) (x0 : Vec F S2048x256 .f32) (x1 : Vec F S2048x256 .f32) (xs0 : Vec F S1x256 .f32) (xs1 : Vec F S1x256 .f32)
    {κ : Kind} {sp : Space} (v : View sig κ sp S1x256 .f32) (f : v.ty.Contents (Elt F)) :
    v.read (Elt F) (v.writes (Elt F) f (kernelRun0_B c i arg1 harg1 arg2 harg2 arg3 harg3 arg4 harg4 arg5 harg5 arg6 harg6 hc0 hc1 x0 x1 xs0 xs1).1) = k0_pay4 x0 x1 xs0 := by
  rw [View.read_writes_eq_canon _ _ _ (scover0_B_0 c i arg1 harg1 arg2 harg2 arg3 harg3 arg4 harg4 arg5 harg5 arg6 harg6 hc0 hc1 x0 x1 xs0 xs1)]
  unfold kernelRun0_B
  dsimp only
  sl_unfold_words
  rw [View.canon_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- After a middle point the squares' accumulator holds the tile's column sums of squares added to what it held. -/
theorem sread0_B_1 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : ¬cond0_1 i) (x0 : Vec F S2048x256 .f32) (x1 : Vec F S2048x256 .f32) (xs0 : Vec F S1x256 .f32) (xs1 : Vec F S1x256 .f32)
    {κ : Kind} {sp : Space} (v : View sig κ sp S1x256 .f32) (f : v.ty.Contents (Elt F)) :
    v.read (Elt F) (v.writes (Elt F) f (kernelRun0_B c i arg1 harg1 arg2 harg2 arg3 harg3 arg4 harg4 arg5 harg5 arg6 harg6 hc0 hc1 x0 x1 xs0 xs1).2.1) = k0_pay5 x0 x1 xs1 := by
  rw [View.read_writes_eq_canon _ _ _ (scover0_B_1 c i arg1 harg1 arg2 harg2 arg3 harg3 arg4 harg4 arg5 harg5 arg6 harg6 hc0 hc1 x0 x1 xs0 xs1)]
  unfold kernelRun0_B
  dsimp only
  sl_unfold_words
  rw [View.canon_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- After the last point the sums' accumulator holds the tile's column sums added to what it held. -/
theorem sread0_C_0 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32)
    {κ : Kind} {sp : Space} (v : View sig κ sp S1x256 .f32) (f : v.ty.Contents (Elt F)) :
    v.read (Elt F) (v.writes (Elt F) f (kernelRun0_C c i arg1 harg1 arg2 harg2 arg3 harg3 arg4 harg4 arg5 harg5 arg6 harg6 hc0 hc1 x0 x1 xs0 xs1).2.2.1) = k0_pay4 x0 x1 xs0 := by
  rw [View.read_writes_eq_canon _ _ _ (scover0_C_0 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- After the last point the squares' accumulator holds the tile's column sums of squares added to what it held. -/
theorem sread0_C_1 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32)
    {κ : Kind} {sp : Space} (v : View sig κ sp S1x256 .f32) (f : v.ty.Contents (Elt F)) :
    v.read (Elt F) (v.writes (Elt F) f (kernelRun0_C c i arg1 harg1 arg2 harg2 arg3 harg3 arg4 harg4 arg5 harg5 arg6 harg6 hc0 hc1 x0 x1 xs0 xs1).2.2.2.1) = k0_pay5 x0 x1 xs1 := by
  rw [View.read_writes_eq_canon _ _ _ (scover0_C_1 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- The last point leaves the mean's block at the final sums scaled. -/
theorem read0_C_2 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32)
    {κ : Kind} {sp : Space} (v : View sig κ sp S1x256 .f32) (f : v.ty.Contents (Elt F)) :
    v.read (Elt F) (v.writes (Elt F) f (kernelRun0_C c i arg1 harg1 arg2 harg2 arg3 harg3 arg4 harg4 arg5 harg5 arg6 harg6 hc0 hc1 x0 x1 xs0 xs1).1) = k0_pay6 (k0_pay4 x0 x1 xs0) := by
  rw [View.read_writes_eq_canon _ _ _ (cover0_C_2 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-- The last point leaves the variance's block at the final sums of squares scaled, less the mean squared. -/
theorem read0_C_3 (c : Dev nD) (i : grid0.Coords) (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (hc0 : ¬cond0_0 i) (hc1 : cond0_1 i) (x0 : Vec F S2048x256 .f32) (x1 : Vec F S2048x256 .f32) (xs0 : Vec F S1x256 .f32) (xs1 : Vec F S1x256 .f32)
    {κ : Kind} {sp : Space} (v : View sig κ sp S1x256 .f32) (f : v.ty.Contents (Elt F)) :
    v.read (Elt F) (v.writes (Elt F) f (kernelRun0_C c i arg1 harg1 arg2 harg2 arg3 harg3 arg4 harg4 arg5 harg5 arg6 harg6 hc0 hc1 x0 x1 xs0 xs1).2.1) = k0_pay7 (k0_pay4 x0 x1 xs0) (k0_pay5 x0 x1 xs1) := by
  rw [View.read_writes_eq_canon _ _ _ (cover0_C_3 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x256) hzS]
  simp only [View.readAt_eq_ld, harg1.read_unread, harg2.read_unread, harg5.read_unread, harg6.read_unread,
    View.ld_unit_zero (S := S2048x256) hzT, View.ld_unit_zero (S := S1x256) hzS, View.readCov_unit_zero (S := S1x256) _ hzS]

/-! # Region 0 at the entry contents `V`: the accumulators point by point, the proof data, the body obligation -/

section Frame

variable (V : (c : Dev nD) → (b : Ref sig .tc) → Buf (Elt F) ((c : Thread nD τ).loc b))

/-- The two accumulators (the columns' sums; the sums of squares) after point n: the tile's contribution added to
    the reset value at the first point, to what the point before left afterwards. -/
def acc0 (c : Dev nD) : (n : ℕ) → n < cfg0.N → Vec F S1x256 .f32 × Vec F S1x256 .f32
  | 0, h => (k0_pay4 (iblk0 V c 0 ⟨0, h⟩) (iblk0 V c 1 ⟨0, h⟩) (k0_pay1 (F := F)), k0_pay5 (iblk0 V c 0 ⟨0, h⟩) (iblk0 V c 1 ⟨0, h⟩) (k0_pay2 (F := F)))
  | n + 1, h => (k0_pay4 (iblk0 V c 0 ⟨n + 1, h⟩) (iblk0 V c 1 ⟨n + 1, h⟩) (acc0 c n (Nat.lt_of_succ_lt h)).1,
                 k0_pay5 (iblk0 V c 0 ⟨n + 1, h⟩) (iblk0 V c 1 ⟨n + 1, h⟩) (acc0 c n (Nat.lt_of_succ_lt h)).2)

theorem acc0_zero (c : Dev nD) (h : 0 < cfg0.N) :
    acc0 V c 0 h = (k0_pay4 (iblk0 V c 0 ⟨0, h⟩) (iblk0 V c 1 ⟨0, h⟩) (k0_pay1 (F := F)), k0_pay5 (iblk0 V c 0 ⟨0, h⟩) (iblk0 V c 1 ⟨0, h⟩) (k0_pay2 (F := F))) := rfl
theorem acc0_succ (c : Dev nD) (n : ℕ) (h : n + 1 < cfg0.N) :
    acc0 V c (n + 1) h = (k0_pay4 (iblk0 V c 0 ⟨n + 1, h⟩) (iblk0 V c 1 ⟨n + 1, h⟩) (acc0 V c n (Nat.lt_of_succ_lt h)).1,
                          k0_pay5 (iblk0 V c 0 ⟨n + 1, h⟩) (iblk0 V c 1 ⟨n + 1, h⟩) (acc0 V c n (Nat.lt_of_succ_lt h)).2) := rfl

/-- The accumulators after the first point, component by component, at a point of the grid. -/
theorem acc0_first_1 (c : Dev nD) (t : Fin cfg0.N) (hz : t.val = 0) :
    (acc0 V c t.val t.isLt).1 = k0_pay4 (iblk0 V c 0 t) (iblk0 V c 1 t) (k0_pay1 (F := F)) := by
  obtain ⟨n, hn⟩ := t
  cases n with
  | zero => rfl
  | succ n => exact absurd hz (Nat.succ_ne_zero n)
theorem acc0_first_2 (c : Dev nD) (t : Fin cfg0.N) (hz : t.val = 0) :
    (acc0 V c t.val t.isLt).2 = k0_pay5 (iblk0 V c 0 t) (iblk0 V c 1 t) (k0_pay2 (F := F)) := by
  obtain ⟨n, hn⟩ := t
  cases n with
  | zero => rfl
  | succ n => exact absurd hz (Nat.succ_ne_zero n)
/-- After a later point: over what the point before left. -/
theorem acc0_later_1 (c : Dev nD) (t : Fin cfg0.N) (hz : t.val ≠ 0) (hp : t.val - 1 < cfg0.N) :
    (acc0 V c t.val t.isLt).1 = k0_pay4 (iblk0 V c 0 t) (iblk0 V c 1 t) (acc0 V c (t.val - 1) hp).1 := by
  obtain ⟨n, hn⟩ := t
  cases n with
  | zero => exact absurd rfl hz
  | succ n => rfl
theorem acc0_later_2 (c : Dev nD) (t : Fin cfg0.N) (hz : t.val ≠ 0) (hp : t.val - 1 < cfg0.N) :
    (acc0 V c t.val t.isLt).2 = k0_pay5 (iblk0 V c 0 t) (iblk0 V c 1 t) (acc0 V c (t.val - 1) hp).2 := by
  obtain ⟨n, hn⟩ := t
  cases n with
  | zero => exact absurd rfl hz
  | succ n => rfl

/-- The region invariant before position n: before the first point the class invariant (every scoped buffer that
    is no staging buffer at anything, the generator register at some state); afterwards the same with the two
    accumulators at what the point before left. -/
def PhiS0 (c : Dev nD) : (n : ℕ) → n ≤ cfg0.N → sProp 𝕄
  | 0, _ => Pipeline.ΦA spec0 c
  | n + 1, hn => iprop(iprop(iprop(owns (c : Thread nD τ) scM0_0 fullShare ((acc0 V c n hn).1) ∗ owns (c : Thread nD τ) scM0_1 fullShare ((acc0 V c n hn).2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((acc0 V c n hn).1) ∗ owns (c : Thread nD τ) scM0_1 fullShare ((acc0 V c n hn).2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) (hp : n - 1 < cfg0.N) :
    PhiS0 V c n h = iprop(iprop(iprop(owns (c : Thread nD τ) scM0_0 fullShare ((acc0 V c (n - 1) hp).1) ∗ owns (c : Thread nD τ) scM0_1 fullShare ((acc0 V c (n - 1) hp).2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of region 0 on core c: the arrays as the region finds them; after the body at point t each
    tile's buffer at its block, the mean's block at the sums after t scaled, the variance's block at the sums of
    squares after t scaled less the mean squared (read at the last point only: elsewhere the two are idle); the
    invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (acc0 V c t.val t.isLt).1
    | ⟨3, _⟩ => k0_pay7 (acc0 V c t.val t.isLt).1 (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (acc0 V c t.val t.isLt).1 := by dsimp only [dat0]
theorem after0_3 (c : Dev nD) (t : Fin cfg0.N) : (dat0 V c).after 3 t = k0_pay7 (acc0 V c t.val t.isLt).1 (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the tiles' memrefs hold their blocks; the closed forms say which case the point is in;
    the invariant hands the body the two accumulators at what the point before left (at anything at the first
    point) and takes them back at this point's sums; away from the last point the two statistics blocks go back as
    they came, at the last point they hold the scaled sums; the rest of the invariant and what the core owes pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  have hp : t.val - 1 < cfg0.N := Nat.lt_of_le_of_lt (Nat.sub_le _ _) t.isLt
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 128 = 127
  · have h0 : ¬t.val % 128 = 0 := by omega
    have hz : t.val ≠ 0 := by omega
    have hc0 : ¬cond0_0 (grid0.coords t) := fun h => h0 ((hcond0_0 t).mp h)
    have hc1 : cond0_1 (grid0.coords t) := (hcond0_1 t).mpr h1
    rw [show (dat0 V c).leavesExact 2 t = owns (c : Thread nD τ) (ms0_2 t) fullShare ((dat0 V c).after 2 t) from by
      unfold Dat.leavesExact; rw [liveAt0_2 t hc1], after0_2]
    rw [show (dat0 V c).leavesExact 3 t = owns (c : Thread nD τ) (ms0_3 t) fullShare ((dat0 V c).after 3 t) from by
      unfold Dat.leavesExact; rw [liveAt0_3 t hc1], after0_3]
    rw [PhiS0_castSucc V c t, PhiS0_pos V c _ _ hz hp]
    iintro ⟨⟨⟨⟨HS0, HS1⟩, HR⟩, Hg⟩, Ho, ⟨%d0, H0⟩, ⟨%d1, H1⟩, ⟨%d2, H2⟩, ⟨%d3, H3⟩⟩
    iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; rw [acc0_later_1 V c t hz hp]
            exact sread0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2 _ _
          · unfold owns; iexists _; isplitr
            swap; · iexact HS1
            ipureintro; rw [acc0_later_2 V c t hz hp]
            exact sread0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2 _ _
        iexact HR
      iexact Hg
    isplitl [Ho]; · iexact Ho
    isplitl [H0]; · iexact H0
    isplitl [H1]; · iexact H1
    isplitl [H2]
    · unfold owns; iexists _; isplitr
      swap; · iexact H2
      ipureintro; rw [acc0_later_1 V c t hz hp]
      exact read0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2 _ _
    · unfold owns; iexists _; isplitr
      swap; · iexact H3
      ipureintro; rw [acc0_later_1 V c t hz hp, acc0_later_2 V c t hz hp]
      exact read0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2 _ _
  · have hc1 : ¬cond0_1 (grid0.coords t) := fun h => h1 ((hcond0_1 t).mp h)
    rw [Dat.leavesExact_idle (dat0 V c) 2 t (idleAt0_2 t hc1) (noFlush0_2 t hc1)]
    rw [Dat.leavesExact_idle (dat0 V c) 3 t (idleAt0_3 t hc1) (noFlush0_3 t hc1)]
    by_cases h0 : t.val % 128 = 0
    · have hz : t.val = 0 := by omega
      have hc0 : cond0_0 (grid0.coords t) := (hcond0_0 t).mpr h0
      rw [PhiS0_castSucc V c t, PhiS0_zero V c _ _ hz, PhiA0_eq]
      iintro ⟨⟨⟨⟨HS0, HS1⟩, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; rw [acc0_first_1 V c t hz]
              exact sread0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) _ _
            · unfold owns; iexists _; isplitr
              swap; · iexact HS1
              ipureintro; rw [acc0_first_2 V c t hz]
              exact sread0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) _ _
          iexact HR
        iexact Hg
      isplitl [Ho]; · iexact Ho
      isplitl [H0]; · iexact H0
      isplitl [H1]; · iexact H1
      isplitl [H2]; · iexists _; iexact H2
      iexists _; iexact H3
    · have hz : t.val ≠ 0 := by omega
      have hc0 : ¬cond0_0 (grid0.coords t) := fun h => h0 ((hcond0_0 t).mp h)
      rw [PhiS0_castSucc V c t, PhiS0_pos V c _ _ hz hp]
      iintro ⟨⟨⟨⟨HS0, HS1⟩, HR⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; rw [acc0_later_1 V c t hz hp]
              exact sread0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2 _ _
            · unfold owns; iexists _; isplitr
              swap; · iexact HS1
              ipureintro; rw [acc0_later_2 V c t hz hp]
              exact sread0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) (acc0 V c (t.val - 1) hp).1 (acc0 V c (t.val - 1) hp).2 _ _
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the accumulators' named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl,
    PhiS0_pos V c _ _ ht (Nat.lt_of_lt_of_le (Nat.sub_lt (Nat.pos_of_ne_zero ht) Nat.one_pos) (Nat.le_of_lt_succ t.isLt)), PhiA0_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 128 := N_0; omega)

/-! ## What the last point writes back -/

/-- The mean's array receives the final sums scaled. -/
theorem flushed0_2 (c : Dev nD) (t : Fin cfg0.N) (ht : t.val % 128 = 127) : (dat0 V c).flushed 2 t = k0_pay6 (acc0 V c t.val t.isLt).1 := by
  show (cfg0.win 2).cut (grid0.coords t) ((dat0 V c).after 2 t) = _; rw [after0_2]; rfl
/-- The variance's array receives the final sums of squares scaled, less the mean squared. -/
theorem flushed0_3 (c : Dev nD) (t : Fin cfg0.N) (ht : t.val % 128 = 127) : (dat0 V c).flushed 3 t = k0_pay7 (acc0 V c t.val t.isLt).1 (acc0 V c t.val t.isLt).2 := by
  show (cfg0.win 3).cut (grid0.coords t) ((dat0 V c).after 3 t) = _; rw [after0_3]; rfl

end Frame

end Cert.KernelIdeal.Hand

end
-- ==== Proof.KI.Reg1Runs.lean ====
/- Region 1 (the per-tile projection h1 = relu(bn(x − aug)) · W1ᵀ + b1 with its column sums): what the three control cases of the body share — the windows' blocks, the branch conditions decided over the grid, where the two statistics windows are idle, the memrefs the body is called on, and the class invariant with the two accumulators named. -/
import proofs.«145083_j84052509982728_1_alg».proof.Proof.Gen.KernelIdeal.Launch
import proofs.«145083_j84052509982728_1_alg».proof.Proof.Gen.KernelIdeal.Skeleton
import proofs.«145083_j84052509982728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of h1 the body computes from the point's blocks: relu of the normalised difference of the two row tiles,
    rounded to bf16, times W1ᵀ, plus the bias row — the value the body's first sixty statements return. -/
def h1blk (x aug : Vec F S2048x256 .f32) (mean var g b : Vec F S1x256 .f32) (w1t : Vec F S256x32 .bf16) (b1 : Vec F S1x32 .f32) : FVec F S2048x32 .f32 :=
  k1_pay7 x aug mean var g b w1t b1

/-- Input window 0's current staging buffer holds its block at every point, fetched there or not (unfetched, its index
    has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, its index
    has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, its index
    has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, its index
    has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, its index
    has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, its index
    has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, its index
    has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (unfetched, its index
    has not moved), for any proof data whose array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the reset of the two accumulators), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 128 = 0 :=
  (by decide +kernel : ∀ t : Fin grid1.N, cond1_0 (grid1.coords t) ↔ t.val % 128 = 0)

/-- The condition of the body's second `scf.if` (the two statistics rows are stored). -/
abbrev cond1_1 (i : grid1.Coords) : Prop := k1_cond2 i = 1#1
/-- It holds at the last point only. -/
theorem hcond1_1 : ∀ t : Fin cfg1.N, cond1_1 (grid1.coords t) ↔ t.val % 128 = 127 :=
  (by decide +kernel : ∀ t : Fin grid1.N, cond1_1 (grid1.coords t) ↔ t.val % 128 = 127)

/-! ## Where the statistics windows are idle -/

/-- Where the second condition fails window 9 is idle and is not written back; where it holds the window is live. -/
theorem idleAt1_9 : ∀ t : Fin cfg1.N, ¬cond1_1 (grid1.coords t) → cfg1.idle 9 (grid1.coords t) = true := by decide +kernel
theorem noFlush1_9 : ∀ t : Fin cfg1.N, ¬cond1_1 (grid1.coords t) → (cfg1.win 9).flush t = false := by decide +kernel
theorem liveAt1_9 : ∀ t : Fin cfg1.N, cond1_1 (grid1.coords t) → cfg1.idle 9 (grid1.coords t) = false := by decide +kernel

/-- Where the second condition fails window 10 is idle and is not written back; where it holds the window is live. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
theorem liveAt1_10 : ∀ t : Fin cfg1.N, cond1_1 (grid1.coords t) → cfg1.idle 10 (grid1.coords t) = false := by decide +kernel

/-! ## The staging and scratch memrefs the body is called on -/

abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x32 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x32 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x32 .f32 := win1_10.stage (cfg1.slots t 10)
abbrev hs1_10 (t : Fin cfg1.N) : (ms1_10 t).IsWhole := hstage1_10 ((cfg1.slots t 10).cast nbuf1_10)
/-- The two accumulators: whole scoped buffers of the kernel's own, carried from point to point. -/
abbrev scM1_0 : Memref sig .tc .vmem S1x32 .f32 := Memref.whole cc1_scratch0
abbrev scM1_1 : Memref sig .tc .vmem S1x32 .f32 := Memref.whole cc1_scratch1

/-- The scoped buffers of the core that are neither staging buffers nor the two accumulators, at some contents each. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The class invariant with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 (F := F) c) ∗ (∃ r, prngReg c r)) := by
  unfold Pipeline.ΦA; rw [scopedRest1_split]; simp only [scM1_0, scM1_1, owns_whole]; try rfl

end Cert.KernelIdeal.Hand

end
-- ==== Proof.KI.Reg1RunA.lean ====
/- Region 1 (the per-tile projection h1 = relu(bn(x − aug)) · W1ᵀ + b1 with its column sums): the body's run at the first grid point. -/
import proofs.«145083_j84052509982728_1_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE A (the first point: the accumulators are reset, then updated; no statistics row is stored).
    What the body's stores leave in the h1 tile's buffer and in the two accumulators, as pieces (last first), with the proof
    that on whole memrefs — the inputs' at their blocks, the h1 tile's at anything, the two statistics rows' handed back untouched, the accumulators at anything —
    the body runs to the continuation holding the inputs as they were and each stored buffer with its pieces written. -/
noncomputable def kernelRun1_A (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) :
    Σ' (L8 : List (View.Piece (Elt F) S2048x32 .f32)) (LS0 : List (View.Piece (Elt F) S1x32 .f32)), { LS1 : List (View.Piece (Elt F) S1x32 .f32) //
      ∀ (xi9 xi10 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__apply_a_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 xi10 E K => ?run⟩
  case run =>
    simp only [cc1__apply_a_kernel_eq_skeleton]; unfold cc1__apply_a_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.KernelIdeal.Hand

end
-- ==== Proof.KI.Reg1RunB.lean ====
/- Region 1 (the per-tile projection h1 = relu(bn(x − aug)) · W1ᵀ + b1 with its column sums): the body's run at a middle grid point. -/
import proofs.«145083_j84052509982728_1_alg».proof.Proof.KI.Reg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE B (a middle point: the accumulators are updated; no statistics row is stored).
    What the body's stores leave in the h1 tile's buffer and in the two accumulators, as pieces (last first), with the proof
    that on whole memrefs — the inputs' at their blocks, the h1 tile's at anything, the two statistics rows' handed back untouched, the accumulators at what the point before left —
    the body runs to the continuation holding the inputs as they were and each stored buffer with its pieces written. -/
noncomputable def kernelRun1_B (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) :
    Σ' (L8 : List (View.Piece (Elt F) S2048x32 .f32)) (LS0 : List (View.Piece (Elt F) S1x32 .f32)), { LS1 : List (View.Piece (Elt F) S1x32 .f32) //
      ∀ (xi9 xi10 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__apply_a_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 xi10 E K => ?run⟩
  case run =>
    simp only [cc1__apply_a_kernel_eq_skeleton]; unfold cc1__apply_a_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.KernelIdeal.Hand

end
-- ==== Proof.KI.Reg1RunC.lean ====
/- Region 1 (the per-tile projection h1 = relu(bn(x − aug)) · W1ᵀ + b1 with its column sums): the body's run at the last grid point. -/
import proofs.«145083_j84052509982728_1_alg».proof.Proof.KI.Reg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE C (the last point: the accumulators are updated, then the two statistics rows are stored).
    What the body's stores leave in the h1 tile's buffer, in the two statistics rows' buffers and in the two accumulators, as pieces (last first), with the proof
    that on whole memrefs — the inputs' at their blocks, the three outputs' at anything, the accumulators at what the point before left —
    the body runs to the continuation holding the inputs as they were and each stored buffer with its pieces written. -/
noncomputable def kernelRun1_C (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) :
    Σ' (L8 : List (View.Piece (Elt F) S2048x32 .f32)) (L9 : List (View.Piece (Elt F) S1x32 .f32)) (L10 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__apply_a_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc1__apply_a_kernel_eq_skeleton]; unfold cc1__apply_a_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]; · iexists _; iexact HS0
    iexists _; iexact HS1

end Cert.KernelIdeal.Hand

end
-- ==== Proof.KI.Reg1.lean ====
/- Region 1 (the per-tile projection h1 = relu(bn(x − aug)) · W1ᵀ + b1 with its column sums): the frame half — what each case's stores leave, read as the skeleton's payloads; the two accumulators after each point; the region invariant; the pipeline's proof data; the body obligation; how the invariant begins and ends at the class's; and what the write-backs write. -/
import proofs.«145083_j84052509982728_1_alg».proof.Proof.KI.Reg1RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer access of a rank-two buffer, however spelt. -/
theorem zero2_reg1 : (![0, 0] : Fin 2 → ℕ) = fun _ => 0 := by funext a; fin_cases a <;> rfl

/-! ## Case A: what its pieces cover and read as -/

/-- Case A's pieces for this buffer tile it, so they cover it. -/
theorem cover1_A_L8 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) (y : S2048x32.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1 S2048x32.size (by sl_kernel_rfl) y

/-- Case A's pieces for this buffer tile it, so they cover it. -/
theorem cover1_A_LS0 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) (y : S1x32.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1 S1x32.size (by sl_kernel_rfl) y

/-- Case A's pieces for this buffer tile it, so they cover it. -/
theorem cover1_A_LS1 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) (y : S1x32.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 S1x32.size (by sl_kernel_rfl) y

/-- What case A leaves in the h1 tile's buffer: the last whole-buffer store's payload, each load before it read back as the contents it found. -/
theorem piece1_A_L8 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) :
    View.canon (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1 = (h1blk x0 x1 x2 x3 x4 x5 x6 x7) := by
  unfold h1blk kernelRun1_A; dsimp only; sl_unfold_words
  rw [View.canon_cons_unit_zero (S := S2048x32) zero2_reg1]
  simp only [View.readAt_eq_ld, harg1.read_unread, harg2.read_unread, harg3.read_unread, harg4.read_unread, harg5.read_unread, harg6.read_unread, harg7.read_unread, harg8.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case A leaves in the first accumulator (column sums): the last whole-buffer store's payload, each load before it read back as the contents it found. -/
theorem piece1_A_LS0 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) :
    View.canon (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1 = k1_pay1 (h1blk x0 x1 x2 x3 x4 x5 x6 x7) (k1_pay5 (F := F)) := by
  unfold h1blk kernelRun1_A; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case A leaves in the second accumulator (column sums of squares): the last whole-buffer store's payload, each load before it read back as the contents it found. -/
theorem piece1_A_LS1 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : cond1_0 i) (hc1 : ¬cond1_1 i)
    (x0 x1 : Vec F S2048x256 .f32) (x2 x3 x4 x5 : Vec F S1x256 .f32) (x6 : Vec F S256x32 .bf16) (x7 : Vec F S1x32 .f32) :
    View.canon (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 = k1_pay2 (h1blk x0 x1 x2 x3 x4 x5 x6 x7) (k1_pay6 (F := F)) := by
  unfold h1blk kernelRun1_A; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-! ## Case B: what its pieces cover and read as -/

/-- Case B's pieces for this buffer tile it, so they cover it. -/
theorem cover1_B_L8 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) (y : S2048x32.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S2048x32.size (by sl_kernel_rfl) y

/-- Case B's pieces for this buffer tile it, so they cover it. -/
theorem cover1_B_LS0 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) (y : S1x32.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S1x32.size (by sl_kernel_rfl) y

/-- Case B's pieces for this buffer tile it, so they cover it. -/
theorem cover1_B_LS1 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) (y : S1x32.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S1x32.size (by sl_kernel_rfl) y

/-- What case B leaves in the h1 tile's buffer: the last whole-buffer store's payload, each load before it read back as the contents it found. -/
theorem piece1_B_L8 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 = (h1blk x0 x1 x2 x3 x4 x5 x6 x7) := by
  unfold h1blk kernelRun1_B; dsimp only; sl_unfold_words
  rw [View.canon_cons_unit_zero (S := S2048x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case B leaves in the first accumulator (column sums): the last whole-buffer store's payload, each load before it read back as the contents it found. -/
theorem piece1_B_LS0 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 = k1_pay1 (h1blk x0 x1 x2 x3 x4 x5 x6 x7) xs0 := by
  unfold h1blk kernelRun1_B; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case B leaves in the second accumulator (column sums of squares): the last whole-buffer store's payload, each load before it read back as the contents it found. -/
theorem piece1_B_LS1 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : ¬cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 = k1_pay2 (h1blk x0 x1 x2 x3 x4 x5 x6 x7) xs1 := by
  unfold h1blk kernelRun1_B; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-! ## Case C: what its pieces cover and read as -/

/-- Case C's pieces for this buffer tile it, so they cover it. -/
theorem cover1_C_L8 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) (y : S2048x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S2048x32.size (by sl_kernel_rfl) y

/-- Case C's pieces for this buffer tile it, so they cover it. -/
theorem cover1_C_L9 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) (y : S1x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S1x32.size (by sl_kernel_rfl) y

/-- Case C's pieces for this buffer tile it, so they cover it. -/
theorem cover1_C_L10 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) (y : S1x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S1x32.size (by sl_kernel_rfl) y

/-- Case C's pieces for this buffer tile it, so they cover it. -/
theorem cover1_C_LS0 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) (y : S1x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 S1x32.size (by sl_kernel_rfl) y

/-- Case C's pieces for this buffer tile it, so they cover it. -/
theorem cover1_C_LS1 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) (y : S1x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.2.1 S1x32.size (by sl_kernel_rfl) y

/-- What case C leaves in the h1 tile's buffer: the last whole-buffer store's payload, each load before it read back as the contents it found. -/
theorem piece1_C_L8 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 = (h1blk x0 x1 x2 x3 x4 x5 x6 x7) := by
  unfold h1blk kernelRun1_C; dsimp only; sl_unfold_words
  rw [View.canon_cons_unit_zero (S := S2048x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case C leaves in the mean row's buffer: the last whole-buffer store's payload, each load before it read back as the contents it found. -/
theorem piece1_C_L9 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 = k1_pay3 (k1_pay1 (h1blk x0 x1 x2 x3 x4 x5 x6 x7) xs0) := by
  unfold h1blk kernelRun1_C; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case C leaves in the variance row's buffer: the last whole-buffer store's payload, each load before it read back as the contents it found. -/
theorem piece1_C_L10 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 = k1_pay4 (k1_pay1 (h1blk x0 x1 x2 x3 x4 x5 x6 x7) xs0) (k1_pay2 (h1blk x0 x1 x2 x3 x4 x5 x6 x7) xs1) := by
  unfold h1blk kernelRun1_C; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case C leaves in the first accumulator (column sums): the last whole-buffer store's payload, each load before it read back as the contents it found. -/
theorem piece1_C_LS0 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 = k1_pay1 (h1blk x0 x1 x2 x3 x4 x5 x6 x7) xs0 := by
  unfold h1blk kernelRun1_C; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]

/-- What case C leaves in the second accumulator (column sums of squares): the last whole-buffer store's payload, each load before it read back as the contents it found. -/
theorem piece1_C_LS1 (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x32 .bf16) (harg7 : arg7.IsWhole) (arg8 : Memref sig .tc .vmem S1x32 .f32) (harg8 : arg8.IsWhole) (arg9 : Memref sig .tc .vmem S2048x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole) (arg13 : Memref sig .tc .vmem S1x32 .f32) (harg13 : arg13.IsWhole) (hc0 : ¬cond1_0 i) (hc1 : cond1_1 i)
    (x0 x1 : Vec F S2048x256 .f32) (x2 x3 x4 x5 : Vec F S1x256 .f32) (x6 : Vec F S256x32 .bf16) (x7 : Vec F S1x32 .f32) (xs0 xs1 : Vec F S1x32 .f32) :
    View.canon (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.2.1 = k1_pay2 (h1blk x0 x1 x2 x3 x4 x5 x6 x7) xs1 := by
  unfold h1blk kernelRun1_C; dsimp only; sl_unfold_words
  rw [View.canon_cons_unit_zero (S := S1x32) zero2_reg1]
  simp only [View.readAt_eq_ld, harg1.read_unread, harg2.read_unread, harg3.read_unread, harg4.read_unread, harg5.read_unread, harg6.read_unread, harg7.read_unread, harg8.read_unread, harg12.read_unread, harg13.read_unread, View.ld_unit_zero (S := S2048x256) zero2_reg1, View.ld_unit_zero (S := S1x256) zero2_reg1, View.ld_unit_zero (S := S256x32) zero2_reg1, View.ld_unit_zero (S := S1x32) zero2_reg1, View.readCov_unit_zero (S := S1x32) _ zero2_reg1]
/-! ## The two accumulators after each point -/

/-- The two [1,32] accumulators after point n: the column sums of the h1 tiles of points 0..n and the column sums of their
    squares — the accumulating stores over the zero resets at the first point, over what the point before left afterwards. -/
def acc1 (c : Dev nD) : (n : ℕ) → n < cfg1.N → Vec F S1x32 .f32 × Vec F S1x32 .f32
  | 0, hn => (k1_pay1 (h1blk (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩)) (k1_pay5 (F := F)),
              k1_pay2 (h1blk (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩)) (k1_pay6 (F := F)))
  | n + 1, hn => (k1_pay1 (h1blk (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩)) (acc1 c n (Nat.lt_of_succ_lt hn)).1,
                  k1_pay2 (h1blk (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩)) (acc1 c n (Nat.lt_of_succ_lt hn)).2)

theorem acc1_zero (c : Dev nD) (h : 0 < cfg1.N) :
    acc1 V c 0 h = (k1_pay1 (h1blk (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩)) (k1_pay5 (F := F)),
                    k1_pay2 (h1blk (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩)) (k1_pay6 (F := F))) := rfl

theorem acc1_succ (c : Dev nD) (n : ℕ) (h : n + 1 < cfg1.N) :
    acc1 V c (n + 1) h = (k1_pay1 (h1blk (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩)) (acc1 V c n (Nat.lt_of_succ_lt h)).1,
                          k1_pay2 (h1blk (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩)) (acc1 V c n (Nat.lt_of_succ_lt h)).2) := rfl

/-- The accumulators after the first point, stated at the point. -/
theorem acc1_first (c : Dev nD) (t : Fin cfg1.N) (hz : t.val = 0) :
    acc1 V c t.val t.isLt = (k1_pay1 (h1blk (iblk1 V c 0 t) (iblk1 V c 1 t) (iblk1 V c 2 t) (iblk1 V c 3 t) (iblk1 V c 4 t) (iblk1 V c 5 t) (iblk1 V c 6 t) (iblk1 V c 7 t)) (k1_pay5 (F := F)), k1_pay2 (h1blk (iblk1 V c 0 t) (iblk1 V c 1 t) (iblk1 V c 2 t) (iblk1 V c 3 t) (iblk1 V c 4 t) (iblk1 V c 5 t) (iblk1 V c 6 t) (iblk1 V c 7 t)) (k1_pay6 (F := F))) := by
  obtain ⟨n, hn⟩ := t
  cases n with
  | zero => exact rfl
  | succ n => exact absurd hz (Nat.succ_ne_zero n)

/-- The accumulators after a later point, over what the point before left. -/
theorem acc1_later (c : Dev nD) (t : Fin cfg1.N) (hz : t.val ≠ 0) :
    acc1 V c t.val t.isLt = (k1_pay1 (h1blk (iblk1 V c 0 t) (iblk1 V c 1 t) (iblk1 V c 2 t) (iblk1 V c 3 t) (iblk1 V c 4 t) (iblk1 V c 5 t) (iblk1 V c 6 t) (iblk1 V c 7 t)) (acc1 V c (t.val - 1) (Nat.lt_of_le_of_lt (Nat.sub_le _ _) t.isLt)).1, k1_pay2 (h1blk (iblk1 V c 0 t) (iblk1 V c 1 t) (iblk1 V c 2 t) (iblk1 V c 3 t) (iblk1 V c 4 t) (iblk1 V c 5 t) (iblk1 V c 6 t) (iblk1 V c 7 t)) (acc1 V c (t.val - 1) (Nat.lt_of_le_of_lt (Nat.sub_le _ _) t.isLt)).2) := by
  obtain ⟨n, hn⟩ := t
  cases n with
  | zero => exact absurd rfl hz
  | succ n => exact rfl

/-! ## The region invariant -/

/-- The invariant before position n: before the first point the class's (every scratch at anything); afterwards the two
    accumulators at what the point before left, the other scoped buffers at anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (acc1 V c n hn).1 ∗ owns (c : Thread nD τ) scM1_1 fullShare (acc1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (acc1 V c n hn).1 ∗ owns (c : Thread nD τ) scM1_1 fullShare (acc1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (acc1 V c (n - 1) (by omega)).1 ∗ owns (c : Thread nD τ) scM1_1 fullShare (acc1 V c (n - 1) (by omega)).2) ∗ rest1 (F := F) c) ∗ (∃ r, prngReg c r)) := by
  cases n with
  | zero => exact absurd rfl hz
  | succ n => rfl

/-! ## The pipeline's proof data -/

/-- The proof data of region 1 on core c: the arrays as the region finds them; after the body at point t each input's buffer
    at its block, the h1 tile's at the tile computed from the point's blocks, the two statistics rows' at the mean and variance
    of the accumulators there (read at the last point only); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (h1blk (iblk1 V c 0 t) (iblk1 V c 1 t) (iblk1 V c 2 t) (iblk1 V c 3 t) (iblk1 V c 4 t) (iblk1 V c 5 t) (iblk1 V c 6 t) (iblk1 V c 7 t))
    | ⟨9, _⟩ => k1_pay3 (acc1 V c t.val t.isLt).1
    | ⟨10, _⟩ => k1_pay4 (acc1 V c t.val t.isLt).1 (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (h1blk (iblk1 V c 0 t) (iblk1 V c 1 t) (iblk1 V c 2 t) (iblk1 V c 3 t) (iblk1 V c 4 t) (iblk1 V c 5 t) (iblk1 V c 6 t) (iblk1 V c 7 t)) := by dsimp only [dat1]
theorem after1_9 (c : Dev nD) (t : Fin cfg1.N) : (dat1 V c).after 9 t = k1_pay3 (acc1 V c t.val t.isLt).1 := by dsimp only [dat1]
theorem after1_10 (c : Dev nD) (t : Fin cfg1.N) : (dat1 V c).after 10 t = k1_pay4 (acc1 V c t.val t.isLt).1 (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
/-- The body at any point. The inputs' memrefs hold their blocks; the point's position on the grid says which case it is in; the
    invariant hands the body the two accumulators at what the point before left (at anything at the first point) and takes them
    back at this point's; the h1 tile's buffer comes back at the tile computed from the blocks; the statistics rows' buffers come
    back untouched, except at the last point, where they hold the mean and the variance of the accumulators. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  have hN : t.val < 128 := lt_of_lt_of_eq t.isLt (show cfg1.N = 128 from N_1)
  by_cases h0 : t.val % 128 = 0
  · have h1 : ¬t.val % 128 = 127 := by omega
    have hz : t.val = 0 := by omega
    rw [Dat.leavesExact_idle (dat1 V c) 9 t (idleAt1_9 t (fun h => h1 ((hcond1_1 t).mp h))) (noFlush1_9 t (fun h => h1 ((hcond1_1 t).mp h)))]
    rw [Dat.leavesExact_idle (dat1 V c) 10 t (idleAt1_10 t (fun h => h1 ((hcond1_1 t).mp h))) (noFlush1_10 t (fun h => h1 ((hcond1_1 t).mp h)))]
    rw [PhiS1_castSucc V c t, PhiS1_zero V c _ _ hz, PhiA1_eq, acc1_first V c t hz]
    dsimp only
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    isplitl [HS1]; · iexact HS1
    iintro ⟨H0, H1, H2, H3, H4, H5, H6, H7, ⟨%e8, H8⟩, H9, H10, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro
            exact (View.read_writes_eq_canon _ _ _ (cover1_A_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))).trans
              (piece1_A_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))
          · unfold owns; iexists _; isplitr
            swap; · iexact HS1
            ipureintro
            exact (View.read_writes_eq_canon _ _ _ (cover1_A_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))).trans
              (piece1_A_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))
        · iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      exact (View.read_writes_eq_canon _ _ _ (cover1_A_L8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))).trans
        (piece1_A_L8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))
    isplitl [H9]; · iexists _; iexact H9
    iexists _; iexact H10
  · have hz : t.val ≠ 0 := fun h => h0 (by omega)
    by_cases h1 : t.val % 128 = 127
    · rw [show (dat1 V c).leavesExact 9 t = owns (c : Thread nD τ) (ms1_9 t) fullShare ((dat1 V c).after 9 t) from by
        unfold Dat.leavesExact; rw [liveAt1_9 t ((hcond1_1 t).mpr h1)], after1_9]
      rw [show (dat1 V c).leavesExact 10 t = owns (c : Thread nD τ) (ms1_10 t) fullShare ((dat1 V c).after 10 t) from by
        unfold Dat.leavesExact; rw [liveAt1_10 t ((hcond1_1 t).mpr h1)], after1_10]
      rw [PhiS1_castSucc V c t, PhiS1_pos V c _ _ hz, acc1_later V c t hz]
      dsimp only
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, ⟨%e8, H8⟩, ⟨%e9, H9⟩, ⟨%e10, H10⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro
              exact (View.read_writes_eq_canon _ _ _ (cover1_C_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
                (piece1_C_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
            · unfold owns; iexists _; isplitr
              swap; · iexact HS1
              ipureintro
              exact (View.read_writes_eq_canon _ _ _ (cover1_C_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
                (piece1_C_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        exact (View.read_writes_eq_canon _ _ _ (cover1_C_L8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
          (piece1_C_L8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
      isplitl [H9]
      · unfold owns; iexists _; isplitr
        swap; · iexact H9
        ipureintro
        exact (View.read_writes_eq_canon _ _ _ (cover1_C_L9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
          (piece1_C_L9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
      unfold owns; iexists _; isplitr
      swap; · iexact H10
      ipureintro
      exact (View.read_writes_eq_canon _ _ _ (cover1_C_L10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
        (piece1_C_L10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
    · rw [Dat.leavesExact_idle (dat1 V c) 9 t (idleAt1_9 t (fun h => h1 ((hcond1_1 t).mp h))) (noFlush1_9 t (fun h => h1 ((hcond1_1 t).mp h)))]
      rw [Dat.leavesExact_idle (dat1 V c) 10 t (idleAt1_10 t (fun h => h1 ((hcond1_1 t).mp h))) (noFlush1_10 t (fun h => h1 ((hcond1_1 t).mp h)))]
      rw [PhiS1_castSucc V c t, PhiS1_pos V c _ _ hz, acc1_later V c t hz]
      dsimp only
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexact HS0
      isplitl [HS1]; · iexact HS1
      iintro ⟨H0, H1, H2, H3, H4, H5, H6, H7, ⟨%e8, H8⟩, H9, H10, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro
              exact (View.read_writes_eq_canon _ _ _ (cover1_B_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
                (piece1_B_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
            · unfold owns; iexists _; isplitr
              swap; · iexact HS1
              ipureintro
              exact (View.read_writes_eq_canon _ _ _ (cover1_B_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
                (piece1_B_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        exact (View.read_writes_eq_canon _ _ _ (cover1_B_L8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)).trans
          (piece1_B_L8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)).1 (acc1 V c (t.val - 1) (Nat.lt_of_le_of_lt (Nat.sub_le _ _) t.isLt)).2)
      isplitl [H9]; · iexists _; iexact H9
      iexists _; iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 128 := N_1; omega)

/-! ## What the write-backs write -/

/-- The h1 tile written back at point t: the tile computed from the point's blocks. -/
theorem flushed1_8 (c : Dev nD) (t : Fin cfg1.N) :
    (dat1 V c).flushed 8 t = h1blk (iblk1 V c 0 t) (iblk1 V c 1 t) (iblk1 V c 2 t) (iblk1 V c 3 t) (iblk1 V c 4 t) (iblk1 V c 5 t) (iblk1 V c 6 t) (iblk1 V c 7 t) := by
  show (cfg1.win 8).cut (grid1.coords t) ((dat1 V c).after 8 t) = _
  rw [after1_8]; try rfl

/-- The mean row written back at the last point: the column sums there, scaled. -/
theorem flushed1_9 (c : Dev nD) (t : Fin cfg1.N) (ht : t.val % 128 = 127) :
    (dat1 V c).flushed 9 t = k1_pay3 (acc1 V c t.val t.isLt).1 := by
  show (cfg1.win 9).cut (grid1.coords t) ((dat1 V c).after 9 t) = _
  rw [after1_9]; try rfl

/-- The variance row written back at the last point: the scaled sums of squares less the squared mean. -/
theorem flushed1_10 (c : Dev nD) (t : Fin cfg1.N) (ht : t.val % 128 = 127) :
    (dat1 V c).flushed 10 t = k1_pay4 (acc1 V c t.val t.isLt).1 (acc1 V c t.val t.isLt).2 := by
  show (cfg1.win 10).cut (grid1.coords t) ((dat1 V c).after 10 t) = _
  rw [after1_10]; try rfl

end Cert.KernelIdeal.Hand

end
-- ==== Proof.KI.Reg2Runs.lean ====
import proofs.«145083_j84052509982728_1_alg».proof.Proof.Gen.KernelIdeal.Launch
import proofs.«145083_j84052509982728_1_alg».proof.Proof.Gen.KernelIdeal.Skeleton
import proofs.«145083_j84052509982728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the pipeline of `cc2__apply_b_kernel`, at the entry contents `V` -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched the block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched the block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched the block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is not
    fetched the block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it is not
    fetched the block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: where it is not
    fetched the block index has not moved, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: where it is not
    fetched the block index has not moved, and the body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: where it is not
    fetched the block index has not moved, and the body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not: where it is not
    fetched the block index has not moved, and the body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not: where it is not
    fetched the block index has not moved, and the body leaves the block in place. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the reset of the two accumulators), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 128 = 0 :=
  (by decide +kernel : ∀ t : Fin grid2.N, cond2_0 (grid2.coords t) ↔ t.val % 128 = 0)

/-- The condition of the body's second conditional (the two statistics written out), from the grid coordinate. -/
abbrev cond2_1 (i : grid2.Coords) : Prop := k2_cond2 i = 1#1
/-- It holds at the last point only. -/
theorem hcond2_1 : ∀ t : Fin cfg2.N, cond2_1 (grid2.coords t) ↔ t.val % 128 = 127 :=
  (by decide +kernel : ∀ t : Fin grid2.N, cond2_1 (grid2.coords t) ↔ t.val % 128 = 127)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem liveAt2_9 : ∀ t : Fin cfg2.N, cfg2.idle 9 (grid2.coords t) = false := by decide +kernel
theorem liveAt2_10 : ∀ t : Fin cfg2.N, cfg2.idle 10 (grid2.coords t) = false := by decide +kernel
/-- Before the last point nothing is stored into window 11: it is idle there, and not written back. -/
theorem idleAt2_11 : ∀ t : Fin cfg2.N, ¬cond2_1 (grid2.coords t) → cfg2.idle 11 (grid2.coords t) = true := by decide +kernel
theorem noFlush2_11 : ∀ t : Fin cfg2.N, ¬cond2_1 (grid2.coords t) → (cfg2.win 11).flush t = false := by decide +kernel
/-- At the last point window 11 is stored into. -/
theorem liveAt2_11 : ∀ t : Fin cfg2.N, cond2_1 (grid2.coords t) → cfg2.idle 11 (grid2.coords t) = false := by decide +kernel
/-- Before the last point nothing is stored into window 12: it is idle there, and not written back. -/
theorem idleAt2_12 : ∀ t : Fin cfg2.N, ¬cond2_1 (grid2.coords t) → cfg2.idle 12 (grid2.coords t) = true := by decide +kernel
theorem noFlush2_12 : ∀ t : Fin cfg2.N, ¬cond2_1 (grid2.coords t) → (cfg2.win 12).flush t = false := by decide +kernel
/-- At the last point window 12 is stored into. -/
theorem liveAt2_12 : ∀ t : Fin cfg2.N, cond2_1 (grid2.coords t) → cfg2.idle 12 (grid2.coords t) = false := by decide +kernel

/-! ## The staging and scratch memrefs -/

abbrev ms2_0 (t : Fin cfg2.N) : Memref sig .tc .vmem S2048x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x32 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S32x256 .bf16 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x256 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S256x256 .bf16 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S2048x256 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x256 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S1x256 .f32 := win2_12.stage (cfg2.slots t 12)
abbrev hs2_12 (t : Fin cfg2.N) : (ms2_12 t).IsWhole := hstage2_12 ((cfg2.slots t 12).cast nbuf2_12)
/-- The two accumulators the body carries from point to point: whole scoped buffers of the kernel's own. -/
abbrev scM2_0 : Memref sig .tc .vmem S1x256 .f32 := Memref.whole cc2_scratch0
abbrev scM2_1 : Memref sig .tc .vmem S1x256 .f32 := Memref.whole cc2_scratch1

/-- The class invariant with the two accumulators as memrefs owned at some contents, the other scoped buffers carried unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

/-! ## The values the body computes -/

/-- The tile of the product the body computes from the point's blocks: the rows normalised by the batch statistics,
    scaled, shifted and clipped at zero; their product with the first weight matrix plus its bias; the row-wise
    softmax of that, times the gathered rows, plus the input rows; rounded, and multiplied by the second weight matrix. -/
def mmblk (h1 : Vec F S2048x32 .f32) (aug x : Vec F S2048x256 .f32) (mean var g b : Vec F S1x32 .f32) (w2t : Vec F S32x256 .bf16) (b2 : Vec F S1x256 .f32) (wlint : Vec F S256x256 .bf16) : FVec F S2048x256 .f32 :=
  k2_pay7 (k2_pay5 h1 mean var g b w2t b2) (k2_pay6 h1 mean var g b w2t b2) x aug wlint

/-- One point's step of the two running sums: the column sums of the point's tile added to the first, the column sums of
    its squares to the second. -/
def accStep2 (h1 : Vec F S2048x32 .f32) (aug x : Vec F S2048x256 .f32) (mean var g b : Vec F S1x32 .f32) (w2t : Vec F S32x256 .bf16) (b2 : Vec F S1x256 .f32) (wlint : Vec F S256x256 .bf16)
    (s0 s1 : Vec F S1x256 .f32) : Vec F S1x256 .f32 × Vec F S1x256 .f32 :=
  (k2_pay8 (k2_pay5 h1 mean var g b w2t b2) (k2_pay6 h1 mean var g b w2t b2) x aug wlint s0,
   k2_pay9 (k2_pay5 h1 mean var g b w2t b2) (k2_pay6 h1 mean var g b w2t b2) x aug wlint s1)

/-- The two running sums after the point at position `n`: the column sums of the tiles up to it and of their squares,
    from zero at the first point. -/
def acc2 (c : Dev nD) : (n : ℕ) → n < cfg2.N → Vec F S1x256 .f32 × Vec F S1x256 .f32
  | 0, h =>
    (k2_pay8 (k2_pay5 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (k2_pay6 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (iblk2 V c 2 ⟨0, h⟩) (iblk2 V c 1 ⟨0, h⟩) (iblk2 V c 9 ⟨0, h⟩) (k2_pay3 (F := F)),
     k2_pay9 (k2_pay5 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (k2_pay6 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (iblk2 V c 2 ⟨0, h⟩) (iblk2 V c 1 ⟨0, h⟩) (iblk2 V c 9 ⟨0, h⟩) (k2_pay4 (F := F)))
  | n + 1, h =>
    (k2_pay8 (k2_pay5 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (k2_pay6 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (iblk2 V c 2 ⟨n + 1, h⟩) (iblk2 V c 1 ⟨n + 1, h⟩) (iblk2 V c 9 ⟨n + 1, h⟩) (acc2 c n (Nat.lt_of_succ_lt h)).1,
     k2_pay9 (k2_pay5 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (k2_pay6 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (iblk2 V c 2 ⟨n + 1, h⟩) (iblk2 V c 1 ⟨n + 1, h⟩) (iblk2 V c 9 ⟨n + 1, h⟩) (acc2 c n (Nat.lt_of_succ_lt h)).2)

theorem acc2_zero (c : Dev nD) (h : 0 < cfg2.N) : acc2 V c 0 h =
    (k2_pay8 (k2_pay5 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (k2_pay6 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (iblk2 V c 2 ⟨0, h⟩) (iblk2 V c 1 ⟨0, h⟩) (iblk2 V c 9 ⟨0, h⟩) (k2_pay3 (F := F)),
     k2_pay9 (k2_pay5 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (k2_pay6 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (iblk2 V c 2 ⟨0, h⟩) (iblk2 V c 1 ⟨0, h⟩) (iblk2 V c 9 ⟨0, h⟩) (k2_pay4 (F := F))) := rfl

theorem acc2_succ (c : Dev nD) (n : ℕ) (h : n + 1 < cfg2.N) : acc2 V c (n + 1) h =
    (k2_pay8 (k2_pay5 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (k2_pay6 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (iblk2 V c 2 ⟨n + 1, h⟩) (iblk2 V c 1 ⟨n + 1, h⟩) (iblk2 V c 9 ⟨n + 1, h⟩) (acc2 V c n (Nat.lt_of_succ_lt h)).1,
     k2_pay9 (k2_pay5 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (k2_pay6 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (iblk2 V c 2 ⟨n + 1, h⟩) (iblk2 V c 1 ⟨n + 1, h⟩) (iblk2 V c 9 ⟨n + 1, h⟩) (acc2 V c n (Nat.lt_of_succ_lt h)).2) := rfl

/-- The running sums at a point after the first, over those at the point before. -/
theorem acc2_pos (c : Dev nD) (t : Fin cfg2.N) (ht : t.val ≠ 0) : acc2 V c t.val t.isLt =
    (k2_pay8 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (acc2 V c (t.val - 1) (Nat.lt_of_le_of_lt (Nat.sub_le _ _) t.isLt)).1,
     k2_pay9 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (acc2 V c (t.val - 1) (Nat.lt_of_le_of_lt (Nat.sub_le _ _) t.isLt)).2) := by
  obtain ⟨n, hn⟩ := t
  cases n with
  | zero => exact absurd rfl ht
  | succ n => rfl

/-- The running sums at the first point. -/
theorem acc2_first (c : Dev nD) (t : Fin cfg2.N) (ht : t.val = 0) : acc2 V c t.val t.isLt =
    (k2_pay8 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (k2_pay3 (F := F)),
     k2_pay9 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (k2_pay4 (F := F))) := by
  obtain ⟨n, hn⟩ := t
  cases n with
  | zero => rfl
  | succ n => exact absurd ht (Nat.succ_ne_zero n)

end Cert.KernelIdeal.Hand

end
-- ==== Proof.KI.Reg2RunA.lean ====
import proofs.«145083_j84052509982728_1_alg».proof.Proof.KI.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- THE FIRST POINT (the accumulators reset, the statistics not written). What the body's stores leave in the tile
    output and in the two accumulators, as pieces (last first), with the proof that on whole memrefs — the inputs' at their
    contents, the tile output's at anything, the two statistics outputs' handed back untouched, the accumulators at
    anything — the body runs to the continuation holding the inputs' as they were and each stored buffer with its pieces
    written. The pieces are the witness the run finds. -/
noncomputable def kernelRun2_A (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) :
    Σ' (L10 : List (View.Piece (Elt F) S2048x256 .f32)) (LS0 : List (View.Piece (Elt F) S1x256 .f32)), { LS1 : List (View.Piece (Elt F) S1x256 .f32) //
      ∀ (xi11 xi12 : Vec F S1x256 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ (∃ d, owns (c : Thread nD τ) arg11 fullShare d)
            ∗ owns (c : Thread nD τ) arg12 fullShare xi11
            ∗ owns (c : Thread nD τ) arg13 fullShare xi12
            ∗ (∃ d, owns (c : Thread nD τ) arg14 fullShare d)
            ∗ (∃ d, owns (c : Thread nD τ) arg15 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ owns (c : Thread nD τ) arg10 fullShare x9
                ∗ (∃ f, arg11.view.loc (c : Thread nD τ) ↦[arg11.view.set]{fullShare} arg11.view.writes (Elt F) f L10)
                ∗ owns (c : Thread nD τ) arg12 fullShare xi11
                ∗ owns (c : Thread nD τ) arg13 fullShare xi12
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)) -∗ K ⟨⟩))
          ⊢ wp frame (wpE (defs₀ (F := F)) Variants.none c none) E (cc2__apply_b_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 xi12 E K => ?run⟩
  case run =>
    simp only [cc2__apply_b_kernel_eq_skeleton]; unfold cc2__apply_b_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Hand

end
-- ==== Proof.KI.Reg2RunB.lean ====
import proofs.«145083_j84052509982728_1_alg».proof.Proof.KI.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A MIDDLE POINT (no reset, the statistics not written). What the body's stores leave in the tile output and in the
    two accumulators, as pieces (last first), with the proof that on whole memrefs — the inputs' at their contents, the tile
    output's at anything, the two statistics outputs' handed back untouched, the accumulators at what the point before left —
    the body runs to the continuation holding the inputs' as they were and each stored buffer with its pieces written.
    The pieces are the witness the run finds. -/
noncomputable def kernelRun2_B (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) :
    Σ' (L10 : List (View.Piece (Elt F) S2048x256 .f32)) (LS0 : List (View.Piece (Elt F) S1x256 .f32)), { LS1 : List (View.Piece (Elt F) S1x256 .f32) //
      ∀ (xi11 xi12 : Vec F S1x256 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ (∃ d, owns (c : Thread nD τ) arg11 fullShare d)
            ∗ owns (c : Thread nD τ) arg12 fullShare xi11
            ∗ owns (c : Thread nD τ) arg13 fullShare xi12
            ∗ owns (c : Thread nD τ) arg14 fullShare xs0
            ∗ owns (c : Thread nD τ) arg15 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ owns (c : Thread nD τ) arg10 fullShare x9
                ∗ (∃ f, arg11.view.loc (c : Thread nD τ) ↦[arg11.view.set]{fullShare} arg11.view.writes (Elt F) f L10)
                ∗ owns (c : Thread nD τ) arg12 fullShare xi11
                ∗ owns (c : Thread nD τ) arg13 fullShare xi12
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)) -∗ K ⟨⟩))
          ⊢ wp frame (wpE (defs₀ (F := F)) Variants.none c none) E (cc2__apply_b_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 xi12 E K => ?run⟩
  case run =>
    simp only [cc2__apply_b_kernel_eq_skeleton]; unfold cc2__apply_b_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Hand

end
-- ==== Proof.KI.Reg2RunC.lean ====
import proofs.«145083_j84052509982728_1_alg».proof.Proof.KI.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- THE LAST POINT (no reset, the statistics written). What the body's stores leave in the three outputs and in the two
    accumulators, as pieces (last first), with the proof that on whole memrefs — the inputs' at their contents, the outputs'
    at anything, the accumulators at what the point before left — the body runs to the continuation holding the inputs' as
    they were and each stored buffer with its pieces written. The pieces are the witness the run finds. -/
noncomputable def kernelRun2_C (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) :
    Σ' (L10 : List (View.Piece (Elt F) S2048x256 .f32)) (L11 : List (View.Piece (Elt F) S1x256 .f32)) (L12 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ (∃ d, owns (c : Thread nD τ) arg11 fullShare d)
            ∗ (∃ d, owns (c : Thread nD τ) arg12 fullShare d)
            ∗ (∃ d, owns (c : Thread nD τ) arg13 fullShare d)
            ∗ owns (c : Thread nD τ) arg14 fullShare xs0
            ∗ owns (c : Thread nD τ) arg15 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ owns (c : Thread nD τ) arg10 fullShare x9
                ∗ (∃ f, arg11.view.loc (c : Thread nD τ) ↦[arg11.view.set]{fullShare} arg11.view.writes (Elt F) f L10)
                ∗ (∃ f, arg12.view.loc (c : Thread nD τ) ↦[arg12.view.set]{fullShare} arg12.view.writes (Elt F) f L11)
                ∗ (∃ f, arg13.view.loc (c : Thread nD τ) ↦[arg13.view.set]{fullShare} arg13.view.writes (Elt F) f L12)
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)) -∗ K ⟨⟩))
          ⊢ wp frame (wpE (defs₀ (F := F)) Variants.none c none) E (cc2__apply_b_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc2__apply_b_kernel_eq_skeleton]; unfold cc2__apply_b_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [HS0]; · iexists _; iexact HS0
    iexists _; iexact HS1

end Cert.KernelIdeal.Hand

end
-- ==== Proof.KI.Reg2.lean ====
import proofs.«145083_j84052509982728_1_alg».proof.Proof.KI.Reg2RunA
import proofs.«145083_j84052509982728_1_alg».proof.Proof.KI.Reg2RunB
import proofs.«145083_j84052509982728_1_alg».proof.Proof.KI.Reg2RunC
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: what each case's stores leave, the proof data, the body obligation -/

/-- The zero offset of every access of this body. -/
theorem hz2 : (![0, 0] : Fin 2 → ℕ) = fun _ => 0 := funext fun a => by fin_cases a <;> rfl

/-! ## Each case's pieces cover their buffers -/

theorem cover2_A_10 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (y : S2048x256.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1, y ∈ pc.1.set :=
  View.cover_of_tiledL _ S2048x256.size (by sl_kernel_rfl) y
theorem cover2_A_s0 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (y : S1x256.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1, y ∈ pc.1.set :=
  View.cover_of_tiledL _ S1x256.size (by sl_kernel_rfl) y
theorem cover2_A_s1 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (y : S1x256.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1, y ∈ pc.1.set :=
  View.cover_of_tiledL _ S1x256.size (by sl_kernel_rfl) y
theorem cover2_B_10 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S2048x256.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1, y ∈ pc.1.set :=
  View.cover_of_tiledL _ S2048x256.size (by sl_kernel_rfl) y
theorem cover2_B_s0 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S1x256.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1, y ∈ pc.1.set :=
  View.cover_of_tiledL _ S1x256.size (by sl_kernel_rfl) y
theorem cover2_B_s1 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S1x256.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL _ S1x256.size (by sl_kernel_rfl) y
theorem cover2_C_10 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S2048x256.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1, y ∈ pc.1.set :=
  View.cover_of_tiledL _ S2048x256.size (by sl_kernel_rfl) y
theorem cover2_C_11 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S1x256.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1, y ∈ pc.1.set :=
  View.cover_of_tiledL _ S1x256.size (by sl_kernel_rfl) y
theorem cover2_C_12 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S1x256.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL _ S1x256.size (by sl_kernel_rfl) y
theorem cover2_C_s0 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S1x256.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1, y ∈ pc.1.set :=
  View.cover_of_tiledL _ S1x256.size (by sl_kernel_rfl) y
theorem cover2_C_s1 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32) (y : S1x256.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.2.1, y ∈ pc.1.set :=
  View.cover_of_tiledL _ S1x256.size (by sl_kernel_rfl) y

/-! ## What each case's pieces read back as: the payloads of the loads -/

theorem piece2_A_10 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16)
    (v : View sig .tc .vmem S2048x256 .f32) (f : v.ty.Contents (Elt F)) :
    v.read (Elt F) (v.writes (Elt F) f (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1) = (mmblk x0 x1 x2 x3 x4 x5 x6 x7 x8 x9) := by
  rw [View.read_writes_eq_canon _ _ _ (cover2_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun2_A mmblk; dsimp only; sl_unfold_words
  rw [View.canon_unit_zero (S := S2048x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_A_s0 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16)
    (v : View sig .tc .vmem S1x256 .f32) (f : v.ty.Contents (Elt F)) :
    v.read (Elt F) (v.writes (Elt F) f (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1) = (k2_pay8 (k2_pay5 x0 x3 x4 x5 x6 x7 x8) (k2_pay6 x0 x3 x4 x5 x6 x7 x8) x2 x1 x9 (k2_pay3 (F := F))) := by
  rw [View.read_writes_eq_canon _ _ _ (cover2_A_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun2_A; dsimp only; sl_unfold_words
  rw [View.canon_cons_unit_zero (S := S1x256) hz2, View.readCov_unit_zero (S := S1x256) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_A_s1 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16)
    (v : View sig .tc .vmem S1x256 .f32) (f : v.ty.Contents (Elt F)) :
    v.read (Elt F) (v.writes (Elt F) f (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1) = (k2_pay9 (k2_pay5 x0 x3 x4 x5 x6 x7 x8) (k2_pay6 x0 x3 x4 x5 x6 x7 x8) x2 x1 x9 (k2_pay4 (F := F))) := by
  rw [View.read_writes_eq_canon _ _ _ (cover2_A_s1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun2_A; dsimp only; sl_unfold_words
  rw [View.canon_cons_unit_zero (S := S1x256) hz2, View.readCov_unit_zero (S := S1x256) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_B_10 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S2048x256 .f32) (f : v.ty.Contents (Elt F)) :
    v.read (Elt F) (v.writes (Elt F) f (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1) = (mmblk x0 x1 x2 x3 x4 x5 x6 x7 x8 x9) := by
  rw [View.read_writes_eq_canon _ _ _ (cover2_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_B mmblk; dsimp only; sl_unfold_words
  rw [View.canon_unit_zero (S := S2048x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_B_s0 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S1x256 .f32) (f : v.ty.Contents (Elt F)) :
    v.read (Elt F) (v.writes (Elt F) f (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1) = (k2_pay8 (k2_pay5 x0 x3 x4 x5 x6 x7 x8) (k2_pay6 x0 x3 x4 x5 x6 x7 x8) x2 x1 x9 xs0) := by
  rw [View.read_writes_eq_canon _ _ _ (cover2_B_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_B; dsimp only; sl_unfold_words
  rw [View.canon_unit_zero (S := S1x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_B_s1 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S1x256 .f32) (f : v.ty.Contents (Elt F)) :
    v.read (Elt F) (v.writes (Elt F) f (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1) = (k2_pay9 (k2_pay5 x0 x3 x4 x5 x6 x7 x8) (k2_pay6 x0 x3 x4 x5 x6 x7 x8) x2 x1 x9 xs1) := by
  rw [View.read_writes_eq_canon _ _ _ (cover2_B_s1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_B; dsimp only; sl_unfold_words
  rw [View.canon_unit_zero (S := S1x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_C_10 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S2048x256 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1) = (mmblk x0 x1 x2 x3 x4 x5 x6 x7 x8 x9) := by
  rw [View.read_writes_eq_canon _ _ _ (cover2_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_C mmblk; dsimp only; sl_unfold_words
  rw [View.canon_unit_zero (S := S2048x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_C_11 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S1x256 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1) = (k2_pay1 (k2_pay8 (k2_pay5 x0 x3 x4 x5 x6 x7 x8) (k2_pay6 x0 x3 x4 x5 x6 x7 x8) x2 x1 x9 xs0)) := by
  rw [View.read_writes_eq_canon _ _ _ (cover2_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_C; dsimp only; sl_unfold_words
  rw [View.canon_unit_zero (S := S1x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_C_12 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S1x256 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1) = (k2_pay2 (k2_pay8 (k2_pay5 x0 x3 x4 x5 x6 x7 x8) (k2_pay6 x0 x3 x4 x5 x6 x7 x8) x2 x1 x9 xs0) (k2_pay9 (k2_pay5 x0 x3 x4 x5 x6 x7 x8) (k2_pay6 x0 x3 x4 x5 x6 x7 x8) x2 x1 x9 xs1)) := by
  rw [View.read_writes_eq_canon _ _ _ (cover2_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_C; dsimp only; sl_unfold_words
  rw [View.canon_unit_zero (S := S1x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_C_s0 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S1x256 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1) = (k2_pay8 (k2_pay5 x0 x3 x4 x5 x6 x7 x8) (k2_pay6 x0 x3 x4 x5 x6 x7 x8) x2 x1 x9 xs0) := by
  rw [View.read_writes_eq_canon _ _ _ (cover2_C_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_C; dsimp only; sl_unfold_words
  rw [View.canon_unit_zero (S := S1x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

theorem piece2_C_s1 (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (v : View sig .tc .vmem S1x256 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.2.1) = (k2_pay9 (k2_pay5 x0 x3 x4 x5 x6 x7 x8) (k2_pay6 x0 x3 x4 x5 x6 x7 x8) x2 x1 x9 xs1) := by
  rw [View.read_writes_eq_canon _ _ _ (cover2_C_s1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1)]
  unfold kernelRun2_C; dsimp only; sl_unfold_words
  rw [View.canon_unit_zero (S := S1x256) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x32) hz2, View.ld_unit_zero (S := S2048x256) hz2, View.ld_unit_zero (S := S1x32) hz2,
    View.ld_unit_zero (S := S32x256) hz2, View.ld_unit_zero (S := S1x256) hz2, View.ld_unit_zero (S := S256x256) hz2,
    View.readCov_unit_zero (S := S1x256) _ hz2]

/-! ## The body's triple per case, its post stated through the payloads -/

/-- At the first point: on whole memrefs, the inputs' at their contents, the body runs to the continuation holding the
    inputs' as they were, the tile output at the product tile, the accumulators reset and then advanced; the two statistics outputs are handed back untouched. -/
theorem sound_kernel2_A (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16)
    (xi11 xi12 : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ owns (c : Thread nD τ) arg12 fullShare xi11
        ∗ owns (c : Thread nD τ) arg13 fullShare xi12
        ∗ (∃ d, owns (c : Thread nD τ) arg14 fullShare d)
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (mmblk x0 x1 x2 x3 x4 x5 x6 x7 x8 x9)
            ∗ owns (c : Thread nD τ) arg12 fullShare xi11
            ∗ owns (c : Thread nD τ) arg13 fullShare xi12
            ∗ owns (c : Thread nD τ) arg14 fullShare (k2_pay8 (k2_pay5 x0 x3 x4 x5 x6 x7 x8) (k2_pay6 x0 x3 x4 x5 x6 x7 x8) x2 x1 x9 (k2_pay3 (F := F)))
            ∗ owns (c : Thread nD τ) arg15 fullShare (k2_pay9 (k2_pay5 x0 x3 x4 x5 x6 x7 x8) (k2_pay6 x0 x3 x4 x5 x6 x7 x8) x2 x1 x9 (k2_pay4 (F := F)))) -∗ K ⟨⟩))
      ⊢ wp frame (wpE (defs₀ (F := F)) Variants.none c none) E (cc2__apply_b_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, HS1, Hk⟩
  iapply ((kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2 xi11 xi12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, H11, H12, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact piece2_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 _ _
  isplitl [H11]; · iexact H11
  isplitl [H12]; · iexact H12
  isplitl [HS0]
  · unfold owns; iexists _; isplitr
    swap; · iexact HS0
    ipureintro; exact piece2_A_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 _ _
  unfold owns; iexists _; isplitr
  swap; · iexact HS1
  ipureintro; exact piece2_A_s1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 _ _

/-- At a middle point: on whole memrefs, the inputs' at their contents, the body runs to the continuation holding the
    inputs' as they were, the tile output at the product tile, the accumulators advanced from what they held; the two statistics outputs are handed back untouched. -/
theorem sound_kernel2_B (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : ¬cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (xi11 xi12 : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ owns (c : Thread nD τ) arg12 fullShare xi11
        ∗ owns (c : Thread nD τ) arg13 fullShare xi12
        ∗ owns (c : Thread nD τ) arg14 fullShare xs0
        ∗ owns (c : Thread nD τ) arg15 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (mmblk x0 x1 x2 x3 x4 x5 x6 x7 x8 x9)
            ∗ owns (c : Thread nD τ) arg12 fullShare xi11
            ∗ owns (c : Thread nD τ) arg13 fullShare xi12
            ∗ owns (c : Thread nD τ) arg14 fullShare (k2_pay8 (k2_pay5 x0 x3 x4 x5 x6 x7 x8) (k2_pay6 x0 x3 x4 x5 x6 x7 x8) x2 x1 x9 xs0)
            ∗ owns (c : Thread nD τ) arg15 fullShare (k2_pay9 (k2_pay5 x0 x3 x4 x5 x6 x7 x8) (k2_pay6 x0 x3 x4 x5 x6 x7 x8) x2 x1 x9 xs1)) -∗ K ⟨⟩))
      ⊢ wp frame (wpE (defs₀ (F := F)) Variants.none c none) E (cc2__apply_b_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, HS1, Hk⟩
  iapply ((kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2 xi11 xi12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, H11, H12, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact piece2_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _
  isplitl [H11]; · iexact H11
  isplitl [H12]; · iexact H12
  isplitl [HS0]
  · unfold owns; iexists _; isplitr
    swap; · iexact HS0
    ipureintro; exact piece2_B_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _
  unfold owns; iexists _; isplitr
  swap; · iexact HS1
  ipureintro; exact piece2_B_s1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _

/-- At the last point: on whole memrefs, the inputs' at their contents, the body runs to the continuation holding the
    inputs' as they were, the tile output at the product tile, the accumulators advanced from what they held, and the two statistics outputs at the mean and the variance of the accumulated sums. -/
theorem sound_kernel2_C (c : Dev nD) (i : grid2.Coords) (arg1 : Memref sig .tc .vmem S2048x32 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (hc0 : ¬cond2_0 i) (hc1 : cond2_1 i)
    (x0 : Vec F S2048x32 .f32) (x1 x2 : Vec F S2048x256 .f32) (x3 x4 x5 x6 : Vec F S1x32 .f32) (x7 : Vec F S32x256 .bf16) (x8 : Vec F S1x256 .f32) (x9 : Vec F S256x256 .bf16) (xs0 xs1 : Vec F S1x256 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (∃ d, owns (c : Thread nD τ) arg12 fullShare d)
        ∗ (∃ d, owns (c : Thread nD τ) arg13 fullShare d)
        ∗ owns (c : Thread nD τ) arg14 fullShare xs0
        ∗ owns (c : Thread nD τ) arg15 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (mmblk x0 x1 x2 x3 x4 x5 x6 x7 x8 x9)
            ∗ owns (c : Thread nD τ) arg12 fullShare (k2_pay1 (k2_pay8 (k2_pay5 x0 x3 x4 x5 x6 x7 x8) (k2_pay6 x0 x3 x4 x5 x6 x7 x8) x2 x1 x9 xs0))
            ∗ owns (c : Thread nD τ) arg13 fullShare (k2_pay2 (k2_pay8 (k2_pay5 x0 x3 x4 x5 x6 x7 x8) (k2_pay6 x0 x3 x4 x5 x6 x7 x8) x2 x1 x9 xs0) (k2_pay9 (k2_pay5 x0 x3 x4 x5 x6 x7 x8) (k2_pay6 x0 x3 x4 x5 x6 x7 x8) x2 x1 x9 xs1))
            ∗ owns (c : Thread nD τ) arg14 fullShare (k2_pay8 (k2_pay5 x0 x3 x4 x5 x6 x7 x8) (k2_pay6 x0 x3 x4 x5 x6 x7 x8) x2 x1 x9 xs0)
            ∗ owns (c : Thread nD τ) arg15 fullShare (k2_pay9 (k2_pay5 x0 x3 x4 x5 x6 x7 x8) (k2_pay6 x0 x3 x4 x5 x6 x7 x8) x2 x1 x9 xs1)) -∗ K ⟨⟩))
      ⊢ wp frame (wpE (defs₀ (F := F)) Variants.none c none) E (cc2__apply_b_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, HS1, Hk⟩
  iapply ((kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, ⟨%e11, H11⟩, ⟨%e12, H12⟩, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact piece2_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _
  isplitl [H11]
  · unfold owns; iexists _; isplitr
    swap; · iexact H11
    ipureintro; exact piece2_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _
  isplitl [H12]
  · unfold owns; iexists _; isplitr
    swap; · iexact H12
    ipureintro; exact piece2_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _
  isplitl [HS0]
  · unfold owns; iexists _; isplitr
    swap; · iexact HS0
    ipureintro; exact piece2_C_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _
  unfold owns; iexists _; isplitr
  swap; · iexact HS1
  ipureintro; exact piece2_C_s1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 _ _

/-! ## The running sums, by components -/

theorem acc2_pos_fst (c : Dev nD) (t : Fin cfg2.N) (ht : t.val ≠ 0) : (acc2 V c t.val t.isLt).1 =
    k2_pay8 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (acc2 V c (t.val - 1) (Nat.lt_of_le_of_lt (Nat.sub_le _ _) t.isLt)).1 :=
  congrArg Prod.fst (acc2_pos V c t ht)
theorem acc2_pos_snd (c : Dev nD) (t : Fin cfg2.N) (ht : t.val ≠ 0) : (acc2 V c t.val t.isLt).2 =
    k2_pay9 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (acc2 V c (t.val - 1) (Nat.lt_of_le_of_lt (Nat.sub_le _ _) t.isLt)).2 :=
  congrArg Prod.snd (acc2_pos V c t ht)
theorem acc2_first_fst (c : Dev nD) (t : Fin cfg2.N) (ht : t.val = 0) : (acc2 V c t.val t.isLt).1 =
    k2_pay8 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (k2_pay3 (F := F)) :=
  congrArg Prod.fst (acc2_first V c t ht)
theorem acc2_first_snd (c : Dev nD) (t : Fin cfg2.N) (ht : t.val = 0) : (acc2 V c t.val t.isLt).2 =
    k2_pay9 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (k2_pay4 (F := F)) :=
  congrArg Prod.snd (acc2_first V c t ht)

/-! ## The region invariant -/

/-- The invariant before position `n`: before the first point the class's (every scoped buffer that is no staging buffer
    at anything, the generator register at some state); afterwards the two accumulators at the running sums after the
    point before, the other scoped buffers carried unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare (acc2 V c n hn).1 ∗ owns (c : Thread nD τ) scM2_1 fullShare (acc2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare (acc2 V c (n - 1) (by omega)).1 ∗ owns (c : Thread nD τ) scM2_1 fullShare (acc2 V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of pipeline 2 on core `c`: the arrays as the region finds them; after the body at point `t` each
    input's buffer at its block, the tile output at the product tile of the point's blocks, the two statistics outputs at
    the mean and the variance of the running sums (consulted at the last point only: elsewhere the windows are idle);
    the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => mmblk (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    | ⟨11, _⟩ => k2_pay1 (acc2 V c t.val t.isLt).1
    | ⟨12, _⟩ => k2_pay2 (acc2 V c t.val t.isLt).1 (acc2 V c t.val t.isLt).2
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = mmblk (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]
theorem after2_11 (c : Dev nD) (t : Fin cfg2.N) : (dat2 V c).after 11 t = k2_pay1 (acc2 V c t.val t.isLt).1 := by dsimp only [dat2]
theorem after2_12 (c : Dev nD) (t : Fin cfg2.N) : (dat2 V c).after 12 t = k2_pay2 (acc2 V c t.val t.isLt).1 (acc2 V c t.val t.isLt).2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t)

set_option maxHeartbeats 8000000 in
/-- The body at any point: the inputs' memrefs hold their blocks; the closed forms say which case the point is in; the
    invariant hands the body the two accumulators at the running sums after the point before (at anything at the first
    point) and takes them back at this point's; the other scoped buffers, the generator register and what the core owes
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  by_cases h1 : t.val % 128 = 127
  · have h0 : ¬t.val % 128 = 0 := by omega
    have hz : t.val ≠ 0 := by omega
    rw [show (dat2 V c).leavesExact 11 t = owns (c : Thread nD τ) (ms2_11 t) fullShare ((dat2 V c).after 11 t) from by
      unfold Dat.leavesExact; rw [liveAt2_11 t ((hcond2_1 t).mpr h1)], after2_11]
    rw [show (dat2 V c).leavesExact 12 t = owns (c : Thread nD τ) (ms2_12 t) fullShare ((dat2 V c).after 12 t) from by
      unfold Dat.leavesExact; rw [liveAt2_12 t ((hcond2_1 t).mpr h1)], after2_12]
    rw [PhiS2_castSucc V c t, PhiS2_pos V c _ _ hz]
    rw [acc2_pos_fst V c t hz, acc2_pos_snd V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_kernel2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) ((hcond2_1 t).mpr h1)
      (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (acc2 V c (t.val - 1) (Nat.lt_of_le_of_lt (Nat.sub_le _ _) t.isLt)).1 (acc2 V c (t.val - 1) (Nat.lt_of_le_of_lt (Nat.sub_le _ _) t.isLt)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, H11, H12, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases h0 : t.val % 128 = 0
    · have hz : t.val = 0 := by omega
      rw [Dat.leavesExact_idle (dat2 V c) 11 t (idleAt2_11 t (fun h => h1 ((hcond2_1 t).mp h))) (noFlush2_11 t (fun h => h1 ((hcond2_1 t).mp h)))]
      rw [Dat.leavesExact_idle (dat2 V c) 12 t (idleAt2_12 t (fun h => h1 ((hcond2_1 t).mp h))) (noFlush2_12 t (fun h => h1 ((hcond2_1 t).mp h)))]
      rw [PhiS2_castSucc V c t, PhiS2_zero V c _ _ hz, PhiA2_eq]
      rw [acc2_first_fst V c t hz, acc2_first_snd V c t hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (sound_kernel2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) ((hcond2_0 t).mpr h0) (fun h => h1 ((hcond2_1 t).mp h))
        (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · have hz : t.val ≠ 0 := by omega
      rw [Dat.leavesExact_idle (dat2 V c) 11 t (idleAt2_11 t (fun h => h1 ((hcond2_1 t).mp h))) (noFlush2_11 t (fun h => h1 ((hcond2_1 t).mp h)))]
      rw [Dat.leavesExact_idle (dat2 V c) 12 t (idleAt2_12 t (fun h => h1 ((hcond2_1 t).mp h))) (noFlush2_12 t (fun h => h1 ((hcond2_1 t).mp h)))]
      rw [PhiS2_castSucc V c t, PhiS2_pos V c _ _ hz]
      rw [acc2_pos_fst V c t hz, acc2_pos_snd V c t hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (sound_kernel2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) (fun h => h1 ((hcond2_1 t).mp h))
        (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (acc2 V c (t.val - 1) (Nat.lt_of_le_of_lt (Nat.sub_le _ _) t.isLt)).1 (acc2 V c (t.val - 1) (Nat.lt_of_le_of_lt (Nat.sub_le _ _) t.isLt)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: what the accumulators hold is forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), PhiA2_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-! ## What the write-backs write -/

/-- The tile output's write-back at any point writes the product tile of the point's blocks. -/
theorem flushed2_10 (c : Dev nD) (t : Fin cfg2.N) : (dat2 V c).flushed 10 t = mmblk (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by
  show (cfg2.win 10).cut (grid2.coords t) ((dat2 V c).after 10 t) = _
  rw [after2_10]; rfl

/-- At the last point the first statistics output's write-back writes the mean of the accumulated column sums, -/
theorem flushed2_11 (c : Dev nD) (t : Fin cfg2.N) (ht : t.val % 128 = 127) : (dat2 V c).flushed 11 t = k2_pay1 (acc2 V c t.val t.isLt).1 := by
  show (cfg2.win 11).cut (grid2.coords t) ((dat2 V c).after 11 t) = _
  rw [after2_11]; rfl

/-- and the second's the variance: the mean of the accumulated squares less the squared mean. -/
theorem flushed2_12 (c : Dev nD) (t : Fin cfg2.N) (ht : t.val % 128 = 127) : (dat2 V c).flushed 12 t = k2_pay2 (acc2 V c t.val t.isLt).1 (acc2 V c t.val t.isLt).2 := by
  show (cfg2.win 12).cut (grid2.coords t) ((dat2 V c).after 12 t) = _
  rw [after2_12]; rfl

end Cert.KernelIdeal.Hand

end
-- ==== Proof.KI.Reg3.lean ====
import proofs.«145083_j84052509982728_1_alg».proof.Proof.Gen.KernelIdeal.Launch
import proofs.«145083_j84052509982728_1_alg».proof.Proof.Gen.KernelIdeal.Skeleton
import proofs.«145083_j84052509982728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 3: the normalise-and-clamp pass over the matrix-product tiles, at the entry contents `V`

Six windows on a grid of 128 points: window 0 is the point's tile of 2048 rows by 256 columns of the matrix product;
windows 1 to 4 are the four rows of 256 column statistics and parameters (the column mean, the column variance, the
scale and the shift), the same block at every point; window 5 is the point's output tile. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, fetched there or not, for any proof
data whose array is `V`'s and whose body leaves the block in place: where the window is not fetched its block index
has not moved, so the previous point's block is this point's. Every window is uncut and never idle. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole buffer -/

abbrev r3_t : Rect S2048x256 := Rect.unit (s := S2048x256) ![0, 0] S2048x256.size inb_S2048x256_S2048x256_0_0
abbrev r3_r : Rect S1x256 := Rect.unit (s := S1x256) ![0, 0] S1x256.size inb_S1x256_S1x256_0_0

/-! ## What the body leaves in the output window's buffer -/

/-- Window 5's staging buffer after the body, from the input windows' blocks: its one store as a piece, the payload
    the normalised, scaled, shifted and clamped tile of the five loaded blocks. -/
def out3_5 (x0 : Vec F S2048x256 .f32) (x1 x2 x3 x4 : Vec F S1x256 .f32) : Vec F S2048x256 .f32 :=
  View.canon [⟨r3_t, k3_pay1 (View.ld x0 r3_t) (View.ld x1 r3_r) (View.ld x2 r3_r) (View.ld x3 r3_r) (View.ld x4 r3_r)⟩]

/-- The one store is the whole buffer, so it covers it. -/
theorem cover3_5 (p0 : Vec F S2048x256 .f32) (y : S2048x256.Idx) :
    ∃ pc ∈ ([⟨r3_t, p0⟩] : List (View.Piece (Elt F) S2048x256 .f32)), y ∈ pc.1.set :=
  View.cover_of_tiled [⟨r3_t, p0⟩] S2048x256.size (by rfl) y

/-! ## The body's triple -/

set_option maxHeartbeats 4000000 in
/-- The body on whole staging memrefs, the five inputs' at read contents and the output's at anything, runs to the
    continuation holding the inputs' as they were and the output's at `out3_5` of the inputs'. -/
theorem sound_kernel3 (c : Dev nD) (E : Set ℕ) (i : grid3.Coords)
    (arg0 : Memref sig .tc .vmem S2048x256 .f32) (harg0 : arg0.IsWhole) (arg1 : Memref sig .tc .vmem S1x256 .f32) (harg1 : arg1.IsWhole)
    (arg2 : Memref sig .tc .vmem S1x256 .f32) (harg2 : arg2.IsWhole) (arg3 : Memref sig .tc .vmem S1x256 .f32) (harg3 : arg3.IsWhole)
    (arg4 : Memref sig .tc .vmem S1x256 .f32) (harg4 : arg4.IsWhole) (arg5 : Memref sig .tc .vmem S2048x256 .f32) (harg5 : arg5.IsWhole)
    (x0 : Vec F S2048x256 .f32) (x1 x2 x3 x4 : Vec F S1x256 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__apply_main_kernel i arg0 harg0 arg1 harg1 arg2 harg2 arg3 harg3 arg4 harg4 arg5 harg5) K := by
  simp only [cc3__apply_main_kernel_eq_skeleton]; unfold cc3__apply_main_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and the output's at `out3_5` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant begins and ends at the class's -/

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := .rfl

/-! ## What a point writes back -/

theorem hz3 : (![0, 0] : Fin 2 → Nat) = fun _ => 0 := funext fun a => by fin_cases a <;> rfl

/-- The output tile a point writes back is the store's payload of the point's five blocks: the one store and the five
    loads are each the whole buffer. -/
theorem flushed3_5 (c : Dev nD) (t : Fin cfg3.N) :
    (dat3 V c).flushed 5 t = k3_pay1 (iblk3 V c 0 t) (iblk3 V c 1 t) (iblk3 V c 2 t) (iblk3 V c 3 t) (iblk3 V c 4 t) := by
  show (cfg3.win 5).cut (grid3.coords t) ((dat3 V c).after 5 t) = _
  rw [after3_5]
  unfold out3_5
  rw [View.canon_unit_zero hz3]
  simp only [View.ld_unit_zero (S := S2048x256) hz3, View.ld_unit_zero (S := S1x256) hz3]
  rfl

end Cert.KernelIdeal.Hand

end
-- ==== Proof.KI.Main.lean ====
/-
  The program's run: four kernel regions after one stretch of host operations.

  Between two items a core holds every unscoped buffer whole at a valuation. The host stretch moves the launch
  contents along its operations' fold. Each region is entered at the valuation before it and left at the valuation
  that has the region's output arrays at what its write-backs leave and every other buffer as entered: region 0 leaves
  the relation's column mean and variance, region 1 the hidden array and its statistics, region 2 the mixed array
  and its statistics, region 3 the result. The regions' records are chained through the conditional run, whose post
  names the result array's last contents beside the unchanged arguments.
-/
import proofs.«145083_j84052509982728_1_alg».proof.Proof.KI.RunCond
import proofs.«145083_j84052509982728_1_alg».proof.Proof.LibRegionHeld
import proofs.«145083_j84052509982728_1_alg».proof.Proof.KI.Reg0
import proofs.«145083_j84052509982728_1_alg».proof.Proof.KI.Reg1
import proofs.«145083_j84052509982728_1_alg».proof.Proof.KI.Reg2
import proofs.«145083_j84052509982728_1_alg».proof.Proof.KI.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each region leaves, and the contents between the items -/

section Run

variable (m : (ℓ : Loc nD τ sig) → Buf (Elt F) ℓ)

/-- A valuation read at the TensorCore's references: the parameter a region's proof data take. -/
abbrev asV (W : Dev nD → Valuation τ sig (Elt F)) : (c : Dev nD) → (b : Ref sig .tc) → Buf (Elt F) ((c : Thread nD τ).loc b) :=
  fun c b => W c b

/-- What region 0 leaves in the two statistics arrays (every other reference: as entered). -/
def o2 (c : Dev nD) (r : Ref sig .tc) : Buf (Elt F) ((c : Thread nD τ).loc r) :=
  if h : r = main_v21_0 then h ▸ (show Buf (Elt F) ((c : Thread nD τ).loc main_v21_0) from (dat0 (asV (Gen.V1 m)) c).arrAt 2 cfg0.N)
  else if h : r = main_v21_1 then h ▸ (show Buf (Elt F) ((c : Thread nD τ).loc main_v21_1) from (dat0 (asV (Gen.V1 m)) c).arrAt 3 cfg0.N)
  else Gen.V1 m c r

/-- The contents after region 0. -/
abbrev U2 (c : Dev nD) : Valuation τ sig (Elt F) :=
  Function.update (Function.update (Gen.V1 m c) main_v21_0 (o2 m c main_v21_0)) main_v21_1 (o2 m c main_v21_1)

/-- What region 1 leaves in the hidden array and its two statistics arrays. -/
def o3 (c : Dev nD) (r : Ref sig .tc) : Buf (Elt F) ((c : Thread nD τ).loc r) :=
  if h : r = main_v22_0 then h ▸ (show Buf (Elt F) ((c : Thread nD τ).loc main_v22_0) from (dat1 (asV (U2 m)) c).arrAt 8 cfg1.N)
  else if h : r = main_v22_1 then h ▸ (show Buf (Elt F) ((c : Thread nD τ).loc main_v22_1) from (dat1 (asV (U2 m)) c).arrAt 9 cfg1.N)
  else if h : r = main_v22_2 then h ▸ (show Buf (Elt F) ((c : Thread nD τ).loc main_v22_2) from (dat1 (asV (U2 m)) c).arrAt 10 cfg1.N)
  else U2 m c r

/-- The contents after region 1. -/
abbrev U3 (c : Dev nD) : Valuation τ sig (Elt F) :=
  Function.update (Function.update (Function.update (U2 m c) main_v22_0 (o3 m c main_v22_0)) main_v22_1 (o3 m c main_v22_1)) main_v22_2 (o3 m c main_v22_2)

/-- What region 2 leaves in the mixed array and its two statistics arrays. -/
def o4 (c : Dev nD) (r : Ref sig .tc) : Buf (Elt F) ((c : Thread nD τ).loc r) :=
  if h : r = main_v23_0 then h ▸ (show Buf (Elt F) ((c : Thread nD τ).loc main_v23_0) from (dat2 (asV (U3 m)) c).arrAt 10 cfg2.N)
  else if h : r = main_v23_1 then h ▸ (show Buf (Elt F) ((c : Thread nD τ).loc main_v23_1) from (dat2 (asV (U3 m)) c).arrAt 11 cfg2.N)
  else if h : r = main_v23_2 then h ▸ (show Buf (Elt F) ((c : Thread nD τ).loc main_v23_2) from (dat2 (asV (U3 m)) c).arrAt 12 cfg2.N)
  else U3 m c r

/-- The contents after region 2. -/
abbrev U4 (c : Dev nD) : Valuation τ sig (Elt F) :=
  Function.update (Function.update (Function.update (U3 m c) main_v23_0 (o4 m c main_v23_0)) main_v23_1 (o4 m c main_v23_1)) main_v23_2 (o4 m c main_v23_2)

/-- What region 3 leaves in the result array. -/
def o5 (c : Dev nD) (r : Ref sig .tc) : Buf (Elt F) ((c : Thread nD τ).loc r) :=
  if h : r = main_v24 then h ▸ (show Buf (Elt F) ((c : Thread nD τ).loc main_v24) from (dat3 (asV (U4 m)) c).arrAt 5 cfg3.N)
  else U4 m c r

/-- What the regions leave, item by item (the family the generated valuations are written over). -/
def outs : Gen.Outs (F := F) := fun J r c =>
  match J with
  | 2 => o2 m c r
  | 3 => o3 m c r
  | 4 => o4 m c r
  | 5 => o5 m c r
  | _ => Gen.V1 m c r

theorem V2_eq (c : Dev nD) : Gen.V2 m (outs m) c = U2 m c := rfl
theorem V3_eq (c : Dev nD) : Gen.V3 m (outs m) c = U3 m c := rfl
theorem V4_eq (c : Dev nD) : Gen.V4 m (outs m) c = U4 m c := rfl

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (asV (Gen.V1 m)) c
  | ⟨1, _⟩ => fun c => dat1 (asV (U2 m)) c
  | ⟨2, _⟩ => fun c => dat2 (asV (U3 m)) c
  | ⟨3, _⟩ => fun c => dat3 (asV (U4 m)) c

end Run

/-! ## The regions as segments over the valuations between the items -/

section Segs

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0

/-! ### Region 0 -/

theorem hF0_0 (c : Dev nD) : (dat0 (asV (Gen.V1 m)) c).arrAt 0 cfg0.N = Gen.V2 m (outs m) c (Proc.devRef .tc main_arg1) :=
  ((dat0 (asV (Gen.V1 m)) c).arrAt_in 0 rfl _).trans ((A_eq0 (asV (Gen.V1 m)) c 0).trans (Gen.V2_of m (outs m) c main_arg1 (by decide)).symm)
theorem hF0_1 (c : Dev nD) : (dat0 (asV (Gen.V1 m)) c).arrAt 1 cfg0.N = Gen.V2 m (outs m) c (Proc.devRef .tc main_v6) :=
  ((dat0 (asV (Gen.V1 m)) c).arrAt_in 1 rfl _).trans ((A_eq0 (asV (Gen.V1 m)) c 1).trans (Gen.V2_of m (outs m) c main_v6 (by decide)).symm)
theorem hF0_2 (c : Dev nD) : (dat0 (asV (Gen.V1 m)) c).arrAt 2 cfg0.N = Gen.V2 m (outs m) c (Proc.devRef .tc main_v21_0) := by
  show _ = U2 m c main_v21_0
  unfold U2
  rw [Function.update_of_ne (StableHlo.devRef_ne_of_ne (by decide)), Function.update_self]
  unfold o2; rw [dif_pos rfl]; try rfl
theorem hF0_3 (c : Dev nD) : (dat0 (asV (Gen.V1 m)) c).arrAt 3 cfg0.N = Gen.V2 m (outs m) c (Proc.devRef .tc main_v21_1) := by
  show _ = U2 m c main_v21_1
  unfold U2
  rw [Function.update_self]
  unfold o2; rw [dif_neg (by decide), dif_pos rfl]; try rfl

/-- Region 0 returns its two input arrays as entered and its two statistics arrays at what the last point wrote back. -/
theorem hF0 (c : Dev nD) : ∀ w : Fin cfg0.W,
    (dat0 (asV (Gen.V1 m)) c).arrAt w cfg0.N = Gen.V2 m (outs m) c (Proc.devRef .tc (Pipeline.arrRef spec0 w))
  | ⟨0, _⟩ => hF0_0 m c
  | ⟨1, _⟩ => hF0_1 m c
  | ⟨2, _⟩ => hF0_2 m c
  | ⟨3, _⟩ => hF0_3 m c

theorem hrest0 (c : Dev nD) (b : Ref sig .tc) (hb : b ∉ Finset.univ.image (Pipeline.arrRef spec0)) :
    Gen.V2 m (outs m) c (Proc.devRef .tc b) = Gen.V1 m c (Proc.devRef .tc b) :=
  Gen.V2_of m (outs m) c b fun h => hb (by
    simp only [List.mem_cons, List.mem_nil_iff, or_false] at h
    rcases h with rfl | rfl
    · exact Finset.mem_image.mpr ⟨2, Finset.mem_univ _, rfl⟩
    · exact Finset.mem_image.mpr ⟨3, Finset.mem_univ _, rfl⟩)

set_option backward.isDefEq.respectTransparency.types false in
/-- Region 0 over the valuations before and after it. -/
def reg0 : Pipeline.RegionSeg (pcfgs (F := F)) Gen.adm (pdats m) () defs₀ Variants.none L lv 0 :=
  Pipeline.RegionSeg.ofHeld (pcfgs (F := F)) Gen.adm (pdats m) defs₀ Variants.none L lv 0
    winFacts0 block_pos0 arr_whole0 stage_whole0
    (fun c => Pipeline.emp_prefHeld_of_no_table _ rfl c _ _)
    (fun c => body_obligation0 (asV (Gen.V1 m)) c)
    (fun _ _ => rfl) (fun _ _ => rfl) (fun _ => rfl)
    (Gen.V1 m) (Gen.V2 m (outs m))
    (fun c w => A_eq0 (asV (Gen.V1 m)) c w) (hF0 m) (hrest0 m)
    (fun c => hin0 (asV (Gen.V1 m)) c) (fun c => hout0 (asV (Gen.V1 m)) c)

/-! ### Region 1 -/

theorem hF1_0 (c : Dev nD) : (dat1 (asV (U2 m)) c).arrAt 0 cfg1.N = Gen.V3 m (outs m) c (Proc.devRef .tc main_arg1) :=
  ((dat1 (asV (U2 m)) c).arrAt_in 0 rfl _).trans ((A_eq1 (asV (U2 m)) c 0).trans (Gen.V3_of m (outs m) c main_arg1 (by decide)).symm)
theorem hF1_1 (c : Dev nD) : (dat1 (asV (U2 m)) c).arrAt 1 cfg1.N = Gen.V3 m (outs m) c (Proc.devRef .tc main_v6) :=
  ((dat1 (asV (U2 m)) c).arrAt_in 1 rfl _).trans ((A_eq1 (asV (U2 m)) c 1).trans (Gen.V3_of m (outs m) c main_v6 (by decide)).symm)
theorem hF1_2 (c : Dev nD) : (dat1 (asV (U2 m)) c).arrAt 2 cfg1.N = Gen.V3 m (outs m) c (Proc.devRef .tc main_v21_0) :=
  ((dat1 (asV (U2 m)) c).arrAt_in 2 rfl _).trans ((A_eq1 (asV (U2 m)) c 2).trans (Gen.V3_of m (outs m) c main_v21_0 (by decide)).symm)
theorem hF1_3 (c : Dev nD) : (dat1 (asV (U2 m)) c).arrAt 3 cfg1.N = Gen.V3 m (outs m) c (Proc.devRef .tc main_v21_1) :=
  ((dat1 (asV (U2 m)) c).arrAt_in 3 rfl _).trans ((A_eq1 (asV (U2 m)) c 3).trans (Gen.V3_of m (outs m) c main_v21_1 (by decide)).symm)
theorem hF1_4 (c : Dev nD) : (dat1 (asV (U2 m)) c).arrAt 4 cfg1.N = Gen.V3 m (outs m) c (Proc.devRef .tc main_v7) :=
  ((dat1 (asV (U2 m)) c).arrAt_in 4 rfl _).trans ((A_eq1 (asV (U2 m)) c 4).trans (Gen.V3_of m (outs m) c main_v7 (by decide)).symm)
theorem hF1_5 (c : Dev nD) : (dat1 (asV (U2 m)) c).arrAt 5 cfg1.N = Gen.V3 m (outs m) c (Proc.devRef .tc main_v8) :=
  ((dat1 (asV (U2 m)) c).arrAt_in 5 rfl _).trans ((A_eq1 (asV (U2 m)) c 5).trans (Gen.V3_of m (outs m) c main_v8 (by decide)).symm)
theorem hF1_6 (c : Dev nD) : (dat1 (asV (U2 m)) c).arrAt 6 cfg1.N = Gen.V3 m (outs m) c (Proc.devRef .tc main_v16) :=
  ((dat1 (asV (U2 m)) c).arrAt_in 6 rfl _).trans ((A_eq1 (asV (U2 m)) c 6).trans (Gen.V3_of m (outs m) c main_v16 (by decide)).symm)
theorem hF1_7 (c : Dev nD) : (dat1 (asV (U2 m)) c).arrAt 7 cfg1.N = Gen.V3 m (outs m) c (Proc.devRef .tc main_v13) :=
  ((dat1 (asV (U2 m)) c).arrAt_in 7 rfl _).trans ((A_eq1 (asV (U2 m)) c 7).trans (Gen.V3_of m (outs m) c main_v13 (by decide)).symm)
theorem hF1_8 (c : Dev nD) : (dat1 (asV (U2 m)) c).arrAt 8 cfg1.N = Gen.V3 m (outs m) c (Proc.devRef .tc main_v22_0) := by
  show _ = U3 m c main_v22_0
  unfold U3
  rw [Function.update_of_ne (StableHlo.devRef_ne_of_ne (by decide)), Function.update_of_ne (StableHlo.devRef_ne_of_ne (by decide)), Function.update_self]
  unfold o3; rw [dif_pos rfl]; try rfl
theorem hF1_9 (c : Dev nD) : (dat1 (asV (U2 m)) c).arrAt 9 cfg1.N = Gen.V3 m (outs m) c (Proc.devRef .tc main_v22_1) := by
  show _ = U3 m c main_v22_1
  unfold U3
  rw [Function.update_of_ne (StableHlo.devRef_ne_of_ne (by decide)), Function.update_self]
  unfold o3; rw [dif_neg (by decide), dif_pos rfl]; try rfl
theorem hF1_10 (c : Dev nD) : (dat1 (asV (U2 m)) c).arrAt 10 cfg1.N = Gen.V3 m (outs m) c (Proc.devRef .tc main_v22_2) := by
  show _ = U3 m c main_v22_2
  unfold U3
  rw [Function.update_self]
  unfold o3; rw [dif_neg (by decide), dif_neg (by decide), dif_pos rfl]; try rfl

/-- Region 1 returns its eight input arrays as entered, the hidden array at its tiles' write-backs and the two statistics arrays at what the last point wrote back. -/
theorem hF1 (c : Dev nD) : ∀ w : Fin cfg1.W,
    (dat1 (asV (U2 m)) c).arrAt w cfg1.N = Gen.V3 m (outs m) c (Proc.devRef .tc (Pipeline.arrRef spec1 w))
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => hF1_7 m c
  | ⟨8, _⟩ => hF1_8 m c
  | ⟨9, _⟩ => hF1_9 m c
  | ⟨10, _⟩ => hF1_10 m c

theorem hrest1 (c : Dev nD) (b : Ref sig .tc) (hb : b ∉ Finset.univ.image (Pipeline.arrRef spec1)) :
    Gen.V3 m (outs m) c (Proc.devRef .tc b) = Gen.V2 m (outs m) c (Proc.devRef .tc b) :=
  Gen.V3_of m (outs m) c b fun h => hb (by
    simp only [List.mem_cons, List.mem_nil_iff, or_false] at h
    rcases h with rfl | rfl | rfl
    · exact Finset.mem_image.mpr ⟨8, Finset.mem_univ _, rfl⟩
    · exact Finset.mem_image.mpr ⟨9, Finset.mem_univ _, rfl⟩
    · exact Finset.mem_image.mpr ⟨10, Finset.mem_univ _, rfl⟩)

set_option backward.isDefEq.respectTransparency.types false in
/-- Region 1 over the valuations before and after it. -/
def reg1 : Pipeline.RegionSeg (pcfgs (F := F)) Gen.adm (pdats m) () defs₀ Variants.none L lv 1 :=
  Pipeline.RegionSeg.ofHeld (pcfgs (F := F)) Gen.adm (pdats m) defs₀ Variants.none L lv 1
    winFacts1 block_pos1 arr_whole1 stage_whole1
    (fun c => Pipeline.emp_prefHeld_of_no_table _ rfl c _ _)
    (fun c => body_obligation1 (asV (U2 m)) c)
    (fun _ _ => rfl) (fun _ _ => rfl) (fun _ => rfl)
    (Gen.V2 m (outs m)) (Gen.V3 m (outs m))
    (fun c w => A_eq1 (asV (U2 m)) c w) (hF1 m) (hrest1 m)
    (fun c => hin1 (asV (U2 m)) c) (fun c => hout1 (asV (U2 m)) c)

/-! ### Region 2 -/

theorem hF2_0 (c : Dev nD) : (dat2 (asV (U3 m)) c).arrAt 0 cfg2.N = Gen.V4 m (outs m) c (Proc.devRef .tc main_v22_0) :=
  ((dat2 (asV (U3 m)) c).arrAt_in 0 rfl _).trans ((A_eq2 (asV (U3 m)) c 0).trans (Gen.V4_of m (outs m) c main_v22_0 (by decide)).symm)
theorem hF2_1 (c : Dev nD) : (dat2 (asV (U3 m)) c).arrAt 1 cfg2.N = Gen.V4 m (outs m) c (Proc.devRef .tc main_v6) :=
  ((dat2 (asV (U3 m)) c).arrAt_in 1 rfl _).trans ((A_eq2 (asV (U3 m)) c 1).trans (Gen.V4_of m (outs m) c main_v6 (by decide)).symm)
theorem hF2_2 (c : Dev nD) : (dat2 (asV (U3 m)) c).arrAt 2 cfg2.N = Gen.V4 m (outs m) c (Proc.devRef .tc main_arg1) :=
  ((dat2 (asV (U3 m)) c).arrAt_in 2 rfl _).trans ((A_eq2 (asV (U3 m)) c 2).trans (Gen.V4_of m (outs m) c main_arg1 (by decide)).symm)
theorem hF2_3 (c : Dev nD) : (dat2 (asV (U3 m)) c).arrAt 3 cfg2.N = Gen.V4 m (outs m) c (Proc.devRef .tc main_v22_1) :=
  ((dat2 (asV (U3 m)) c).arrAt_in 3 rfl _).trans ((A_eq2 (asV (U3 m)) c 3).trans (Gen.V4_of m (outs m) c main_v22_1 (by decide)).symm)
theorem hF2_4 (c : Dev nD) : (dat2 (asV (U3 m)) c).arrAt 4 cfg2.N = Gen.V4 m (outs m) c (Proc.devRef .tc main_v22_2) :=
  ((dat2 (asV (U3 m)) c).arrAt_in 4 rfl _).trans ((A_eq2 (asV (U3 m)) c 4).trans (Gen.V4_of m (outs m) c main_v22_2 (by decide)).symm)
theorem hF2_5 (c : Dev nD) : (dat2 (asV (U3 m)) c).arrAt 5 cfg2.N = Gen.V4 m (outs m) c (Proc.devRef .tc main_v9) :=
  ((dat2 (asV (U3 m)) c).arrAt_in 5 rfl _).trans ((A_eq2 (asV (U3 m)) c 5).trans (Gen.V4_of m (outs m) c main_v9 (by decide)).symm)
theorem hF2_6 (c : Dev nD) : (dat2 (asV (U3 m)) c).arrAt 6 cfg2.N = Gen.V4 m (outs m) c (Proc.devRef .tc main_v10) :=
  ((dat2 (asV (U3 m)) c).arrAt_in 6 rfl _).trans ((A_eq2 (asV (U3 m)) c 6).trans (Gen.V4_of m (outs m) c main_v10 (by decide)).symm)
theorem hF2_7 (c : Dev nD) : (dat2 (asV (U3 m)) c).arrAt 7 cfg2.N = Gen.V4 m (outs m) c (Proc.devRef .tc main_v18) :=
  ((dat2 (asV (U3 m)) c).arrAt_in 7 rfl _).trans ((A_eq2 (asV (U3 m)) c 7).trans (Gen.V4_of m (outs m) c main_v18 (by decide)).symm)
theorem hF2_8 (c : Dev nD) : (dat2 (asV (U3 m)) c).arrAt 8 cfg2.N = Gen.V4 m (outs m) c (Proc.devRef .tc main_v14) :=
  ((dat2 (asV (U3 m)) c).arrAt_in 8 rfl _).trans ((A_eq2 (asV (U3 m)) c 8).trans (Gen.V4_of m (outs m) c main_v14 (by decide)).symm)
theorem hF2_9 (c : Dev nD) : (dat2 (asV (U3 m)) c).arrAt 9 cfg2.N = Gen.V4 m (outs m) c (Proc.devRef .tc main_v20) :=
  ((dat2 (asV (U3 m)) c).arrAt_in 9 rfl _).trans ((A_eq2 (asV (U3 m)) c 9).trans (Gen.V4_of m (outs m) c main_v20 (by decide)).symm)
theorem hF2_10 (c : Dev nD) : (dat2 (asV (U3 m)) c).arrAt 10 cfg2.N = Gen.V4 m (outs m) c (Proc.devRef .tc main_v23_0) := by
  show _ = U4 m c main_v23_0
  unfold U4
  rw [Function.update_of_ne (StableHlo.devRef_ne_of_ne (by decide)), Function.update_of_ne (StableHlo.devRef_ne_of_ne (by decide)), Function.update_self]
  unfold o4; rw [dif_pos rfl]; try rfl
theorem hF2_11 (c : Dev nD) : (dat2 (asV (U3 m)) c).arrAt 11 cfg2.N = Gen.V4 m (outs m) c (Proc.devRef .tc main_v23_1) := by
  show _ = U4 m c main_v23_1
  unfold U4
  rw [Function.update_of_ne (StableHlo.devRef_ne_of_ne (by decide)), Function.update_self]
  unfold o4; rw [dif_neg (by decide), dif_pos rfl]; try rfl
theorem hF2_12 (c : Dev nD) : (dat2 (asV (U3 m)) c).arrAt 12 cfg2.N = Gen.V4 m (outs m) c (Proc.devRef .tc main_v23_2) := by
  show _ = U4 m c main_v23_2
  unfold U4
  rw [Function.update_self]
  unfold o4; rw [dif_neg (by decide), dif_neg (by decide), dif_pos rfl]; try rfl

/-- Region 2 returns its ten input arrays as entered, the mixed array at its tiles' write-backs and the two statistics arrays at what the last point wrote back. -/
theorem hF2 (c : Dev nD) : ∀ w : Fin cfg2.W,
    (dat2 (asV (U3 m)) c).arrAt w cfg2.N = Gen.V4 m (outs m) c (Proc.devRef .tc (Pipeline.arrRef spec2 w))
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c
  | ⟨8, _⟩ => hF2_8 m c
  | ⟨9, _⟩ => hF2_9 m c
  | ⟨10, _⟩ => hF2_10 m c
  | ⟨11, _⟩ => hF2_11 m c
  | ⟨12, _⟩ => hF2_12 m c

theorem hrest2 (c : Dev nD) (b : Ref sig .tc) (hb : b ∉ Finset.univ.image (Pipeline.arrRef spec2)) :
    Gen.V4 m (outs m) c (Proc.devRef .tc b) = Gen.V3 m (outs m) c (Proc.devRef .tc b) :=
  Gen.V4_of m (outs m) c b fun h => hb (by
    simp only [List.mem_cons, List.mem_nil_iff, or_false] at h
    rcases h with rfl | rfl | rfl
    · exact Finset.mem_image.mpr ⟨10, Finset.mem_univ _, rfl⟩
    · exact Finset.mem_image.mpr ⟨11, Finset.mem_univ _, rfl⟩
    · exact Finset.mem_image.mpr ⟨12, Finset.mem_univ _, rfl⟩)

set_option backward.isDefEq.respectTransparency.types false in
/-- Region 2 over the valuations before and after it. -/
def reg2 : Pipeline.RegionSeg (pcfgs (F := F)) Gen.adm (pdats m) () defs₀ Variants.none L lv 2 :=
  Pipeline.RegionSeg.ofHeld (pcfgs (F := F)) Gen.adm (pdats m) defs₀ Variants.none L lv 2
    winFacts2 block_pos2 arr_whole2 stage_whole2
    (fun c => Pipeline.emp_prefHeld_of_no_table _ rfl c _ _)
    (fun c => body_obligation2 (asV (U3 m)) c)
    (fun _ _ => rfl) (fun _ _ => rfl) (fun _ => rfl)
    (Gen.V3 m (outs m)) (Gen.V4 m (outs m))
    (fun c w => A_eq2 (asV (U3 m)) c w) (hF2 m) (hrest2 m)
    (fun c => hin2 (asV (U3 m)) c) (fun c => hout2 (asV (U3 m)) c)

/-! ### Region 3 -/

theorem hF3_0 (c : Dev nD) : (dat3 (asV (U4 m)) c).arrAt 0 cfg3.N = Gen.V5 m (outs m) c (Proc.devRef .tc main_v23_0) :=
  ((dat3 (asV (U4 m)) c).arrAt_in 0 rfl _).trans ((A_eq3 (asV (U4 m)) c 0).trans (Gen.V5_of m (outs m) c main_v23_0 (by decide)).symm)
theorem hF3_1 (c : Dev nD) : (dat3 (asV (U4 m)) c).arrAt 1 cfg3.N = Gen.V5 m (outs m) c (Proc.devRef .tc main_v23_1) :=
  ((dat3 (asV (U4 m)) c).arrAt_in 1 rfl _).trans ((A_eq3 (asV (U4 m)) c 1).trans (Gen.V5_of m (outs m) c main_v23_1 (by decide)).symm)
theorem hF3_2 (c : Dev nD) : (dat3 (asV (U4 m)) c).arrAt 2 cfg3.N = Gen.V5 m (outs m) c (Proc.devRef .tc main_v23_2) :=
  ((dat3 (asV (U4 m)) c).arrAt_in 2 rfl _).trans ((A_eq3 (asV (U4 m)) c 2).trans (Gen.V5_of m (outs m) c main_v23_2 (by decide)).symm)
theorem hF3_3 (c : Dev nD) : (dat3 (asV (U4 m)) c).arrAt 3 cfg3.N = Gen.V5 m (outs m) c (Proc.devRef .tc main_v11) :=
  ((dat3 (asV (U4 m)) c).arrAt_in 3 rfl _).trans ((A_eq3 (asV (U4 m)) c 3).trans (Gen.V5_of m (outs m) c main_v11 (by decide)).symm)
theorem hF3_4 (c : Dev nD) : (dat3 (asV (U4 m)) c).arrAt 4 cfg3.N = Gen.V5 m (outs m) c (Proc.devRef .tc main_v12) :=
  ((dat3 (asV (U4 m)) c).arrAt_in 4 rfl _).trans ((A_eq3 (asV (U4 m)) c 4).trans (Gen.V5_of m (outs m) c main_v12 (by decide)).symm)
theorem hF3_5 (c : Dev nD) : (dat3 (asV (U4 m)) c).arrAt 5 cfg3.N = Gen.V5 m (outs m) c (Proc.devRef .tc main_v24) := by
  show _ = Function.update (U4 m c) main_v24 (o5 m c main_v24) main_v24
  rw [Function.update_self]
  unfold o5; rw [dif_pos rfl]; try rfl

/-- Region 3 returns its five input arrays as entered and the result array at its tiles' write-backs. -/
theorem hF3 (c : Dev nD) : ∀ w : Fin cfg3.W,
    (dat3 (asV (U4 m)) c).arrAt w cfg3.N = Gen.V5 m (outs m) c (Proc.devRef .tc (Pipeline.arrRef spec3 w))
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c

theorem hrest3 (c : Dev nD) (b : Ref sig .tc) (hb : b ∉ Finset.univ.image (Pipeline.arrRef spec3)) :
    Gen.V5 m (outs m) c (Proc.devRef .tc b) = Gen.V4 m (outs m) c (Proc.devRef .tc b) :=
  Gen.V5_of m (outs m) c b fun h => hb (by
    simp only [List.mem_cons, List.mem_nil_iff, or_false] at h
    obtain rfl := h
    exact Finset.mem_image.mpr ⟨5, Finset.mem_univ _, rfl⟩)

set_option backward.isDefEq.respectTransparency.types false in
/-- Region 3 over the valuations before and after it. -/
def reg3 : Pipeline.RegionSeg (pcfgs (F := F)) Gen.adm (pdats m) () defs₀ Variants.none L lv 3 :=
  Pipeline.RegionSeg.ofHeld (pcfgs (F := F)) Gen.adm (pdats m) defs₀ Variants.none L lv 3
    winFacts3 block_pos3 arr_whole3 stage_whole3
    (fun c => Pipeline.emp_prefHeld_of_no_table _ rfl c _ _)
    (fun c => body_obligation3 (asV (U4 m)) c)
    (fun _ _ => rfl) (fun _ _ => rfl) (fun _ => rfl)
    (Gen.V4 m (outs m)) (Gen.V5 m (outs m))
    (fun c w => A_eq3 (asV (U4 m)) c w) (hF3 m) (hrest3 m)
    (fun c => hin3 (asV (U4 m)) c) (fun c => hout3 (asV (U4 m)) c)

end Segs

/-! ## The run -/

section TheRun

variable (m : (ℓ : Loc nD τ sig) → Buf (Elt F) ℓ) (ρ : Dev nD → PrngReg)

-- the conditional run's implicit arguments are found by unifying its conclusion with this one, which takes unfolding
-- plain definitions in a metavariable's type
set_option backward.isDefEq.respectTransparency.types false in
/-- THE RUN. From any memory with zero counters every weakly fair execution of the main function terminates, the
    result array ends at the last valuation's contents (what region 3's write-backs leave: `V5_result`), and every
    argument array ends as launched. -/
theorem run_main : θ_run defs (onTc (τ := τ) (main (F := F))) ⟨m, fun _ => 0, ρ⟩ (fun r => ∀ c : Dev nD,
      r.2.mem ((c.tc : Thread nD τ).loc main_v24) = Gen.V5 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.run_cond m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Pipeline.idleRest c)
    (hE0 := by
      refine Pipeline.initEach L lv fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)

/-- The result array's last contents are what region 3's write-backs leave. -/
theorem V5_result (c : Dev nD) : Gen.V5 m (outs m) c main_v24 = (dat3 (asV (U4 m)) c).arrAt 5 cfg3.N := by
  show Function.update (U4 m c) main_v24 (o5 m c main_v24) main_v24 = _
  rw [Function.update_self]
  unfold o5; rw [dif_pos rfl]; try rfl

end TheRun

end Cert.KernelIdeal.Hand

end
-- ==== Proof.Spec.lean ====
/-
  The network both programs compute, written once over plain doubly indexed families of extended reals, with the
  batch statistics left as a parameter.

  A point cloud layer: the features `x` of `n` query points and the gathered neighbour features `aug` give the
  relation `rel = x - aug`; a gate is computed from it by batch norm, ReLU, a linear map to `H` channels, batch
  norm, ReLU, a linear map back to `C` channels and a softmax along the channels; the gated neighbour is added to
  `x`, mapped by a square linear map, and normalised by a third batch norm followed by a ReLU.

  Each batch norm needs the mean and the variance of a column over all `n` rows. One program accumulates the
  column's sum and its sum of squares and forms `E[X²] - E[X]²` (`kstats`); the other forms the mean and then
  the mean of the squared deviations (`rstats`). `net` is the layer over either choice.
-/
import Idealize.ShloMosaic.PureOps.Ideal

noncomputable section

namespace Cert.Spec

open Idealize.ShloMosaic

variable {n d k : ℕ}

/-- The sum of column `j` over all rows. -/
def colsum (X : Fin n → Fin d → EReal) (j : Fin d) : EReal := ∑ i, X i j

/-- The accumulated statistics: the column sum scaled by `c`, -/
def kmean (c : EReal) (X : Fin n → Fin d → EReal) (j : Fin d) : EReal := colsum X j * c
/-- and the scaled sum of squares less the square of that mean. -/
def kvar (c : EReal) (X : Fin n → Fin d → EReal) (j : Fin d) : EReal :=
  colsum (fun i j => X i j * X i j) j * c - kmean c X j * kmean c X j

/-- The two-pass statistics: the column sum divided by `N`, -/
def rmean (N : EReal) (X : Fin n → Fin d → EReal) (j : Fin d) : EReal := Ideal.div (colsum X j) N
/-- and the sum of the squared deviations from it divided by `N`. -/
def rvar (N : EReal) (X : Fin n → Fin d → EReal) (j : Fin d) : EReal :=
  Ideal.div (colsum (fun i j => (X i j - rmean N X j) * (X i j - rmean N X j)) j) N

/-- A choice of column statistics. -/
structure Stats where
  mean : {n d : ℕ} → (Fin n → Fin d → EReal) → Fin d → EReal
  var : {n d : ℕ} → (Fin n → Fin d → EReal) → Fin d → EReal

def kstats (c : EReal) : Stats := ⟨fun X => kmean c X, fun X => kvar c X⟩
def rstats (N : EReal) : Stats := ⟨fun X => rmean N X, fun X => rvar N X⟩

/-- Batch norm with given statistics, scale `g` and shift `b`, followed by a ReLU. -/
def bnrelu (mean var g b : Fin d → EReal) (eps : EReal) (X : Fin n → Fin d → EReal) (i : Fin n) (j : Fin d) : EReal :=
  max ((X i j - mean j) * Ideal.rsqrt (var j + eps) * g j + b j) 0

/-- `X · Wᵀ` for a weight stored as [out, in]. -/
def mm (X : Fin n → Fin k → EReal) (W : Fin d → Fin k → EReal) (i : Fin n) (j : Fin d) : EReal := ∑ l, X i l * W j l
/-- `X · Wᵀ + b`. -/
def lin (X : Fin n → Fin k → EReal) (W : Fin d → Fin k → EReal) (b : Fin d → EReal) (i : Fin n) (j : Fin d) : EReal :=
  mm X W i j + b j

/-- The largest entry of row `i` (a fold of `max` from `-∞`, once more joined with `-∞`). -/
def rowmax (X : Fin n → Fin d → EReal) (i : Fin n) : EReal := max ⊥ ((Finset.univ : Finset (Fin d)).fold max ⊥ (fun j => X i j))
/-- The softmax along a row, shifted by the row's largest entry. -/
def softmax (X : Fin n → Fin d → EReal) (i : Fin n) (j : Fin d) : EReal :=
  Ideal.div (Ideal.exp (X i j - rowmax X i)) (∑ j', Ideal.exp (X i j' - rowmax X i))

section Net
variable {C H : ℕ}
variable (S : Stats) (eps : EReal) (x aug : Fin n → Fin C → EReal) (Wlin : Fin C → Fin C → EReal)
  (g_main b_main g_a b_a : Fin C → EReal) (W1 : Fin H → Fin C → EReal) (b1 g_b b_b : Fin H → EReal)
  (W2 : Fin C → Fin H → EReal) (b2 : Fin C → EReal)

/-- The relation. -/
def rel (i : Fin n) (j : Fin C) : EReal := x i j - aug i j
/-- The gate's hidden layer before its batch norm. -/
def hid : Fin n → Fin H → EReal := lin (bnrelu (S.mean (rel x aug)) (S.var (rel x aug)) g_a b_a eps (rel x aug)) W1 b1
/-- The gate's logits. -/
def logits : Fin n → Fin C → EReal :=
  lin (bnrelu (S.mean (hid S eps x aug g_a b_a W1 b1)) (S.var (hid S eps x aug g_a b_a W1 b1)) g_b b_b eps (hid S eps x aug g_a b_a W1 b1)) W2 b2
/-- The gated sum mapped by the square linear map. -/
def mixed : Fin n → Fin C → EReal :=
  mm (fun i j => x i j + softmax (logits S eps x aug g_a b_a W1 b1 g_b b_b W2 b2) i j * aug i j) Wlin
/-- The layer's output. -/
def net : Fin n → Fin C → EReal :=
  bnrelu (S.mean (mixed S eps x aug Wlin g_a b_a W1 b1 g_b b_b W2 b2)) (S.var (mixed S eps x aug Wlin g_a b_a W1 b1 g_b b_b W2 b2))
    g_main b_main eps (mixed S eps x aug Wlin g_a b_a W1 b1 g_b b_b W2 b2)
end Net

end Cert.Spec

end
-- ==== Proof.Iface.lean ====
/-
  Arrays of the programs read as the plain doubly (or singly) indexed families the specification is written over,
  and the three float literals both programs share: the reciprocal of the number of rows, the number of rows, and
  the batch norms' epsilon, each as the extended real its bit pattern denotes.
-/
import proofs.«145083_j84052509982728_1_alg».proof.Proof.Spec
import Idealize.ShloMosaic.Lib.ValueIdx

noncomputable section

namespace Cert.Iface

open Idealize.ShloMosaic Idealize.ShloMosaic.ValueIdx

/-- A rank-2 array as a family indexed by row and column. -/
abbrev cur2 {A B : ℕ} (v : (⟨2, ![A, B]⟩ : Shape).Idx → EReal) : Fin A → Fin B → EReal := fun i j => v (ix2 i j)
/-- A rank-1 array as a family indexed by its one coordinate. -/
abbrev cur1 {A : ℕ} (v : (⟨1, ![A]⟩ : Shape).Idx → EReal) : Fin A → EReal := fun j => v (ix1 j)
/-- A [1, B] row as a family indexed by the column. -/
abbrev row1 {B : ℕ} (v : (⟨2, ![1, B]⟩ : Shape).Idx → EReal) : Fin B → EReal := fun j => v (ix2 (0 : Fin 1) j)
/-- A weight stored transposed, [in, out], read as [out, in]. -/
abbrev tr2 {A B : ℕ} (v : (⟨2, ![A, B]⟩ : Shape).Idx → EReal) : Fin B → Fin A → EReal := fun j l => v (ix2 l j)

/-- 2⁻¹⁸, the reciprocal of the number of rows, as the kernels spell it. -/
def c0 : EReal := Ideal.ofBits .f32 0x36800000#32
/-- 262144, the number of rows, as the reference spells it. -/
def N0 : EReal := Ideal.ofBits .f32 0x48800000#32
/-- The batch norms' epsilon (the float nearest 10⁻⁵), the same word in both programs. -/
def eps0 : EReal := Ideal.ofBits .f32 0x3727C5AC#32

end Cert.Iface

end
-- ==== Proof.KI.Pay0.lean ====
/-
  Region 0's arithmetic read at an index, over the extended reals: the two reset blocks are zero; one point adds to
  each accumulator the column sums of its tile of the relation, and of the relation's squares; the last point scales
  the two accumulated sums by the reciprocal of the number of rows and takes the mean's square from the second.
-/
import proofs.«145083_j84052509982728_1_alg».proof.Proof.Gen.KernelIdeal.Skeleton
import proofs.«145083_j84052509982728_1_alg».proof.Proof.Iface
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.Iface Cert.Spec
open Idealize.ShloMosaic Idealize.ShloMosaic.ValueIdx

/-- The column sum of a [2048, 256] tile, as the row [1, 256] the body adds to an accumulator: at column `j` the sum
    over the tile's rows. -/
theorem colsum_tile_apply (v : FVec Ideal S2048x256 .f32) (hφ : FKind.Formats .f32)
    (hacc : (0x00000000#32 : BitVec 32) = 0x00000000#32) (u : Fin 1) (j : Fin 256) :
    shapeCast S1x256 (multiReduction (F := Ideal) .add [0] S256 v 0x00000000#32 reduces_S2048x256_S256 hφ hacc) shapeCasts_S256_S1x256 (ix2 u j)
      = ∑ r : Fin 2048, v (ix2 r j) := by
  refine (shapeCast_a_1a_apply _ shapeCasts_S256_S1x256 u j).trans ?_
  refine (Ideal.multiReduction_add_single v 0x00000000#32 reduces_S2048x256_S256 hφ hacc (ix1 j)).trans ?_
  refine Finset.sum_congr rfl fun r _ => congrArg v ?_
  funext a
  match a with
  | ⟨0, _⟩ => rfl
  | ⟨1, _⟩ => rfl

/-- The first reset block is zero. -/
theorem k0_pay1_apply (i : S1x256.Idx) : k0_pay1 (F := Ideal) i = 0 := by
  unfold k0_pay1
  rw [shapeCast_self]
  exact Ideal.ofBits_zero_f32

/-- The second reset block is zero. -/
theorem k0_pay2_apply (i : S1x256.Idx) : k0_pay2 (F := Ideal) i = 0 := by
  unfold k0_pay2
  rw [shapeCast_self]
  exact Ideal.ofBits_zero_f32

/-- A tile of the relation at an index: the difference of the two tiles there. -/
theorem k0_pay3_apply (x a : Vec Ideal S2048x256 .f32) (i : S2048x256.Idx) : k0_pay3 x a i = x i - a i := by
  unfold k0_pay3
  rw [shapeCast_self]
  rfl

/-- One point's step on the first accumulator: at column `j` it adds the tile's column sum of the relation. -/
theorem k0_pay4_apply (x a : Vec Ideal S2048x256 .f32) (s : Vec Ideal S1x256 .f32) (j : Fin 256) :
    k0_pay4 x a s (ix2 (0 : Fin 1) j) = s (ix2 (0 : Fin 1) j) + ∑ r : Fin 2048, (x (ix2 r j) - a (ix2 r j)) := by
  unfold k0_pay4
  dsimp only
  rw [shapeCast_self]
  refine (addf_apply _ _ _).trans ?_
  refine congrArg (s (ix2 (0 : Fin 1) j) + ·) ?_
  refine (colsum_tile_apply (k0_pay3 x a) _ _ 0 j).trans ?_
  exact Finset.sum_congr rfl fun r _ => k0_pay3_apply x a (ix2 r j)

/-- One point's step on the second accumulator: at column `j` it adds the tile's column sum of the relation's squares. -/
theorem k0_pay5_apply (x a : Vec Ideal S2048x256 .f32) (s : Vec Ideal S1x256 .f32) (j : Fin 256) :
    k0_pay5 x a s (ix2 (0 : Fin 1) j)
      = s (ix2 (0 : Fin 1) j) + ∑ r : Fin 2048, (x (ix2 r j) - a (ix2 r j)) * (x (ix2 r j) - a (ix2 r j)) := by
  unfold k0_pay5
  dsimp only
  rw [shapeCast_self]
  refine (addf_apply _ _ _).trans ?_
  refine congrArg (s (ix2 (0 : Fin 1) j) + ·) ?_
  refine (colsum_tile_apply (mulf (k0_pay3 x a) (k0_pay3 x a)) _ _ 0 j).trans ?_
  refine Finset.sum_congr rfl fun r _ => ?_
  rw [mulf_apply, k0_pay3_apply]

/-- The mean's block: the accumulated sum scaled by the reciprocal of the number of rows. -/
theorem k0_pay6_apply (s : Vec Ideal S1x256 .f32) (i : S1x256.Idx) : k0_pay6 s i = s i * c0 := by
  unfold k0_pay6
  rfl

/-- The variance's block: the scaled sum of squares less the square of the mean. -/
theorem k0_pay7_apply (s q : Vec Ideal S1x256 .f32) (i : S1x256.Idx) :
    k0_pay7 s q i = q i * c0 - (s i * c0) * (s i * c0) := by
  unfold k0_pay7
  rw [subf_apply, mulf_apply, mulf_apply, k0_pay6_apply]
  rfl

end Cert.KernelIdeal.HandValue

end
-- ==== Proof.KI.Blk0.lean ====
/-
  Region 0's two input tiles read where their arrays say: at point `t` the tile's row `r` is the array's row
  `2048 t + r`; and the regrouping of a sum over the 262144 rows as the 128 tiles' sums of 2048 rows each.
-/
import proofs.«145083_j84052509982728_1_alg».proof.Proof.KI.Reg0Runs
import proofs.«145083_j84052509982728_1_alg».proof.Proof.KI.Pay0
import proofs.«145083_j84052509982728_1_alg».proof.Proof.Iface
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Cert.Iface Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The arrays and the tiles, at their literal types -/

/-- The two input arrays as the region finds them, -/
abbrev xarr (c : Dev nD) : Vec Ideal S262144x256 .f32 := V c main_arg1
abbrev aarr (c : Dev nD) : Vec Ideal S262144x256 .f32 := V c main_v6
/-- and their tiles at a point. -/
abbrev xblk (c : Dev nD) (t : Fin cfg0.N) : Vec Ideal S2048x256 .f32 := iblk0 V c 0 t
abbrev ablk (c : Dev nD) (t : Fin cfg0.N) : Vec Ideal S2048x256 .f32 := iblk0 V c 1 t

/-- The relation of the region's two input arrays. -/
abbrev rel0 (c : Dev nD) : Fin 262144 → Fin 256 → EReal := Spec.rel (cur2 (V c main_arg1)) (cur2 (V c main_v6))

theorem rel0_apply (c : Dev nD) (i : Fin 262144) (j : Fin 256) :
    rel0 V c i j = xarr V c (ix2 i j) - aarr V c (ix2 i j) := rfl

/-! ## Where a tile sits in its array -/

/-- The block indices over the grid: the two tiled windows move down the rows with the point, the two statistics
    windows stay at the origin. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row `r` of tile `s` is row `2048 s + r` of the array. -/
def tileRow (s : ℕ) (hs : s < 128) (r : Fin 2048) : Fin 262144 := ⟨2048 * s + r.val, by have := r.isLt; omega⟩

theorem lt128 (t : Fin cfg0.N) : t.val < 128 := by have := t.isLt; have hN : cfg0.N = 128 := N_0; omega

/-- The x tile at a point reads the array at the tile's rows. -/
theorem xblk_apply (c : Dev nD) (t : Fin cfg0.N) (r : Fin 2048) (j : Fin 256) :
    xblk V c t (ix2 r j) = xarr V c (ix2 (tileRow t.val (lt128 t) r) j) := by
  obtain ⟨e0, e1, -⟩ := idx_facts0 t
  show V c main_arg1 (((cfg0.win 0).blk t).view.emb (ix2 r j)) = V c main_arg1 (ix2 (tileRow t.val (lt128 t) r) j)
  refine congrArg (V c main_arg1) ?_
  funext a; apply Fin.ext
  match a with
  | ⟨0, _⟩ => show win0_0.index t (0 : Fin 2) * 2048 + 1 * r.val = 2048 * t.val + r.val; omega
  | ⟨1, _⟩ => show win0_0.index t (1 : Fin 2) * 256 + 1 * j.val = j.val; omega

/-- The gathered tile likewise. -/
theorem ablk_apply (c : Dev nD) (t : Fin cfg0.N) (r : Fin 2048) (j : Fin 256) :
    ablk V c t (ix2 r j) = aarr V c (ix2 (tileRow t.val (lt128 t) r) j) := by
  obtain ⟨-, -, e0, e1, -⟩ := idx_facts0 t
  show V c main_v6 (((cfg0.win 1).blk t).view.emb (ix2 r j)) = V c main_v6 (ix2 (tileRow t.val (lt128 t) r) j)
  refine congrArg (V c main_v6) ?_
  funext a; apply Fin.ext
  match a with
  | ⟨0, _⟩ => show win0_1.index t (0 : Fin 2) * 2048 + 1 * r.val = 2048 * t.val + r.val; omega
  | ⟨1, _⟩ => show win0_1.index t (1 : Fin 2) * 256 + 1 * j.val = j.val; omega

/-! ## A sum over the rows, tile by tile -/

/-- The sum of a family over the rows of tile `s`. -/
def tileSum (g : Fin 262144 → EReal) (s : ℕ) (hs : s < 128) : EReal := ∑ r : Fin 2048, g (tileRow s hs r)

/-- The 128 tiles of 2048 rows are the 262144 rows: a sum over the rows is the sum of the tiles' sums. -/
theorem sum_tiles (g : Fin 262144 → EReal) : ∑ s : Fin 128, tileSum g s.val s.isLt = ∑ i : Fin 262144, g i := by
  rw [← Equiv.sum_comp (finProdFinEquiv (m := 128) (n := 2048)) g, Fintype.sum_prod_type]
  refine Finset.sum_congr rfl fun s _ => Finset.sum_congr rfl fun r _ => congrArg g (Fin.ext ?_)
  show 2048 * s.val + r.val = r.val + 2048 * s.val
  omega

end Cert.KernelIdeal.HandValue

end
-- ==== Proof.KI.Val0.lean ====
/-
  The value half of region 0 over the extended reals: for any entry contents, after the region's write-backs the
  mean's array holds, at each column, the column sum of the relation `x - aug` over all 262144 rows scaled by the
  reciprocal of the number of rows, and the variance's array the scaled column sum of the relation's squares less
  the square of that mean. The two accumulators after point `n` hold the sums over the rows of tiles `0 … n` (by
  induction on the point); the one write-back, at the last point, covers each [1, 256] array.
-/
import proofs.«145083_j84052509982728_1_alg».proof.Proof.KI.Reg0
import proofs.«145083_j84052509982728_1_alg».proof.Proof.KI.Blk0
import proofs.«145083_j84052509982728_1_alg».proof.Proof.Iface
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Cert.Iface Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

namespace Stat0

/-! ## The accumulators after a point -/

/-- A tile index below a point's successor is a tile index. -/
theorem lt128' {n : ℕ} (h : n < cfg0.N) (s : Fin (n + 1)) : s.val < 128 := by
  have := s.isLt; have hN : cfg0.N = 128 := N_0; omega

/-- One point's addend to the first accumulator is the relation's sum over the point's tile. -/
theorem step_fst (c : Dev nD) (t : Fin cfg0.N) (j : Fin 256) :
    ∑ r : Fin 2048, (xblk V c t (ix2 r j) - ablk V c t (ix2 r j)) = tileSum (fun i => rel0 V c i j) t.val (lt128 t) := by
  unfold tileSum
  refine Finset.sum_congr rfl fun r _ => ?_
  rw [xblk_apply, ablk_apply]
  rfl

/-- One point's addend to the second accumulator is the sum of the relation's squares over the point's tile. -/
theorem step_snd (c : Dev nD) (t : Fin cfg0.N) (j : Fin 256) :
    ∑ r : Fin 2048, (xblk V c t (ix2 r j) - ablk V c t (ix2 r j)) * (xblk V c t (ix2 r j) - ablk V c t (ix2 r j))
      = tileSum (fun i => rel0 V c i j * rel0 V c i j) t.val (lt128 t) := by
  unfold tileSum
  refine Finset.sum_congr rfl fun r _ => ?_
  rw [xblk_apply, ablk_apply]
  rfl

/-- After point `n` the first accumulator holds, at column `j`, the relation summed over the rows of tiles `0 … n`. -/
theorem acc0_fst (c : Dev nD) : ∀ (n : ℕ) (h : n < cfg0.N) (j : Fin 256),
    (acc0 V c n h).1 (ix2 (0 : Fin 1) j) = ∑ s : Fin (n + 1), tileSum (fun i => rel0 V c i j) s.val (lt128' h s)
  | 0, h, j => by
    rw [acc0_zero]; dsimp only
    refine (k0_pay4_apply (xblk V c ⟨0, h⟩) (ablk V c ⟨0, h⟩) (k0_pay1 (F := Ideal)) j).trans ?_
    rw [k0_pay1_apply, zero_add]
    refine (step_fst V c ⟨0, h⟩ j).trans ?_
    exact (Fin.sum_univ_one (fun s : Fin 1 => tileSum (fun i => rel0 V c i j) s.val (lt128' h s))).symm
  | n + 1, h, j => by
    rw [acc0_succ]; dsimp only
    refine (k0_pay4_apply (xblk V c ⟨n + 1, h⟩) (ablk V c ⟨n + 1, h⟩) (acc0 V c n (Nat.lt_of_succ_lt h)).1 j).trans ?_
    rw [acc0_fst c n (Nat.lt_of_succ_lt h) j, Fin.sum_univ_castSucc (n := n + 1)]
    exact congrArg₂ (· + ·) rfl (step_fst V c ⟨n + 1, h⟩ j)

/-- After point `n` the second accumulator holds, at column `j`, the relation's squares summed over the rows of tiles `0 … n`. -/
theorem acc0_snd (c : Dev nD) : ∀ (n : ℕ) (h : n < cfg0.N) (j : Fin 256),
    (acc0 V c n h).2 (ix2 (0 : Fin 1) j)
      = ∑ s : Fin (n + 1), tileSum (fun i => rel0 V c i j * rel0 V c i j) s.val (lt128' h s)
  | 0, h, j => by
    rw [acc0_zero]; dsimp only
    refine (k0_pay5_apply (xblk V c ⟨0, h⟩) (ablk V c ⟨0, h⟩) (k0_pay2 (F := Ideal)) j).trans ?_
    rw [k0_pay2_apply, zero_add]
    refine (step_snd V c ⟨0, h⟩ j).trans ?_
    exact (Fin.sum_univ_one (fun s : Fin 1 => tileSum (fun i => rel0 V c i j * rel0 V c i j) s.val (lt128' h s))).symm
  | n + 1, h, j => by
    rw [acc0_succ]; dsimp only
    refine (k0_pay5_apply (xblk V c ⟨n + 1, h⟩) (ablk V c ⟨n + 1, h⟩) (acc0 V c n (Nat.lt_of_succ_lt h)).2 j).trans ?_
    rw [acc0_snd c n (Nat.lt_of_succ_lt h) j, Fin.sum_univ_castSucc (n := n + 1)]
    exact congrArg₂ (· + ·) rfl (step_snd V c ⟨n + 1, h⟩ j)

/-- At the last point the first accumulator holds the relation's column sums, -/
theorem acc0_last_fst (c : Dev nD) (t : Fin cfg0.N) (ht : t.val % 128 = 127) (j : Fin 256) :
    (acc0 V c t.val t.isLt).1 (ix2 (0 : Fin 1) j) = colsum (rel0 V c) j := by
  obtain ⟨n, h⟩ := t
  obtain rfl : n = 127 := by have := lt128 ⟨n, h⟩; dsimp only at ht this; omega
  exact (acc0_fst V c 127 h j).trans (sum_tiles fun i => rel0 V c i j)

/-- and the second the column sums of its squares. -/
theorem acc0_last_snd (c : Dev nD) (t : Fin cfg0.N) (ht : t.val % 128 = 127) (j : Fin 256) :
    (acc0 V c t.val t.isLt).2 (ix2 (0 : Fin 1) j) = colsum (fun i j => rel0 V c i j * rel0 V c i j) j := by
  obtain ⟨n, h⟩ := t
  obtain rfl : n = 127 := by have := lt128 ⟨n, h⟩; dsimp only at ht this; omega
  exact (acc0_snd V c 127 h j).trans (sum_tiles fun i => rel0 V c i j * rel0 V c i j)

/-! ## The two statistics blocks from the accumulated sums -/

/-- The mean's block from an accumulator holding the column sums. -/
theorem mean_of_sums (s : Vec Ideal S1x256 .f32) (X : Fin 262144 → Fin 256 → EReal)
    (hs : ∀ j : Fin 256, s (ix2 (0 : Fin 1) j) = colsum X j) :
    k0_pay6 s = (fun i => kmean c0 X (i 1) : FVec Ideal S1x256 .f32) := by
  funext i
  obtain ⟨u, j, rfl⟩ : ∃ (u : Fin 1) (j : Fin 256), i = ix2 u j := ⟨i 0, i 1, eq_ix2 i⟩
  obtain rfl : u = 0 := Subsingleton.elim _ _
  rw [k0_pay6_apply, hs]
  rfl

/-- The variance's block from the two accumulators. -/
theorem var_of_sums (s q : Vec Ideal S1x256 .f32) (X : Fin 262144 → Fin 256 → EReal)
    (hs : ∀ j : Fin 256, s (ix2 (0 : Fin 1) j) = colsum X j)
    (hq : ∀ j : Fin 256, q (ix2 (0 : Fin 1) j) = colsum (fun i j => X i j * X i j) j) :
    k0_pay7 s q = (fun i => kvar c0 X (i 1) : FVec Ideal S1x256 .f32) := by
  funext i
  obtain ⟨u, j, rfl⟩ : ∃ (u : Fin 1) (j : Fin 256), i = ix2 u j := ⟨i 0, i 1, eq_ix2 i⟩
  obtain rfl : u = 0 := Subsingleton.elim _ _
  rw [k0_pay7_apply, hs, hq]
  rfl

/-! ## From the one write-back to the arrays -/

/-- A statistics window's block is its whole [1, 256] array: read through it, contents are themselves. -/
theorem read_blk2 (t : Fin cfg0.N) (G : FVec Ideal S1x256 .f32) : ((cfg0.win 2).blk t).view.read (Elt Ideal) G = G := by
  obtain ⟨-, -, -, -, e0, e1, -⟩ := idx_facts0 t
  funext y
  show G (((cfg0.win 2).blk t).view.emb y) = G y
  refine congrArg G ?_
  funext a; apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem read_blk3 (t : Fin cfg0.N) (G : FVec Ideal S1x256 .f32) : ((cfg0.win 3).blk t).view.read (Elt Ideal) G = G := by
  obtain ⟨-, -, -, -, -, -, e0, e1⟩ := idx_facts0 t
  funext y
  show G (((cfg0.win 3).blk t).view.emb y) = G y
  refine congrArg G ?_
  funext a; apply Fin.ext
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- The last point. -/
def tLast : Fin cfg0.N := ⟨127, by rw [show cfg0.N = 128 from N_0]; decide⟩

/-- The last point's block of the mean's window covers its array, -/
theorem cover2 (i : S1x256.Idx) : ∃ t : Fin cfg0.N, (cfg0.win 2).flush t = true ∧ i ∈ ((cfg0.win 2).blk t).view.set := by
  refine ⟨tLast, (flush0_2 tLast).mpr rfl, ?_⟩
  obtain ⟨-, -, -, -, e0, e1, -⟩ := idx_facts0 tLast
  show i ∈ ((View.whole main_v21_0).slice (win0_2.rect tLast)).set
  rw [View.set_slice_whole, Rect.mem_set_unit]
  intro a
  have h0 : (i 0 : Nat) < 1 := (i 0).isLt
  have h1 : (i 1 : Nat) < 256 := (i 1).isLt
  match a with
  | ⟨0, _⟩ => show win0_2.index tLast (0 : Fin 2) * 1 ≤ (i 0 : Nat) ∧ (i 0 : Nat) < win0_2.index tLast (0 : Fin 2) * 1 + 1; omega
  | ⟨1, _⟩ => show win0_2.index tLast (1 : Fin 2) * 256 ≤ (i 1 : Nat) ∧ (i 1 : Nat) < win0_2.index tLast (1 : Fin 2) * 256 + 256; omega

/-- and the variance's window's likewise. -/
theorem cover3 (i : S1x256.Idx) : ∃ t : Fin cfg0.N, (cfg0.win 3).flush t = true ∧ i ∈ ((cfg0.win 3).blk t).view.set := by
  refine ⟨tLast, (flush0_3 tLast).mpr rfl, ?_⟩
  obtain ⟨-, -, -, -, -, -, e0, e1⟩ := idx_facts0 tLast
  show i ∈ ((View.whole main_v21_1).slice (win0_3.rect tLast)).set
  rw [View.set_slice_whole, Rect.mem_set_unit]
  intro a
  have h0 : (i 0 : Nat) < 1 := (i 0).isLt
  have h1 : (i 1 : Nat) < 256 := (i 1).isLt
  match a with
  | ⟨0, _⟩ => show win0_3.index tLast (0 : Fin 2) * 1 ≤ (i 0 : Nat) ∧ (i 0 : Nat) < win0_3.index tLast (0 : Fin 2) * 1 + 1; omega
  | ⟨1, _⟩ => show win0_3.index tLast (1 : Fin 2) * 256 ≤ (i 1 : Nat) ∧ (i 1 : Nat) < win0_3.index tLast (1 : Fin 2) * 256 + 256; omega

end Stat0

open Stat0

/-- THE MEAN'S ARRAY after the region: at each column the relation's column sum scaled by the reciprocal of the
    number of rows. -/
theorem mean0_eq (c : Dev nD) :
    (dat0 V c).arrAt 2 cfg0.N = (fun i => kmean c0 (rel0 V c) (i 1) : FVec Ideal S1x256 .f32) :=
  (dat0 V c).arrAt_eq_of_cover 2 (fun i => kmean c0 (rel0 V c) (i 1) : FVec Ideal S1x256 .f32)
    (fun t hf => by
      have ht := (flush0_2 t).mp hf
      rw [flushed0_2 V c t ht, read_blk2]
      exact mean_of_sums (acc0 V c t.val t.isLt).1 (rel0 V c) (acc0_last_fst V c t ht))
    cover2

/-- THE VARIANCE'S ARRAY after the region: the scaled column sum of the relation's squares less the square of the mean. -/
theorem var0_eq (c : Dev nD) :
    (dat0 V c).arrAt 3 cfg0.N = (fun i => kvar c0 (rel0 V c) (i 1) : FVec Ideal S1x256 .f32) :=
  (dat0 V c).arrAt_eq_of_cover 3 (fun i => kvar c0 (rel0 V c) (i 1) : FVec Ideal S1x256 .f32)
    (fun t hf => by
      have ht := (flush0_3 t).mp hf
      rw [flushed0_3 V c t ht, read_blk3]
      exact var_of_sums (acc0 V c t.val t.isLt).1 (acc0 V c t.val t.isLt).2 (rel0 V c) (acc0_last_fst V c t ht) (acc0_last_snd V c t ht))
    cover3

end Cert.KernelIdeal.HandValue

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.KI.Pay1.lean ====
/-
  The arithmetic of the second kernel's payloads, read entry by entry at the exact instance.

  The tile of the hidden layer: row r, column l of the [2048, 32] tile is the sum over the 256 input channels k of the
  normalised, rectified relation at (r, k) times the transposed weight at (k, l), plus the bias at l.  The two running
  statistics add, to what they held, the tile's column sums and its columns' sums of squares; the resets store zero; the
  epilogue scales the two sums by the reciprocal of the number of rows and takes the scaled sum of squares less the square
  of the scaled sum.
-/
import proofs.«145083_j84052509982728_1_alg».proof.Proof.Gen.KernelIdeal.Skeleton
import proofs.«145083_j84052509982728_1_alg».proof.Proof.Iface
import proofs.«145083_j84052509982728_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.Iface Cert.Spec
open Idealize.ShloMosaic Idealize.ShloMosaic.ValueIdx

/-- The kernel's product is the plain rows-by-columns one. -/
theorem dot1_plain : dot_S2048x256_S256x32_S2048x32_1_0_0_1_n_n = DotDims.plain 2048 256 32 := rfl

/-- The normalised, rectified relation at one entry. -/
abbrev act1 (x a : Vec Ideal S2048x256 .f32) (mean var g b : Vec Ideal S1x256 .f32) (r : Fin 2048) (k : Fin 256) : EReal :=
  max (((x (ix2 r k) - a (ix2 r k)) - mean (ix2 0 k)) * Ideal.rsqrt (var (ix2 0 k) + eps0) * g (ix2 0 k) + b (ix2 0 k)) 0

/-- The hidden layer's tile at (r, l). -/
theorem pay7_apply (x a : Vec Ideal S2048x256 .f32) (mean var g b : Vec Ideal S1x256 .f32)
    (w1t : Vec Ideal S256x32 .bf16) (b1 : Vec Ideal S1x32 .f32) (r : Fin 2048) (l : Fin 32) :
    k1_pay7 x a mean var g b w1t b1 (ix2 r l)
      = (∑ k : Fin 256, act1 x a mean var g b r k * w1t (ix2 k l)) + b1 (ix2 0 l) := by
  unfold k1_pay7
  simp only [shapeCast_self]
  rw [addf_apply, broadcastTo_1b_ab_apply]
  refine congrArg (· + b1 (ix2 0 l)) ?_
  rw [dot1_plain]
  refine (plain_matmul_zero_apply (φ₁ := .bf16) (φ₂ := .bf16) none _ w1t (ix2 r l)).trans ?_
  refine Finset.sum_congr rfl fun k _ => ?_
  refine congrArg (· * w1t (ix2 k l)) ?_
  show max (_ + _) _ = _
  simp only [truncf_apply, maximumf_apply, addf_apply, mulf_apply, subf_apply, broadcast_apply, shapeCast_self,
    broadcastTo_1b_ab_apply]
  show max (_ * Ideal.rsqrt (var (ix2 0 k) + eps0) * _ + _) (Ideal.ofBits .f32 0x00000000#32) = _
  rw [Ideal.ofBits_zero_f32]

/-- Inserting the reduced coordinate puts it in front of the kept one. -/
theorem lift1 (j : Fin 32) (k : Fin 2048) : reduces_S2048x32_S32.lift (ix1 j) k = ix2 k j :=
  funext fun a => Fin.ext (by
    match a with
    | ⟨0, _⟩ => rfl
    | ⟨1, _⟩ => rfl)

/-- The first running statistic adds the tile's column sums. -/
theorem pay1_apply (h : FVec Ideal S2048x32 .f32) (acc : Vec Ideal S1x32 .f32) (j : Fin 32) :
    k1_pay1 h acc (ix2 0 j) = acc (ix2 0 j) + ∑ r : Fin 2048, h (ix2 r j) := by
  unfold k1_pay1
  simp only [shapeCast_self]
  rw [addf_apply, shapeCast_a_1a_apply]
  refine congrArg (acc (ix2 0 j) + ·) ?_
  refine (Ideal.multiReduction_add_single h _ reduces_S2048x32_S32 _ _ (ix1 j)).trans ?_
  exact Finset.sum_congr rfl fun k _ => congrArg h (lift1 j k)

/-- The second running statistic adds the sums of the tile's columns' squares. -/
theorem pay2_apply (h : FVec Ideal S2048x32 .f32) (acc : Vec Ideal S1x32 .f32) (j : Fin 32) :
    k1_pay2 h acc (ix2 0 j) = acc (ix2 0 j) + ∑ r : Fin 2048, h (ix2 r j) * h (ix2 r j) := by
  unfold k1_pay2
  simp only [shapeCast_self]
  rw [addf_apply, shapeCast_a_1a_apply]
  refine congrArg (acc (ix2 0 j) + ·) ?_
  refine (Ideal.multiReduction_add_single (mulf h h) _ reduces_S2048x32_S32 _ _ (ix1 j)).trans ?_
  exact Finset.sum_congr rfl fun k _ => congrArg (fun i => h i * h i) (lift1 j k)

/-- The resets store zero. -/
theorem pay5_apply (i : S1x32.Idx) : k1_pay5 (F := Ideal) i = 0 := by
  unfold k1_pay5
  simp only [shapeCast_self]
  exact Ideal.ofBits_zero_f32

theorem pay6_apply (i : S1x32.Idx) : k1_pay6 (F := Ideal) i = 0 := by
  unfold k1_pay6
  simp only [shapeCast_self]
  exact Ideal.ofBits_zero_f32

/-- The epilogue's mean: the sum scaled by the reciprocal of the number of rows. -/
theorem pay3_apply (s : Vec Ideal S1x32 .f32) (i : S1x32.Idx) : k1_pay3 s i = s i * c0 := rfl

/-- The epilogue's variance: the scaled sum of squares less the square of the mean. -/
theorem pay4_apply (s q : Vec Ideal S1x32 .f32) (i : S1x32.Idx) :
    k1_pay4 s q i = q i * c0 - (s i * c0) * (s i * c0) := rfl

end Cert.KernelIdeal.HandValue

end
-- ==== Proof.KI.Val1.lean ====
/-
  The values region 1 leaves, for any contents of its input arrays at entry.

  The hidden array: row i of the [262144, 32] output lies in tile i / 2048, and the tile the body computes at point t from
  its eight loaded blocks is, row by row, the specification's hidden layer at rows 2048·t … 2048·t + 2047: the two tiled
  inputs are read at those rows, the six others are whole arrays at every point.

  The two statistics: by induction on the point, after point n the two running buffers hold the sums, over the tiles 0 … n,
  of the hidden array's columns and of their squares (the reset at point 0 stores zero, every point adds its tile's column
  sums); the 128 tiles of 2048 rows partition the 262144 rows, so at the last point these are the column sums over all rows,
  and the epilogue's scalings are the specification's accumulated mean and variance.  The one block the last point writes
  back is the whole [1, 32] array.
-/
import proofs.«145083_j84052509982728_1_alg».proof.Proof.KI.Reg1
import proofs.«145083_j84052509982728_1_alg».proof.Proof.KI.Pay1
import proofs.«145083_j84052509982728_1_alg».proof.Proof.Iface
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Cert.Iface Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The hidden array from the region's input arrays. -/
abbrev hid1 (c : Dev nD) : Fin 262144 → Fin 32 → EReal :=
  lin (bnrelu (row1 (V c main_v21_0)) (row1 (V c main_v21_1)) (row1 (V c main_v7)) (row1 (V c main_v8)) eps0 (Spec.rel (cur2 (V c main_arg1)) (cur2 (V c main_v6)))) (tr2 (V c main_v16)) (row1 (V c main_v13))

/-! ## The index maps over the grid -/

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem idx1_8 : ∀ t : Fin cfg1.N, win1_8.index t (0 : Fin 2) = t.val ∧ win1_8.index t (1 : Fin 2) = 0 :=
  (by decide +kernel : ∀ t : Fin grid1.N, win1_8.index t (0 : Fin 2) = t.val ∧ win1_8.index t (1 : Fin 2) = 0)
theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)
theorem idx1_10 : ∀ t : Fin cfg1.N, win1_10.index t (0 : Fin 2) = 0 ∧ win1_10.index t (1 : Fin 2) = 0 :=
  (by decide +kernel : ∀ t : Fin grid1.N, win1_10.index t (0 : Fin 2) = 0 ∧ win1_10.index t (1 : Fin 2) = 0)

theorem N1 : cfg1.N = 128 := N_1

/-! ## The region's input arrays, as families of extended reals -/
/-- The features. -/
abbrev arrX (c : Dev nD) : S262144x256.Idx → EReal := V c main_arg1
/-- The gathered neighbour features. -/
abbrev arrA (c : Dev nD) : S262144x256.Idx → EReal := V c main_v6
/-- The first batch norm's mean. -/
abbrev arrMean (c : Dev nD) : S1x256.Idx → EReal := V c main_v21_0
/-- Its variance. -/
abbrev arrVar (c : Dev nD) : S1x256.Idx → EReal := V c main_v21_1
/-- Its scale. -/
abbrev arrG (c : Dev nD) : S1x256.Idx → EReal := V c main_v7
/-- Its shift. -/
abbrev arrB (c : Dev nD) : S1x256.Idx → EReal := V c main_v8
/-- The first weight, stored transposed. -/
abbrev arrW (c : Dev nD) : S256x32.Idx → EReal := V c main_v16
/-- The first bias. -/
abbrev arrB1 (c : Dev nD) : S1x32.Idx → EReal := V c main_v13

/-! ## The input blocks read where the arrays hold them -/

/-- Window 0's block at point t holds rows 2048·t … 2048·t + 2047 of its array. -/
theorem iblk1_0_apply (c : Dev nD) (t : Fin cfg1.N) (r : Fin 2048) (k : Fin 256) (i : Fin 262144) (hi : i.val = 2048 * t.val + r.val) :
    ((iblk1 V c 0 t : Vec Ideal S2048x256 .f32) (ix2 r k) : EReal) = arrX V c (ix2 i k) := by
  unfold iblk1
  rw [View.read_apply]
  show V c main_arg1 _ = V c main_arg1 _
  refine congrArg (V c main_arg1) (funext fun a => Fin.ext ?_)
  match a with
  | ⟨0, _⟩ => show win1_0.index t (0 : Fin 2) * 2048 + 1 * r.val = i.val; have := (idx1_0 t).1; omega
  | ⟨1, _⟩ => show win1_0.index t (1 : Fin 2) * 256 + 1 * k.val = k.val; have := (idx1_0 t).2; omega

/-- Window 1's block at point t holds rows 2048·t … 2048·t + 2047 of its array. -/
theorem iblk1_1_apply (c : Dev nD) (t : Fin cfg1.N) (r : Fin 2048) (k : Fin 256) (i : Fin 262144) (hi : i.val = 2048 * t.val + r.val) :
    ((iblk1 V c 1 t : Vec Ideal S2048x256 .f32) (ix2 r k) : EReal) = arrA V c (ix2 i k) := by
  unfold iblk1
  rw [View.read_apply]
  show V c main_v6 _ = V c main_v6 _
  refine congrArg (V c main_v6) (funext fun a => Fin.ext ?_)
  match a with
  | ⟨0, _⟩ => show win1_1.index t (0 : Fin 2) * 2048 + 1 * r.val = i.val; have := (idx1_1 t).1; omega
  | ⟨1, _⟩ => show win1_1.index t (1 : Fin 2) * 256 + 1 * k.val = k.val; have := (idx1_1 t).2; omega

/-- Window 2's block is its whole array at every point. -/
theorem iblk1_2_apply (c : Dev nD) (t : Fin cfg1.N) (r : Fin 1) (k : Fin 256) :
    ((iblk1 V c 2 t : Vec Ideal S1x256 .f32) (ix2 r k) : EReal) = arrMean V c (ix2 r k) := by
  unfold iblk1
  rw [View.read_apply]
  show V c main_v21_0 _ = V c main_v21_0 _
  refine congrArg (V c main_v21_0) (funext fun a => Fin.ext ?_)
  match a with
  | ⟨0, _⟩ => show win1_2.index t (0 : Fin 2) * 1 + 1 * r.val = r.val; have := (idx1_2 t).1; omega
  | ⟨1, _⟩ => show win1_2.index t (1 : Fin 2) * 256 + 1 * k.val = k.val; have := (idx1_2 t).2; omega

/-- Window 3's block is its whole array at every point. -/
theorem iblk1_3_apply (c : Dev nD) (t : Fin cfg1.N) (r : Fin 1) (k : Fin 256) :
    ((iblk1 V c 3 t : Vec Ideal S1x256 .f32) (ix2 r k) : EReal) = arrVar V c (ix2 r k) := by
  unfold iblk1
  rw [View.read_apply]
  show V c main_v21_1 _ = V c main_v21_1 _
  refine congrArg (V c main_v21_1) (funext fun a => Fin.ext ?_)
  match a with
  | ⟨0, _⟩ => show win1_3.index t (0 : Fin 2) * 1 + 1 * r.val = r.val; have := (idx1_3 t).1; omega
  | ⟨1, _⟩ => show win1_3.index t (1 : Fin 2) * 256 + 1 * k.val = k.val; have := (idx1_3 t).2; omega

/-- Window 4's block is its whole array at every point. -/
theorem iblk1_4_apply (c : Dev nD) (t : Fin cfg1.N) (r : Fin 1) (k : Fin 256) :
    ((iblk1 V c 4 t : Vec Ideal S1x256 .f32) (ix2 r k) : EReal) = arrG V c (ix2 r k) := by
  unfold iblk1
  rw [View.read_apply]
  show V c main_v7 _ = V c main_v7 _
  refine congrArg (V c main_v7) (funext fun a => Fin.ext ?_)
  match a with
  | ⟨0, _⟩ => show win1_4.index t (0 : Fin 2) * 1 + 1 * r.val = r.val; have := (idx1_4 t).1; omega
  | ⟨1, _⟩ => show win1_4.index t (1 : Fin 2) * 256 + 1 * k.val = k.val; have := (idx1_4 t).2; omega

/-- Window 5's block is its whole array at every point. -/
theorem iblk1_5_apply (c : Dev nD) (t : Fin cfg1.N) (r : Fin 1) (k : Fin 256) :
    ((iblk1 V c 5 t : Vec Ideal S1x256 .f32) (ix2 r k) : EReal) = arrB V c (ix2 r k) := by
  unfold iblk1
  rw [View.read_apply]
  show V c main_v8 _ = V c main_v8 _
  refine congrArg (V c main_v8) (funext fun a => Fin.ext ?_)
  match a with
  | ⟨0, _⟩ => show win1_5.index t (0 : Fin 2) * 1 + 1 * r.val = r.val; have := (idx1_5 t).1; omega
  | ⟨1, _⟩ => show win1_5.index t (1 : Fin 2) * 256 + 1 * k.val = k.val; have := (idx1_5 t).2; omega

/-- Window 6's block is its whole array at every point. -/
theorem iblk1_6_apply (c : Dev nD) (t : Fin cfg1.N) (r : Fin 256) (k : Fin 32) :
    ((iblk1 V c 6 t : Vec Ideal S256x32 .bf16) (ix2 r k) : EReal) = arrW V c (ix2 r k) := by
  unfold iblk1
  rw [View.read_apply]
  show V c main_v16 _ = V c main_v16 _
  refine congrArg (V c main_v16) (funext fun a => Fin.ext ?_)
  match a with
  | ⟨0, _⟩ => show win1_6.index t (0 : Fin 2) * 256 + 1 * r.val = r.val; have := (idx1_6 t).1; omega
  | ⟨1, _⟩ => show win1_6.index t (1 : Fin 2) * 32 + 1 * k.val = k.val; have := (idx1_6 t).2; omega

/-- Window 7's block is its whole array at every point. -/
theorem iblk1_7_apply (c : Dev nD) (t : Fin cfg1.N) (r : Fin 1) (k : Fin 32) :
    ((iblk1 V c 7 t : Vec Ideal S1x32 .f32) (ix2 r k) : EReal) = arrB1 V c (ix2 r k) := by
  unfold iblk1
  rw [View.read_apply]
  show V c main_v13 _ = V c main_v13 _
  refine congrArg (V c main_v13) (funext fun a => Fin.ext ?_)
  match a with
  | ⟨0, _⟩ => show win1_7.index t (0 : Fin 2) * 1 + 1 * r.val = r.val; have := (idx1_7 t).1; omega
  | ⟨1, _⟩ => show win1_7.index t (1 : Fin 2) * 32 + 1 * k.val = k.val; have := (idx1_7 t).2; omega

/-! ## The tile of the hidden array -/

/-- The hidden array at an entry, spelled out. -/
theorem hid1_apply (c : Dev nD) (i : Fin 262144) (l : Fin 32) :
    hid1 V c i l = (∑ k : Fin 256, max (((arrX V c (ix2 i k) - arrA V c (ix2 i k)) - arrMean V c (ix2 0 k))
        * Ideal.rsqrt (arrVar V c (ix2 0 k) + eps0) * arrG V c (ix2 0 k) + arrB V c (ix2 0 k)) 0 * arrW V c (ix2 k l))
      + arrB1 V c (ix2 0 l) := rfl

/-- The tile the body computes at point t, of the eight blocks it loads. -/
abbrev tile1 (c : Dev nD) (t : Fin cfg1.N) : FVec Ideal S2048x32 .f32 :=
  h1blk (iblk1 V c 0 t) (iblk1 V c 1 t) (iblk1 V c 2 t) (iblk1 V c 3 t) (iblk1 V c 4 t) (iblk1 V c 5 t) (iblk1 V c 6 t) (iblk1 V c 7 t)

/-- Row r of the tile at point t is row 2048·t + r of the hidden array. -/
theorem tile1_eq (c : Dev nD) (t : Fin cfg1.N) (r : Fin 2048) (l : Fin 32) (i : Fin 262144) (hi : i.val = 2048 * t.val + r.val) :
    tile1 V c t (ix2 r l) = hid1 V c i l := by
  refine (pay7_apply (iblk1 V c 0 t) (iblk1 V c 1 t) (iblk1 V c 2 t) (iblk1 V c 3 t) (iblk1 V c 4 t) (iblk1 V c 5 t) (iblk1 V c 6 t) (iblk1 V c 7 t) r l).trans ?_
  refine Eq.trans ?_ (hid1_apply V c i l).symm
  refine congrArg₂ (fun x y : EReal => x + y) (Finset.sum_congr rfl fun k _ => ?_) (iblk1_7_apply V c t 0 l)
  refine congrArg₂ (fun x y : EReal => x * y) ?_ (iblk1_6_apply V c t k l)
  have e0 := iblk1_0_apply V c t r k i hi
  have e1 := iblk1_1_apply V c t r k i hi
  have e2 := iblk1_2_apply V c t 0 k
  have e3 := iblk1_3_apply V c t 0 k
  have e4 := iblk1_4_apply V c t 0 k
  have e5 := iblk1_5_apply V c t 0 k
  exact congrArg₂ (fun x y : EReal => max x y) (congrArg₂ (fun x y : EReal => x + y) (congrArg₂ (fun x y : EReal => x * y)
    (congrArg₂ (fun x y : EReal => x * y) (congrArg₂ (fun x y : EReal => x - y) (congrArg₂ (fun x y : EReal => x - y) e0 e1) e2)
    (congrArg Ideal.rsqrt (congrArg (fun x : EReal => x + eps0) e3))) e4) e5) rfl

/-! ## The hidden array, tile by tile -/

/-- What point t writes back to the hidden array is its block of the hidden array. -/
theorem flushed8_eq (c : Dev nD) (t : Fin cfg1.N) :
    (dat1 V c).flushed 8 t = ((cfg1.win 8).blk t).view.read (Elt Ideal) (fun i => hid1 V c (i 0) (i 1) : FVec Ideal S262144x32 .f32) := by
  rw [flushed1_8]
  refine funext fun (y : S2048x32.Idx) => ?_
  obtain ⟨r, l, rfl⟩ : ∃ (r : Fin 2048) (l : Fin 32), y = ix2 r l := ⟨y 0, y 1, eq_ix2 y⟩
  rw [View.read_apply]
  have ht : t.val < 128 := by have := t.isLt; have := N1; omega
  have e : (((cfg1.win 8).blk t).view.emb (ix2 r l) : S262144x32.Idx)
      = ix2 (⟨2048 * t.val + r.val, by have := r.isLt; omega⟩ : Fin 262144) l := funext fun a => Fin.ext (by
    match a with
    | ⟨0, _⟩ => show win1_8.index t (0 : Fin 2) * 2048 + 1 * r.val = 2048 * t.val + r.val; have := (idx1_8 t).1; omega
    | ⟨1, _⟩ => show win1_8.index t (1 : Fin 2) * 32 + 1 * l.val = l.val; have := (idx1_8 t).2; omega)
  exact (tile1_eq V c t r l ⟨2048 * t.val + r.val, by have := r.isLt; omega⟩ rfl).trans
    (congrArg (fun i : S262144x32.Idx => hid1 V c (i 0) (i 1)) e).symm

/-- An entry of the hidden array is in point t's block when its row is among the point's 2048 rows. -/
theorem mem_blk8 (t : Fin cfg1.N) (i : S262144x32.Idx) :
    i ∈ ((cfg1.win 8).blk t).view.set ↔ ∀ a : Fin 2, win1_8.index t a * S2048x32.size a ≤ (i a).val ∧ (i a).val < win1_8.index t a * S2048x32.size a + S2048x32.size a := by
  show i ∈ ((View.whole main_v22_0).slice (win1_8.rect t)).set ↔ _
  rw [View.set_slice_whole, Rect.mem_set_unit]
  exact Iff.rfl

/-- Row i lies in tile i / 2048. -/
theorem cover8 (i : S262144x32.Idx) : ∃ t : Fin cfg1.N, (cfg1.win 8).flush t = true ∧ i ∈ ((cfg1.win 8).blk t).view.set := by
  have hi0 : (i 0).val < 262144 := (i 0).isLt
  have hi1 : (i 1).val < 32 := (i 1).isLt
  refine ⟨⟨(i 0).val / 2048, by rw [N1]; omega⟩, flush1_8 _, ?_⟩
  rw [mem_blk8]
  intro a
  match a with
  | ⟨0, _⟩ => show win1_8.index _ (0 : Fin 2) * 2048 ≤ (i 0).val ∧ (i 0).val < win1_8.index _ (0 : Fin 2) * 2048 + 2048; rw [(idx1_8 _).1]; dsimp only; omega
  | ⟨1, _⟩ => show win1_8.index _ (1 : Fin 2) * 32 ≤ (i 1).val ∧ (i 1).val < win1_8.index _ (1 : Fin 2) * 32 + 32; rw [(idx1_8 _).2]; omega

theorem h1_eq (c : Dev nD) : (dat1 V c).arrAt 8 cfg1.N = (fun i => hid1 V c (i 0) (i 1) : FVec Ideal S262144x32 .f32) :=
  (dat1 V c).arrAt_eq_of_cover 8 _ (fun t _ => flushed8_eq V c t) cover8

/-! ## The running statistics -/

/-- Row r of tile s. -/
def rowOf (s : Fin 128) (r : Fin 2048) : Fin 262144 := ⟨2048 * s.val + r.val, by have := s.isLt; have := r.isLt; omega⟩

/-- The sum of a column over the rows of tile s (zero past the last tile). -/
def tsum (g : Fin 262144 → EReal) (s : ℕ) : EReal := if h : s < 128 then ∑ r : Fin 2048, g (rowOf ⟨s, h⟩ r) else 0

/-- The tiles partition the rows: the tile sums add up to the sum over all rows. -/
theorem sum_tsum (g : Fin 262144 → EReal) : ∑ s ∈ Finset.range 128, tsum g s = ∑ i, g i := by
  rw [Finset.sum_range]
  have e : ∀ s : Fin 128, tsum g s.val = ∑ r : Fin 2048, g (rowOf s r) := fun s => dif_pos s.isLt
  rw [Finset.sum_congr rfl fun s _ => e s]
  refine (Fintype.sum_prod_type' (fun s r => g (rowOf s r))).symm.trans ?_
  exact Fintype.sum_equiv (finProdFinEquiv (m := 128) (n := 2048)) (fun p => g (rowOf p.1 p.2)) (fun i : Fin 262144 => g i)
    (fun p => congrArg g (Fin.ext (show 2048 * p.1.val + p.2.val = p.2.val + 2048 * p.1.val by omega)))

/-- The column sums of the tile at point t are tile t's sums of the hidden array. -/
theorem tile_colsum (c : Dev nD) (t : Fin cfg1.N) (j : Fin 32) :
    ∑ r : Fin 2048, tile1 V c t (ix2 r j) = tsum (fun i => hid1 V c i j) t.val := by
  have ht : t.val < 128 := by have := t.isLt; have := N1; omega
  unfold tsum
  rw [dif_pos ht]
  exact Finset.sum_congr rfl fun r _ => tile1_eq V c t r j (rowOf ⟨t.val, ht⟩ r) rfl

theorem tile_colsq (c : Dev nD) (t : Fin cfg1.N) (j : Fin 32) :
    ∑ r : Fin 2048, tile1 V c t (ix2 r j) * tile1 V c t (ix2 r j) = tsum (fun i => hid1 V c i j * hid1 V c i j) t.val := by
  have ht : t.val < 128 := by have := t.isLt; have := N1; omega
  unfold tsum
  rw [dif_pos ht]
  exact Finset.sum_congr rfl fun r _ => congrArg (fun x => x * x) (tile1_eq V c t r j (rowOf ⟨t.val, ht⟩ r) rfl)

theorem acc1_zero' (c : Dev nD) (h : 0 < cfg1.N) :
    acc1 V c 0 h = (k1_pay1 (tile1 V c ⟨0, h⟩) (k1_pay5 (F := Ideal)), k1_pay2 (tile1 V c ⟨0, h⟩) (k1_pay6 (F := Ideal))) := acc1_zero V c h

theorem acc1_succ' (c : Dev nD) (n : ℕ) (h : n + 1 < cfg1.N) :
    acc1 V c (n + 1) h = (k1_pay1 (tile1 V c ⟨n + 1, h⟩) (acc1 V c n (Nat.lt_of_succ_lt h)).1,
      k1_pay2 (tile1 V c ⟨n + 1, h⟩) (acc1 V c n (Nat.lt_of_succ_lt h)).2) := acc1_succ V c n h

/-- After point n the first running statistic holds the sums of tiles 0 … n of the hidden array's columns. -/
theorem acc1_fst (c : Dev nD) : ∀ (n : ℕ) (h : n < cfg1.N) (j : Fin 32),
    (acc1 V c n h).1 (ix2 0 j) = ∑ s ∈ Finset.range (n + 1), tsum (fun i => hid1 V c i j) s
  | 0, h, j => by
    rw [acc1_zero']
    refine (pay1_apply (tile1 V c ⟨0, h⟩) (k1_pay5 (F := Ideal)) j).trans ?_
    rw [pay5_apply, zero_add, Finset.sum_range_one]
    exact tile_colsum V c ⟨0, h⟩ j
  | n + 1, h, j => by
    rw [acc1_succ']
    refine (pay1_apply (tile1 V c ⟨n + 1, h⟩) (acc1 V c n (Nat.lt_of_succ_lt h)).1 j).trans ?_
    rw [acc1_fst c n (Nat.lt_of_succ_lt h) j, Finset.sum_range_succ _ (n + 1)]
    exact congrArg (_ + ·) (tile_colsum V c ⟨n + 1, h⟩ j)

/-- … and the second the sums of their squares. -/
theorem acc1_snd (c : Dev nD) : ∀ (n : ℕ) (h : n < cfg1.N) (j : Fin 32),
    (acc1 V c n h).2 (ix2 0 j) = ∑ s ∈ Finset.range (n + 1), tsum (fun i => hid1 V c i j * hid1 V c i j) s
  | 0, h, j => by
    rw [acc1_zero']
    refine (pay2_apply (tile1 V c ⟨0, h⟩) (k1_pay6 (F := Ideal)) j).trans ?_
    rw [pay6_apply, zero_add, Finset.sum_range_one]
    exact tile_colsq V c ⟨0, h⟩ j
  | n + 1, h, j => by
    rw [acc1_succ']
    refine (pay2_apply (tile1 V c ⟨n + 1, h⟩) (acc1 V c n (Nat.lt_of_succ_lt h)).2 j).trans ?_
    rw [acc1_snd c n (Nat.lt_of_succ_lt h) j, Finset.sum_range_succ _ (n + 1)]
    exact congrArg (_ + ·) (tile_colsq V c ⟨n + 1, h⟩ j)

/-- At the last point the two statistics are the hidden array's column sums and sums of squares. -/
theorem acc1_last (c : Dev nD) (t : Fin cfg1.N) (ht : t.val % 128 = 127) (j : Fin 32) :
    (acc1 V c t.val t.isLt).1 (ix2 0 j) = colsum (hid1 V c) j
    ∧ (acc1 V c t.val t.isLt).2 (ix2 0 j) = colsum (fun i j => hid1 V c i j * hid1 V c i j) j := by
  have h127 : t.val + 1 = 128 := by have := t.isLt; have := N1; omega
  refine ⟨?_, ?_⟩
  · rw [acc1_fst V c t.val t.isLt j, h127]; exact sum_tsum (fun i => hid1 V c i j)
  · rw [acc1_snd V c t.val t.isLt j, h127]; exact sum_tsum (fun i => hid1 V c i j * hid1 V c i j)

/-! ## The two statistics arrays -/

/-- What the last point writes back to the mean is the whole array: the block is the array. -/
theorem flushed9_eq (c : Dev nD) (t : Fin cfg1.N) (hf : (cfg1.win 9).flush t = true) :
    (dat1 V c).flushed 9 t = ((cfg1.win 9).blk t).view.read (Elt Ideal) (fun i => kmean c0 (hid1 V c) (i 1) : FVec Ideal S1x32 .f32) := by
  have ht : t.val % 128 = 127 := (flush1_9 t).mp hf
  rw [flushed1_9 V c t ht]
  refine funext fun (y : S1x32.Idx) => ?_
  obtain ⟨u, j, rfl⟩ : ∃ (u : Fin 1) (j : Fin 32), y = ix2 u j := ⟨y 0, y 1, eq_ix2 y⟩
  obtain rfl : u = 0 := Subsingleton.elim _ _
  rw [View.read_apply]
  have e : (((cfg1.win 9).blk t).view.emb (ix2 0 j) : S1x32.Idx) = ix2 0 j := funext fun a => Fin.ext (by
    match a with
    | ⟨0, _⟩ => show win1_9.index t (0 : Fin 2) * 1 + 1 * 0 = 0; have := (idx1_9 t).1; omega
    | ⟨1, _⟩ => show win1_9.index t (1 : Fin 2) * 32 + 1 * j.val = j.val; have := (idx1_9 t).2; omega)
  refine (pay3_apply (acc1 V c t.val t.isLt).1 (ix2 0 j)).trans ?_
  rw [(acc1_last V c t ht j).1]
  exact (congrArg (fun i : S1x32.Idx => kmean c0 (hid1 V c) (i 1)) e).symm

theorem mem_blk9 (t : Fin cfg1.N) (i : S1x32.Idx) :
    i ∈ ((cfg1.win 9).blk t).view.set ↔ ∀ a : Fin 2, win1_9.index t a * S1x32.size a ≤ (i a).val ∧ (i a).val < win1_9.index t a * S1x32.size a + S1x32.size a := by
  show i ∈ ((View.whole main_v22_1).slice (win1_9.rect t)).set ↔ _
  rw [View.set_slice_whole, Rect.mem_set_unit]
  exact Iff.rfl

theorem cover9 (i : S1x32.Idx) : ∃ t : Fin cfg1.N, (cfg1.win 9).flush t = true ∧ i ∈ ((cfg1.win 9).blk t).view.set := by
  have hi0 : (i 0).val < 1 := (i 0).isLt
  have hi1 : (i 1).val < 32 := (i 1).isLt
  have h : 127 < cfg1.N := by rw [N1]; decide
  refine ⟨⟨127, h⟩, (flush1_9 _).mpr rfl, ?_⟩
  rw [mem_blk9]
  intro a
  match a with
  | ⟨0, _⟩ => show win1_9.index ⟨127, h⟩ (0 : Fin 2) * 1 ≤ (i 0).val ∧ (i 0).val < win1_9.index ⟨127, h⟩ (0 : Fin 2) * 1 + 1; have := (idx1_9 ⟨127, h⟩).1; omega
  | ⟨1, _⟩ => show win1_9.index ⟨127, h⟩ (1 : Fin 2) * 32 ≤ (i 1).val ∧ (i 1).val < win1_9.index ⟨127, h⟩ (1 : Fin 2) * 32 + 32; have := (idx1_9 ⟨127, h⟩).2; omega

/-- What the last point writes back to the variance is the whole array: the block is the array. -/
theorem flushed10_eq (c : Dev nD) (t : Fin cfg1.N) (hf : (cfg1.win 10).flush t = true) :
    (dat1 V c).flushed 10 t = ((cfg1.win 10).blk t).view.read (Elt Ideal) (fun i => kvar c0 (hid1 V c) (i 1) : FVec Ideal S1x32 .f32) := by
  have ht : t.val % 128 = 127 := (flush1_10 t).mp hf
  rw [flushed1_10 V c t ht]
  refine funext fun (y : S1x32.Idx) => ?_
  obtain ⟨u, j, rfl⟩ : ∃ (u : Fin 1) (j : Fin 32), y = ix2 u j := ⟨y 0, y 1, eq_ix2 y⟩
  obtain rfl : u = 0 := Subsingleton.elim _ _
  rw [View.read_apply]
  have e : (((cfg1.win 10).blk t).view.emb (ix2 0 j) : S1x32.Idx) = ix2 0 j := funext fun a => Fin.ext (by
    match a with
    | ⟨0, _⟩ => show win1_10.index t (0 : Fin 2) * 1 + 1 * 0 = 0; have := (idx1_10 t).1; omega
    | ⟨1, _⟩ => show win1_10.index t (1 : Fin 2) * 32 + 1 * j.val = j.val; have := (idx1_10 t).2; omega)
  refine (pay4_apply (acc1 V c t.val t.isLt).1 (acc1 V c t.val t.isLt).2 (ix2 0 j)).trans ?_
  rw [(acc1_last V c t ht j).1, (acc1_last V c t ht j).2]
  exact (congrArg (fun i : S1x32.Idx => kvar c0 (hid1 V c) (i 1)) e).symm

theorem mem_blk10 (t : Fin cfg1.N) (i : S1x32.Idx) :
    i ∈ ((cfg1.win 10).blk t).view.set ↔ ∀ a : Fin 2, win1_10.index t a * S1x32.size a ≤ (i a).val ∧ (i a).val < win1_10.index t a * S1x32.size a + S1x32.size a := by
  show i ∈ ((View.whole main_v22_2).slice (win1_10.rect t)).set ↔ _
  rw [View.set_slice_whole, Rect.mem_set_unit]
  exact Iff.rfl

theorem cover10 (i : S1x32.Idx) : ∃ t : Fin cfg1.N, (cfg1.win 10).flush t = true ∧ i ∈ ((cfg1.win 10).blk t).view.set := by
  have hi0 : (i 0).val < 1 := (i 0).isLt
  have hi1 : (i 1).val < 32 := (i 1).isLt
  have h : 127 < cfg1.N := by rw [N1]; decide
  refine ⟨⟨127, h⟩, (flush1_10 _).mpr rfl, ?_⟩
  rw [mem_blk10]
  intro a
  match a with
  | ⟨0, _⟩ => show win1_10.index ⟨127, h⟩ (0 : Fin 2) * 1 ≤ (i 0).val ∧ (i 0).val < win1_10.index ⟨127, h⟩ (0 : Fin 2) * 1 + 1; have := (idx1_10 ⟨127, h⟩).1; omega
  | ⟨1, _⟩ => show win1_10.index ⟨127, h⟩ (1 : Fin 2) * 32 ≤ (i 1).val ∧ (i 1).val < win1_10.index ⟨127, h⟩ (1 : Fin 2) * 32 + 32; have := (idx1_10 ⟨127, h⟩).2; omega

theorem mean1_eq (c : Dev nD) : (dat1 V c).arrAt 9 cfg1.N = (fun i => kmean c0 (hid1 V c) (i 1) : FVec Ideal S1x32 .f32) :=
  (dat1 V c).arrAt_eq_of_cover 9 _ (flushed9_eq V c) cover9

theorem var1_eq (c : Dev nD) : (dat1 V c).arrAt 10 cfg1.N = (fun i => kvar c0 (hid1 V c) (i 1) : FVec Ideal S1x32 .f32) :=
  (dat1 V c).arrAt_eq_of_cover 10 _ (flushed10_eq V c) cover10

end Cert.KernelIdeal.HandValue

end
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnCast.lean ====
/-
  A vector viewed as a column: a length-a array cast to shape a x 1 (what a row reduction that keeps its axis produces)
  holds, at (p, 0), the vector's entry p.  The companion of the library's leading-unit-axis casts, with the unit axis
  trailing.
-/
import Idealize.ShloMosaic.Lib.Pipeline.Value
import Idealize.ShloMosaic.Lib.ValueLayout

namespace Idealize.ShloMosaic.ValueIdx

open Idealize.ShloMosaic

variable {α : Type}

/-- A length-a vector cast to an a x 1 column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.KI.Pay2.lean ====
/-
  The arithmetic of the third kernel (the gate's second half and the square map) read at an index, at the exact
  reals: the logits of a tile, their row maxima, the softmax-gated sum mapped by the square weight, the column sums
  the kernel accumulates, and the two statistics it writes at the last point. Every statement is over variables of
  the literal vector types; the tile of the mixed array is the specification's `mm`, `softmax`, `lin`, `bnrelu`
  over the tile's own rows. Two facts about rows close the file: the mixed array at a row depends only on that row of
  its three row-indexed inputs, and a sum over consecutive blocks of a range is the sum over the whole range.
-/
import proofs.«145083_j84052509982728_1_alg».proof.Proof.Gen.KernelIdeal.Skeleton
import proofs.«145083_j84052509982728_1_alg».proof.Proof.Iface
import proofs.«145083_j84052509982728_1_alg».proof.Proof.LibPlainDot
import proofs.«145083_j84052509982728_1_alg».proof.Proof.LibColumnBroadcast
import proofs.«145083_j84052509982728_1_alg».proof.Proof.LibColumnCast
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Basic

set_option maxRecDepth 16384

noncomputable section

namespace Cert.KernelIdeal.HandValue.Mix2

open Cert.KernelIdeal Cert.KernelIdeal.Gen Cert.Iface Cert.Spec
open Idealize.ShloMosaic Idealize.ShloMosaic.ValueIdx

/-- The word of minus infinity denotes the bottom of the extended reals. -/
theorem negInf_word : Ideal.ofBits .f32 0xFF800000#32 = (⊥ : EReal) := by simp [Ideal.ofBits, Ideal.ieee]

/-- Over the row index `r` of a row reduction, the source index with column `k` inserted is `(r, k)`. -/
theorem lift_row (r : Fin 2048) (k : Fin 256) : reduces_S2048x256_S2048.lift (ix1 r) k = ix2 r k :=
  funext fun c => Fin.ext (by
    match c with
    | ⟨0, _⟩ => rfl
    | ⟨1, _⟩ => rfl)

/-- Over the column index `j` of a column reduction, the source index with row `k` inserted is `(k, j)`. -/
theorem lift_col (j : Fin 256) (k : Fin 2048) : reduces_S2048x256_S256.lift (ix1 j) k = ix2 k j :=
  funext fun c => Fin.ext (by
    match c with
    | ⟨0, _⟩ => rfl
    | ⟨1, _⟩ => rfl)

theorem exp_apply {s : Shape} {φ : FTy} (a : FVec Ideal s φ) (i : s.Idx) : exp a i = Ideal.exp (a i) := rfl
theorem rsqrt_apply {s : Shape} {φ : FTy} (a : FVec Ideal s φ) (i : s.Idx) : rsqrt a i = Ideal.rsqrt (a i) := rfl

/-- The product into the zero accumulator that maps 32 hidden channels to 256, at an index. -/
theorem matmul1_apply (l : FVec Ideal S2048x32 .bf16) (w : FVec Ideal S32x256 .bf16) (r : Fin 2048) (j : Fin 256) :
    matmul dot_S2048x32_S32x256_S2048x256_1_0_0_1_n_n none l w (constant (F := Ideal) S2048x256 .f32 0x00000000#32) (ix2 r j)
      = ∑ k : Fin 32, l (ix2 r k) * w (ix2 k j) :=
  plain_matmul_zero_apply (M := 2048) (K := 32) (N := 256) none l w (ix2 r j)

/-- The square product into the zero accumulator, at an index. -/
theorem matmul2_apply (l : FVec Ideal S2048x256 .bf16) (w : FVec Ideal S256x256 .bf16) (r : Fin 2048) (j : Fin 256) :
    matmul dot_S2048x256_S256x256_S2048x256_1_0_0_1_n_n none l w (constant (F := Ideal) S2048x256 .f32 0x00000000#32) (ix2 r j)
      = ∑ k : Fin 256, l (ix2 r k) * w (ix2 k j) :=
  plain_matmul_zero_apply (M := 2048) (K := 256) (N := 256) none l w (ix2 r j)

/-- The logits of a tile at an index: batch norm and ReLU of the tile's hidden row, mapped to the 256 channels, plus the bias. -/
theorem pay5_apply (h1 : Vec Ideal S2048x32 .f32) (mean var g b : Vec Ideal S1x32 .f32) (w2t : Vec Ideal S32x256 .bf16)
    (b2 : Vec Ideal S1x256 .f32) (r : Fin 2048) (j : Fin 256) :
    k2_pay5 h1 mean var g b w2t b2 (ix2 r j)
      = lin (bnrelu (row1 mean) (row1 var) (row1 g) (row1 b) eps0 (cur2 h1)) (tr2 w2t) (row1 b2) r j := by
  unfold k2_pay5
  rw [addf_apply, matmul1_apply, broadcastTo_1b_ab_apply]
  simp only [shapeCast_self, truncf_apply, maximumf_apply, addf_apply, mulf_apply, subf_apply, broadcastTo_1b_ab_apply,
    broadcast_apply, rsqrt_apply]
  have hz : (FloatOps.ofBits (F := Ideal) FTy.f32 0#32) = (0 : EReal) := Ideal.ofBits_zero_f32
  rw [hz]
  rfl

/-- The same, as an equation of doubly indexed families. -/
theorem pay5_eq (h1 : Vec Ideal S2048x32 .f32) (mean var g b : Vec Ideal S1x32 .f32) (w2t : Vec Ideal S32x256 .bf16)
    (b2 : Vec Ideal S1x256 .f32) :
    cur2 (k2_pay5 h1 mean var g b w2t b2)
      = lin (bnrelu (row1 mean) (row1 var) (row1 g) (row1 b) eps0 (cur2 h1)) (tr2 w2t) (row1 b2) :=
  funext fun r => funext fun j => pay5_apply h1 mean var g b w2t b2 r j

/-- A row maximum from minus infinity, joined once more with minus infinity, is the specification's row maximum. -/
theorem rowmax_apply (L : FVec Ideal S2048x256 .f32) (hφ : FKind.Formats .f32)
    (hacc : (0xFF800000#32 : BitVec 32) = 0xFF800000#32) (r : Fin 2048) :
    maximumf (broadcast S2048 (FloatOps.ofBits (F := Ideal) .f32 0xFF800000#32))
        (multiReduction (F := Ideal) .maximumf [1] S2048 L 0xFF800000#32 reduces_S2048x256_S2048 hφ hacc) (ix1 r)
      = rowmax (cur2 L) r := by
  rw [maximumf_apply, broadcast_apply]
  refine (congrArg (max _) (Ideal.multiReduction_maximumf_single L 0xFF800000#32 reduces_S2048x256_S2048 hφ hacc (ix1 r))).trans ?_
  have hb : (FloatOps.ofBits (F := Ideal) FTy.f32 0xFF800000#32) = (⊥ : EReal) := negInf_word
  rw [hb]
  have hl : (L ∘ reduces_S2048x256_S2048.lift (ix1 r)) = fun k : Fin 256 => L (ix2 r k) :=
    funext fun k => congrArg L (lift_row r k)
  rw [hl]
  rfl

/-- The row maximum of a tile's logits. -/
theorem pay6_apply (h1 : Vec Ideal S2048x32 .f32) (mean var g b : Vec Ideal S1x32 .f32) (w2t : Vec Ideal S32x256 .bf16)
    (b2 : Vec Ideal S1x256 .f32) (r : Fin 2048) :
    k2_pay6 h1 mean var g b w2t b2 (ix1 r) = rowmax (cur2 (k2_pay5 h1 mean var g b w2t b2)) r := by
  unfold k2_pay6
  exact rowmax_apply (k2_pay5 h1 mean var g b w2t b2) _ _ r

/-- A row sum of a [2048, 256] array at a row. -/
theorem rowsum_apply (E : FVec Ideal S2048x256 .f32) (hφ : FKind.Formats .f32)
    (hacc : (0x00000000#32 : BitVec 32) = 0x00000000#32) (r : Fin 2048) :
    multiReduction (F := Ideal) .add [1] S2048 E 0x00000000#32 reduces_S2048x256_S2048 hφ hacc (ix1 r)
      = ∑ k : Fin 256, E (ix2 r k) :=
  (Ideal.multiReduction_add_single E 0x00000000#32 reduces_S2048x256_S2048 hφ hacc (ix1 r)).trans
    (Finset.sum_congr rfl fun k _ => congrArg E (lift_row r k))

/-- A column sum of a [2048, 256] array at a column. -/
theorem colsum_apply (E : FVec Ideal S2048x256 .f32) (hφ : FKind.Formats .f32)
    (hacc : (0x00000000#32 : BitVec 32) = 0x00000000#32) (j : Fin 256) :
    multiReduction (F := Ideal) .add [0] S256 E 0x00000000#32 reduces_S2048x256_S256 hφ hacc (ix1 j)
      = ∑ k : Fin 2048, E (ix2 k j) :=
  (Ideal.multiReduction_add_single E 0x00000000#32 reduces_S2048x256_S256 hφ hacc (ix1 j)).trans
    (Finset.sum_congr rfl fun k _ => congrArg E (lift_col j k))

/-- The tile of the mixed array at an index, over any logits `L` and any row shifts `m`: the softmax of the row gates the
    neighbour, the gated neighbour is added to the point's features, and the sum is mapped by the square weight. -/
theorem pay7_apply (L : FVec Ideal S2048x256 .f32) (m : FVec Ideal S2048 .f32) (x aug : Vec Ideal S2048x256 .f32)
    (wl : Vec Ideal S256x256 .bf16) (r : Fin 2048) (j : Fin 256) :
    k2_pay7 L m x aug wl (ix2 r j)
      = ∑ k : Fin 256, (x (ix2 r k) + Ideal.div (Ideal.exp (L (ix2 r k) - m (ix1 r)))
          (∑ j' : Fin 256, Ideal.exp (L (ix2 r j') - m (ix1 r))) * aug (ix2 r k)) * wl (ix2 k j) := by
  unfold k2_pay7
  rw [matmul2_apply]
  refine Finset.sum_congr rfl fun k _ => ?_
  simp only [shapeCast_self, truncf_apply, addf_apply, mulf_apply, divf_apply, broadcastTo_a1_ab_apply, shapeCast_a_a1_apply]
  rw [rowsum_apply]
  simp only [exp_apply, subf_apply, broadcastTo_a1_ab_apply, shapeCast_a_a1_apply]

/-- The mixed array over a tile's own blocks: the specification's functions at 2048 rows. -/
abbrev tileMixed (h1 : Vec Ideal S2048x32 .f32) (aug x : Vec Ideal S2048x256 .f32) (mean var g b : Vec Ideal S1x32 .f32)
    (w2t : Vec Ideal S32x256 .bf16) (b2 : Vec Ideal S1x256 .f32) (wl : Vec Ideal S256x256 .bf16) : Fin 2048 → Fin 256 → EReal :=
  mm (fun i j => cur2 x i j
      + softmax (lin (bnrelu (row1 mean) (row1 var) (row1 g) (row1 b) eps0 (cur2 h1)) (tr2 w2t) (row1 b2)) i j * cur2 aug i j)
    (tr2 wl)

/-- The tile the kernel stores, at an index, is the mixed array over the tile's blocks. -/
theorem tile_apply (h1 : Vec Ideal S2048x32 .f32) (aug x : Vec Ideal S2048x256 .f32) (mean var g b : Vec Ideal S1x32 .f32)
    (w2t : Vec Ideal S32x256 .bf16) (b2 : Vec Ideal S1x256 .f32) (wl : Vec Ideal S256x256 .bf16) (r : Fin 2048) (j : Fin 256) :
    k2_pay7 (k2_pay5 h1 mean var g b w2t b2) (k2_pay6 h1 mean var g b w2t b2) x aug wl (ix2 r j)
      = tileMixed h1 aug x mean var g b w2t b2 wl r j := by
  rw [pay7_apply, pay6_apply]
  show mm (fun i j => cur2 x i j + softmax (cur2 (k2_pay5 h1 mean var g b w2t b2)) i j * cur2 aug i j) (tr2 wl) r j = _
  rw [pay5_eq]

/-- The accumulated column sums after a point: what the point before left plus the tile's column sums. -/
theorem pay8_apply (L : FVec Ideal S2048x256 .f32) (m : FVec Ideal S2048 .f32) (x aug : Vec Ideal S2048x256 .f32)
    (wl : Vec Ideal S256x256 .bf16) (prev : Vec Ideal S1x256 .f32) (j : Fin 256) :
    k2_pay8 L m x aug wl prev (ix2 (0 : Fin 1) j)
      = prev (ix2 (0 : Fin 1) j) + ∑ k : Fin 2048, k2_pay7 L m x aug wl (ix2 k j) := by
  unfold k2_pay8
  simp only [shapeCast_self]
  rw [addf_apply, shapeCast_a_1a_apply, colsum_apply]

/-- The accumulated column sums of squares after a point. -/
theorem pay9_apply (L : FVec Ideal S2048x256 .f32) (m : FVec Ideal S2048 .f32) (x aug : Vec Ideal S2048x256 .f32)
    (wl : Vec Ideal S256x256 .bf16) (prev : Vec Ideal S1x256 .f32) (j : Fin 256) :
    k2_pay9 L m x aug wl prev (ix2 (0 : Fin 1) j)
      = prev (ix2 (0 : Fin 1) j) + ∑ k : Fin 2048, k2_pay7 L m x aug wl (ix2 k j) * k2_pay7 L m x aug wl (ix2 k j) := by
  unfold k2_pay9
  simp only [shapeCast_self]
  rw [addf_apply, shapeCast_a_1a_apply, colsum_apply]
  rfl

/-- The two accumulators are reset to zero. -/
theorem pay3_apply (j : Fin 256) : k2_pay3 (F := Ideal) (ix2 (0 : Fin 1) j) = 0 := by
  unfold k2_pay3
  simp only [shapeCast_self]
  exact Ideal.ofBits_zero_f32

theorem pay4_apply (j : Fin 256) : k2_pay4 (F := Ideal) (ix2 (0 : Fin 1) j) = 0 := by
  unfold k2_pay4
  simp only [shapeCast_self]
  exact Ideal.ofBits_zero_f32

/-- The mean written at the last point: the accumulated sum scaled by the reciprocal of the number of rows. -/
theorem pay1_apply (s : Vec Ideal S1x256 .f32) (j : Fin 256) : k2_pay1 s (ix2 (0 : Fin 1) j) = s (ix2 (0 : Fin 1) j) * c0 := by
  unfold k2_pay1
  rfl

/-- The variance written at the last point: the scaled sum of squares less the square of that mean. -/
theorem pay2_apply (s q : Vec Ideal S1x256 .f32) (j : Fin 256) :
    k2_pay2 s q (ix2 (0 : Fin 1) j)
      = q (ix2 (0 : Fin 1) j) * c0 - s (ix2 (0 : Fin 1) j) * c0 * (s (ix2 (0 : Fin 1) j) * c0) := by
  unfold k2_pay2
  rw [subf_apply, mulf_apply, mulf_apply, pay1_apply]
  rfl

/-- The mixed array at a row depends only on that row of the hidden layer, of the neighbours and of the features. -/
theorem mixed_row_congr {n n' : ℕ} (mean var g b : Fin 32 → EReal) (eps : EReal) (W2 : Fin 256 → Fin 32 → EReal)
    (b2 : Fin 256 → EReal) (Wl : Fin 256 → Fin 256 → EReal)
    (H : Fin n → Fin 32 → EReal) (A X : Fin n → Fin 256 → EReal)
    (H' : Fin n' → Fin 32 → EReal) (A' X' : Fin n' → Fin 256 → EReal) (i : Fin n) (i' : Fin n')
    (hH : H i = H' i') (hA : A i = A' i') (hX : X i = X' i') (j : Fin 256) :
    mm (fun i j => X i j + softmax (lin (bnrelu mean var g b eps H) W2 b2) i j * A i j) Wl i j
      = mm (fun i j => X' i j + softmax (lin (bnrelu mean var g b eps H') W2 b2) i j * A' i j) Wl i' j := by
  simp only [mm, lin, bnrelu, softmax, rowmax]
  rw [hH, hA, hX]

/-- A sum over `n` consecutive blocks of `K` naturals is the sum over the first `K * n` naturals. -/
theorem sum_range_blocks {M : Type*} [AddCommMonoid M] (K : ℕ) (f : ℕ → M) :
    ∀ n : ℕ, ∑ s ∈ Finset.range n, ∑ r ∈ Finset.range K, f (K * s + r) = ∑ i ∈ Finset.range (K * n), f i
  | 0 => by simp
  | n + 1 => by
    rw [Finset.sum_range_succ, sum_range_blocks K f n, Nat.mul_succ, Finset.sum_range_add]

end Cert.KernelIdeal.HandValue.Mix2

end
-- ==== Proof.KI.Val2.lean ====
/-
  The third region's output arrays as the specification's functions of its input arrays, at the exact reals.

  Each point `t` of the 128 reads rows `2048 t … 2048 t + 2047` of the hidden layer, of the gathered neighbours and of
  the features, and the whole of the seven small arrays (the hidden layer's mean and variance, the batch norm's scale
  and shift, the two weights, the bias). The tile it stores is the mixed array over those rows, and the mixed array at a
  row depends only on that row of the three row-indexed inputs, so the stored tile is rows `2048 t …` of the
  specification's mixed array over the whole inputs; row `i` is written by point `i / 2048`. The two accumulators hold,
  after point `n`, the column sums of the mixed array and of its squares over the rows of the points up to `n` (by
  induction on `n`: the reset is zero, each point adds its tile's column sums); after the last point the rows are all
  262144 rows, and the two statistics written there are the specification's scaled column sum and scaled sum of
  squares less the square of the former.
-/
import proofs.«145083_j84052509982728_1_alg».proof.Proof.KI.Reg2
import proofs.«145083_j84052509982728_1_alg».proof.Proof.KI.Pay2
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Basic

set_option maxRecDepth 16384

noncomputable section

namespace Cert.KernelIdeal.HandValue

open Cert.KernelIdeal Cert.KernelIdeal.Gen Cert.KernelIdeal.Hand Cert.Iface Cert.Spec
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The logits and the mixed array from the region's input arrays. -/
abbrev logits2 (c : Dev nD) : Fin 262144 → Fin 256 → EReal :=
  lin (bnrelu (row1 (V c main_v22_1)) (row1 (V c main_v22_2)) (row1 (V c main_v9)) (row1 (V c main_v10)) eps0 (cur2 (V c main_v22_0))) (tr2 (V c main_v18)) (row1 (V c main_v14))
abbrev mixed2 (c : Dev nD) : Fin 262144 → Fin 256 → EReal :=
  mm (fun i j => cur2 (V c main_arg1) i j + softmax (logits2 V c) i j * cur2 (V c main_v6) i j) (tr2 (V c main_v20))

namespace Mix2

/-- The printed index maps, decided over the grid: a tiled window's block index is the point on the rows and zero on the
    columns; -/
theorem idx2_tiled : ∀ t : Fin cfg2.N,
    (win2_0.index t (0 : Fin 2) = t.val ∧ win2_0.index t (1 : Fin 2) = 0)
  ∧ (win2_1.index t (0 : Fin 2) = t.val ∧ win2_1.index t (1 : Fin 2) = 0)
  ∧ (win2_2.index t (0 : Fin 2) = t.val ∧ win2_2.index t (1 : Fin 2) = 0)
  ∧ (win2_10.index t (0 : Fin 2) = t.val ∧ win2_10.index t (1 : Fin 2) = 0) :=
  (by decide +kernel : ∀ t : Fin grid2.N, _)

/-- a whole window's block index is zero on both axes. -/
theorem idx2_whole : ∀ t : Fin cfg2.N,
    (win2_3.index t (0 : Fin 2) = 0 ∧ win2_3.index t (1 : Fin 2) = 0)
  ∧ (win2_4.index t (0 : Fin 2) = 0 ∧ win2_4.index t (1 : Fin 2) = 0)
  ∧ (win2_5.index t (0 : Fin 2) = 0 ∧ win2_5.index t (1 : Fin 2) = 0)
  ∧ (win2_6.index t (0 : Fin 2) = 0 ∧ win2_6.index t (1 : Fin 2) = 0)
  ∧ (win2_7.index t (0 : Fin 2) = 0 ∧ win2_7.index t (1 : Fin 2) = 0)
  ∧ (win2_8.index t (0 : Fin 2) = 0 ∧ win2_8.index t (1 : Fin 2) = 0)
  ∧ (win2_9.index t (0 : Fin 2) = 0 ∧ win2_9.index t (1 : Fin 2) = 0)
  ∧ (win2_11.index t (0 : Fin 2) = 0 ∧ win2_11.index t (1 : Fin 2) = 0)
  ∧ (win2_12.index t (0 : Fin 2) = 0 ∧ win2_12.index t (1 : Fin 2) = 0) :=
  (by decide +kernel : ∀ t : Fin grid2.N, _)

theorem N2 : cfg2.N = 128 := N_2

/-- Window 0's block at point `t` is rows `2048 t … 2048 t + 2047` of its array. -/
theorem blk0_apply (c : Dev nD) (t : Fin cfg2.N) (r : Fin 2048) (j : Fin 32) (i : Fin 262144) (hi : i.val = 2048 * t.val + r.val) :
    (iblk2 V c 0 t : Vec Ideal S2048x32 .f32) (ix2 r j) = (V c main_v22_0 : Vec Ideal S262144x32 .f32) (ix2 i j) := by
  have hx := (idx2_tiled t).1
  unfold iblk2
  rw [View.read_apply]
  show V c main_v22_0 _ = V c main_v22_0 _
  congr 1
  funext a
  apply Fin.ext
  match a with
  | ⟨0, _⟩ => show win2_0.index t (0 : Fin 2) * 2048 + 1 * r.val = i.val; rw [hx.1, hi]; omega
  | ⟨1, _⟩ => show win2_0.index t (1 : Fin 2) * 32 + 1 * j.val = j.val; rw [hx.2]; omega

/-- Window 1's block at point `t` is rows `2048 t … 2048 t + 2047` of its array. -/
theorem blk1_apply (c : Dev nD) (t : Fin cfg2.N) (r : Fin 2048) (j : Fin 256) (i : Fin 262144) (hi : i.val = 2048 * t.val + r.val) :
    (iblk2 V c 1 t : Vec Ideal S2048x256 .f32) (ix2 r j) = (V c main_v6 : Vec Ideal S262144x256 .f32) (ix2 i j) := by
  have hx := (idx2_tiled t).2.1
  unfold iblk2
  rw [View.read_apply]
  show V c main_v6 _ = V c main_v6 _
  congr 1
  funext a
  apply Fin.ext
  match a with
  | ⟨0, _⟩ => show win2_1.index t (0 : Fin 2) * 2048 + 1 * r.val = i.val; rw [hx.1, hi]; omega
  | ⟨1, _⟩ => show win2_1.index t (1 : Fin 2) * 256 + 1 * j.val = j.val; rw [hx.2]; omega

/-- Window 2's block at point `t` is rows `2048 t … 2048 t + 2047` of its array. -/
theorem blk2_apply (c : Dev nD) (t : Fin cfg2.N) (r : Fin 2048) (j : Fin 256) (i : Fin 262144) (hi : i.val = 2048 * t.val + r.val) :
    (iblk2 V c 2 t : Vec Ideal S2048x256 .f32) (ix2 r j) = (V c main_arg1 : Vec Ideal S262144x256 .f32) (ix2 i j) := by
  have hx := (idx2_tiled t).2.2.1
  unfold iblk2
  rw [View.read_apply]
  show V c main_arg1 _ = V c main_arg1 _
  congr 1
  funext a
  apply Fin.ext
  match a with
  | ⟨0, _⟩ => show win2_2.index t (0 : Fin 2) * 2048 + 1 * r.val = i.val; rw [hx.1, hi]; omega
  | ⟨1, _⟩ => show win2_2.index t (1 : Fin 2) * 256 + 1 * j.val = j.val; rw [hx.2]; omega

/-- Window 3's block at every point is its whole array. -/
theorem blk3_eq (c : Dev nD) (t : Fin cfg2.N) : (iblk2 V c 3 t : Vec Ideal S1x32 .f32) = (V c main_v22_1 : Vec Ideal S1x32 .f32) := by
  have hx := (idx2_whole t).1
  funext y
  obtain ⟨u, j, rfl⟩ : ∃ (u : Fin 1) (j : Fin 32), y = ix2 u j := ⟨y 0, y 1, eq_ix2 y⟩
  unfold iblk2
  rw [View.read_apply]
  show V c main_v22_1 _ = V c main_v22_1 _
  congr 1
  funext a
  apply Fin.ext
  match a with
  | ⟨0, _⟩ => show win2_3.index t (0 : Fin 2) * 1 + 1 * u.val = u.val; rw [hx.1]; omega
  | ⟨1, _⟩ => show win2_3.index t (1 : Fin 2) * 32 + 1 * j.val = j.val; rw [hx.2]; omega

/-- Window 4's block at every point is its whole array. -/
theorem blk4_eq (c : Dev nD) (t : Fin cfg2.N) : (iblk2 V c 4 t : Vec Ideal S1x32 .f32) = (V c main_v22_2 : Vec Ideal S1x32 .f32) := by
  have hx := (idx2_whole t).2.1
  funext y
  obtain ⟨u, j, rfl⟩ : ∃ (u : Fin 1) (j : Fin 32), y = ix2 u j := ⟨y 0, y 1, eq_ix2 y⟩
  unfold iblk2
  rw [View.read_apply]
  show V c main_v22_2 _ = V c main_v22_2 _
  congr 1
  funext a
  apply Fin.ext
  match a with
  | ⟨0, _⟩ => show win2_4.index t (0 : Fin 2) * 1 + 1 * u.val = u.val; rw [hx.1]; omega
  | ⟨1, _⟩ => show win2_4.index t (1 : Fin 2) * 32 + 1 * j.val = j.val; rw [hx.2]; omega

/-- Window 5's block at every point is its whole array. -/
theorem blk5_eq (c : Dev nD) (t : Fin cfg2.N) : (iblk2 V c 5 t : Vec Ideal S1x32 .f32) = (V c main_v9 : Vec Ideal S1x32 .f32) := by
  have hx := (idx2_whole t).2.2.1
  funext y
  obtain ⟨u, j, rfl⟩ : ∃ (u : Fin 1) (j : Fin 32), y = ix2 u j := ⟨y 0, y 1, eq_ix2 y⟩
  unfold iblk2
  rw [View.read_apply]
  show V c main_v9 _ = V c main_v9 _
  congr 1
  funext a
  apply Fin.ext
  match a with
  | ⟨0, _⟩ => show win2_5.index t (0 : Fin 2) * 1 + 1 * u.val = u.val; rw [hx.1]; omega
  | ⟨1, _⟩ => show win2_5.index t (1 : Fin 2) * 32 + 1 * j.val = j.val; rw [hx.2]; omega

/-- Window 6's block at every point is its whole array. -/
theorem blk6_eq (c : Dev nD) (t : Fin cfg2.N) : (iblk2 V c 6 t : Vec Ideal S1x32 .f32) = (V c main_v10 : Vec Ideal S1x32 .f32) := by
  have hx := (idx2_whole t).2.2.2.1
  funext y
  obtain ⟨u, j, rfl⟩ : ∃ (u : Fin 1) (j : Fin 32), y = ix2 u j := ⟨y 0, y 1, eq_ix2 y⟩
  unfold iblk2
  rw [View.read_apply]
  show V c main_v10 _ = V c main_v10 _
  congr 1
  funext a
  apply Fin.ext
  match a with
  | ⟨0, _⟩ => show win2_6.index t (0 : Fin 2) * 1 + 1 * u.val = u.val; rw [hx.1]; omega
  | ⟨1, _⟩ => show win2_6.index t (1 : Fin 2) * 32 + 1 * j.val = j.val; rw [hx.2]; omega

/-- Window 7's block at every point is its whole array. -/
theorem blk7_eq (c : Dev nD) (t : Fin cfg2.N) : (iblk2 V c 7 t : Vec Ideal S32x256 .bf16) = (V c main_v18 : Vec Ideal S32x256 .bf16) := by
  have hx := (idx2_whole t).2.2.2.2.1
  funext y
  obtain ⟨u, j, rfl⟩ : ∃ (u : Fin 32) (j : Fin 256), y = ix2 u j := ⟨y 0, y 1, eq_ix2 y⟩
  unfold iblk2
  rw [View.read_apply]
  show V c main_v18 _ = V c main_v18 _
  congr 1
  funext a
  apply Fin.ext
  match a with
  | ⟨0, _⟩ => show win2_7.index t (0 : Fin 2) * 32 + 1 * u.val = u.val; rw [hx.1]; omega
  | ⟨1, _⟩ => show win2_7.index t (1 : Fin 2) * 256 + 1 * j.val = j.val; rw [hx.2]; omega

/-- Window 8's block at every point is its whole array. -/
theorem blk8_eq (c : Dev nD) (t : Fin cfg2.N) : (iblk2 V c 8 t : Vec Ideal S1x256 .f32) = (V c main_v14 : Vec Ideal S1x256 .f32) := by
  have hx := (idx2_whole t).2.2.2.2.2.1
  funext y
  obtain ⟨u, j, rfl⟩ : ∃ (u : Fin 1) (j : Fin 256), y = ix2 u j := ⟨y 0, y 1, eq_ix2 y⟩
  unfold iblk2
  rw [View.read_apply]
  show V c main_v14 _ = V c main_v14 _
  congr 1
  funext a
  apply Fin.ext
  match a with
  | ⟨0, _⟩ => show win2_8.index t (0 : Fin 2) * 1 + 1 * u.val = u.val; rw [hx.1]; omega
  | ⟨1, _⟩ => show win2_8.index t (1 : Fin 2) * 256 + 1 * j.val = j.val; rw [hx.2]; omega

/-- Window 9's block at every point is its whole array. -/
theorem blk9_eq (c : Dev nD) (t : Fin cfg2.N) : (iblk2 V c 9 t : Vec Ideal S256x256 .bf16) = (V c main_v20 : Vec Ideal S256x256 .bf16) := by
  have hx := (idx2_whole t).2.2.2.2.2.2.1
  funext y
  obtain ⟨u, j, rfl⟩ : ∃ (u : Fin 256) (j : Fin 256), y = ix2 u j := ⟨y 0, y 1, eq_ix2 y⟩
  unfold iblk2
  rw [View.read_apply]
  show V c main_v20 _ = V c main_v20 _
  congr 1
  funext a
  apply Fin.ext
  match a with
  | ⟨0, _⟩ => show win2_9.index t (0 : Fin 2) * 256 + 1 * u.val = u.val; rw [hx.1]; omega
  | ⟨1, _⟩ => show win2_9.index t (1 : Fin 2) * 256 + 1 * j.val = j.val; rw [hx.2]; omega

/-- The specification's mixed array at row `2048 t + r` is the mixed array over point `t`'s blocks at row `r`: the whole
    windows are their arrays, and the three tiled windows hold that row. -/
theorem tile_at (c : Dev nD) (t : Fin cfg2.N) (r : Fin 2048) (j : Fin 256) (i : Fin 262144) (hi : i.val = 2048 * t.val + r.val) :
    tileMixed (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) r j = mixed2 V c i j := by
  rw [blk3_eq, blk4_eq, blk5_eq, blk6_eq, blk7_eq, blk8_eq, blk9_eq]
  exact mixed_row_congr (row1 (V c main_v22_1)) (row1 (V c main_v22_2)) (row1 (V c main_v9)) (row1 (V c main_v10)) eps0
    (tr2 (V c main_v18)) (row1 (V c main_v14)) (tr2 (V c main_v20))
    (cur2 (iblk2 V c 0 t : Vec Ideal S2048x32 .f32)) (cur2 (iblk2 V c 1 t : Vec Ideal S2048x256 .f32)) (cur2 (iblk2 V c 2 t : Vec Ideal S2048x256 .f32))
    (cur2 (V c main_v22_0)) (cur2 (V c main_v6)) (cur2 (V c main_arg1)) r i
    (funext fun l => blk0_apply V c t r l i hi) (funext fun l => blk1_apply V c t r l i hi) (funext fun l => blk2_apply V c t r l i hi) j

theorem lt128 (t : Fin cfg2.N) : t.val < 128 := Nat.lt_of_lt_of_eq t.isLt N2

/-- The tile the kernel stores at point `t`, at `(r, j)`, is the mixed array at `(2048 t + r, j)`. -/
theorem stored_at (c : Dev nD) (t : Fin cfg2.N) (r : Fin 2048) (j : Fin 256) (i : Fin 262144) (hi : i.val = 2048 * t.val + r.val) :
    k2_pay7 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (ix2 r j)
      = mixed2 V c i j :=
  (tile_apply (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) r j).trans (tile_at V c t r j i hi)

/-- What every point writes back to the mixed array's window is its block of the specification's mixed array. -/
theorem flushed10_eq (c : Dev nD) (t : Fin cfg2.N) :
    (dat2 V c).flushed 10 t
      = ((cfg2.win 10).blk t).view.read (Elt Ideal) (fun i => mixed2 V c (i 0) (i 1) : FVec Ideal S262144x256 .f32) := by
  have hx := (idx2_tiled t).2.2.2
  have ht := lt128 t
  rw [flushed2_10]
  funext y
  obtain ⟨r, j, rfl⟩ : ∃ (r : Fin 2048) (j : Fin 256), y = ix2 r j := ⟨y 0, y 1, eq_ix2 y⟩
  rw [View.read_apply]
  unfold mmblk
  refine (stored_at V c t r j ⟨2048 * t.val + r.val, by omega⟩ rfl).trans ?_
  show mixed2 V c _ _ = mixed2 V c _ _
  congr 1 <;> apply Fin.ext
  · show 2048 * t.val + r.val = win2_10.index t (0 : Fin 2) * 2048 + 1 * r.val
    rw [hx.1]; omega
  · show j.val = win2_10.index t (1 : Fin 2) * 256 + 1 * j.val
    rw [hx.2]; omega

/-- An index of the mixed array is in point `t`'s block iff each coordinate is in the block's range on its axis. -/
theorem mem_blk10 (t : Fin cfg2.N) (i : S262144x256.Idx) :
    i ∈ ((cfg2.win 10).blk t).view.set ↔ ∀ a : Fin 2, win2_10.index t a * S2048x256.size a ≤ (i a).val ∧ (i a).val < win2_10.index t a * S2048x256.size a + S2048x256.size a := by
  show i ∈ ((View.whole main_v23_0).slice (win2_10.rect t)).set ↔ _
  rw [View.set_slice_whole, Rect.mem_set_unit]
  exact Iff.rfl

/-- The mixed array with its row index a natural number (zero past the last row). -/
def mixedN (c : Dev nD) (i : ℕ) (j : Fin 256) : EReal := if h : i < 262144 then mixed2 V c ⟨i, h⟩ j else 0

/-- The tile's column sums are the mixed array's over the tile's rows. -/
theorem tile_colsum (c : Dev nD) (t : Fin cfg2.N) (j : Fin 256) :
    ∑ k : Fin 2048, k2_pay7 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (ix2 k j)
      = ∑ r ∈ Finset.range 2048, mixedN V c (2048 * t.val + r) j := by
  have ht := lt128 t
  rw [Finset.sum_range]
  refine Finset.sum_congr rfl fun k _ => ?_
  have hk : 2048 * t.val + k.val < 262144 := by omega
  rw [stored_at V c t k j ⟨2048 * t.val + k.val, hk⟩ rfl]
  unfold mixedN
  rw [dif_pos hk]

/-- After point `n` the first accumulator holds the column sums of the mixed array over the rows of the points up to `n`. -/
theorem acc_fst (c : Dev nD) : ∀ (n : ℕ) (h : n < cfg2.N) (j : Fin 256),
    ((acc2 V c n h).1 : Vec Ideal S1x256 .f32) (ix2 (0 : Fin 1) j)
      = ∑ s ∈ Finset.range (n + 1), ∑ r ∈ Finset.range 2048, mixedN V c (2048 * s + r) j
  | 0, h, j => by
    rw [acc2_zero]
    dsimp only
    refine (pay8_apply (k2_pay5 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (k2_pay6 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (iblk2 V c 2 ⟨0, h⟩) (iblk2 V c 1 ⟨0, h⟩) (iblk2 V c 9 ⟨0, h⟩) (k2_pay3 (F := Ideal)) j).trans ?_
    rw [pay3_apply, zero_add, Finset.sum_range_one]
    exact tile_colsum V c ⟨0, h⟩ j
  | n + 1, h, j => by
    rw [acc2_succ]
    dsimp only
    refine (pay8_apply (k2_pay5 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (k2_pay6 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (iblk2 V c 2 ⟨n + 1, h⟩) (iblk2 V c 1 ⟨n + 1, h⟩) (iblk2 V c 9 ⟨n + 1, h⟩) ((acc2 V c n (Nat.lt_of_succ_lt h)).1) j).trans ?_
    rw [acc_fst c n (Nat.lt_of_succ_lt h) j, Finset.sum_range_succ _ (n + 1)]
    exact congrArg _ (tile_colsum V c ⟨n + 1, h⟩ j)

/-- Over all 128 points the rows are all the rows: the column sum of the mixed array. -/
theorem mixedN_sum (c : Dev nD) (j : Fin 256) :
    ∑ s ∈ Finset.range 128, ∑ r ∈ Finset.range 2048, mixedN V c (2048 * s + r) j
      = colsum (mixed2 V c) j := by
  have e : ∑ s ∈ Finset.range 128, ∑ r ∈ Finset.range 2048, mixedN V c (2048 * s + r) j
      = ∑ i ∈ Finset.range 262144, mixedN V c (i) j := sum_range_blocks 2048 (fun i => mixedN V c (i) j) 128
  rw [e, Finset.sum_range]
  unfold colsum
  refine Finset.sum_congr rfl fun i _ => ?_
  unfold mixedN
  rw [dif_pos i.isLt]

/-- The tile's column sums of squares are the mixed array's squares' over the tile's rows. -/
theorem tile_colsq (c : Dev nD) (t : Fin cfg2.N) (j : Fin 256) :
    ∑ k : Fin 2048, k2_pay7 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (ix2 k j) * k2_pay7 (k2_pay5 (iblk2 V c 0 t) (iblk2 V c 3 t) (iblk2 V c 4 t) (iblk2 V c 5 t) (iblk2 V c 6 t) (iblk2 V c 7 t) (iblk2 V c 8 t)) (k2_pay6 (iblk2 V c 0 t) (iblk2 V c 3 t) (iblk2 V c 4 t) (iblk2 V c 5 t) (iblk2 V c 6 t) (iblk2 V c 7 t) (iblk2 V c 8 t)) (iblk2 V c 2 t) (iblk2 V c 1 t) (iblk2 V c 9 t) (ix2 k j)
      = ∑ r ∈ Finset.range 2048, mixedN V c (2048 * t.val + r) j * mixedN V c (2048 * t.val + r) j := by
  have ht := lt128 t
  rw [Finset.sum_range]
  refine Finset.sum_congr rfl fun k _ => ?_
  have hk : 2048 * t.val + k.val < 262144 := by omega
  rw [stored_at V c t k j ⟨2048 * t.val + k.val, hk⟩ rfl]
  unfold mixedN
  rw [dif_pos hk]

/-- After point `n` the second accumulator holds the column sums of the mixed array's squares over the rows of the points up to `n`. -/
theorem acc_snd (c : Dev nD) : ∀ (n : ℕ) (h : n < cfg2.N) (j : Fin 256),
    ((acc2 V c n h).2 : Vec Ideal S1x256 .f32) (ix2 (0 : Fin 1) j)
      = ∑ s ∈ Finset.range (n + 1), ∑ r ∈ Finset.range 2048, mixedN V c (2048 * s + r) j * mixedN V c (2048 * s + r) j
  | 0, h, j => by
    rw [acc2_zero]
    dsimp only
    refine (pay9_apply (k2_pay5 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (k2_pay6 (iblk2 V c 0 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩)) (iblk2 V c 2 ⟨0, h⟩) (iblk2 V c 1 ⟨0, h⟩) (iblk2 V c 9 ⟨0, h⟩) (k2_pay4 (F := Ideal)) j).trans ?_
    rw [pay4_apply, zero_add, Finset.sum_range_one]
    exact tile_colsq V c ⟨0, h⟩ j
  | n + 1, h, j => by
    rw [acc2_succ]
    dsimp only
    refine (pay9_apply (k2_pay5 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (k2_pay6 (iblk2 V c 0 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩)) (iblk2 V c 2 ⟨n + 1, h⟩) (iblk2 V c 1 ⟨n + 1, h⟩) (iblk2 V c 9 ⟨n + 1, h⟩) ((acc2 V c n (Nat.lt_of_succ_lt h)).2) j).trans ?_
    rw [acc_snd c n (Nat.lt_of_succ_lt h) j, Finset.sum_range_succ _ (n + 1)]
    exact congrArg _ (tile_colsq V c ⟨n + 1, h⟩ j)

/-- Over all 128 points the rows are all the rows: the column sum of the mixed array's squares. -/
theorem mixedN_sqsum (c : Dev nD) (j : Fin 256) :
    ∑ s ∈ Finset.range 128, ∑ r ∈ Finset.range 2048, mixedN V c (2048 * s + r) j * mixedN V c (2048 * s + r) j
      = colsum (fun i j => mixed2 V c i j * mixed2 V c i j) j := by
  have e : ∑ s ∈ Finset.range 128, ∑ r ∈ Finset.range 2048, mixedN V c (2048 * s + r) j * mixedN V c (2048 * s + r) j
      = ∑ i ∈ Finset.range 262144, mixedN V c (i) j * mixedN V c (i) j := sum_range_blocks 2048 (fun i => mixedN V c (i) j * mixedN V c (i) j) 128
  rw [e, Finset.sum_range]
  unfold colsum
  refine Finset.sum_congr rfl fun i _ => ?_
  unfold mixedN
  rw [dif_pos i.isLt]

/-- An index of the [1, 256] array is in point `t`'s block iff each coordinate is in the block's range on its axis. -/
theorem mem_blk11 (t : Fin cfg2.N) (i : S1x256.Idx) :
    i ∈ ((cfg2.win 11).blk t).view.set ↔ ∀ a : Fin 2, win2_11.index t a * S1x256.size a ≤ (i a).val ∧ (i a).val < win2_11.index t a * S1x256.size a + S1x256.size a := by
  show i ∈ ((View.whole main_v23_1).slice (win2_11.rect t)).set ↔ _
  rw [View.set_slice_whole, Rect.mem_set_unit]
  exact Iff.rfl

/-- What the last point writes back to window 11. -/
theorem flushed11_eq (c : Dev nD) (t : Fin cfg2.N) (hf : (cfg2.win 11).flush t = true) :
    (dat2 V c).flushed 11 t
      = ((cfg2.win 11).blk t).view.read (Elt Ideal) (fun i => kmean c0 (mixed2 V c) (i 1) : FVec Ideal S1x256 .f32) := by
  have hm := (flush2_11 t).mp hf
  have ht := lt128 t
  have h127 : t.val = 127 := by omega
  have hr : Finset.range (t.val + 1) = Finset.range 128 := by rw [h127]
  have hx := (idx2_whole t).2.2.2.2.2.2.2.1
  rw [flushed2_11 V c t hm]
  funext y
  obtain ⟨u, j, rfl⟩ : ∃ (u : Fin 1) (j : Fin 256), y = ix2 u j := ⟨y 0, y 1, eq_ix2 y⟩
  obtain rfl : u = 0 := Subsingleton.elim _ _
  rw [View.read_apply]
  have hj : (((cfg2.win 11).blk t).view.emb (ix2 (0 : Fin 1) j) : S1x256.Idx) 1 = j := by
    apply Fin.ext
    show win2_11.index t (1 : Fin 2) * 256 + 1 * j.val = j.val
    rw [hx.2]; omega
  show _ = kmean c0 (mixed2 V c) ((((cfg2.win 11).blk t).view.emb (ix2 (0 : Fin 1) j) : S1x256.Idx) 1)
  rw [hj]
  refine (pay1_apply ((acc2 V c t.val t.isLt).1) j).trans ?_
  rw [acc_fst V c t.val t.isLt j, hr, mixedN_sum]
  rfl

/-- An index of the [1, 256] array is in point `t`'s block iff each coordinate is in the block's range on its axis. -/
theorem mem_blk12 (t : Fin cfg2.N) (i : S1x256.Idx) :
    i ∈ ((cfg2.win 12).blk t).view.set ↔ ∀ a : Fin 2, win2_12.index t a * S1x256.size a ≤ (i a).val ∧ (i a).val < win2_12.index t a * S1x256.size a + S1x256.size a := by
  show i ∈ ((View.whole main_v23_2).slice (win2_12.rect t)).set ↔ _
  rw [View.set_slice_whole, Rect.mem_set_unit]
  exact Iff.rfl

/-- What the last point writes back to window 12. -/
theorem flushed12_eq (c : Dev nD) (t : Fin cfg2.N) (hf : (cfg2.win 12).flush t = true) :
    (dat2 V c).flushed 12 t
      = ((cfg2.win 12).blk t).view.read (Elt Ideal) (fun i => kvar c0 (mixed2 V c) (i 1) : FVec Ideal S1x256 .f32) := by
  have hm := (flush2_12 t).mp hf
  have ht := lt128 t
  have h127 : t.val = 127 := by omega
  have hr : Finset.range (t.val + 1) = Finset.range 128 := by rw [h127]
  have hx := (idx2_whole t).2.2.2.2.2.2.2.2
  rw [flushed2_12 V c t hm]
  funext y
  obtain ⟨u, j, rfl⟩ : ∃ (u : Fin 1) (j : Fin 256), y = ix2 u j := ⟨y 0, y 1, eq_ix2 y⟩
  obtain rfl : u = 0 := Subsingleton.elim _ _
  rw [View.read_apply]
  have hj : (((cfg2.win 12).blk t).view.emb (ix2 (0 : Fin 1) j) : S1x256.Idx) 1 = j := by
    apply Fin.ext
    show win2_12.index t (1 : Fin 2) * 256 + 1 * j.val = j.val
    rw [hx.2]; omega
  show _ = kvar c0 (mixed2 V c) ((((cfg2.win 12).blk t).view.emb (ix2 (0 : Fin 1) j) : S1x256.Idx) 1)
  rw [hj]
  refine (pay2_apply ((acc2 V c t.val t.isLt).1) ((acc2 V c t.val t.isLt).2) j).trans ?_
  rw [acc_fst V c t.val t.isLt j, acc_snd V c t.val t.isLt j, hr, mixedN_sum, mixedN_sqsum]
  rfl

end Mix2

open Mix2

/-- The mixed array after the region: row `i` is written by point `i / 2048`. -/
theorem mm_eq (c : Dev nD) : (dat2 V c).arrAt 10 cfg2.N = (fun i => mixed2 V c (i 0) (i 1) : FVec Ideal S262144x256 .f32) :=
  (dat2 V c).arrAt_eq_of_cover 10 _ (fun t _ => flushed10_eq V c t) fun i => by
    have h0 : (i 0).val < 262144 := (i 0).isLt
    have h1 : (i 1).val < 256 := (i 1).isLt
    have hq : (i 0).val / 2048 < cfg2.N := by rw [N2]; omega
    have hx := (idx2_tiled ⟨(i 0).val / 2048, hq⟩).2.2.2
    refine ⟨⟨(i 0).val / 2048, hq⟩, flush2_10 _, ?_⟩
    rw [mem_blk10]
    intro a
    match a with
    | ⟨0, _⟩ =>
      show win2_10.index ⟨(i 0).val / 2048, hq⟩ (0 : Fin 2) * 2048 ≤ (i 0).val ∧ (i 0).val < win2_10.index ⟨(i 0).val / 2048, hq⟩ (0 : Fin 2) * 2048 + 2048
      rw [hx.1]; show (i 0).val / 2048 * 2048 ≤ (i 0).val ∧ (i 0).val < (i 0).val / 2048 * 2048 + 2048; omega
    | ⟨1, _⟩ =>
      show win2_10.index ⟨(i 0).val / 2048, hq⟩ (1 : Fin 2) * 256 ≤ (i 1).val ∧ (i 1).val < win2_10.index ⟨(i 0).val / 2048, hq⟩ (1 : Fin 2) * 256 + 256
      rw [hx.2]; omega

/-- The mean of the mixed array's columns after the region: the last point's block is the whole array. -/
theorem mean2_eq (c : Dev nD) : (dat2 V c).arrAt 11 cfg2.N = (fun i => kmean c0 (mixed2 V c) (i 1) : FVec Ideal S1x256 .f32) :=
  (dat2 V c).arrAt_eq_of_cover 11 _ (fun t hf => flushed11_eq V c t hf) fun i => by
    have h0 : (i 0).val < 1 := (i 0).isLt
    have h1 : (i 1).val < 256 := (i 1).isLt
    have hq : 127 < cfg2.N := by rw [N2]; omega
    have hx := (idx2_whole ⟨127, hq⟩).2.2.2.2.2.2.2.1
    refine ⟨⟨127, hq⟩, (flush2_11 _).mpr rfl, ?_⟩
    rw [mem_blk11]
    intro a
    match a with
    | ⟨0, _⟩ =>
      show win2_11.index ⟨127, hq⟩ (0 : Fin 2) * 1 ≤ (i 0).val ∧ (i 0).val < win2_11.index ⟨127, hq⟩ (0 : Fin 2) * 1 + 1
      rw [hx.1]; omega
    | ⟨1, _⟩ =>
      show win2_11.index ⟨127, hq⟩ (1 : Fin 2) * 256 ≤ (i 1).val ∧ (i 1).val < win2_11.index ⟨127, hq⟩ (1 : Fin 2) * 256 + 256
      rw [hx.2]; omega

/-- The variance of the mixed array's columns after the region: the last point's block is the whole array. -/
theorem var2_eq (c : Dev nD) : (dat2 V c).arrAt 12 cfg2.N = (fun i => kvar c0 (mixed2 V c) (i 1) : FVec Ideal S1x256 .f32) :=
  (dat2 V c).arrAt_eq_of_cover 12 _ (fun t hf => flushed12_eq V c t hf) fun i => by
    have h0 : (i 0).val < 1 := (i 0).isLt
    have h1 : (i 1).val < 256 := (i 1).isLt
    have hq : 127 < cfg2.N := by rw [N2]; omega
    have hx := (idx2_whole ⟨127, hq⟩).2.2.2.2.2.2.2.2
    refine ⟨⟨127, hq⟩, (flush2_12 _).mpr rfl, ?_⟩
    rw [mem_blk12]
    intro a
    match a with
    | ⟨0, _⟩ =>
      show win2_12.index ⟨127, hq⟩ (0 : Fin 2) * 1 ≤ (i 0).val ∧ (i 0).val < win2_12.index ⟨127, hq⟩ (0 : Fin 2) * 1 + 1
      rw [hx.1]; omega
    | ⟨1, _⟩ =>
      show win2_12.index ⟨127, hq⟩ (1 : Fin 2) * 256 ≤ (i 1).val ∧ (i 1).val < win2_12.index ⟨127, hq⟩ (1 : Fin 2) * 256 + 256
      rw [hx.2]; omega

end Cert.KernelIdeal.HandValue

end
-- ==== Proof.KI.Pay3.lean ====
/-
  The payload of region 3 read at an index, at the ideal instance: the normalised, scaled, shifted and clamped entry.
-/
import proofs.«145083_j84052509982728_1_alg».proof.Proof.Gen.KernelIdeal.Skeleton
import proofs.«145083_j84052509982728_1_alg».proof.Proof.Iface
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.Iface Cert.Spec
open Idealize.ShloMosaic Idealize.ShloMosaic.ValueIdx

/-- A row of 256 entries broadcast down 2048 rows reads, at row `r` and column `j`, the row's entry at column `j`. -/
theorem rowBroadcast_apply (x : FVec Ideal S1x256 .f32) (h : S1x256.Broadcasts S2048x256) (r : Fin 2048) (j : Fin 256) :
    broadcastTo S2048x256 x h (ix2 r j) = x (ix2 (0 : Fin 1) j) :=
  broadcastTo_apply x h (ix2 r j) (ix2 (0 : Fin 1) j) (fun a => by
    match a with
    | ⟨0, _⟩ => rfl
    | ⟨1, _⟩ => rfl)

/-- The epsilon the payload adds to the variance is the interface's. -/
theorem eps_word : (Scalar.ofBits .f32 0x3727C5AC#32 : Ideal .f32) = eps0 := rfl

/-- The clamp's floor is zero. -/
theorem zero_word : (Scalar.ofBits .f32 0x00000000#32 : Ideal .f32) = 0 := Ideal.ofBits_zero_f32

/-- The payload at row `r`, column `j`: the tile's entry less the column mean, times the reciprocal root of the
    column variance plus epsilon, times the scale, plus the shift, clamped below at zero. -/
theorem k3_pay1_apply (mmb : Vec Ideal S2048x256 .f32) (mean var g b : Vec Ideal S1x256 .f32) (r : Fin 2048) (j : Fin 256) :
    k3_pay1 mmb mean var g b (ix2 r j)
      = max ((mmb (ix2 r j) - mean (ix2 (0 : Fin 1) j)) * Ideal.rsqrt (var (ix2 (0 : Fin 1) j) + eps0) * g (ix2 (0 : Fin 1) j) + b (ix2 (0 : Fin 1) j)) 0 := by
  unfold k3_pay1
  simp only [shapeCast_self]
  rw [maximumf_apply, addf_apply, mulf_apply, mulf_apply, subf_apply, broadcast_apply,
    rowBroadcast_apply, rowBroadcast_apply, rowBroadcast_apply, rowBroadcast_apply, zero_word]
  rfl

end Cert.KernelIdeal.HandValue

end
-- ==== Proof.KI.Val3.lean ====
/-
  The value of region 3: the output array after the region's write-backs is the batch norm and clamp of the matrix
  product array, with the column statistics and the parameter rows the region was entered with, index by index.
-/
import proofs.«145083_j84052509982728_1_alg».proof.Proof.KI.Reg3
import proofs.«145083_j84052509982728_1_alg».proof.Proof.KI.Pay3
import proofs.«145083_j84052509982728_1_alg».proof.Proof.Iface
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Cert.Iface Cert.Spec
open Idealize.ShloMosaic Idealize.ShloMosaic.TcCoe Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! # Region 3's output array as a function of its input arrays

Point `t` of the 128 reads rows `2048 t … 2048 t + 2047` of the matrix product and the four whole rows of column
statistics and parameters, and writes the same rows of the output. -/

/-- The block index maps over the grid: the tiled windows' row block is the point, every other block index is zero. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-! ## The input blocks read off their arrays -/

/-- The matrix product's tile at point `t` is rows `2048 t …` of the array. -/
theorem tile_apply (c : Dev nD) (t : Fin cfg3.N) (x : S2048x256.Idx) (k : S262144x256.Idx)
    (hk0 : (k 0).val = 2048 * t.val + (x 0).val) (hk1 : (k 1).val = (x 1).val) :
    (iblk3 V c 0 t : Vec Ideal S2048x256 .f32) x = (V c main_v23_0 : S262144x256.Idx → EReal) k := by
  obtain ⟨e00, e01, -⟩ := idx_facts3 t
  unfold iblk3
  rw [View.read_apply]
  show V c main_v23_0 _ = V c main_v23_0 _
  congr 1
  funext a
  apply Fin.ext
  match a with
  | ⟨0, _⟩ => show win3_0.index t (0 : Fin 2) * 2048 + 1 * (x 0).val = (k 0).val; rw [e00, hk0]; omega
  | ⟨1, _⟩ => show win3_0.index t (1 : Fin 2) * 256 + 1 * (x 1).val = (k 1).val; rw [e01, hk1]; omega

/-- The column means' block at every point is the whole row. -/
theorem mean_blk (c : Dev nD) (t : Fin cfg3.N) :
    (iblk3 V c 1 t : Vec Ideal S1x256 .f32) = (V c main_v23_1 : S1x256.Idx → EReal) := by
  obtain ⟨-, -, e0, e1, -⟩ := idx_facts3 t
  funext x
  unfold iblk3
  rw [View.read_apply]
  show V c main_v23_1 _ = V c main_v23_1 _
  congr 1
  funext a
  apply Fin.ext
  match a with
  | ⟨0, _⟩ => show win3_1.index t (0 : Fin 2) * 1 + 1 * (x 0).val = (x 0).val; rw [e0]; omega
  | ⟨1, _⟩ => show win3_1.index t (1 : Fin 2) * 256 + 1 * (x 1).val = (x 1).val; rw [e1]; omega

/-- The column variances' block at every point is the whole row. -/
theorem var_blk (c : Dev nD) (t : Fin cfg3.N) :
    (iblk3 V c 2 t : Vec Ideal S1x256 .f32) = (V c main_v23_2 : S1x256.Idx → EReal) := by
  obtain ⟨-, -, -, -, e0, e1, -⟩ := idx_facts3 t
  funext x
  unfold iblk3
  rw [View.read_apply]
  show V c main_v23_2 _ = V c main_v23_2 _
  congr 1
  funext a
  apply Fin.ext
  match a with
  | ⟨0, _⟩ => show win3_2.index t (0 : Fin 2) * 1 + 1 * (x 0).val = (x 0).val; rw [e0]; omega
  | ⟨1, _⟩ => show win3_2.index t (1 : Fin 2) * 256 + 1 * (x 1).val = (x 1).val; rw [e1]; omega

/-- The scales' block at every point is the whole row. -/
theorem scale_blk (c : Dev nD) (t : Fin cfg3.N) :
    (iblk3 V c 3 t : Vec Ideal S1x256 .f32) = (V c main_v11 : S1x256.Idx → EReal) := by
  obtain ⟨-, -, -, -, -, -, e0, e1, -⟩ := idx_facts3 t
  funext x
  unfold iblk3
  rw [View.read_apply]
  show V c main_v11 _ = V c main_v11 _
  congr 1
  funext a
  apply Fin.ext
  match a with
  | ⟨0, _⟩ => show win3_3.index t (0 : Fin 2) * 1 + 1 * (x 0).val = (x 0).val; rw [e0]; omega
  | ⟨1, _⟩ => show win3_3.index t (1 : Fin 2) * 256 + 1 * (x 1).val = (x 1).val; rw [e1]; omega

/-- The shifts' block at every point is the whole row. -/
theorem shift_blk (c : Dev nD) (t : Fin cfg3.N) :
    (iblk3 V c 4 t : Vec Ideal S1x256 .f32) = (V c main_v12 : S1x256.Idx → EReal) := by
  obtain ⟨-, -, -, -, -, -, -, -, e0, e1, -⟩ := idx_facts3 t
  funext x
  unfold iblk3
  rw [View.read_apply]
  show V c main_v12 _ = V c main_v12 _
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 256 + 1 * (x 1).val = (x 1).val; rw [e1]; omega

/-! ## The output -/

/-- The output array: the batch norm and clamp of the matrix product with the given column statistics and parameters. -/
abbrev G3 (c : Dev nD) : FVec Ideal S262144x256 .f32 :=
  fun i => bnrelu (row1 (V c main_v23_1)) (row1 (V c main_v23_2)) (row1 (V c main_v11)) (row1 (V c main_v12)) eps0 (cur2 (V c main_v23_0)) (i 0) (i 1)

/-- What point `t` writes back is its tile of that array. -/
theorem flushed_eq3 (c : Dev nD) (t : Fin cfg3.N) :
    (dat3 V c).flushed 5 t = ((cfg3.win 5).blk t).view.read (Elt Ideal) (G3 V c) := by
  rw [flushed3_5]
  obtain ⟨-, -, -, -, -, -, -, -, -, -, e50, e51⟩ := idx_facts3 t
  funext y
  obtain ⟨r, j, rfl⟩ : ∃ (r : Fin 2048) (j : Fin 256), y = ix2 r j := ⟨y 0, y 1, eq_ix2 y⟩
  rw [View.read_apply]
  refine (k3_pay1_apply (iblk3 V c 0 t) (iblk3 V c 1 t) (iblk3 V c 2 t) (iblk3 V c 3 t) (iblk3 V c 4 t) r j).trans ?_
  rw [mean_blk V c t, var_blk V c t, scale_blk V c t, shift_blk V c t,
    tile_apply V c t (ix2 r j) (ix2 (((cfg3.win 5).blk t).view.emb (ix2 r j) 0) (((cfg3.win 5).blk t).view.emb (ix2 r j) 1))
      (by show win3_5.index t (0 : Fin 2) * 2048 + 1 * r.val = 2048 * t.val + r.val; rw [e50]; omega)
      (by show win3_5.index t (1 : Fin 2) * 256 + 1 * j.val = j.val; rw [e51]; omega)]
  have hc : (((cfg3.win 5).blk t).view.emb (ix2 r j) 1) = j :=
    Fin.ext (by show win3_5.index t (1 : Fin 2) * 256 + 1 * j.val = j.val; rw [e51]; omega)
  show _ = bnrelu (row1 (V c main_v23_1)) (row1 (V c main_v23_2)) (row1 (V c main_v11)) (row1 (V c main_v12)) eps0 (cur2 (V c main_v23_0))
    (((cfg3.win 5).blk t).view.emb (ix2 r j) 0) (((cfg3.win 5).blk t).view.emb (ix2 r j) 1)
  rw [hc]
  rfl

/-- An index of the output is in point `t`'s tile iff each coordinate is in the tile's range. -/
theorem mem_tile (t : Fin cfg3.N) (i : S262144x256.Idx) :
    i ∈ ((cfg3.win 5).blk t).view.set ↔ ∀ a : Fin 2, win3_5.index t a * S2048x256.size a ≤ (i a).val ∧ (i a).val < win3_5.index t a * S2048x256.size a + S2048x256.size a := by
  show i ∈ ((View.whole main_v24).slice (win3_5.rect t)).set ↔ _
  rw [View.set_slice_whole, Rect.mem_set_unit]
  exact Iff.rfl

/-- Row `i` is in the tile of point `i / 2048`: the tiles cover the output. -/
theorem cover3 (i : S262144x256.Idx) : ∃ t : Fin cfg3.N, (cfg3.win 5).flush t = true ∧ i ∈ ((cfg3.win 5).blk t).view.set := by
  have hN : cfg3.N = 128 := N_3
  have hi0 : (i 0).val < 262144 := (i 0).isLt
  have hi1 : (i 1).val < 256 := (i 1).isLt
  obtain ⟨t, ht⟩ : ∃ t : Fin cfg3.N, t.val = (i 0).val / 2048 := ⟨⟨(i 0).val / 2048, by rw [hN]; omega⟩, rfl⟩
  obtain ⟨-, -, -, -, -, -, -, -, -, -, e50, e51⟩ := idx_facts3 t
  refine ⟨t, flush3_5 t, ?_⟩
  rw [mem_tile]
  intro a
  match a with
  | ⟨0, _⟩ => show win3_5.index t (0 : Fin 2) * 2048 ≤ (i 0).val ∧ (i 0).val < win3_5.index t (0 : Fin 2) * 2048 + 2048; rw [e50]; omega
  | ⟨1, _⟩ => show win3_5.index t (1 : Fin 2) * 256 ≤ (i 1).val ∧ (i 1).val < win3_5.index t (1 : Fin 2) * 256 + 256; rw [e51]; omega

/-- The output array after the region's write-backs is the batch norm and clamp of the matrix product array with the
    statistics and parameter rows the region was entered with. -/
theorem out3_eq (c : Dev nD) : (dat3 V c).arrAt 5 cfg3.N
    = (fun i => bnrelu (row1 (V c main_v23_1)) (row1 (V c main_v23_2)) (row1 (V c main_v11)) (row1 (V c main_v12)) eps0 (cur2 (V c main_v23_0)) (i 0) (i 1) : FVec Ideal S262144x256 .f32) :=
  (dat3 V c).arrAt_eq_of_cover 5 (G3 V c) (fun t _ => flushed_eq3 V c t) cover3

end Cert.KernelIdeal.HandValue

end
-- ==== Proof.LibRowGather.lean ====
/-
  A ROW gather read at an index: the gather that takes whole rows of a table by a vector of row numbers. The table is
  [N, C] (or [N, A, B]), the start indices are an [R, 1] column (one row number per result row), the table's row axis
  is collapsed and start-indexed, the other axes are offset axes whose slice is the whole axis, and there are no
  batching axes. Result element (e, j) (or (e, a, b)) reads the table at row "word e read signed and clamped into
  [0, N - 1]" (a negative word reads row 0, one past the end reads the last row) and column j (or (a, b)).
-/
import Idealize.ShloMosaic.PureOps.ShapeOps
import Idealize.ShloMosaic.Lib.ValueIdx

namespace Idealize.ShloMosaic.ValueIdx

open Idealize.ShloMosaic

/-- An entry of a list known to be `l'`, at a position known to be `k'`. -/
theorem getElem_of_list_eq_of_pos {β : Type} {l l' : List β} (h : l = l') {k k' : Nat} (hkk : k = k') (hk : k < l.length)
    (hk' : k' < l'.length) : l[k] = l'[k'] := by
  subst h; subst hkk; rfl

/-- The entries of a one-element list. -/
theorem getElem_of_list_eq_singleton {β : Type} {l : List β} {a : β} (h : l = [a]) (k : Nat) (hk : k < l.length) :
    l[k] = a := by
  subst h
  have hk0 : k = 0 := by simpa using hk
  subst hk0
  rfl

/-! ## Rank 2: rows of an [N, C] table -/

section RowGather2

variable {N R C w : Nat} (d : GatherDims ⟨2, ![N, C]⟩ ⟨2, ![R, 1]⟩ ⟨2, ![R, C]⟩)
  (hoff : d.offsetDims = [1]) (hcoll : d.collapsedSliceDims = [0]) (hob : d.operandBatchingDims = [])
  (hsim : d.startIndexMap = [0]) (hivd : d.indexVectorDim = 1)

include hoff hsim hivd in
/-- The start-indices position a result element reads its row number at: its own row, column 0. -/
theorem rowGather2_siIdx (j : (⟨2, ![R, C]⟩ : Shape).Idx) (c : Fin d.startIndexMap.length) :
    d.siIdx j c = ix2 (j 0) 0 := by
  have hbd : d.batchDims = [0] := by
    show Shape.kept _ d.offsetDims = [0]
    rw [hoff]; rfl
  funext b
  match b with
  | ⟨0, _⟩ =>
    unfold GatherDims.siIdx
    rw [dif_neg (by rw [hivd]; exact Nat.zero_ne_one)]
    unfold GatherDims.siCoord
    apply Fin.ext
    simp only [Fin.val_cast]
    rw [getElem_of_list_eq_singleton hbd]
  | ⟨1, _⟩ =>
    unfold GatherDims.siIdx
    rw [dif_pos (by rw [hivd])]
    apply Fin.ext
    have hc := c.isLt
    have hl : d.startIndexMap.length = 1 := by rw [hsim]; rfl
    show c.val = 0
    omega

include hoff hcoll hob hsim hivd in
/-- The ROW gather of an [N, C] table at result element `(e, j)`: the table's element in column `j` of the row that
    word `e` of the index column names, read signed and clamped into the table. -/
theorem rowGather2_apply {α : Type} (x : (⟨2, ![N, C]⟩ : Shape).Idx → α) (idx : IVec ⟨2, ![R, 1]⟩ w) (e : Fin R)
    (j : Fin C) (hN : 0 < N) :
    Host.gather d x idx (ix2 e j) = x (ix2 ⟨min (idx (ix2 e 0)).toInt.toNat (N - 1), by omega⟩ j) := by
  unfold Host.gather
  congr 1
  have hb : ∀ a : Fin 2, a ∉ d.operandBatchingDims := fun a => by rw [hob]; exact List.not_mem_nil
  have hsk : d.sKept = [1] := by
    show Shape.kept _ (d.collapsedSliceDims ++ d.operandBatchingDims) = [1]
    rw [hcoll, hob]; rfl
  funext a
  apply Fin.ext
  match a with
  | ⟨0, _⟩ =>
    have hk : (0 : Fin 2) ∉ d.sKept := by rw [hsk]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0
      = min (idx (ix2 e 0)).toInt.toNat (N - 1)
    rw [GatherDims.batchCoord_eq_zero _ _ _ (hb 0), GatherDims.offCoord_eq_zero _ _ _ hk, Nat.add_zero]
    unfold GatherDims.start
    rw [dif_pos hm, rowGather2_siIdx d hoff hsim hivd, hsl]
    rfl
  | ⟨1, _⟩ =>
    have hk : (1 : Fin 2) ∈ d.sKept := by rw [hsk]; simp
    have hp : List.idxOf (1 : Fin 2) d.sKept = 0 := by rw [hsk]; rfl
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add, getElem_of_list_eq_of_pos hoff hp _ (by simp)]
    rfl

end RowGather2

/-! ## Rank 3: rows of an [N, A, B] table -/

section RowGather3

variable {N R A B w : Nat} (d : GatherDims ⟨3, ![N, A, B]⟩ ⟨2, ![R, 1]⟩ ⟨3, ![R, A, B]⟩)
  (hoff : d.offsetDims = [1, 2]) (hcoll : d.collapsedSliceDims = [0]) (hob : d.operandBatchingDims = [])
  (hsim : d.startIndexMap = [0]) (hivd : d.indexVectorDim = 1)

include hoff hsim hivd in
/-- The start-indices position a result element reads its row number at: its own row, column 0. -/
theorem rowGather3_siIdx (j : (⟨3, ![R, A, B]⟩ : Shape).Idx) (c : Fin d.startIndexMap.length) :
    d.siIdx j c = ix2 (j 0) 0 := by
  have hbd : d.batchDims = [0] := by
    show Shape.kept _ d.offsetDims = [0]
    rw [hoff]; rfl
  funext b
  match b with
  | ⟨0, _⟩ =>
    unfold GatherDims.siIdx
    rw [dif_neg (by rw [hivd]; exact Nat.zero_ne_one)]
    unfold GatherDims.siCoord
    apply Fin.ext
    simp only [Fin.val_cast]
    rw [getElem_of_list_eq_singleton hbd]
  | ⟨1, _⟩ =>
    unfold GatherDims.siIdx
    rw [dif_pos (by rw [hivd])]
    apply Fin.ext
    have hc := c.isLt
    have hl : d.startIndexMap.length = 1 := by rw [hsim]; rfl
    show c.val = 0
    omega

include hoff hcoll hob hsim hivd in
/-- The ROW gather of an [N, A, B] table at result element `(e, a, b)`: the table's element `(a, b)` of the row
    that word `e` of the index column names, read signed and clamped into the table. -/
theorem rowGather3_apply {α : Type} (x : (⟨3, ![N, A, B]⟩ : Shape).Idx → α) (idx : IVec ⟨2, ![R, 1]⟩ w) (e : Fin R)
    (a : Fin A) (b : Fin B) (hN : 0 < N) :
    Host.gather d x idx (ix3 e a b) = x (ix3 ⟨min (idx (ix2 e 0)).toInt.toNat (N - 1), by omega⟩ a b) := by
  unfold Host.gather
  congr 1
  have hb : ∀ c : Fin 3, c ∉ d.operandBatchingDims := fun c => by rw [hob]; exact List.not_mem_nil
  have hsk : d.sKept = [1, 2] := by
    show Shape.kept _ (d.collapsedSliceDims ++ d.operandBatchingDims) = [1, 2]
    rw [hcoll, hob]; rfl
  funext c
  apply Fin.ext
  match c with
  | ⟨0, _⟩ =>
    have hk : (0 : Fin 3) ∉ d.sKept := by rw [hsk]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 e a b) idx 0 + d.batchCoord (ix3 e a b) 0 + d.offCoord (ix3 e a b) 0
      = min (idx (ix2 e 0)).toInt.toNat (N - 1)
    rw [GatherDims.batchCoord_eq_zero _ _ _ (hb 0), GatherDims.offCoord_eq_zero _ _ _ hk, Nat.add_zero]
    unfold GatherDims.start
    rw [dif_pos hm, rowGather3_siIdx d hoff hsim hivd, hsl]
    rfl
  | ⟨1, _⟩ =>
    have hk : (1 : Fin 3) ∈ d.sKept := by rw [hsk]; simp
    have hp : List.idxOf (1 : Fin 3) d.sKept = 0 := by rw [hsk]; rfl
    have hm : (1 : Fin 3) ∉ d.startIndexMap := by rw [hsim]; simp
    show d.start (ix3 e a b) idx 1 + d.batchCoord (ix3 e a b) 1 + d.offCoord (ix3 e a b) 1 = a.val
    rw [GatherDims.batchCoord_eq_zero _ _ _ (hb 1), Nat.add_zero]
    unfold GatherDims.start GatherDims.offCoord
    rw [dif_neg hm, dif_pos hk, Nat.zero_add, getElem_of_list_eq_of_pos hoff hp _ (by simp)]
    rfl
  | ⟨2, _⟩ =>
    have hk : (2 : Fin 3) ∈ d.sKept := by rw [hsk]; simp
    have hp : List.idxOf (2 : Fin 3) d.sKept = 1 := by rw [hsk]; rfl
    have hm : (2 : Fin 3) ∉ d.startIndexMap := by rw [hsim]; simp
    show d.start (ix3 e a b) idx 2 + d.batchCoord (ix3 e a b) 2 + d.offCoord (ix3 e a b) 2 = b.val
    rw [GatherDims.batchCoord_eq_zero _ _ _ (hb 2), Nat.add_zero]
    unfold GatherDims.start GatherDims.offCoord
    rw [dif_neg hm, dif_pos hk, Nat.zero_add, getElem_of_list_eq_of_pos hoff hp _ (by simp)]
    rfl

end RowGather3

end Idealize.ShloMosaic.ValueIdx
-- ==== Proof.KI.HostVals.lean ====
/-
  What the host operations before the first kernel region leave in the buffers the regions read, at the ideal
  floats, each read at an index: the input matrix is untouched; the eight parameter vectors of length n become
  [1, n] rows with the same entries; the three weight matrices are stored transposed (the narrowing to the short
  float format is the identity on extended reals), so entry (l, j) of the stored matrix is entry (j, l) of the
  argument; and the gathered matrix takes, for each row number of the index vector (a negative one has the table's
  height added), that row of the table, so each of its entries is an entry of the table.
-/
import proofs.«145083_j84052509982728_1_alg».proof.Proof.Gen.KernelIdeal.Regions
import proofs.«145083_j84052509982728_1_alg».proof.Proof.Iface
import Idealize.ShloMosaic.Lib.StableHlo.Run
import Idealize.ShloMosaic.Lib.Pipeline.Value
import Idealize.ShloMosaic.Lib.ValueIdx
import Idealize.ShloMosaic.Lib.ValueLayout
import proofs.«145083_j84052509982728_1_alg».proof.Proof.LibRowGather

set_option maxRecDepth 16384

noncomputable section

namespace Cert.KernelIdeal.HandValue

open Cert.KernelIdeal Cert.KernelIdeal.Gen Cert.Iface
open Idealize.ShloMosaic Idealize.ShloMosaic.TcCoe Idealize.ShloMosaic.ValueIdx
open Idealize.SL Idealize.SL.Sem

variable (m : (ℓ : Loc nD τ sig) → Buf (Elt Ideal) ℓ) (c : Dev nD)

/-- No host operation writes an argument: the input matrix is as launched. -/
theorem V1_x : Gen.V1 m c main_arg1 = m ((c : Thread nD τ).loc main_arg1) := (Gen.V1_of m c main_arg1 (by decide)).trans rfl

/-! A length-n vector reshaped to a [1, n] row has the same row-major order: entry (0, j) is entry j. -/

theorem V1_ga : row1 (Gen.V1 m c main_v7 : S1x256.Idx → EReal) = cur1 (m ((c : Thread nD τ).loc main_arg7) : S256.Idx → EReal) := by
  have e : (Gen.V1 m c main_v7 : S1x256.Idx → EReal) = shapeCast S1x256 ((m ((c : Thread nD τ).loc main_arg7)) : S256.Idx → EReal) shapeCasts_S256_S1x256 := by
    dsimp only [Gen.V1, Gen.V0, Gen.hostOps0]; after_results; rfl
  funext j
  show (Gen.V1 m c main_v7 : S1x256.Idx → EReal) (ix2 (0 : Fin 1) j) = ((m ((c : Thread nD τ).loc main_arg7)) : S256.Idx → EReal) (ix1 j)
  rw [e]
  exact shapeCast_a_1a_apply _ _ 0 j
theorem V1_ba : row1 (Gen.V1 m c main_v8 : S1x256.Idx → EReal) = cur1 (m ((c : Thread nD τ).loc main_arg8) : S256.Idx → EReal) := by
  have e : (Gen.V1 m c main_v8 : S1x256.Idx → EReal) = shapeCast S1x256 ((m ((c : Thread nD τ).loc main_arg8)) : S256.Idx → EReal) shapeCasts_S256_S1x256 := by
    dsimp only [Gen.V1, Gen.V0, Gen.hostOps0]; after_results; rfl
  funext j
  show (Gen.V1 m c main_v8 : S1x256.Idx → EReal) (ix2 (0 : Fin 1) j) = ((m ((c : Thread nD τ).loc main_arg8)) : S256.Idx → EReal) (ix1 j)
  rw [e]
  exact shapeCast_a_1a_apply _ _ 0 j
theorem V1_gb : row1 (Gen.V1 m c main_v9 : S1x32.Idx → EReal) = cur1 (m ((c : Thread nD τ).loc main_arg11) : S32.Idx → EReal) := by
  have e : (Gen.V1 m c main_v9 : S1x32.Idx → EReal) = shapeCast S1x32 ((m ((c : Thread nD τ).loc main_arg11)) : S32.Idx → EReal) shapeCasts_S32_S1x32 := by
    dsimp only [Gen.V1, Gen.V0, Gen.hostOps0]; after_results; rfl
  funext j
  show (Gen.V1 m c main_v9 : S1x32.Idx → EReal) (ix2 (0 : Fin 1) j) = ((m ((c : Thread nD τ).loc main_arg11)) : S32.Idx → EReal) (ix1 j)
  rw [e]
  exact shapeCast_a_1a_apply _ _ 0 j
theorem V1_bb : row1 (Gen.V1 m c main_v10 : S1x32.Idx → EReal) = cur1 (m ((c : Thread nD τ).loc main_arg12) : S32.Idx → EReal) := by
  have e : (Gen.V1 m c main_v10 : S1x32.Idx → EReal) = shapeCast S1x32 ((m ((c : Thread nD τ).loc main_arg12)) : S32.Idx → EReal) shapeCasts_S32_S1x32 := by
    dsimp only [Gen.V1, Gen.V0, Gen.hostOps0]; after_results; rfl
  funext j
  show (Gen.V1 m c main_v10 : S1x32.Idx → EReal) (ix2 (0 : Fin 1) j) = ((m ((c : Thread nD τ).loc main_arg12)) : S32.Idx → EReal) (ix1 j)
  rw [e]
  exact shapeCast_a_1a_apply _ _ 0 j
theorem V1_gm : row1 (Gen.V1 m c main_v11 : S1x256.Idx → EReal) = cur1 (m ((c : Thread nD τ).loc main_arg5) : S256.Idx → EReal) := by
  have e : (Gen.V1 m c main_v11 : S1x256.Idx → EReal) = shapeCast S1x256 ((m ((c : Thread nD τ).loc main_arg5)) : S256.Idx → EReal) shapeCasts_S256_S1x256 := by
    dsimp only [Gen.V1, Gen.V0, Gen.hostOps0]; after_results; rfl
  funext j
  show (Gen.V1 m c main_v11 : S1x256.Idx → EReal) (ix2 (0 : Fin 1) j) = ((m ((c : Thread nD τ).loc main_arg5)) : S256.Idx → EReal) (ix1 j)
  rw [e]
  exact shapeCast_a_1a_apply _ _ 0 j
theorem V1_bm : row1 (Gen.V1 m c main_v12 : S1x256.Idx → EReal) = cur1 (m ((c : Thread nD τ).loc main_arg6) : S256.Idx → EReal) := by
  have e : (Gen.V1 m c main_v12 : S1x256.Idx → EReal) = shapeCast S1x256 ((m ((c : Thread nD τ).loc main_arg6)) : S256.Idx → EReal) shapeCasts_S256_S1x256 := by
    dsimp only [Gen.V1, Gen.V0, Gen.hostOps0]; after_results; rfl
  funext j
  show (Gen.V1 m c main_v12 : S1x256.Idx → EReal) (ix2 (0 : Fin 1) j) = ((m ((c : Thread nD τ).loc main_arg6)) : S256.Idx → EReal) (ix1 j)
  rw [e]
  exact shapeCast_a_1a_apply _ _ 0 j
theorem V1_b1 : row1 (Gen.V1 m c main_v13 : S1x32.Idx → EReal) = cur1 (m ((c : Thread nD τ).loc main_arg10) : S32.Idx → EReal) := by
  have e : (Gen.V1 m c main_v13 : S1x32.Idx → EReal) = shapeCast S1x32 ((m ((c : Thread nD τ).loc main_arg10)) : S32.Idx → EReal) shapeCasts_S32_S1x32 := by
    dsimp only [Gen.V1, Gen.V0, Gen.hostOps0]; after_results; rfl
  funext j
  show (Gen.V1 m c main_v13 : S1x32.Idx → EReal) (ix2 (0 : Fin 1) j) = ((m ((c : Thread nD τ).loc main_arg10)) : S32.Idx → EReal) (ix1 j)
  rw [e]
  exact shapeCast_a_1a_apply _ _ 0 j
theorem V1_b2 : row1 (Gen.V1 m c main_v14 : S1x256.Idx → EReal) = cur1 (m ((c : Thread nD τ).loc main_arg14) : S256.Idx → EReal) := by
  have e : (Gen.V1 m c main_v14 : S1x256.Idx → EReal) = shapeCast S1x256 ((m ((c : Thread nD τ).loc main_arg14)) : S256.Idx → EReal) shapeCasts_S256_S1x256 := by
    dsimp only [Gen.V1, Gen.V0, Gen.hostOps0]; after_results; rfl
  funext j
  show (Gen.V1 m c main_v14 : S1x256.Idx → EReal) (ix2 (0 : Fin 1) j) = ((m ((c : Thread nD τ).loc main_arg14)) : S256.Idx → EReal) (ix1 j)
  rw [e]
  exact shapeCast_a_1a_apply _ _ 0 j

/-! A weight matrix transposed and narrowed: entry (l, j) of the result is entry (j, l) of the argument. -/

theorem V1_w1 : tr2 (Gen.V1 m c main_v16 : S256x32.Idx → EReal) = cur2 (m ((c : Thread nD τ).loc main_arg9) : S32x256.Idx → EReal) := by
  have e : (Gen.V1 m c main_v16 : S256x32.Idx → EReal)
      = (truncf .bf16 (transpose S256x32 [1, 0] ((m ((c : Thread nD τ).loc main_arg9)) : S32x256.Idx → EReal) transposes_S32x256_S256x32_1_0 : FVec Ideal S256x32 .f32) bitsLt_bf16_f32 : FVec Ideal S256x32 .bf16) := by
    dsimp only [Gen.V1, Gen.V0, Gen.hostOps0]; after_results
  funext j l
  show (Gen.V1 m c main_v16 : S256x32.Idx → EReal) (ix2 l j) = ((m ((c : Thread nD τ).loc main_arg9)) : S32x256.Idx → EReal) (ix2 j l)
  rw [e, truncf_apply]
  exact transpose_ix2_apply _ _ l j
theorem V1_w2 : tr2 (Gen.V1 m c main_v18 : S32x256.Idx → EReal) = cur2 (m ((c : Thread nD τ).loc main_arg13) : S256x32.Idx → EReal) := by
  have e : (Gen.V1 m c main_v18 : S32x256.Idx → EReal)
      = (truncf .bf16 (transpose S32x256 [1, 0] ((m ((c : Thread nD τ).loc main_arg13)) : S256x32.Idx → EReal) transposes_S256x32_S32x256_1_0 : FVec Ideal S32x256 .f32) bitsLt_bf16_f32 : FVec Ideal S32x256 .bf16) := by
    dsimp only [Gen.V1, Gen.V0, Gen.hostOps0]; after_results
  funext j l
  show (Gen.V1 m c main_v18 : S32x256.Idx → EReal) (ix2 l j) = ((m ((c : Thread nD τ).loc main_arg13)) : S256x32.Idx → EReal) (ix2 j l)
  rw [e, truncf_apply]
  exact transpose_ix2_apply _ _ l j
theorem V1_wl : tr2 (Gen.V1 m c main_v20 : S256x256.Idx → EReal) = cur2 (m ((c : Thread nD τ).loc main_arg4) : S256x256.Idx → EReal) := by
  have e : (Gen.V1 m c main_v20 : S256x256.Idx → EReal)
      = (truncf .bf16 (transpose S256x256 [1, 0] ((m ((c : Thread nD τ).loc main_arg4)) : S256x256.Idx → EReal) transposes_S256x256_S256x256_1_0 : FVec Ideal S256x256 .f32) bitsLt_bf16_f32 : FVec Ideal S256x256 .bf16) := by
    dsimp only [Gen.V1, Gen.V0, Gen.hostOps0]; after_results
  funext j l
  show (Gen.V1 m c main_v20 : S256x256.Idx → EReal) (ix2 l j) = ((m ((c : Thread nD τ).loc main_arg4)) : S256x256.Idx → EReal) (ix2 j l)
  rw [e, truncf_apply]
  exact transpose_ix2_apply _ _ l j

/-- The gathered rows: the table's rows at the normalised row numbers (a negative row number has the table's height
    added), as one term of the table and the index vector. -/
def augOf (gx : FVec Ideal S131072x256 .f32) (idx : IVec S262144 32) : FVec Ideal S262144x256 .f32 :=
  Host.gather gather_S131072x256_S262144x1_S262144x256_1_0_n_n_0_1_1256 gx
    (broadcastInDim S262144x1 ![0] bcast_S262144_S262144x1_0
      (select (cmpi .slt idx (broadcastInDim S262144 ![] bcast_S_S262144 (constantI S_ 32 0#32)))
        (addi idx (broadcastInDim S262144 ![] bcast_S_S262144 (constantI S_ 32 131072#32))) idx))

/-- The gathered matrix the regions read is that term of the two argument arrays. -/
theorem V1_aug : Gen.V1 m c main_v6 = augOf (m ((c : Thread nD τ).loc main_arg2)) (m ((c : Thread nD τ).loc main_arg3)) := by
  dsimp only [Gen.V1, Gen.V0, Gen.hostOps0]; after_results
  unfold augOf
  rfl

/-- Every entry of the gathered matrix is an entry of the table (the entry in the same column of the row the clamped
    row number names), so a table of reals gives a gathered matrix of reals. -/
theorem augOf_real (gx : FVec Ideal S131072x256 .f32) (idx : IVec S262144 32) (h : ∀ i, ∃ r : ℝ, gx i = (r : EReal)) :
    ∀ i, ∃ r : ℝ, augOf gx idx i = (r : EReal) := by
  intro i
  obtain ⟨e, j, rfl⟩ : ∃ (e : Fin 262144) (j : Fin 256), i = ix2 e j := ⟨i 0, i 1, eq_ix2 i⟩
  unfold augOf
  rw [rowGather2_apply gather_S131072x256_S262144x1_S262144x256_1_0_n_n_0_1_1256 rfl rfl rfl rfl rfl gx _ e j (by decide)]
  exact h _

end Cert.KernelIdeal.HandValue

end
-- ==== Proof.KI.Value.lean ====
/-
  The kernel side's closing step, at the ideal floats: the result array the four regions leave is the layer of the
  specification at the accumulated column statistics, of the program's arguments.

  Read from the last region back to the first. Region 3 leaves the mixed array normalised by its column mean and
  variance, scaled, shifted and clamped at zero. Region 2 left that mixed array and its two statistics: the input
  plus the softmax of the gate's logits times the gathered rows, mapped by the square weight; the logits are the
  hidden layer normalised by its own statistics, clamped and mapped by the second weight. Region 1 left the hidden
  layer and its statistics: the relation normalised by its statistics, clamped and mapped by the first weight.
  Region 0 left the relation's statistics, the relation being the input less the gathered rows. Each region changes
  only its output arrays, so every parameter array a region reads is still what the host operations before region 0
  left: an argument's entries, reshaped to a row or stored transposed.
-/
import proofs.«145083_j84052509982728_1_alg».proof.Proof.KI.Main
import proofs.«145083_j84052509982728_1_alg».proof.Proof.KI.Val0
import proofs.«145083_j84052509982728_1_alg».proof.Proof.KI.Val1
import proofs.«145083_j84052509982728_1_alg».proof.Proof.KI.Val2
import proofs.«145083_j84052509982728_1_alg».proof.Proof.KI.Val3
import proofs.«145083_j84052509982728_1_alg».proof.Proof.KI.HostVals

set_option maxRecDepth 16384

noncomputable section

namespace Cert.KernelIdeal.HandValue

open Cert.KernelIdeal Cert.KernelIdeal.Gen Cert.KernelIdeal.Hand Cert.Iface Cert.Spec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

namespace Closing

/-! ## The arguments and the layer's stages, as the families the specification is written over -/

abbrev aX : Fin 262144 → Fin 256 → EReal := cur2 ((m ((c : Thread nD τ).loc main_arg1)) : S262144x256.Idx → EReal)
abbrev aAug : Fin 262144 → Fin 256 → EReal := cur2 (augOf (m ((c : Thread nD τ).loc main_arg2)) (m ((c : Thread nD τ).loc main_arg3)))
abbrev aWlin : Fin 256 → Fin 256 → EReal := cur2 ((m ((c : Thread nD τ).loc main_arg4)) : S256x256.Idx → EReal)
abbrev aGm : Fin 256 → EReal := cur1 ((m ((c : Thread nD τ).loc main_arg5)) : S256.Idx → EReal)
abbrev aBm : Fin 256 → EReal := cur1 ((m ((c : Thread nD τ).loc main_arg6)) : S256.Idx → EReal)
abbrev aGa : Fin 256 → EReal := cur1 ((m ((c : Thread nD τ).loc main_arg7)) : S256.Idx → EReal)
abbrev aBa : Fin 256 → EReal := cur1 ((m ((c : Thread nD τ).loc main_arg8)) : S256.Idx → EReal)
abbrev aW1 : Fin 32 → Fin 256 → EReal := cur2 ((m ((c : Thread nD τ).loc main_arg9)) : S32x256.Idx → EReal)
abbrev aB1 : Fin 32 → EReal := cur1 ((m ((c : Thread nD τ).loc main_arg10)) : S32.Idx → EReal)
abbrev aGb : Fin 32 → EReal := cur1 ((m ((c : Thread nD τ).loc main_arg11)) : S32.Idx → EReal)
abbrev aBb : Fin 32 → EReal := cur1 ((m ((c : Thread nD τ).loc main_arg12)) : S32.Idx → EReal)
abbrev aW2 : Fin 256 → Fin 32 → EReal := cur2 ((m ((c : Thread nD τ).loc main_arg13)) : S256x32.Idx → EReal)
abbrev aB2 : Fin 256 → EReal := cur1 ((m ((c : Thread nD τ).loc main_arg14)) : S256.Idx → EReal)

/-- The relation, the gate's hidden layer, the gate's logits and the mixed array of the layer at the accumulated
    statistics, of the program's arguments. -/
abbrev sRel : Fin 262144 → Fin 256 → EReal := Spec.rel (aX m c) (aAug m c)
abbrev sHid : Fin 262144 → Fin 32 → EReal := Spec.hid (kstats c0) eps0 (aX m c) (aAug m c) (aGa m c) (aBa m c) (aW1 m c) (aB1 m c)
abbrev sLogits : Fin 262144 → Fin 256 → EReal :=
  Spec.logits (kstats c0) eps0 (aX m c) (aAug m c) (aGa m c) (aBa m c) (aW1 m c) (aB1 m c) (aGb m c) (aBb m c) (aW2 m c) (aB2 m c)
abbrev sMixed : Fin 262144 → Fin 256 → EReal :=
  Spec.mixed (kstats c0) eps0 (aX m c) (aAug m c) (aWlin m c) (aGa m c) (aBa m c) (aW1 m c) (aB1 m c) (aGb m c) (aBb m c) (aW2 m c) (aB2 m c)

/-! ## What the contents between the regions hold

A region changes only its output arrays; every other array is as the region before left it. -/

theorem U2_of (r : Ref sig .tc) (h : r ∉ ([main_v21_0, main_v21_1] : List (Ref sig .tc))) : U2 m c r = Gen.V1 m c r :=
  Gen.V2_of m (outs m) c r h
theorem U3_of (r : Ref sig .tc) (h : r ∉ ([main_v22_0, main_v22_1, main_v22_2] : List (Ref sig .tc))) : U3 m c r = U2 m c r :=
  Gen.V3_of m (outs m) c r h
theorem U4_of (r : Ref sig .tc) (h : r ∉ ([main_v23_0, main_v23_1, main_v23_2] : List (Ref sig .tc))) : U4 m c r = U3 m c r :=
  Gen.V4_of m (outs m) c r h

theorem U2_v21_0 : U2 m c main_v21_0 = (dat0 (asV (Gen.V1 m)) c).arrAt 2 cfg0.N := by
  unfold U2
  rw [Function.update_of_ne (StableHlo.devRef_ne_of_ne (by decide)), Function.update_self]
  unfold o2; rw [dif_pos rfl]; try rfl
theorem U2_v21_1 : U2 m c main_v21_1 = (dat0 (asV (Gen.V1 m)) c).arrAt 3 cfg0.N := by
  unfold U2
  rw [Function.update_self]
  unfold o2; rw [dif_neg (by decide), dif_pos rfl]; try rfl
theorem U3_v22_0 : U3 m c main_v22_0 = (dat1 (asV (U2 m)) c).arrAt 8 cfg1.N := by
  unfold U3
  rw [Function.update_of_ne (StableHlo.devRef_ne_of_ne (by decide)), Function.update_of_ne (StableHlo.devRef_ne_of_ne (by decide)), Function.update_self]
  unfold o3; rw [dif_pos rfl]; try rfl
theorem U3_v22_1 : U3 m c main_v22_1 = (dat1 (asV (U2 m)) c).arrAt 9 cfg1.N := by
  unfold U3
  rw [Function.update_of_ne (StableHlo.devRef_ne_of_ne (by decide)), Function.update_self]
  unfold o3; rw [dif_neg (by decide), dif_pos rfl]; try rfl
theorem U3_v22_2 : U3 m c main_v22_2 = (dat1 (asV (U2 m)) c).arrAt 10 cfg1.N := by
  unfold U3
  rw [Function.update_self]
  unfold o3; rw [dif_neg (by decide), dif_neg (by decide), dif_pos rfl]; try rfl
theorem U4_v23_0 : U4 m c main_v23_0 = (dat2 (asV (U3 m)) c).arrAt 10 cfg2.N := by
  unfold U4
  rw [Function.update_of_ne (StableHlo.devRef_ne_of_ne (by decide)), Function.update_of_ne (StableHlo.devRef_ne_of_ne (by decide)), Function.update_self]
  unfold o4; rw [dif_pos rfl]; try rfl
theorem U4_v23_1 : U4 m c main_v23_1 = (dat2 (asV (U3 m)) c).arrAt 11 cfg2.N := by
  unfold U4
  rw [Function.update_of_ne (StableHlo.devRef_ne_of_ne (by decide)), Function.update_self]
  unfold o4; rw [dif_neg (by decide), dif_pos rfl]; try rfl
theorem U4_v23_2 : U4 m c main_v23_2 = (dat2 (asV (U3 m)) c).arrAt 12 cfg2.N := by
  unfold U4
  rw [Function.update_self]
  unfold o4; rw [dif_neg (by decide), dif_neg (by decide), dif_pos rfl]; try rfl

/-! ## Region 0 enters at the host operations' results: the relation of the input and the gathered rows -/

theorem rel_eq : rel0 (asV (Gen.V1 m)) c = sRel m c := by
  show Spec.rel (cur2 (Gen.V1 m c main_arg1 : S262144x256.Idx → EReal)) (cur2 (Gen.V1 m c main_v6 : S262144x256.Idx → EReal)) = _
  rw [V1_x, V1_aug]

/-! ## After region 0: the relation's column statistics, and the hidden layer region 1 computes from them -/

theorem U2_mean : row1 (U2 m c main_v21_0 : S1x256.Idx → EReal) = kmean c0 (sRel m c) := by
  have e : (U2 m c main_v21_0 : S1x256.Idx → EReal) = fun i => kmean c0 (sRel m c) (i 1) := by rw [U2_v21_0, mean0_eq, rel_eq]; rfl
  exact (congrArg (row1 (B := 256)) e).trans rfl
theorem U2_var : row1 (U2 m c main_v21_1 : S1x256.Idx → EReal) = kvar c0 (sRel m c) := by
  have e : (U2 m c main_v21_1 : S1x256.Idx → EReal) = fun i => kvar c0 (sRel m c) (i 1) := by rw [U2_v21_1, var0_eq, rel_eq]; rfl
  exact (congrArg (row1 (B := 256)) e).trans rfl
theorem U2_ga : row1 (U2 m c main_v7 : S1x256.Idx → EReal) = aGa m c := by
  rw [U2_of m c main_v7 (by decide)]; exact V1_ga m c
theorem U2_ba : row1 (U2 m c main_v8 : S1x256.Idx → EReal) = aBa m c := by
  rw [U2_of m c main_v8 (by decide)]; exact V1_ba m c
theorem U2_b1 : row1 (U2 m c main_v13 : S1x32.Idx → EReal) = aB1 m c := by
  rw [U2_of m c main_v13 (by decide)]; exact V1_b1 m c
theorem U2_w1 : tr2 (U2 m c main_v16 : S256x32.Idx → EReal) = aW1 m c := by
  rw [U2_of m c main_v16 (by decide)]; exact V1_w1 m c
theorem U2_x : cur2 (U2 m c main_arg1 : S262144x256.Idx → EReal) = aX m c := by
  rw [U2_of m c main_arg1 (by decide), V1_x]
theorem U2_aug : cur2 (U2 m c main_v6 : S262144x256.Idx → EReal) = aAug m c := by
  rw [U2_of m c main_v6 (by decide), V1_aug]

theorem hid_eq : hid1 (asV (U2 m)) c = sHid m c := by
  show lin (bnrelu (row1 (U2 m c main_v21_0 : S1x256.Idx → EReal)) (row1 (U2 m c main_v21_1 : S1x256.Idx → EReal)) (row1 (U2 m c main_v7 : S1x256.Idx → EReal)) (row1 (U2 m c main_v8 : S1x256.Idx → EReal)) eps0
      (Spec.rel (cur2 (U2 m c main_arg1 : S262144x256.Idx → EReal)) (cur2 (U2 m c main_v6 : S262144x256.Idx → EReal)))) (tr2 (U2 m c main_v16 : S256x32.Idx → EReal)) (row1 (U2 m c main_v13 : S1x32.Idx → EReal)) = _
  rw [U2_mean, U2_var, U2_ga, U2_ba, U2_x, U2_aug, U2_w1, U2_b1]
  rfl

/-! ## After region 1: the hidden layer and its column statistics, and the mixed array region 2 computes from them -/

theorem U3_hid : cur2 (U3 m c main_v22_0 : S262144x32.Idx → EReal) = sHid m c := by
  have e : (U3 m c main_v22_0 : S262144x32.Idx → EReal) = fun i => sHid m c (i 0) (i 1) := by rw [U3_v22_0, h1_eq, hid_eq]; rfl
  exact (congrArg (cur2 (A := 262144) (B := 32)) e).trans rfl
theorem U3_mean : row1 (U3 m c main_v22_1 : S1x32.Idx → EReal) = kmean c0 (sHid m c) := by
  have e : (U3 m c main_v22_1 : S1x32.Idx → EReal) = fun i => kmean c0 (sHid m c) (i 1) := by rw [U3_v22_1, mean1_eq, hid_eq]; rfl
  exact (congrArg (row1 (B := 32)) e).trans rfl
theorem U3_var : row1 (U3 m c main_v22_2 : S1x32.Idx → EReal) = kvar c0 (sHid m c) := by
  have e : (U3 m c main_v22_2 : S1x32.Idx → EReal) = fun i => kvar c0 (sHid m c) (i 1) := by rw [U3_v22_2, var1_eq, hid_eq]; rfl
  exact (congrArg (row1 (B := 32)) e).trans rfl
theorem U3_gb : row1 (U3 m c main_v9 : S1x32.Idx → EReal) = aGb m c := by
  rw [U3_of m c main_v9 (by decide), U2_of m c main_v9 (by decide)]; exact V1_gb m c
theorem U3_bb : row1 (U3 m c main_v10 : S1x32.Idx → EReal) = aBb m c := by
  rw [U3_of m c main_v10 (by decide), U2_of m c main_v10 (by decide)]; exact V1_bb m c
theorem U3_b2 : row1 (U3 m c main_v14 : S1x256.Idx → EReal) = aB2 m c := by
  rw [U3_of m c main_v14 (by decide), U2_of m c main_v14 (by decide)]; exact V1_b2 m c
theorem U3_w2 : tr2 (U3 m c main_v18 : S32x256.Idx → EReal) = aW2 m c := by
  rw [U3_of m c main_v18 (by decide), U2_of m c main_v18 (by decide)]; exact V1_w2 m c
theorem U3_wl : tr2 (U3 m c main_v20 : S256x256.Idx → EReal) = aWlin m c := by
  rw [U3_of m c main_v20 (by decide), U2_of m c main_v20 (by decide)]; exact V1_wl m c
theorem U3_x : cur2 (U3 m c main_arg1 : S262144x256.Idx → EReal) = aX m c := by
  rw [U3_of m c main_arg1 (by decide), U2_of m c main_arg1 (by decide), V1_x]
theorem U3_aug : cur2 (U3 m c main_v6 : S262144x256.Idx → EReal) = aAug m c := by
  rw [U3_of m c main_v6 (by decide), U2_of m c main_v6 (by decide), V1_aug]

theorem logits_eq : logits2 (asV (U3 m)) c = sLogits m c := by
  show lin (bnrelu (row1 (U3 m c main_v22_1 : S1x32.Idx → EReal)) (row1 (U3 m c main_v22_2 : S1x32.Idx → EReal)) (row1 (U3 m c main_v9 : S1x32.Idx → EReal)) (row1 (U3 m c main_v10 : S1x32.Idx → EReal)) eps0
      (cur2 (U3 m c main_v22_0 : S262144x32.Idx → EReal))) (tr2 (U3 m c main_v18 : S32x256.Idx → EReal)) (row1 (U3 m c main_v14 : S1x256.Idx → EReal)) = _
  rw [U3_mean, U3_var, U3_gb, U3_bb, U3_hid, U3_w2, U3_b2]
  rfl

theorem mixed_eq : mixed2 (asV (U3 m)) c = sMixed m c := by
  show mm (fun i j => cur2 (U3 m c main_arg1 : S262144x256.Idx → EReal) i j + softmax (logits2 (asV (U3 m)) c) i j * cur2 (U3 m c main_v6 : S262144x256.Idx → EReal) i j)
      (tr2 (U3 m c main_v20 : S256x256.Idx → EReal)) = _
  rw [U3_x, U3_aug, U3_wl, logits_eq]
  rfl

/-! ## After region 2: the mixed array and its column statistics, which region 3 normalises and clamps -/

theorem U4_mixed : cur2 (U4 m c main_v23_0 : S262144x256.Idx → EReal) = sMixed m c := by
  have e : (U4 m c main_v23_0 : S262144x256.Idx → EReal) = fun i => sMixed m c (i 0) (i 1) := by rw [U4_v23_0, mm_eq, mixed_eq]; rfl
  exact (congrArg (cur2 (A := 262144) (B := 256)) e).trans rfl
theorem U4_mean : row1 (U4 m c main_v23_1 : S1x256.Idx → EReal) = kmean c0 (sMixed m c) := by
  have e : (U4 m c main_v23_1 : S1x256.Idx → EReal) = fun i => kmean c0 (sMixed m c) (i 1) := by rw [U4_v23_1, mean2_eq, mixed_eq]; rfl
  exact (congrArg (row1 (B := 256)) e).trans rfl
theorem U4_var : row1 (U4 m c main_v23_2 : S1x256.Idx → EReal) = kvar c0 (sMixed m c) := by
  have e : (U4 m c main_v23_2 : S1x256.Idx → EReal) = fun i => kvar c0 (sMixed m c) (i 1) := by rw [U4_v23_2, var2_eq, mixed_eq]; rfl
  exact (congrArg (row1 (B := 256)) e).trans rfl
theorem U4_gm : row1 (U4 m c main_v11 : S1x256.Idx → EReal) = aGm m c := by
  rw [U4_of m c main_v11 (by decide), U3_of m c main_v11 (by decide), U2_of m c main_v11 (by decide)]; exact V1_gm m c
theorem U4_bm : row1 (U4 m c main_v12 : S1x256.Idx → EReal) = aBm m c := by
  rw [U4_of m c main_v12 (by decide), U3_of m c main_v12 (by decide), U2_of m c main_v12 (by decide)]; exact V1_bm m c

end Closing

open Closing

/-! ## The result array is the layer at the accumulated statistics -/

theorem kernel_is_net (i : Fin 262144) (j : Fin 256) :
    (Gen.V5 m (outs m) c main_v24 : S262144x256.Idx → EReal) (ix2 i j)
      = Spec.net (kstats c0) eps0
          (cur2 (m ((c : Thread nD τ).loc main_arg1) : S262144x256.Idx → EReal))
          (cur2 (augOf (m ((c : Thread nD τ).loc main_arg2)) (m ((c : Thread nD τ).loc main_arg3))))
          (cur2 (m ((c : Thread nD τ).loc main_arg4) : S256x256.Idx → EReal))
          (cur1 (m ((c : Thread nD τ).loc main_arg5) : S256.Idx → EReal)) (cur1 (m ((c : Thread nD τ).loc main_arg6) : S256.Idx → EReal))
          (cur1 (m ((c : Thread nD τ).loc main_arg7) : S256.Idx → EReal)) (cur1 (m ((c : Thread nD τ).loc main_arg8) : S256.Idx → EReal))
          (cur2 (m ((c : Thread nD τ).loc main_arg9) : S32x256.Idx → EReal)) (cur1 (m ((c : Thread nD τ).loc main_arg10) : S32.Idx → EReal))
          (cur1 (m ((c : Thread nD τ).loc main_arg11) : S32.Idx → EReal)) (cur1 (m ((c : Thread nD τ).loc main_arg12) : S32.Idx → EReal))
          (cur2 (m ((c : Thread nD τ).loc main_arg13) : S256x32.Idx → EReal)) (cur1 (m ((c : Thread nD τ).loc main_arg14) : S256.Idx → EReal)) i j := by
  rw [V5_result m c, out3_eq (asV (U4 m)) c]
  show bnrelu (row1 (U4 m c main_v23_1 : S1x256.Idx → EReal)) (row1 (U4 m c main_v23_2 : S1x256.Idx → EReal)) (row1 (U4 m c main_v11 : S1x256.Idx → EReal)) (row1 (U4 m c main_v12 : S1x256.Idx → EReal)) eps0
      (cur2 (U4 m c main_v23_0 : S262144x256.Idx → EReal)) i j = _
  rw [U4_mean, U4_var, U4_gm, U4_bm, U4_mixed]
  rfl

end Cert.KernelIdeal.HandValue

end
-- ==== Proof.RefRun.lean ====
/-
  The reference program's run, read against its staged values.

  The program is a straight line of 137 host operations. After the line every buffer holds the fold of the operations'
  results over the launch contents; read at the last operation's buffer, each operation's result at its own buffer is
  its function of its operands' buffers, so the fold is the staged value `val_main_v110` of the fourteen argument
  buffers it depends on, every intermediate value shared through its stage. No operation writes an argument buffer, so
  each argument is unchanged.
-/
import proofs.«145083_j84052509982728_1_alg».proof.Proof.RefReadP
import Idealize.ShloMosaic.Lib.StableHlo.Run

noncomputable section

namespace Cert.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- @main's 137 operations, in order (a called function's operations stand in its call's place, spelt `TRef.…`). -/
abbrev ops : List (HloOp τ sig (Elt F)) :=
  [ nullary main_c (constantI S_ 32 0#32),
    unary main_c main_v0 (broadcastInDim S262144 ![] bcast_S_S262144 : (⟨S_, .i32⟩ : BufTy).Contents (Elt F) → (⟨S262144, .i32⟩ : BufTy).Contents (Elt F)),
    binary main_arg3 main_v0 main_v1 (cmpi .slt : (⟨S262144, .i32⟩ : BufTy).Contents (Elt F) → (⟨S262144, .i32⟩ : BufTy).Contents (Elt F) → (⟨S262144, .i1⟩ : BufTy).Contents (Elt F)),
    nullary main_c_0 (constantI S_ 32 131072#32),
    unary main_c_0 main_v2 (broadcastInDim S262144 ![] bcast_S_S262144 : (⟨S_, .i32⟩ : BufTy).Contents (Elt F) → (⟨S262144, .i32⟩ : BufTy).Contents (Elt F)),
    binary main_arg3 main_v2 main_v3 (addi : (⟨S262144, .i32⟩ : BufTy).Contents (Elt F) → (⟨S262144, .i32⟩ : BufTy).Contents (Elt F) → (⟨S262144, .i32⟩ : BufTy).Contents (Elt F)),
    ternary main_v1 main_v3 main_arg3 main_v4 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v4 main_v5 (broadcastInDim S262144x1 ![0] bcast_S262144_S262144x1_0 : (⟨S262144, .i32⟩ : BufTy).Contents (Elt F) → (⟨S262144x1, .i32⟩ : BufTy).Contents (Elt F)),
    binary main_arg2 main_v5 main_v6 ((fun x i => Host.gather gather_S131072x256_S262144x1_S262144x256_1_0_n_n_0_1_1256 x i) : (⟨S131072x256, .f32⟩ : BufTy).Contents (Elt F) → (⟨S262144x1, .i32⟩ : BufTy).Contents (Elt F) → (⟨S262144x256, .f32⟩ : BufTy).Contents (Elt F)),
    binary main_arg1 main_v6 main_v7 (subf : (⟨S262144x256, .f32⟩ : BufTy).Contents (Elt F) → (⟨S262144x256, .f32⟩ : BufTy).Contents (Elt F) → (⟨S262144x256, .f32⟩ : BufTy).Contents (Elt F)),
    nullary main_cst (constant S_ .f32 0x00000000#32),
    binary main_v7 main_cst main_v8 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    nullary main_cst_1 (constant S_ .f32 0x48800000#32),
    unary main_cst_1 main_v9 (broadcastInDim S256 ![] bcast_S_S256 : (⟨S_, .f32⟩ : BufTy).Contents (Elt F) → (⟨S256, .f32⟩ : BufTy).Contents (Elt F)),
    binary main_v8 main_v9 main_v10 (Host.divf : (⟨S256, .f32⟩ : BufTy).Contents (Elt F) → (⟨S256, .f32⟩ : BufTy).Contents (Elt F) → (⟨S256, .f32⟩ : BufTy).Contents (Elt F)),
    unary main_v10 main_v11 (broadcastInDim S1x256 ![1] bcast_S256_S1x256_1 : (⟨S256, .f32⟩ : BufTy).Contents (Elt F) → (⟨S1x256, .f32⟩ : BufTy).Contents (Elt F)),
    unary main_v11 main_v12 (broadcastInDim S262144x256 ![0, 1] bcast_S1x256_S262144x256_0_1 : (⟨S1x256, .f32⟩ : BufTy).Contents (Elt F) → (⟨S262144x256, .f32⟩ : BufTy).Contents (Elt F)),
    binary main_v7 main_v12 main_v13 (subf : (⟨S262144x256, .f32⟩ : BufTy).Contents (Elt F) → (⟨S262144x256, .f32⟩ : BufTy).Contents (Elt F) → (⟨S262144x256, .f32⟩ : BufTy).Contents (Elt F)),
    binary main_v13 main_v13 main_v14 (mulf : (⟨S262144x256, .f32⟩ : BufTy).Contents (Elt F) → (⟨S262144x256, .f32⟩ : BufTy).Contents (Elt F) → (⟨S262144x256, .f32⟩ : BufTy).Contents (Elt F)),
    nullary main_cst_2 (constant S_ .f32 0x00000000#32),
    binary main_v14 main_cst_2 main_v15 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    nullary main_cst_3 (constant S_ .f32 0x48800000#32),
    unary main_cst_3 main_v16 (broadcastInDim S256 ![] bcast_S_S256 : (⟨S_, .f32⟩ : BufTy).Contents (Elt F) → (⟨S256, .f32⟩ : BufTy).Contents (Elt F)),
    binary main_v15 main_v16 main_v17 (Host.divf : (⟨S256, .f32⟩ : BufTy).Contents (Elt F) → (⟨S256, .f32⟩ : BufTy).Contents (Elt F) → (⟨S256, .f32⟩ : BufTy).Contents (Elt F)),
    unary main_v10 main_v18 (broadcastInDim S1x256 ![1] bcast_S256_S1x256_1 : (⟨S256, .f32⟩ : BufTy).Contents (Elt F) → (⟨S1x256, .f32⟩ : BufTy).Contents (Elt F)),
    unary main_v18 main_v19 (broadcastInDim S262144x256 ![0, 1] bcast_S1x256_S262144x256_0_1 : (⟨S1x256, .f32⟩ : BufTy).Contents (Elt F) → (⟨S262144x256, .f32⟩ : BufTy).Contents (Elt F)),
    binary main_v7 main_v19 main_v20 (subf : (⟨S262144x256, .f32⟩ : BufTy).Contents (Elt F) → (⟨S262144x256, .f32⟩ : BufTy).Contents (Elt F) → (⟨S262144x256, .f32⟩ : BufTy).Contents (Elt F)),
    nullary main_cst_4 (constant S_ .f32 0x3727C5AC#32),
    unary main_cst_4 main_v21 (broadcastInDim S256 ![] bcast_S_S256 : (⟨S_, .f32⟩ : BufTy).Contents (Elt F) → (⟨S256, .f32⟩ : BufTy).Contents (Elt F)),
    binary main_v17 main_v21 main_v22 (addf : (⟨S256, .f32⟩ : BufTy).Contents (Elt F) → (⟨S256, .f32⟩ : BufTy).Contents (Elt F) → (⟨S256, .f32⟩ : BufTy).Contents (Elt F)),
    unary main_v22 main_v23 (Host.rsqrt : (⟨S256, .f32⟩ : BufTy).Contents (Elt F) → (⟨S256, .f32⟩ : BufTy).Contents (Elt F)),
    unary main_v23 main_v24 (broadcastInDim S1x256 ![1] bcast_S256_S1x256_1 : (⟨S256, .f32⟩ : BufTy).Contents (Elt F) → (⟨S1x256, .f32⟩ : BufTy).Contents (Elt F)),
    unary main_v24 main_v25 (broadcastInDim S262144x256 ![0, 1] bcast_S1x256_S262144x256_0_1 : (⟨S1x256, .f32⟩ : BufTy).Contents (Elt F) → (⟨S262144x256, .f32⟩ : BufTy).Contents (Elt F)),
    binary main_v20 main_v25 main_v26 (mulf : (⟨S262144x256, .f32⟩ : BufTy).Contents (Elt F) → (⟨S262144x256, .f32⟩ : BufTy).Contents (Elt F) → (⟨S262144x256, .f32⟩ : BufTy).Contents (Elt F)),
    unary main_arg7 main_v27 (broadcastInDim S1x256 ![1] bcast_S256_S1x256_1 : (⟨S256, .f32⟩ : BufTy).Contents (Elt F) → (⟨S1x256, .f32⟩ : BufTy).Contents (Elt F)),
    unary main_v27 main_v28 (broadcastInDim S262144x256 ![0, 1] bcast_S1x256_S262144x256_0_1 : (⟨S1x256, .f32⟩ : BufTy).Contents (Elt F) → (⟨S262144x256, .f32⟩ : BufTy).Contents (Elt F)),
    binary main_v26 main_v28 main_v29 (mulf : (⟨S262144x256, .f32⟩ : BufTy).Contents (Elt F) → (⟨S262144x256, .f32⟩ : BufTy).Contents (Elt F) → (⟨S262144x256, .f32⟩ : BufTy).Contents (Elt F)),
    unary main_arg8 main_v30 (broadcastInDim S1x256 ![1] bcast_S256_S1x256_1 : (⟨S256, .f32⟩ : BufTy).Contents (Elt F) → (⟨S1x256, .f32⟩ : BufTy).Contents (Elt F)),
    unary main_v30 main_v31 (broadcastInDim S262144x256 ![0, 1] bcast_S1x256_S262144x256_0_1 : (⟨S1x256, .f32⟩ : BufTy).Contents (Elt F) → (⟨S262144x256, .f32⟩ : BufTy).Contents (Elt F)),
    binary main_v29 main_v31 main_v32 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S262144x256, .f32⟩) main_call0_v0) (broadcastInDim S262144x256 ![] bcast_S_S262144x256),
    TRef.binary (TRef.of (T := ⟨S262144x256, .f32⟩) main_v32) (TRef.of (T := ⟨S262144x256, .f32⟩) main_call0_v0) (TRef.of (T := ⟨S262144x256, .f32⟩) main_v33) maximumf,
    unary main_arg9 main_v34 ((transpose S256x32 [1, 0] · transposes_S32x256_S256x32_1_0) : (⟨S32x256, .f32⟩ : BufTy).Contents (Elt F) → (⟨S256x32, .f32⟩ : BufTy).Contents (Elt F)),
    binary main_v33 main_v34 main_v35 ((fun l r => Host.dotGeneral dot_S262144x256_S256x32_S262144x32_1_0_0_1_n_n none l r) : (⟨S262144x256, .f32⟩ : BufTy).Contents (Elt F) → (⟨S256x32, .f32⟩ : BufTy).Contents (Elt F) → (⟨S262144x32, .f32⟩ : BufTy).Contents (Elt F)),
    unary main_arg10 main_v36 (broadcastInDim S1x32 ![1] bcast_S32_S1x32_1 : (⟨S32, .f32⟩ : BufTy).Contents (Elt F) → (⟨S1x32, .f32⟩ : BufTy).Contents (Elt F)),
    unary main_v36 main_v37 (broadcastInDim S262144x32 ![0, 1] bcast_S1x32_S262144x32_0_1 : (⟨S1x32, .f32⟩ : BufTy).Contents (Elt F) → (⟨S262144x32, .f32⟩ : BufTy).Contents (Elt F)),
    binary main_v35 main_v37 main_v38 (addf : (⟨S262144x32, .f32⟩ : BufTy).Contents (Elt F) → (⟨S262144x32, .f32⟩ : BufTy).Contents (Elt F) → (⟨S262144x32, .f32⟩ : BufTy).Contents (Elt F)),
    nullary main_cst_5 (constant S_ .f32 0x00000000#32),
    binary main_v38 main_cst_5 main_v39 ((fun x v => Host.reduceAdd x v reducesTo_S262144x32_S32_d0 h_S_) : (⟨S262144x32, .f32⟩ : BufTy).Contents (Elt F) → (⟨S_, .f32⟩ : BufTy).Contents (Elt F) → (⟨S32, .f32⟩ : BufTy).Contents (Elt F)),
    nullary main_cst_6 (constant S_ .f32 0x48800000#32),
    unary main_cst_6 main_v40 (broadcastInDim S32 ![] bcast_S_S32 : (⟨S_, .f32⟩ : BufTy).Contents (Elt F) → (⟨S32, .f32⟩ : BufTy).Contents (Elt F)),
    binary main_v39 main_v40 main_v41 (Host.divf : (⟨S32, .f32⟩ : BufTy).Contents (Elt F) → (⟨S32, .f32⟩ : BufTy).Contents (Elt F) → (⟨S32, .f32⟩ : BufTy).Contents (Elt F)),
    unary main_v41 main_v42 (broadcastInDim S1x32 ![1] bcast_S32_S1x32_1 : (⟨S32, .f32⟩ : BufTy).Contents (Elt F) → (⟨S1x32, .f32⟩ : BufTy).Contents (Elt F)),
    unary main_v42 main_v43 (broadcastInDim S262144x32 ![0, 1] bcast_S1x32_S262144x32_0_1 : (⟨S1x32, .f32⟩ : BufTy).Contents (Elt F) → (⟨S262144x32, .f32⟩ : BufTy).Contents (Elt F)),
    binary main_v38 main_v43 main_v44 (subf : (⟨S262144x32, .f32⟩ : BufTy).Contents (Elt F) → (⟨S262144x32, .f32⟩ : BufTy).Contents (Elt F) → (⟨S262144x32, .f32⟩ : BufTy).Contents (Elt F)),
    binary main_v44 main_v44 main_v45 (mulf : (⟨S262144x32, .f32⟩ : BufTy).Contents (Elt F) → (⟨S262144x32, .f32⟩ : BufTy).Contents (Elt F) → (⟨S262144x32, .f32⟩ : BufTy).Contents (Elt F)),
    nullary main_cst_7 (constant S_ .f32 0x00000000#32),
    binary main_v45 main_cst_7 main_v46 ((fun x v => Host.reduceAdd x v reducesTo_S262144x32_S32_d0 h_S_) : (⟨S262144x32, .f32⟩ : BufTy).Contents (Elt F) → (⟨S_, .f32⟩ : BufTy).Contents (Elt F) → (⟨S32, .f32⟩ : BufTy).Contents (Elt F)),
    nullary main_cst_8 (constant S_ .f32 0x48800000#32),
    unary main_cst_8 main_v47 (broadcastInDim S32 ![] bcast_S_S32 : (⟨S_, .f32⟩ : BufTy).Contents (Elt F) → (⟨S32, .f32⟩ : BufTy).Contents (Elt F)),
    binary main_v46 main_v47 main_v48 (Host.divf : (⟨S32, .f32⟩ : BufTy).Contents (Elt F) → (⟨S32, .f32⟩ : BufTy).Contents (Elt F) → (⟨S32, .f32⟩ : BufTy).Contents (Elt F)),
    unary main_v41 main_v49 (broadcastInDim S1x32 ![1] bcast_S32_S1x32_1 : (⟨S32, .f32⟩ : BufTy).Contents (Elt F) → (⟨S1x32, .f32⟩ : BufTy).Contents (Elt F)),
    unary main_v49 main_v50 (broadcastInDim S262144x32 ![0, 1] bcast_S1x32_S262144x32_0_1 : (⟨S1x32, .f32⟩ : BufTy).Contents (Elt F) → (⟨S262144x32, .f32⟩ : BufTy).Contents (Elt F)),
    binary main_v38 main_v50 main_v51 (subf : (⟨S262144x32, .f32⟩ : BufTy).Contents (Elt F) → (⟨S262144x32, .f32⟩ : BufTy).Contents (Elt F) → (⟨S262144x32, .f32⟩ : BufTy).Contents (Elt F)),
    nullary main_cst_9 (constant S_ .f32 0x3727C5AC#32),
    unary main_cst_9 main_v52 (broadcastInDim S32 ![] bcast_S_S32 : (⟨S_, .f32⟩ : BufTy).Contents (Elt F) → (⟨S32, .f32⟩ : BufTy).Contents (Elt F)),
    binary main_v48 main_v52 main_v53 (addf : (⟨S32, .f32⟩ : BufTy).Contents (Elt F) → (⟨S32, .f32⟩ : BufTy).Contents (Elt F) → (⟨S32, .f32⟩ : BufTy).Contents (Elt F)),
    unary main_v53 main_v54 (Host.rsqrt : (⟨S32, .f32⟩ : BufTy).Contents (Elt F) → (⟨S32, .f32⟩ : BufTy).Contents (Elt F)),
    unary main_v54 main_v55 (broadcastInDim S1x32 ![1] bcast_S32_S1x32_1 : (⟨S32, .f32⟩ : BufTy).Contents (Elt F) → (⟨S1x32, .f32⟩ : BufTy).Contents (Elt F)),
    unary main_v55 main_v56 (broadcastInDim S262144x32 ![0, 1] bcast_S1x32_S262144x32_0_1 : (⟨S1x32, .f32⟩ : BufTy).Contents (Elt F) → (⟨S262144x32, .f32⟩ : BufTy).Contents (Elt F)),
    binary main_v51 main_v56 main_v57 (mulf : (⟨S262144x32, .f32⟩ : BufTy).Contents (Elt F) → (⟨S262144x32, .f32⟩ : BufTy).Contents (Elt F) → (⟨S262144x32, .f32⟩ : BufTy).Contents (Elt F)),
    unary main_arg11 main_v58 (broadcastInDim S1x32 ![1] bcast_S32_S1x32_1 : (⟨S32, .f32⟩ : BufTy).Contents (Elt F) → (⟨S1x32, .f32⟩ : BufTy).Contents (Elt F)),
    unary main_v58 main_v59 (broadcastInDim S262144x32 ![0, 1] bcast_S1x32_S262144x32_0_1 : (⟨S1x32, .f32⟩ : BufTy).Contents (Elt F) → (⟨S262144x32, .f32⟩ : BufTy).Contents (Elt F)),
    binary main_v57 main_v59 main_v60 (mulf : (⟨S262144x32, .f32⟩ : BufTy).Contents (Elt F) → (⟨S262144x32, .f32⟩ : BufTy).Contents (Elt F) → (⟨S262144x32, .f32⟩ : BufTy).Contents (Elt F)),
    unary main_arg12 main_v61 (broadcastInDim S1x32 ![1] bcast_S32_S1x32_1 : (⟨S32, .f32⟩ : BufTy).Contents (Elt F) → (⟨S1x32, .f32⟩ : BufTy).Contents (Elt F)),
    unary main_v61 main_v62 (broadcastInDim S262144x32 ![0, 1] bcast_S1x32_S262144x32_0_1 : (⟨S1x32, .f32⟩ : BufTy).Contents (Elt F) → (⟨S262144x32, .f32⟩ : BufTy).Contents (Elt F)),
    binary main_v60 main_v62 main_v63 (addf : (⟨S262144x32, .f32⟩ : BufTy).Contents (Elt F) → (⟨S262144x32, .f32⟩ : BufTy).Contents (Elt F) → (⟨S262144x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S262144x32, .f32⟩) main_call1_v0) (broadcastInDim S262144x32 ![] bcast_S_S262144x32),
    TRef.binary (TRef.of (T := ⟨S262144x32, .f32⟩) main_v63) (TRef.of (T := ⟨S262144x32, .f32⟩) main_call1_v0) (TRef.of (T := ⟨S262144x32, .f32⟩) main_v64) maximumf,
    unary main_arg13 main_v65 ((transpose S32x256 [1, 0] · transposes_S256x32_S32x256_1_0) : (⟨S256x32, .f32⟩ : BufTy).Contents (Elt F) → (⟨S32x256, .f32⟩ : BufTy).Contents (Elt F)),
    binary main_v64 main_v65 main_v66 ((fun l r => Host.dotGeneral dot_S262144x32_S32x256_S262144x256_1_0_0_1_n_n none l r) : (⟨S262144x32, .f32⟩ : BufTy).Contents (Elt F) → (⟨S32x256, .f32⟩ : BufTy).Contents (Elt F) → (⟨S262144x256, .f32⟩ : BufTy).Contents (Elt F)),
    unary main_arg14 main_v67 (broadcastInDim S1x256 ![1] bcast_S256_S1x256_1 : (⟨S256, .f32⟩ : BufTy).Contents (Elt F) → (⟨S1x256, .f32⟩ : BufTy).Contents (Elt F)),
    unary main_v67 main_v68 (broadcastInDim S262144x256 ![0, 1] bcast_S1x256_S262144x256_0_1 : (⟨S1x256, .f32⟩ : BufTy).Contents (Elt F) → (⟨S262144x256, .f32⟩ : BufTy).Contents (Elt F)),
    binary main_v66 main_v68 main_v69 (addf : (⟨S262144x256, .f32⟩ : BufTy).Contents (Elt F) → (⟨S262144x256, .f32⟩ : BufTy).Contents (Elt F) → (⟨S262144x256, .f32⟩ : BufTy).Contents (Elt F)),
    nullary main_cst_10 (constant S_ .f32 0xFF800000#32),
    binary main_v69 main_cst_10 main_v70 ((fun x v => Host.reduce FloatOps.maximumf x v reducesTo_S262144x256_S262144_d1 h_S_) : (⟨S262144x256, .f32⟩ : BufTy).Contents (Elt F) → (⟨S_, .f32⟩ : BufTy).Contents (Elt F) → (⟨S262144, .f32⟩ : BufTy).Contents (Elt F)),
    nullary main_cst_11 (constant S_ .f32 0xFF800000#32),
    unary main_cst_11 main_v71 (broadcastInDim S262144 ![] bcast_S_S262144 : (⟨S_, .f32⟩ : BufTy).Contents (Elt F) → (⟨S262144, .f32⟩ : BufTy).Contents (Elt F)),
    binary main_v71 main_v70 main_v72 (maximumf : (⟨S262144, .f32⟩ : BufTy).Contents (Elt F) → (⟨S262144, .f32⟩ : BufTy).Contents (Elt F) → (⟨S262144, .f32⟩ : BufTy).Contents (Elt F)),
    unary main_v72 main_v73 (broadcastInDim S262144x1 ![0] bcast_S262144_S262144x1_0 : (⟨S262144, .f32⟩ : BufTy).Contents (Elt F) → (⟨S262144x1, .f32⟩ : BufTy).Contents (Elt F)),
    unary main_v73 main_v74 (broadcastInDim S262144x256 ![0, 1] bcast_S262144x1_S262144x256_0_1 : (⟨S262144x1, .f32⟩ : BufTy).Contents (Elt F) → (⟨S262144x256, .f32⟩ : BufTy).Contents (Elt F)),
    binary main_v69 main_v74 main_v75 (subf : (⟨S262144x256, .f32⟩ : BufTy).Contents (Elt F) → (⟨S262144x256, .f32⟩ : BufTy).Contents (Elt F) → (⟨S262144x256, .f32⟩ : BufTy).Contents (Elt F)),
    unary main_v75 main_v76 (Host.exp : (⟨S262144x256, .f32⟩ : BufTy).Contents (Elt F) → (⟨S262144x256, .f32⟩ : BufTy).Contents (Elt F)),
    nullary main_cst_12 (constant S_ .f32 0x00000000#32),
    binary main_v76 main_cst_12 main_v77 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    unary main_v77 main_v78 (broadcastInDim S262144x1 ![0] bcast_S262144_S262144x1_0 : (⟨S262144, .f32⟩ : BufTy).Contents (Elt F) → (⟨S262144x1, .f32⟩ : BufTy).Contents (Elt F)),
    unary main_v78 main_v79 (broadcastInDim S262144x256 ![0, 1] bcast_S262144x1_S262144x256_0_1 : (⟨S262144x1, .f32⟩ : BufTy).Contents (Elt F) → (⟨S262144x256, .f32⟩ : BufTy).Contents (Elt F)),
    binary main_v76 main_v79 main_v80 (Host.divf : (⟨S262144x256, .f32⟩ : BufTy).Contents (Elt F) → (⟨S262144x256, .f32⟩ : BufTy).Contents (Elt F) → (⟨S262144x256, .f32⟩ : BufTy).Contents (Elt F)),
    binary main_v80 main_v6 main_v81 (mulf : (⟨S262144x256, .f32⟩ : BufTy).Contents (Elt F) → (⟨S262144x256, .f32⟩ : BufTy).Contents (Elt F) → (⟨S262144x256, .f32⟩ : BufTy).Contents (Elt F)),
    binary main_arg1 main_v81 main_v82 (addf : (⟨S262144x256, .f32⟩ : BufTy).Contents (Elt F) → (⟨S262144x256, .f32⟩ : BufTy).Contents (Elt F) → (⟨S262144x256, .f32⟩ : BufTy).Contents (Elt F)),
    unary main_arg4 main_v83 ((transpose S256x256 [1, 0] · transposes_S256x256_S256x256_1_0) : (⟨S256x256, .f32⟩ : BufTy).Contents (Elt F) → (⟨S256x256, .f32⟩ : BufTy).Contents (Elt F)),
    binary main_v82 main_v83 main_v84 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    nullary main_cst_13 (constant S_ .f32 0x00000000#32),
    binary main_v84 main_cst_13 main_v85 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    nullary main_cst_14 (constant S_ .f32 0x48800000#32),
    unary main_cst_14 main_v86 (broadcastInDim S256 ![] bcast_S_S256 : (⟨S_, .f32⟩ : BufTy).Contents (Elt F) → (⟨S256, .f32⟩ : BufTy).Contents (Elt F)),
    binary main_v85 main_v86 main_v87 (Host.divf : (⟨S256, .f32⟩ : BufTy).Contents (Elt F) → (⟨S256, .f32⟩ : BufTy).Contents (Elt F) → (⟨S256, .f32⟩ : BufTy).Contents (Elt F)),
    unary main_v87 main_v88 (broadcastInDim S1x256 ![1] bcast_S256_S1x256_1 : (⟨S256, .f32⟩ : BufTy).Contents (Elt F) → (⟨S1x256, .f32⟩ : BufTy).Contents (Elt F)),
    unary main_v88 main_v89 (broadcastInDim S262144x256 ![0, 1] bcast_S1x256_S262144x256_0_1 : (⟨S1x256, .f32⟩ : BufTy).Contents (Elt F) → (⟨S262144x256, .f32⟩ : BufTy).Contents (Elt F)),
    binary main_v84 main_v89 main_v90 (subf : (⟨S262144x256, .f32⟩ : BufTy).Contents (Elt F) → (⟨S262144x256, .f32⟩ : BufTy).Contents (Elt F) → (⟨S262144x256, .f32⟩ : BufTy).Contents (Elt F)),
    binary main_v90 main_v90 main_v91 (mulf : (⟨S262144x256, .f32⟩ : BufTy).Contents (Elt F) → (⟨S262144x256, .f32⟩ : BufTy).Contents (Elt F) → (⟨S262144x256, .f32⟩ : BufTy).Contents (Elt F)),
    nullary main_cst_15 (constant S_ .f32 0x00000000#32),
    binary main_v91 main_cst_15 main_v92 ((fun x v => Host.reduceAdd x v reducesTo_S262144x256_S256_d0 h_S_) : (⟨S262144x256, .f32⟩ : BufTy).Contents (Elt F) → (⟨S_, .f32⟩ : BufTy).Contents (Elt F) → (⟨S256, .f32⟩ : BufTy).Contents (Elt F)),
    nullary main_cst_16 (constant S_ .f32 0x48800000#32),
    unary main_cst_16 main_v93 (broadcastInDim S256 ![] bcast_S_S256 : (⟨S_, .f32⟩ : BufTy).Contents (Elt F) → (⟨S256, .f32⟩ : BufTy).Contents (Elt F)),
    binary main_v92 main_v93 main_v94 (Host.divf : (⟨S256, .f32⟩ : BufTy).Contents (Elt F) → (⟨S256, .f32⟩ : BufTy).Contents (Elt F) → (⟨S256, .f32⟩ : BufTy).Contents (Elt F)),
    unary main_v87 main_v95 (broadcastInDim S1x256 ![1] bcast_S256_S1x256_1 : (⟨S256, .f32⟩ : BufTy).Contents (Elt F) → (⟨S1x256, .f32⟩ : BufTy).Contents (Elt F)),
    unary main_v95 main_v96 (broadcastInDim S262144x256 ![0, 1] bcast_S1x256_S262144x256_0_1 : (⟨S1x256, .f32⟩ : BufTy).Contents (Elt F) → (⟨S262144x256, .f32⟩ : BufTy).Contents (Elt F)),
    binary main_v84 main_v96 main_v97 (subf : (⟨S262144x256, .f32⟩ : BufTy).Contents (Elt F) → (⟨S262144x256, .f32⟩ : BufTy).Contents (Elt F) → (⟨S262144x256, .f32⟩ : BufTy).Contents (Elt F)),
    nullary main_cst_17 (constant S_ .f32 0x3727C5AC#32),
    unary main_cst_17 main_v98 (broadcastInDim S256 ![] bcast_S_S256 : (⟨S_, .f32⟩ : BufTy).Contents (Elt F) → (⟨S256, .f32⟩ : BufTy).Contents (Elt F)),
    binary main_v94 main_v98 main_v99 (addf : (⟨S256, .f32⟩ : BufTy).Contents (Elt F) → (⟨S256, .f32⟩ : BufTy).Contents (Elt F) → (⟨S256, .f32⟩ : BufTy).Contents (Elt F)),
    unary main_v99 main_v100 (Host.rsqrt : (⟨S256, .f32⟩ : BufTy).Contents (Elt F) → (⟨S256, .f32⟩ : BufTy).Contents (Elt F)),
    unary main_v100 main_v101 (broadcastInDim S1x256 ![1] bcast_S256_S1x256_1 : (⟨S256, .f32⟩ : BufTy).Contents (Elt F) → (⟨S1x256, .f32⟩ : BufTy).Contents (Elt F)),
    unary main_v101 main_v102 (broadcastInDim S262144x256 ![0, 1] bcast_S1x256_S262144x256_0_1 : (⟨S1x256, .f32⟩ : BufTy).Contents (Elt F) → (⟨S262144x256, .f32⟩ : BufTy).Contents (Elt F)),
    binary main_v97 main_v102 main_v103 (mulf : (⟨S262144x256, .f32⟩ : BufTy).Contents (Elt F) → (⟨S262144x256, .f32⟩ : BufTy).Contents (Elt F) → (⟨S262144x256, .f32⟩ : BufTy).Contents (Elt F)),
    unary main_arg5 main_v104 (broadcastInDim S1x256 ![1] bcast_S256_S1x256_1 : (⟨S256, .f32⟩ : BufTy).Contents (Elt F) → (⟨S1x256, .f32⟩ : BufTy).Contents (Elt F)),
    unary main_v104 main_v105 (broadcastInDim S262144x256 ![0, 1] bcast_S1x256_S262144x256_0_1 : (⟨S1x256, .f32⟩ : BufTy).Contents (Elt F) → (⟨S262144x256, .f32⟩ : BufTy).Contents (Elt F)),
    binary main_v103 main_v105 main_v106 (mulf : (⟨S262144x256, .f32⟩ : BufTy).Contents (Elt F) → (⟨S262144x256, .f32⟩ : BufTy).Contents (Elt F) → (⟨S262144x256, .f32⟩ : BufTy).Contents (Elt F)),
    unary main_arg6 main_v107 (broadcastInDim S1x256 ![1] bcast_S256_S1x256_1 : (⟨S256, .f32⟩ : BufTy).Contents (Elt F) → (⟨S1x256, .f32⟩ : BufTy).Contents (Elt F)),
    unary main_v107 main_v108 (broadcastInDim S262144x256 ![0, 1] bcast_S1x256_S262144x256_0_1 : (⟨S1x256, .f32⟩ : BufTy).Contents (Elt F) → (⟨S262144x256, .f32⟩ : BufTy).Contents (Elt F)),
    binary main_v106 main_v108 main_v109 (addf : (⟨S262144x256, .f32⟩ : BufTy).Contents (Elt F) → (⟨S262144x256, .f32⟩ : BufTy).Contents (Elt F) → (⟨S262144x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S262144x256, .f32⟩) main_call2_v0) (broadcastInDim S262144x256 ![] bcast_S_S262144x256),
    TRef.binary (TRef.of (T := ⟨S262144x256, .f32⟩) main_v109) (TRef.of (T := ⟨S262144x256, .f32⟩) main_call2_v0) (TRef.of (T := ⟨S262144x256, .f32⟩) main_v110) maximumf ]

set_option maxRecDepth 8192 in
set_option maxHeartbeats 4000000 in
/-- The program is the straight line of those operations. -/
theorem main_eq (c : Dev nD) : main (F := F) c = seq ops := rfl
/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation's buffers are TensorCore references. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
/-- Every operation determines its results. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations write, in order: no argument of the program is among them. -/
abbrev ops_W : List (Ref sig .tc) := [main_c, main_v0, main_v1, main_c_0, main_v2, main_v3, main_v4, main_v5, main_v6, main_v7, main_cst, main_v8, main_cst_1, main_v9, main_v10, main_v11, main_v12, main_v13, main_v14, main_cst_2, main_v15, main_cst_3, main_v16, main_v17, main_v18, main_v19, main_v20, main_cst_4, main_v21, main_v22, main_v23, main_v24, main_v25, main_v26, main_v27, main_v28, main_v29, main_v30, main_v31, main_v32, main_call0_cst, main_call0_v0, main_v33, main_v34, main_v35, main_v36, main_v37, main_v38, main_cst_5, main_v39, main_cst_6, main_v40, main_v41, main_v42, main_v43, main_v44, main_v45, main_cst_7, main_v46, main_cst_8, main_v47, main_v48, main_v49, main_v50, main_v51, main_cst_9, main_v52, main_v53, main_v54, main_v55, main_v56, main_v57, main_v58, main_v59, main_v60, main_v61, main_v62, main_v63, main_call1_cst, main_call1_v0, main_v64, main_v65, main_v66, main_v67, main_v68, main_v69, main_cst_10, main_v70, main_cst_11, main_v71, main_v72, main_v73, main_v74, main_v75, main_v76, main_cst_12, main_v77, main_v78, main_v79, main_v80, main_v81, main_v82, main_v83, main_v84, main_cst_13, main_v85, main_cst_14, main_v86, main_v87, main_v88, main_v89, main_v90, main_v91, main_cst_15, main_v92, main_cst_16, main_v93, main_v94, main_v95, main_v96, main_v97, main_cst_17, main_v98, main_v99, main_v100, main_v101, main_v102, main_v103, main_v104, main_v105, main_v106, main_v107, main_v108, main_v109, main_call2_cst, main_call2_v0, main_v110]

/-- An operation whose one written buffer is among those references writes inside them. -/
theorem w_of {op : HloOp τ sig (Elt F)} (y : Ref sig .tc) (h : op.writes = {Proc.devRef .tc y}) (hy : y ∈ ops_W) :
    op.writes ⊆ (ops_W.map (Proc.devRef (τ := τ) .tc)).toFinset := by
  rw [h, Finset.singleton_subset_iff, List.mem_toFinset]
  exact List.mem_map_of_mem hy

set_option maxRecDepth 8192 in
/-- Each operation writes its own result buffer only. -/
theorem ops_writes : (ops : List (HloOp τ sig (Elt F))).Forall fun op => op.writes ⊆ (ops_W.map (Proc.devRef (τ := τ) .tc)).toFinset :=
  ⟨w_of main_c rfl (by decide), w_of main_v0 rfl (by decide), w_of main_v1 rfl (by decide), w_of main_c_0 rfl (by decide), w_of main_v2 rfl (by decide), w_of main_v3 rfl (by decide), w_of main_v4 rfl (by decide), w_of main_v5 rfl (by decide), w_of main_v6 rfl (by decide), w_of main_v7 rfl (by decide), w_of main_cst rfl (by decide), w_of main_v8 rfl (by decide), w_of main_cst_1 rfl (by decide), w_of main_v9 rfl (by decide), w_of main_v10 rfl (by decide), w_of main_v11 rfl (by decide), w_of main_v12 rfl (by decide), w_of main_v13 rfl (by decide), w_of main_v14 rfl (by decide), w_of main_cst_2 rfl (by decide), w_of main_v15 rfl (by decide), w_of main_cst_3 rfl (by decide), w_of main_v16 rfl (by decide), w_of main_v17 rfl (by decide), w_of main_v18 rfl (by decide), w_of main_v19 rfl (by decide), w_of main_v20 rfl (by decide), w_of main_cst_4 rfl (by decide), w_of main_v21 rfl (by decide), w_of main_v22 rfl (by decide), w_of main_v23 rfl (by decide), w_of main_v24 rfl (by decide), w_of main_v25 rfl (by decide), w_of main_v26 rfl (by decide), w_of main_v27 rfl (by decide), w_of main_v28 rfl (by decide), w_of main_v29 rfl (by decide), w_of main_v30 rfl (by decide), w_of main_v31 rfl (by decide), w_of main_v32 rfl (by decide), w_of main_call0_cst rfl (by decide), w_of main_call0_v0 rfl (by decide), w_of main_v33 rfl (by decide), w_of main_v34 rfl (by decide), w_of main_v35 rfl (by decide), w_of main_v36 rfl (by decide), w_of main_v37 rfl (by decide), w_of main_v38 rfl (by decide), w_of main_cst_5 rfl (by decide), w_of main_v39 rfl (by decide), w_of main_cst_6 rfl (by decide), w_of main_v40 rfl (by decide), w_of main_v41 rfl (by decide), w_of main_v42 rfl (by decide), w_of main_v43 rfl (by decide), w_of main_v44 rfl (by decide), w_of main_v45 rfl (by decide), w_of main_cst_7 rfl (by decide), w_of main_v46 rfl (by decide), w_of main_cst_8 rfl (by decide), w_of main_v47 rfl (by decide), w_of main_v48 rfl (by decide), w_of main_v49 rfl (by decide), w_of main_v50 rfl (by decide), w_of main_v51 rfl (by decide), w_of main_cst_9 rfl (by decide), w_of main_v52 rfl (by decide), w_of main_v53 rfl (by decide), w_of main_v54 rfl (by decide), w_of main_v55 rfl (by decide), w_of main_v56 rfl (by decide), w_of main_v57 rfl (by decide), w_of main_v58 rfl (by decide), w_of main_v59 rfl (by decide), w_of main_v60 rfl (by decide), w_of main_v61 rfl (by decide), w_of main_v62 rfl (by decide), w_of main_v63 rfl (by decide), w_of main_call1_cst rfl (by decide), w_of main_call1_v0 rfl (by decide), w_of main_v64 rfl (by decide), w_of main_v65 rfl (by decide), w_of main_v66 rfl (by decide), w_of main_v67 rfl (by decide), w_of main_v68 rfl (by decide), w_of main_v69 rfl (by decide), w_of main_cst_10 rfl (by decide), w_of main_v70 rfl (by decide), w_of main_cst_11 rfl (by decide), w_of main_v71 rfl (by decide), w_of main_v72 rfl (by decide), w_of main_v73 rfl (by decide), w_of main_v74 rfl (by decide), w_of main_v75 rfl (by decide), w_of main_v76 rfl (by decide), w_of main_cst_12 rfl (by decide), w_of main_v77 rfl (by decide), w_of main_v78 rfl (by decide), w_of main_v79 rfl (by decide), w_of main_v80 rfl (by decide), w_of main_v81 rfl (by decide), w_of main_v82 rfl (by decide), w_of main_v83 rfl (by decide), w_of main_v84 rfl (by decide), w_of main_cst_13 rfl (by decide), w_of main_v85 rfl (by decide), w_of main_cst_14 rfl (by decide), w_of main_v86 rfl (by decide), w_of main_v87 rfl (by decide), w_of main_v88 rfl (by decide), w_of main_v89 rfl (by decide), w_of main_v90 rfl (by decide), w_of main_v91 rfl (by decide), w_of main_cst_15 rfl (by decide), w_of main_v92 rfl (by decide), w_of main_cst_16 rfl (by decide), w_of main_v93 rfl (by decide), w_of main_v94 rfl (by decide), w_of main_v95 rfl (by decide), w_of main_v96 rfl (by decide), w_of main_v97 rfl (by decide), w_of main_cst_17 rfl (by decide), w_of main_v98 rfl (by decide), w_of main_v99 rfl (by decide), w_of main_v100 rfl (by decide), w_of main_v101 rfl (by decide), w_of main_v102 rfl (by decide), w_of main_v103 rfl (by decide), w_of main_v104 rfl (by decide), w_of main_v105 rfl (by decide), w_of main_v106 rfl (by decide), w_of main_v107 rfl (by decide), w_of main_v108 rfl (by decide), w_of main_v109 rfl (by decide), w_of main_call2_cst rfl (by decide), w_of main_call2_v0 rfl (by decide), w_of main_v110 rfl (by decide)⟩

set_option maxRecDepth 8192 in
set_option maxHeartbeats 40000000 in
/-- The last operation's buffer after the line holds the staged value of the program's result: each operation's
    result read at its own buffer is its function of its operands' buffers, and every intermediate value is shared
    through its stage. -/
theorem result_eq (m : (ℓ : Loc nD τ sig) → Buf (Elt F) ℓ) (c : Dev nD) :
    after (ops (F := F)) (launchContents m c) (Proc.devRef .tc main_v110)
      = val_main_v110 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  after_results_simp
  rfl

/-- On every device, for any float values, from any memory with zero counters: every weakly fair execution of
    the program terminates with the result buffer at the staged value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110) = val_main_v110 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v110).trans (result_eq m c),
      (h c main_arg0).trans (after_of_writes_sub ops _ ops_writes (by decide)),
      (h c main_arg1).trans (after_of_writes_sub ops _ ops_writes (by decide)),
      (h c main_arg2).trans (after_of_writes_sub ops _ ops_writes (by decide)),
      (h c main_arg3).trans (after_of_writes_sub ops _ ops_writes (by decide)),
      (h c main_arg4).trans (after_of_writes_sub ops _ ops_writes (by decide)),
      (h c main_arg5).trans (after_of_writes_sub ops _ ops_writes (by decide)),
      (h c main_arg6).trans (after_of_writes_sub ops _ ops_writes (by decide)),
      (h c main_arg7).trans (after_of_writes_sub ops _ ops_writes (by decide)),
      (h c main_arg8).trans (after_of_writes_sub ops _ ops_writes (by decide)),
      (h c main_arg9).trans (after_of_writes_sub ops _ ops_writes (by decide)),
      (h c main_arg10).trans (after_of_writes_sub ops _ ops_writes (by decide)),
      (h c main_arg11).trans (after_of_writes_sub ops _ ops_writes (by decide)),
      (h c main_arg12).trans (after_of_writes_sub ops _ ops_writes (by decide)),
      (h c main_arg13).trans (after_of_writes_sub ops _ ops_writes (by decide)),
      (h c main_arg14).trans (after_of_writes_sub ops _ ops_writes (by decide))⟩)
    (run_seq scopedRefs_eq scopedSems_eq defs main (fun _ => ops) main_eq (fun _ => ops_sub) m ρ
      (fun _ op hop => (List.forall_iff_forall_mem.mp ops_fresh) op hop))

end Cert.RefRun

end
-- ==== Proof.RefA.lean ====
/-
  The reference's first stage read at an index: the relation x − aug, its column means and mean squared deviations over
  all rows, the batch norm with scale and shift, and the ReLU, are the specification's `bnrelu` of the relation at the
  two-pass statistics.
-/
import proofs.«145083_j84052509982728_1_alg».proof.Proof.RefReadP
import proofs.«145083_j84052509982728_1_alg».proof.Proof.Iface

import Idealize.ShloMosaic.Lib.Pipeline.Value
import Idealize.ShloMosaic.Lib.ValueIdx
import Idealize.ShloMosaic.Lib.ValueLayout
import Idealize.ShloMosaic.PureOps.Ideal.Laws

noncomputable section

namespace Cert.RefValue

open Cert.ReferenceIdeal Cert.ReferenceIdeal.Gen Cert.ReferenceIdeal.ReadP
open Idealize.ShloMosaic Idealize.ShloMosaic.ValueIdx
open Cert.Iface Cert.Spec

variable (x1 : (⟨S262144x256, .f32⟩ : BufTy).Contents (Elt Ideal)) (x2 : (⟨S131072x256, .f32⟩ : BufTy).Contents (Elt Ideal))
  (x3 : (⟨S262144, .i32⟩ : BufTy).Contents (Elt Ideal)) (x4 : (⟨S256x256, .f32⟩ : BufTy).Contents (Elt Ideal))
  (x5 x6 x7 x8 : (⟨S256, .f32⟩ : BufTy).Contents (Elt Ideal)) (x9 : (⟨S32x256, .f32⟩ : BufTy).Contents (Elt Ideal))
  (x10 x11 x12 : (⟨S32, .f32⟩ : BufTy).Contents (Elt Ideal)) (x13 : (⟨S256x32, .f32⟩ : BufTy).Contents (Elt Ideal))
  (x14 : (⟨S256, .f32⟩ : BufTy).Contents (Elt Ideal))

/-- The gathered neighbour rows, as the reference computes them from the table and the index array. -/
abbrev augR : (⟨S262144x256, .f32⟩ : BufTy).Contents (Elt Ideal) := val_main_v6 (F := Ideal) x2 x3

/-- The relation of the reference's arguments. -/
abbrev relR : Fin 262144 → Fin 256 → EReal := Spec.rel (cur2 x1) (cur2 (augR x2 x3))

section Idx
variable (i : Fin 262144) (j : Fin 256) (k : Fin 262144)

/-! A [256] vector broadcast to a [1,256] row and then to all 262144 rows is read, at row `i` and column `j`, at
    its entry `j`; there are five such pairs of broadcasts (the mean twice, the reciprocal root, the scale, the shift). -/
theorem idx_v11_v12 : idx_main_v11 (idx_main_v12 (ix2 i j)) = ix1 j :=
  funext fun a => Fin.ext (by match a with | ⟨0, _⟩ => rfl)
theorem idx_v18_v19 : idx_main_v18 (idx_main_v19 (ix2 i j)) = ix1 j :=
  funext fun a => Fin.ext (by match a with | ⟨0, _⟩ => rfl)
theorem idx_v24_v25 : idx_main_v24 (idx_main_v25 (ix2 i j)) = ix1 j :=
  funext fun a => Fin.ext (by match a with | ⟨0, _⟩ => rfl)
theorem idx_v27_v28 : idx_main_v27 (idx_main_v28 (ix2 i j)) = ix1 j :=
  funext fun a => Fin.ext (by match a with | ⟨0, _⟩ => rfl)
theorem idx_v30_v31 : idx_main_v30 (idx_main_v31 (ix2 i j)) = ix1 j :=
  funext fun a => Fin.ext (by match a with | ⟨0, _⟩ => rfl)

/-! The two sums over the rows: term `k` of column `j`'s sum is the operand at row `k`, column `j`. -/
theorem idx_v8 : idx_main_v8 (ix1 j) k = ix2 k j :=
  funext fun a => Fin.ext (by match a with | ⟨0, _⟩ => rfl | ⟨1, _⟩ => rfl)
theorem idx_v15 : idx_main_v15 (ix1 j) k = ix2 k j :=
  funext fun a => Fin.ext (by match a with | ⟨0, _⟩ => rfl | ⟨1, _⟩ => rfl)

end Idx

/-- After the first batch norm and ReLU (the value passed to the first linear map). -/
theorem ref_stageA (i : Fin 262144) (j : Fin 256) :
    val_main_v33 (F := Ideal) x1 x2 x3 x7 x8 (ix2 i j)
      = bnrelu ((rstats N0).mean (relR x1 x2 x3)) ((rstats N0).var (relR x1 x2 x3)) (cur1 x7) (cur1 x8) eps0 (relR x1 x2 x3) i j := by
  simp only [val_main_v33_apply, val_main_call0_v0_apply, val_main_call0_cst_apply, val_main_v32_apply, val_main_v31_apply,
    val_main_v30_apply, val_main_v29_apply, val_main_v28_apply, val_main_v27_apply, val_main_v26_apply, val_main_v25_apply,
    val_main_v24_apply, val_main_v23_apply, val_main_v22_apply, val_main_v21_apply, val_main_cst_4_apply, val_main_v20_apply,
    val_main_v19_apply, val_main_v18_apply, val_main_v17_apply, val_main_v16_apply, val_main_cst_3_apply, val_main_v15_apply,
    val_main_cst_2_apply, val_main_v14_apply, val_main_v13_apply, val_main_v12_apply, val_main_v11_apply, val_main_v10_apply,
    val_main_v9_apply, val_main_cst_1_apply, val_main_v8_apply, val_main_cst_apply, val_main_v7_apply,
    idx_v11_v12, idx_v18_v19, idx_v24_v25, idx_v27_v28, idx_v30_v31, idx_v8, idx_v15,
    Ideal.ofBits_def, Ideal.addf_def, Ideal.subf_def, Ideal.mulf_def, Ideal.maximumf_def, Ideal.hostDivf_def,
    Ideal.hostUnary_rsqrt_def, Ideal.ofBits_zero_f32, zero_add,
    bnrelu, rstats, rmean, rvar, colsum, rel, N0, eps0]

end Cert.RefValue

end
-- ==== Proof.RefB.lean ====
/-
  The reference's second stage read at an index: the first linear map with its bias gives the specification's hidden
  array; its batch norm and ReLU are `bnrelu` of the hidden array at the two-pass statistics.
-/
import proofs.«145083_j84052509982728_1_alg».proof.Proof.RefReadP
import proofs.«145083_j84052509982728_1_alg».proof.Proof.Iface
import proofs.«145083_j84052509982728_1_alg».proof.Proof.RefA
import Idealize.ShloMosaic.Lib.Pipeline.Value
import Idealize.ShloMosaic.Lib.ValueIdx
import Idealize.ShloMosaic.Lib.ValueLayout
import Idealize.ShloMosaic.PureOps.Ideal.Laws

noncomputable section

namespace Cert.RefValue

open Cert.ReferenceIdeal Cert.ReferenceIdeal.Gen Cert.ReferenceIdeal.ReadP
open Idealize.ShloMosaic Idealize.ShloMosaic.ValueIdx
open Cert.Iface Cert.Spec

variable (x1 : (⟨S262144x256, .f32⟩ : BufTy).Contents (Elt Ideal)) (x2 : (⟨S131072x256, .f32⟩ : BufTy).Contents (Elt Ideal))
  (x3 : (⟨S262144, .i32⟩ : BufTy).Contents (Elt Ideal)) (x4 : (⟨S256x256, .f32⟩ : BufTy).Contents (Elt Ideal))
  (x5 x6 x7 x8 : (⟨S256, .f32⟩ : BufTy).Contents (Elt Ideal)) (x9 : (⟨S32x256, .f32⟩ : BufTy).Contents (Elt Ideal))
  (x10 x11 x12 : (⟨S32, .f32⟩ : BufTy).Contents (Elt Ideal)) (x13 : (⟨S256x32, .f32⟩ : BufTy).Contents (Elt Ideal))
  (x14 : (⟨S256, .f32⟩ : BufTy).Contents (Elt Ideal))

/-- The hidden array of the reference's arguments. -/
abbrev hidR : Fin 262144 → Fin 32 → EReal :=
  Spec.hid (rstats N0) eps0 (cur2 x1) (cur2 (augR x2 x3)) (cur1 x7) (cur1 x8) (cur2 x9) (cur1 x10)

/-! ### Where each operation reads its operands

The composed index functions of the transpose, the contraction, the two-step broadcasts of a [32] vector to
[262144, 32] and the column sums, at an index given by its coordinates. -/
section Idx
variable (i : Fin 262144) (l : Fin 32) (k : Fin 256)

/-- The contraction reads row `i` of its left operand, -/
private theorem refB_lidx35 : lidx_main_v35 (ix2 i l) k = ix2 i k :=
  funext fun a => Fin.ext (by match a with | ⟨0, _⟩ => rfl | ⟨1, _⟩ => rfl)
/-- and column `l` of its right operand. -/
private theorem refB_ridx35 : ridx_main_v35 (ix2 i l) k = ix2 k l :=
  funext fun a => Fin.ext (by match a with | ⟨0, _⟩ => rfl | ⟨1, _⟩ => rfl)
/-- The transposed weight at `(k, l)` is the weight at `(l, k)`. -/
private theorem refB_idx34 : idx_main_v34 (ix2 k l) = ix2 l k :=
  funext fun a => Fin.ext (by match a with | ⟨0, _⟩ => rfl | ⟨1, _⟩ => rfl)
/-- A [1, 32] row broadcast along the rows is read at its column, -/
private theorem refB_idx37 : idx_main_v37 (ix2 i l) = ix2 (0 : Fin 1) l :=
  funext fun a => Fin.ext (by match a with | ⟨0, _⟩ => rfl | ⟨1, _⟩ => rfl)
private theorem refB_idx43 : idx_main_v43 (ix2 i l) = ix2 (0 : Fin 1) l :=
  funext fun a => Fin.ext (by match a with | ⟨0, _⟩ => rfl | ⟨1, _⟩ => rfl)
private theorem refB_idx50 : idx_main_v50 (ix2 i l) = ix2 (0 : Fin 1) l :=
  funext fun a => Fin.ext (by match a with | ⟨0, _⟩ => rfl | ⟨1, _⟩ => rfl)
private theorem refB_idx56 : idx_main_v56 (ix2 i l) = ix2 (0 : Fin 1) l :=
  funext fun a => Fin.ext (by match a with | ⟨0, _⟩ => rfl | ⟨1, _⟩ => rfl)
private theorem refB_idx59 : idx_main_v59 (ix2 i l) = ix2 (0 : Fin 1) l :=
  funext fun a => Fin.ext (by match a with | ⟨0, _⟩ => rfl | ⟨1, _⟩ => rfl)
private theorem refB_idx62 : idx_main_v62 (ix2 i l) = ix2 (0 : Fin 1) l :=
  funext fun a => Fin.ext (by match a with | ⟨0, _⟩ => rfl | ⟨1, _⟩ => rfl)
/-- and a [32] vector reshaped to a [1, 32] row is read at the column. -/
private theorem refB_idx36 : idx_main_v36 (ix2 (0 : Fin 1) l) = ix1 l :=
  funext fun a => Fin.ext (by match a with | ⟨0, _⟩ => rfl)
private theorem refB_idx42 : idx_main_v42 (ix2 (0 : Fin 1) l) = ix1 l :=
  funext fun a => Fin.ext (by match a with | ⟨0, _⟩ => rfl)
private theorem refB_idx49 : idx_main_v49 (ix2 (0 : Fin 1) l) = ix1 l :=
  funext fun a => Fin.ext (by match a with | ⟨0, _⟩ => rfl)
private theorem refB_idx55 : idx_main_v55 (ix2 (0 : Fin 1) l) = ix1 l :=
  funext fun a => Fin.ext (by match a with | ⟨0, _⟩ => rfl)
private theorem refB_idx58 : idx_main_v58 (ix2 (0 : Fin 1) l) = ix1 l :=
  funext fun a => Fin.ext (by match a with | ⟨0, _⟩ => rfl)
private theorem refB_idx61 : idx_main_v61 (ix2 (0 : Fin 1) l) = ix1 l :=
  funext fun a => Fin.ext (by match a with | ⟨0, _⟩ => rfl)
/-- The sum over the rows of column `l` reads row `r` at `(r, l)`. -/
private theorem refB_idx39 (r : Fin 262144) : idx_main_v39 (ix1 l) r = ix2 r l :=
  funext fun a => Fin.ext (by match a with | ⟨0, _⟩ => rfl | ⟨1, _⟩ => rfl)
private theorem refB_idx46 (r : Fin 262144) : idx_main_v46 (ix1 l) r = ix2 r l :=
  funext fun a => Fin.ext (by match a with | ⟨0, _⟩ => rfl | ⟨1, _⟩ => rfl)
end Idx

/-- The first linear map's result is the hidden array. -/
theorem ref_hid (i : Fin 262144) (l : Fin 32) :
    val_main_v38 (F := Ideal) x1 x2 x3 x7 x8 x9 x10 (ix2 i l) = hidR x1 x2 x3 x7 x8 x9 x10 i l := by
  -- the contraction over the 256 channels of the first stage's result with the transposed weight, plus the bias
  rw [val_main_v38_apply, val_main_v35_apply, val_main_v37_apply, val_main_v36_apply]
  simp only [val_main_v34_apply, refB_lidx35, refB_ridx35, refB_idx34, refB_idx37, refB_idx36, ref_stageA,
    Ideal.addf_def]
  rfl

/-- The hidden array's column mean: the sum over all rows from zero, divided by the number of rows. -/
theorem refB_mean (l : Fin 32) :
    val_main_v41 (F := Ideal) x1 x2 x3 x7 x8 x9 x10 (ix1 l) = rmean N0 (hidR x1 x2 x3 x7 x8 x9 x10) l := by
  rw [val_main_v41_apply, val_main_v39_apply, val_main_v40_apply, val_main_cst_5_apply, val_main_cst_6_apply]
  simp only [refB_idx39, ref_hid, Ideal.hostDivf_def, Ideal.ofBits_def, Ideal.ofBits_zero_f32, zero_add]
  rfl

/-- The hidden array's column variance: the sum over all rows of the squared deviations from the mean, from zero,
    divided by the number of rows. -/
theorem refB_var (l : Fin 32) :
    val_main_v48 (F := Ideal) x1 x2 x3 x7 x8 x9 x10 (ix1 l) = rvar N0 (hidR x1 x2 x3 x7 x8 x9 x10) l := by
  rw [val_main_v48_apply, val_main_v46_apply, val_main_v47_apply, val_main_cst_7_apply, val_main_cst_8_apply]
  simp only [val_main_v45_apply, val_main_v44_apply, val_main_v43_apply, val_main_v42_apply, refB_idx46, refB_idx43,
    refB_idx42, ref_hid, refB_mean, Ideal.hostDivf_def, Ideal.mulf_def, Ideal.subf_def, Ideal.ofBits_def,
    Ideal.ofBits_zero_f32, zero_add]
  rfl

/-- After the second batch norm and ReLU (the value passed to the second linear map). -/
theorem ref_stageB (i : Fin 262144) (l : Fin 32) :
    val_main_v64 (F := Ideal) x1 x2 x3 x7 x8 x9 x10 x11 x12 (ix2 i l)
      = bnrelu ((rstats N0).mean (hidR x1 x2 x3 x7 x8 x9 x10)) ((rstats N0).var (hidR x1 x2 x3 x7 x8 x9 x10)) (cur1 x11) (cur1 x12) eps0
          (hidR x1 x2 x3 x7 x8 x9 x10) i l := by
  -- max((h − mean) · rsqrt(var + eps) · g + b, 0), each vector read at the column
  rw [val_main_v64_apply, val_main_call1_v0_apply, val_main_call1_cst_apply, val_main_v63_apply, val_main_v60_apply,
    val_main_v57_apply, val_main_v51_apply]
  simp only [val_main_v62_apply, val_main_v61_apply, val_main_v59_apply, val_main_v58_apply, val_main_v56_apply,
    val_main_v55_apply, val_main_v54_apply, val_main_v53_apply, val_main_v52_apply, val_main_cst_9_apply,
    val_main_v50_apply, val_main_v49_apply, refB_idx62, refB_idx61, refB_idx59, refB_idx58, refB_idx56, refB_idx55,
    refB_idx50, refB_idx49, ref_hid, refB_mean, refB_var, Ideal.maximumf_def, Ideal.addf_def, Ideal.mulf_def,
    Ideal.subf_def, Ideal.hostUnary_rsqrt_def, Ideal.ofBits_def, Ideal.ofBits_zero_f32]
  rfl

end Cert.RefValue

end
-- ==== Proof.Consts.lean ====
/-
  The float literals the two programs share, as the extended reals their bit patterns denote: the reciprocal of
  the number of rows (2⁻¹⁸), the number of rows (2¹⁸ = 262144), the batch norms' epsilon (a positive normal
  float), and the two literals the reductions start from (−∞ for a maximum, +0 for a sum). The patterns are
  unfolded here once; every other module reads these equations.
-/
import proofs.«145083_j84052509982728_1_alg».proof.Proof.Iface
import Idealize.ShloMosaic.PureOps.Ideal

noncomputable section

namespace Cert.Consts

open Idealize.ShloMosaic

/-- `0x36800000`: sign 0, exponent field 109, mantissa 0, that is 2^(109 − 127) = 2⁻¹⁸ = 1 / 262144. -/
theorem c0_eq : Cert.Iface.c0 = (((1 / ((262144 : ℕ) : ℝ) : ℝ)) : EReal) := by
  unfold Cert.Iface.c0
  simp [Ideal.ofBits, Ideal.ieee, -EReal.coe_mul]; norm_num

/-- `0x48800000`: sign 0, exponent field 145, mantissa 0, that is 2^(145 − 127) = 2¹⁸ = 262144. -/
theorem N0_eq : Cert.Iface.N0 = ((((262144 : ℕ) : ℝ)) : EReal) := by
  unfold Cert.Iface.N0
  simp [Ideal.ofBits, Ideal.ieee, -EReal.coe_mul]; norm_num

/-- `0x3727C5AC`: sign 0, exponent field 110, mantissa 0x27C5AC: the normal float
    (2²³ + 0x27C5AC) · 2^(110 − 127 − 23), a positive real. -/
theorem eps0_pos : ∃ r : ℝ, 0 < r ∧ Cert.Iface.eps0 = (r : EReal) := by
  unfold Cert.Iface.eps0
  simp [Ideal.ofBits, Ideal.ieee, -EReal.coe_mul]

/-- `0xFF800000`: sign 1, exponent field 255, mantissa 0, the float −∞. -/
theorem ninf_eq : Ideal.ofBits .f32 0xFF800000#32 = (⊥ : EReal) := by
  simp [Ideal.ofBits, Ideal.ieee]

/-- `0x00000000`, the float +0, denotes 0. -/
theorem zero_eq : Ideal.ofBits .f32 0x00000000#32 = (0 : EReal) := by
  simp [Ideal.ofBits, Ideal.ieee]

end Cert.Consts

end
-- ==== Proof.RefC.lean ====
/-
  The reference's third stage read at an index: the second linear map gives the specification's logits, the softmax
  along the channels is the specification's, and the gated neighbour is added to the features.
-/
import proofs.«145083_j84052509982728_1_alg».proof.Proof.RefReadP
import proofs.«145083_j84052509982728_1_alg».proof.Proof.Iface
import proofs.«145083_j84052509982728_1_alg».proof.Proof.RefA
import proofs.«145083_j84052509982728_1_alg».proof.Proof.RefB
import proofs.«145083_j84052509982728_1_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.RefValue

open Cert.ReferenceIdeal Cert.ReferenceIdeal.Gen Cert.ReferenceIdeal.ReadP
open Idealize.ShloMosaic Idealize.ShloMosaic.ValueIdx
open Cert.Iface Cert.Spec

variable (x1 : (⟨S262144x256, .f32⟩ : BufTy).Contents (Elt Ideal)) (x2 : (⟨S131072x256, .f32⟩ : BufTy).Contents (Elt Ideal))
  (x3 : (⟨S262144, .i32⟩ : BufTy).Contents (Elt Ideal)) (x4 : (⟨S256x256, .f32⟩ : BufTy).Contents (Elt Ideal))
  (x5 x6 x7 x8 : (⟨S256, .f32⟩ : BufTy).Contents (Elt Ideal)) (x9 : (⟨S32x256, .f32⟩ : BufTy).Contents (Elt Ideal))
  (x10 x11 x12 : (⟨S32, .f32⟩ : BufTy).Contents (Elt Ideal)) (x13 : (⟨S256x32, .f32⟩ : BufTy).Contents (Elt Ideal))
  (x14 : (⟨S256, .f32⟩ : BufTy).Contents (Elt Ideal))

/-! ## Index equations: the composed index maps of the layout operations, at explicit coordinates -/

theorem refC_lidx66 (i : Fin 262144) (j : Fin 256) (k : Fin 32) : lidx_main_v66 (ix2 i j) k = ix2 i k :=
  funext fun a => Fin.ext (by match a with | ⟨0, _⟩ => rfl | ⟨1, _⟩ => rfl)
theorem refC_ridx66 (i : Fin 262144) (j : Fin 256) (k : Fin 32) : ridx_main_v66 (ix2 i j) k = ix2 k j :=
  funext fun a => Fin.ext (by match a with | ⟨0, _⟩ => rfl | ⟨1, _⟩ => rfl)
theorem refC_idx65 (k : Fin 32) (j : Fin 256) : idx_main_v65 (ix2 k j) = ix2 j k :=
  funext fun a => Fin.ext (by match a with | ⟨0, _⟩ => rfl | ⟨1, _⟩ => rfl)
theorem refC_idx68_67 (i : Fin 262144) (j : Fin 256) : idx_main_v67 (idx_main_v68 (ix2 i j)) = ix1 j :=
  funext fun a => Fin.ext (by match a with | ⟨0, _⟩ => rfl)
theorem refC_idx74_73 (i : Fin 262144) (j : Fin 256) : idx_main_v73 (idx_main_v74 (ix2 i j)) = ix1 i :=
  funext fun a => Fin.ext (by match a with | ⟨0, _⟩ => rfl)
theorem refC_idx79_78 (i : Fin 262144) (j : Fin 256) : idx_main_v78 (idx_main_v79 (ix2 i j)) = ix1 i :=
  funext fun a => Fin.ext (by match a with | ⟨0, _⟩ => rfl)
theorem refC_idx77 (i : Fin 262144) (k : Fin 256) : idx_main_v77 (ix1 i) k = ix2 i k :=
  funext fun a => Fin.ext (by match a with | ⟨0, _⟩ => rfl | ⟨1, _⟩ => rfl)

/-- A row index with the column `k` put back on the reduced axis is (i, k). -/
theorem refC_lift_row (h : S262144x256.Reduces [1] S262144) (i : Fin 262144) (k : Fin (S262144x256.size 1)) :
    h.lift (ix1 i) k = ix2 i (⟨k.val, k.isLt⟩ : Fin 256) := by
  funext c; apply Fin.ext
  fin_cases c <;> rfl

/-- The logits of the reference's arguments. -/
abbrev logitsR : Fin 262144 → Fin 256 → EReal :=
  Spec.logits (rstats N0) eps0 (cur2 x1) (cur2 (augR x2 x3)) (cur1 x7) (cur1 x8) (cur2 x9) (cur1 x10) (cur1 x11) (cur1 x12) (cur2 x13) (cur1 x14)

/-- The second linear map's result is the logits: entry (i, j) is the sum over the 32 hidden channels of the second
    stage's result times the weight W2[j, l], plus the bias b2[j]. -/
theorem ref_logits (i : Fin 262144) (j : Fin 256) :
    val_main_v69 (F := Ideal) x1 x2 x3 x7 x8 x9 x10 x11 x12 x13 x14 (ix2 i j) = logitsR x1 x2 x3 x7 x8 x9 x10 x11 x12 x13 x14 i j := by
  rw [val_main_v69_apply, val_main_v66_apply, val_main_v68_apply, val_main_v67_apply, refC_idx68_67, Ideal.addf_def]
  unfold logitsR Spec.logits Spec.lin Spec.mm
  refine congrArg (· + x14 (ix1 j)) (Finset.sum_congr rfl fun k _ => ?_)
  rw [refC_lidx66, refC_ridx66, val_main_v65_apply, refC_idx65, ref_stageB]

/-- The row maximum: the fold of `max` from −∞ over the 256 logits of row i, once more joined with −∞. -/
theorem ref_rowmax (i : Fin 262144) :
    val_main_v72 (F := Ideal) x1 x2 x3 x7 x8 x9 x10 x11 x12 x13 x14 (ix1 i)
      = rowmax (logitsR x1 x2 x3 x7 x8 x9 x10 x11 x12 x13 x14) i := by
  have h : S262144x256.Reduces [1] S262144 := by decide
  have hf : (val_main_v69 (F := Ideal) x1 x2 x3 x7 x8 x9 x10 x11 x12 x13 x14 ∘ h.lift (ix1 i))
      = fun k : Fin 256 => logitsR x1 x2 x3 x7 x8 x9 x10 x11 x12 x13 x14 i k :=
    funext fun k => (congrArg (val_main_v69 (F := Ideal) x1 x2 x3 x7 x8 x9 x10 x11 x12 x13 x14) (refC_lift_row h i k)).trans
      (ref_logits x1 x2 x3 x7 x8 x9 x10 x11 x12 x13 x14 i ⟨k.val, k.isLt⟩)
  rw [val_main_v72_apply, val_main_v71_apply, val_main_cst_11_apply]
  unfold val_main_v70
  rw [Host.reduce_eq_fold_single FloatOps.maximumf _ _ reducesTo_S262144x256_S262144_d1 h h_S_, hf,
    val_main_cst_10_apply, Ideal.ofBits_def, Cert.Consts.ninf_eq]
  rfl

/-- The shifted exponential: exp of the logit less its row's maximum. -/
theorem ref_exp (i : Fin 262144) (j : Fin 256) :
    val_main_v76 (F := Ideal) x1 x2 x3 x7 x8 x9 x10 x11 x12 x13 x14 (ix2 i j)
      = Ideal.exp (logitsR x1 x2 x3 x7 x8 x9 x10 x11 x12 x13 x14 i j - rowmax (logitsR x1 x2 x3 x7 x8 x9 x10 x11 x12 x13 x14) i) := by
  rw [val_main_v76_apply, val_main_v75_apply, val_main_v74_apply, val_main_v73_apply, refC_idx74_73, Ideal.hostUnary_exp_def,
    Ideal.subf_def, ref_logits, ref_rowmax]

/-- The softmax's denominator: the sum over the row of the shifted exponentials (from the initial value +0). -/
theorem ref_expsum (i : Fin 262144) :
    val_main_v77 (F := Ideal) x1 x2 x3 x7 x8 x9 x10 x11 x12 x13 x14 (ix1 i)
      = ∑ j' : Fin 256, Ideal.exp (logitsR x1 x2 x3 x7 x8 x9 x10 x11 x12 x13 x14 i j' - rowmax (logitsR x1 x2 x3 x7 x8 x9 x10 x11 x12 x13 x14) i) := by
  rw [val_main_v77_apply, val_main_cst_12_apply, Ideal.ofBits_def, Ideal.ofBits_zero_f32, zero_add]
  refine Finset.sum_congr rfl fun k _ => ?_
  rw [refC_idx77, ref_exp]

/-- The features plus the softmax-gated neighbour. -/
theorem ref_stageC (i : Fin 262144) (j : Fin 256) :
    val_main_v82 (F := Ideal) x1 x2 x3 x7 x8 x9 x10 x11 x12 x13 x14 (ix2 i j)
      = cur2 x1 i j + softmax (logitsR x1 x2 x3 x7 x8 x9 x10 x11 x12 x13 x14) i j * cur2 (augR x2 x3) i j := by
  rw [val_main_v82_apply, val_main_v81_apply, val_main_v80_apply, val_main_v79_apply, val_main_v78_apply, refC_idx79_78,
    Ideal.addf_def, Ideal.mulf_def, Ideal.hostDivf_def, ref_exp, ref_expsum]
  rfl

end Cert.RefValue

end
-- ==== Proof.RefD.lean ====
/-
  The reference's last stage read at an index: the square linear map gives the specification's mixed array, and its
  batch norm and ReLU give the layer's output at the two-pass statistics.
-/
import proofs.«145083_j84052509982728_1_alg».proof.Proof.RefReadP
import proofs.«145083_j84052509982728_1_alg».proof.Proof.Iface
import proofs.«145083_j84052509982728_1_alg».proof.Proof.RefA
import proofs.«145083_j84052509982728_1_alg».proof.Proof.RefB
import proofs.«145083_j84052509982728_1_alg».proof.Proof.RefC
import Idealize.ShloMosaic.Lib.Pipeline.Value
import Idealize.ShloMosaic.Lib.ValueIdx
import Idealize.ShloMosaic.Lib.ValueLayout
import Idealize.ShloMosaic.PureOps.Ideal.Laws

noncomputable section

namespace Cert.RefValue

open Cert.ReferenceIdeal Cert.ReferenceIdeal.Gen Cert.ReferenceIdeal.ReadP
open Idealize.ShloMosaic Idealize.ShloMosaic.ValueIdx
open Cert.Iface Cert.Spec

variable (x1 : (⟨S262144x256, .f32⟩ : BufTy).Contents (Elt Ideal)) (x2 : (⟨S131072x256, .f32⟩ : BufTy).Contents (Elt Ideal))
  (x3 : (⟨S262144, .i32⟩ : BufTy).Contents (Elt Ideal)) (x4 : (⟨S256x256, .f32⟩ : BufTy).Contents (Elt Ideal))
  (x5 x6 x7 x8 : (⟨S256, .f32⟩ : BufTy).Contents (Elt Ideal)) (x9 : (⟨S32x256, .f32⟩ : BufTy).Contents (Elt Ideal))
  (x10 x11 x12 : (⟨S32, .f32⟩ : BufTy).Contents (Elt Ideal)) (x13 : (⟨S256x32, .f32⟩ : BufTy).Contents (Elt Ideal))
  (x14 : (⟨S256, .f32⟩ : BufTy).Contents (Elt Ideal))

section Idx
variable (i k : Fin 262144) (j l : Fin 256)

/-! The square linear map contracts the gated array's columns with the weight's second axis: term `l` of entry
    (`i`, `j`) is the gated array at (`i`, `l`) times the weight, stored [out, in], at (`j`, `l`). -/
theorem idx_l84 : lidx_main_v84 (ix2 i j) l = ix2 i l :=
  funext fun a => Fin.ext (by match a with | ⟨0, _⟩ => rfl | ⟨1, _⟩ => rfl)
theorem idx_r84 : idx_main_v83 (ridx_main_v84 (ix2 i j) l) = ix2 j l :=
  funext fun a => Fin.ext (by match a with | ⟨0, _⟩ => rfl | ⟨1, _⟩ => rfl)

/-! A [256] vector broadcast to a [1,256] row and then to all 262144 rows is read, at row `i` and column `j`, at
    its entry `j` (the mean twice, the reciprocal root, the scale, the shift). -/
theorem idx_v88_v89 : idx_main_v88 (idx_main_v89 (ix2 i j)) = ix1 j :=
  funext fun a => Fin.ext (by match a with | ⟨0, _⟩ => rfl)
theorem idx_v95_v96 : idx_main_v95 (idx_main_v96 (ix2 i j)) = ix1 j :=
  funext fun a => Fin.ext (by match a with | ⟨0, _⟩ => rfl)
theorem idx_v101_v102 : idx_main_v101 (idx_main_v102 (ix2 i j)) = ix1 j :=
  funext fun a => Fin.ext (by match a with | ⟨0, _⟩ => rfl)
theorem idx_v104_v105 : idx_main_v104 (idx_main_v105 (ix2 i j)) = ix1 j :=
  funext fun a => Fin.ext (by match a with | ⟨0, _⟩ => rfl)
theorem idx_v107_v108 : idx_main_v107 (idx_main_v108 (ix2 i j)) = ix1 j :=
  funext fun a => Fin.ext (by match a with | ⟨0, _⟩ => rfl)

/-! The two sums over the rows: term `k` of column `j`'s sum is the operand at row `k`, column `j`. -/
theorem idx_v85 : idx_main_v85 (ix1 j) k = ix2 k j :=
  funext fun a => Fin.ext (by match a with | ⟨0, _⟩ => rfl | ⟨1, _⟩ => rfl)
theorem idx_v92 : idx_main_v92 (ix1 j) k = ix2 k j :=
  funext fun a => Fin.ext (by match a with | ⟨0, _⟩ => rfl | ⟨1, _⟩ => rfl)

end Idx

/-- The two-pass statistics' components. -/
theorem refD_rstats_mean {n d : ℕ} (N : EReal) (X : Fin n → Fin d → EReal) : (rstats N).mean X = rmean N X := rfl
theorem refD_rstats_var {n d : ℕ} (N : EReal) (X : Fin n → Fin d → EReal) : (rstats N).var X = rvar N X := rfl

/-- The mixed array of the reference's arguments. -/
abbrev mixedR : Fin 262144 → Fin 256 → EReal :=
  Spec.mixed (rstats N0) eps0 (cur2 x1) (cur2 (augR x2 x3)) (cur2 x4) (cur1 x7) (cur1 x8) (cur2 x9) (cur1 x10) (cur1 x11) (cur1 x12) (cur2 x13) (cur1 x14)

/-- The square linear map's result is the mixed array. -/
theorem ref_mixed (i : Fin 262144) (j : Fin 256) :
    val_main_v84 (F := Ideal) x1 x2 x3 x4 x7 x8 x9 x10 x11 x12 x13 x14 (ix2 i j) = mixedR x1 x2 x3 x4 x7 x8 x9 x10 x11 x12 x13 x14 i j := by
  simp only [val_main_v84_apply, val_main_v83_apply, idx_l84, idx_r84, ref_stageC, mixedR, logitsR, Spec.mixed, mm]

/-- THE REFERENCE IS THE LAYER at the two-pass statistics. -/
theorem ref_is_net (i : Fin 262144) (j : Fin 256) :
    val_main_v110 (F := Ideal) x1 x2 x3 x4 x5 x6 x7 x8 x9 x10 x11 x12 x13 x14 (ix2 i j)
      = Spec.net (rstats N0) eps0 (cur2 x1) (cur2 (augR x2 x3)) (cur2 x4) (cur1 x5) (cur1 x6) (cur1 x7) (cur1 x8) (cur2 x9) (cur1 x10)
          (cur1 x11) (cur1 x12) (cur2 x13) (cur1 x14) i j := by
  simp only [val_main_v110_apply, val_main_call2_v0_apply, val_main_call2_cst_apply, val_main_v109_apply, val_main_v108_apply,
    val_main_v107_apply, val_main_v106_apply, val_main_v105_apply, val_main_v104_apply, val_main_v103_apply, val_main_v102_apply,
    val_main_v101_apply, val_main_v100_apply, val_main_v99_apply, val_main_v98_apply, val_main_cst_17_apply, val_main_v97_apply,
    val_main_v96_apply, val_main_v95_apply, val_main_v94_apply, val_main_v93_apply, val_main_cst_16_apply, val_main_v92_apply,
    val_main_cst_15_apply, val_main_v91_apply, val_main_v90_apply, val_main_v89_apply, val_main_v88_apply, val_main_v87_apply,
    val_main_v86_apply, val_main_cst_14_apply, val_main_v85_apply, val_main_cst_13_apply,
    idx_v88_v89, idx_v95_v96, idx_v101_v102, idx_v104_v105, idx_v107_v108, idx_v85, idx_v92,
    ref_mixed, mixedR,
    Ideal.ofBits_def, Ideal.addf_def, Ideal.subf_def, Ideal.mulf_def, Ideal.maximumf_def, Ideal.hostDivf_def,
    Ideal.hostUnary_rsqrt_def, Ideal.ofBits_zero_f32, zero_add,
    net, bnrelu, refD_rstats_mean, refD_rstats_var, rmean, rvar, colsum, N0, eps0]

end Cert.RefValue

end
-- ==== Proof.SpecStats.lean ====
/-
  The two ways of taking a column's mean and variance agree on real data.

  For a column of real numbers x₁ … xₙ with sum S and sum of squares Q, the mean of the squared deviations from
  S/n is Q/n − (S/n)²: expand the square and use Σ xᵢ = S. On the extended reals the identity needs every entry to
  be a real number (it fails at an infinity), which is why realness is carried as a hypothesis and also proved of
  the statistics themselves.
-/
import proofs.«145083_j84052509982728_1_alg».proof.Proof.Spec
import Mathlib.Algebra.BigOperators.Ring.Finset
import Mathlib.Algebra.Order.BigOperators.Ring.Finset
import Mathlib.Tactic.Ring
import Mathlib.Tactic.FieldSimp

noncomputable section

namespace Cert.Spec

open Idealize.ShloMosaic

variable {n d : ℕ}

/-- Every entry is a real number. -/
def IsReal (X : Fin n → Fin d → EReal) : Prop := ∀ i j, ∃ r : ℝ, X i j = (r : EReal)
/-- Every entry of a vector is a real number. -/
def IsRealV (v : Fin d → EReal) : Prop := ∀ j, ∃ r : ℝ, v j = (r : EReal)

/-- A finite sum of real numbers read in the extended reals is the reading of the real sum. -/
theorem coe_sum_real {ι : Type} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- A data matrix all of whose entries are real is the reading of a real matrix. -/
theorem IsReal.exists_eq {X : Fin n → Fin d → EReal} (hX : IsReal X) :
    ∃ r : Fin n → Fin d → ℝ, X = fun i j => ((r i j : ℝ) : EReal) := by
  choose r hr using hX
  exact ⟨r, by funext i j; exact hr i j⟩

/-- The column sum of a real matrix is the real column sum. -/
theorem colsum_coe (r : Fin n → Fin d → ℝ) (j : Fin d) :
    colsum (fun i j => ((r i j : ℝ) : EReal)) j = ((∑ i, r i j : ℝ) : EReal) := by
  unfold colsum
  exact coe_sum_real _ _

/-- The two-pass mean of a real matrix is the real column sum times 1/n. -/
theorem rmean_coe (hn : 0 < n) (r : Fin n → Fin d → ℝ) (j : Fin d) :
    rmean (((n : ℝ)) : EReal) (fun i j => ((r i j : ℝ) : EReal)) j
      = (((∑ i, r i j) * (1 / (n : ℝ)) : ℝ) : EReal) := by
  have hn' : (n : ℝ) ≠ 0 := by exact_mod_cast hn.ne'
  unfold rmean
  rw [Ideal.div_coe hn', colsum_coe, ← EReal.coe_mul]

/-- The two-pass variance of a real matrix is the real mean of the squared deviations. -/
theorem rvar_coe (hn : 0 < n) (r : Fin n → Fin d → ℝ) (j : Fin d) :
    rvar (((n : ℝ)) : EReal) (fun i j => ((r i j : ℝ) : EReal)) j
      = (((∑ i, (r i j - (∑ i, r i j) * (1 / (n : ℝ))) * (r i j - (∑ i, r i j) * (1 / (n : ℝ))))
            * (1 / (n : ℝ)) : ℝ) : EReal) := by
  have hn' : (n : ℝ) ≠ 0 := by exact_mod_cast hn.ne'
  unfold rvar
  rw [Ideal.div_coe hn']
  simp only [rmean_coe hn, ← EReal.coe_sub, ← EReal.coe_mul]
  rw [colsum_coe (fun i j => (r i j - (∑ i, r i j) * (1 / (n : ℝ))) * (r i j - (∑ i, r i j) * (1 / (n : ℝ)))) j,
    ← EReal.coe_mul]

/-- For real numbers: the mean of the squares less the square of the mean is the mean of the squared deviations. -/
theorem real_var_identity (hn : 0 < n) (f : Fin n → ℝ) :
    (∑ i, f i * f i) * (1 / (n : ℝ)) - ((∑ i, f i) * (1 / (n : ℝ))) * ((∑ i, f i) * (1 / (n : ℝ)))
      = (∑ i, (f i - (∑ i, f i) * (1 / (n : ℝ))) * (f i - (∑ i, f i) * (1 / (n : ℝ)))) * (1 / (n : ℝ)) := by
  have hn' : (n : ℝ) ≠ 0 := by exact_mod_cast hn.ne'
  generalize hS : (∑ i, f i) = S
  generalize hm : S * (1 / (n : ℝ)) = m
  have h1 : (∑ i, (f i - m) * (f i - m)) = (∑ i, f i * f i) - 2 * m * S + (n : ℝ) * (m * m) := by
    have h2 : ∀ i, (f i - m) * (f i - m) = f i * f i - 2 * m * f i + m * m := fun i => by ring
    simp only [h2]
    rw [Finset.sum_add_distrib, Finset.sum_sub_distrib, ← Finset.mul_sum, Finset.sum_const, Finset.card_univ,
      Fintype.card_fin, nsmul_eq_mul, hS]
  rw [h1, ← hm]
  field_simp
  ring

/-- On real data the scaled column sum is the column sum divided by the number of rows. -/
theorem kmean_eq_rmean (hn : 0 < n) (X : Fin n → Fin d → EReal) (hX : IsReal X) :
    kmean (((1 / (n : ℝ) : ℝ)) : EReal) X = rmean (((n : ℝ)) : EReal) X := by
  have hn' : (n : ℝ) ≠ 0 := by exact_mod_cast hn.ne'
  funext j
  unfold kmean rmean
  rw [Ideal.div_coe hn']

/-- On real data E[X²] − E[X]² is the mean of the squared deviations. -/
theorem kvar_eq_rvar (hn : 0 < n) (X : Fin n → Fin d → EReal) (hX : IsReal X) :
    kvar (((1 / (n : ℝ) : ℝ)) : EReal) X = rvar (((n : ℝ)) : EReal) X := by
  obtain ⟨r, rfl⟩ := hX.exists_eq
  funext j
  rw [rvar_coe hn]
  unfold kvar kmean
  simp only [← EReal.coe_mul]
  rw [colsum_coe (fun i j => r i j * r i j) j, colsum_coe r j]
  simp only [← EReal.coe_mul, ← EReal.coe_sub]
  rw [real_var_identity hn (fun i => r i j)]

/-- The mean of real data is real. -/
theorem rmean_real (hn : 0 < n) (X : Fin n → Fin d → EReal) (hX : IsReal X) : IsRealV (rmean (((n : ℝ)) : EReal) X) := by
  obtain ⟨r, rfl⟩ := hX.exists_eq
  intro j
  exact ⟨_, rmean_coe hn r j⟩

/-- The variance of real data is a nonnegative real. -/
theorem rvar_real_nonneg (hn : 0 < n) (X : Fin n → Fin d → EReal) (hX : IsReal X) (j : Fin d) :
    ∃ r : ℝ, 0 ≤ r ∧ rvar (((n : ℝ)) : EReal) X j = (r : EReal) := by
  obtain ⟨r, rfl⟩ := hX.exists_eq
  refine ⟨_, ?_, rvar_coe hn r j⟩
  have hn' : (0 : ℝ) ≤ 1 / (n : ℝ) := by positivity
  exact mul_nonneg (Finset.sum_nonneg (fun i _ => mul_self_nonneg _)) hn'

end Cert.Spec

end
-- ==== Proof.SpecNet.lean ====
/-
  The layer over the accumulated statistics is the layer over the two-pass statistics, on real data.

  Each of the three batch norms sees a real array: the relation is a difference of reals; a batch norm of a real
  array with a nonnegative real variance and a positive epsilon multiplies by the reciprocal square root of a positive
  real, so it stays real, and so do ReLU, the linear maps, the exponentials of the shifted logits, their positive
  row sums and the quotients by them. On a real array the two statistics agree, so the two layers agree stage by stage.
-/
import proofs.«145083_j84052509982728_1_alg».proof.Proof.SpecStats

noncomputable section

namespace Cert.Spec

open Idealize.ShloMosaic

variable {n d k C H : ℕ}

/-! ### Real numbers are closed under the layer's operations -/

/-- A finite sum of real numbers is the real sum. -/
theorem sum_coe {ι : Type*} (s : Finset ι) (f : ι → ℝ) : ∑ l ∈ s, ((f l : ℝ) : EReal) = ((∑ l ∈ s, f l : ℝ) : EReal) := by
  classical
  induction s using Finset.induction_on with
  | empty => simp
  | insert a s ha ih => rw [Finset.sum_insert ha, Finset.sum_insert ha, ih, EReal.coe_add]

/-- The larger of two real numbers is a real number. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The relation of real arrays is real. -/
theorem isReal_rel {x aug : Fin n → Fin C → EReal} (hx : IsReal x) (haug : IsReal aug) : IsReal (rel x aug) := by
  intro i j
  obtain ⟨a, ha⟩ := hx i j
  obtain ⟨b, hb⟩ := haug i j
  exact ⟨a - b, by rw [rel, ha, hb, EReal.coe_sub]⟩

/-- The reciprocal square root of a nonnegative real plus a positive real is a real number. -/
theorem rsqrt_real {v e : ℝ} (hv : 0 ≤ v) (he : 0 < e) : ∃ r : ℝ, Ideal.rsqrt ((v : EReal) + (e : EReal)) = (r : EReal) := by
  have hpos : 0 < v + e := by linarith
  refine ⟨(Real.sqrt (v + e))⁻¹, ?_⟩
  rw [← EReal.coe_add, Ideal.rsqrt_coe, if_neg (not_lt.mpr hpos.le), if_neg hpos.ne']

/-- A batch norm with real mean, nonnegative real variance, positive epsilon, real scale and shift, followed by
    a ReLU, keeps a real array real. -/
theorem isReal_bnrelu {mean var g b : Fin d → EReal} {eps : ℝ} (heps : 0 < eps) {X : Fin n → Fin d → EReal}
    (hmean : IsRealV mean) (hvar : ∀ j, ∃ r : ℝ, 0 ≤ r ∧ var j = (r : EReal)) (hg : IsRealV g) (hb : IsRealV b)
    (hX : IsReal X) : IsReal (bnrelu mean var g b (eps : EReal) X) := by
  intro i j
  obtain ⟨xr, hxr⟩ := hX i j
  obtain ⟨m, hm⟩ := hmean j
  obtain ⟨v, hv0, hv⟩ := hvar j
  obtain ⟨gr, hgr⟩ := hg j
  obtain ⟨br, hbr⟩ := hb j
  obtain ⟨s, hs⟩ := rsqrt_real hv0 heps
  refine ⟨max ((xr - m) * s * gr + br) 0, ?_⟩
  rw [bnrelu, hxr, hm, hv, hgr, hbr, hs, ← EReal.coe_sub, ← EReal.coe_mul, ← EReal.coe_mul, ← EReal.coe_add,
    ← EReal.coe_zero, max_coe]

/-- A product of real arrays is real. -/
theorem isReal_mm {X : Fin n → Fin k → EReal} {W : Fin d → Fin k → EReal} (hX : IsReal X) (hW : IsReal W) :
    IsReal (mm X W) := by
  choose fX hfX using hX
  choose fW hfW using hW
  intro i j
  refine ⟨∑ l, fX i l * fW j l, ?_⟩
  rw [mm, ← sum_coe]
  refine Finset.sum_congr rfl (fun l _ => ?_)
  rw [hfX, hfW, EReal.coe_mul]

/-- A linear map with real weight and shift keeps a real array real. -/
theorem isReal_lin {X : Fin n → Fin k → EReal} {W : Fin d → Fin k → EReal} {b : Fin d → EReal} (hX : IsReal X)
    (hW : IsReal W) (hb : IsRealV b) : IsReal (lin X W b) := by
  intro i j
  obtain ⟨m, hm⟩ := isReal_mm hX hW i j
  obtain ⟨br, hbr⟩ := hb j
  exact ⟨m + br, by rw [lin, hm, hbr, EReal.coe_add]⟩

/-- A fold of `max` from `-∞` over real numbers is `-∞` or a real number, and a real number when the index set is
    inhabited. -/
theorem fold_max_real {ι : Type*} [DecidableEq ι] (f : ι → ℝ) (s : Finset ι) :
    (s = ∅ ∧ s.fold max (⊥ : EReal) (fun j => (f j : EReal)) = ⊥) ∨
      ∃ r : ℝ, s.fold max (⊥ : EReal) (fun j => (f j : EReal)) = (r : EReal) := by
  induction s using Finset.induction_on with
  | empty => exact Or.inl ⟨rfl, Finset.fold_empty⟩
  | insert a s ha ih =>
    right
    rw [Finset.fold_insert ha]
    rcases ih with ⟨_, h⟩ | ⟨r, h⟩
    · exact ⟨f a, by rw [h, max_eq_left bot_le]⟩
    · exact ⟨max (f a) r, by rw [h, max_coe]⟩

/-- The largest entry of a nonempty real row is a real number. -/
theorem rowmax_real (hd : 0 < d) {X : Fin n → Fin d → EReal} (hX : IsReal X) (i : Fin n) :
    ∃ r : ℝ, rowmax X i = (r : EReal) := by
  choose fX hfX using hX
  have hfun : (fun j => X i j) = (fun j => ((fX i j : ℝ) : EReal)) := funext (fun j => hfX i j)
  rcases fold_max_real (fX i) (Finset.univ : Finset (Fin d)) with ⟨he, _⟩ | ⟨r, h⟩
  · exact absurd he (Finset.univ_nonempty_iff.mpr ⟨⟨0, hd⟩⟩).ne_empty
  · exact ⟨r, by rw [rowmax, hfun, h, max_eq_right bot_le]⟩

/-- The softmax of a real array with nonempty rows is real. -/
theorem isReal_softmax (hd : 0 < d) {X : Fin n → Fin d → EReal} (hX : IsReal X) : IsReal (softmax X) := by
  intro i j
  obtain ⟨m, hm⟩ := rowmax_real hd hX i
  choose fX hfX using hX
  have hsum : (∑ j', Ideal.exp (X i j' - rowmax X i)) = ((∑ j', Real.exp (fX i j' - m) : ℝ) : EReal) := by
    rw [← sum_coe]
    refine Finset.sum_congr rfl (fun l _ => ?_)
    rw [hfX, hm, ← EReal.coe_sub, Ideal.exp_coe]
  have hpos : 0 < ∑ j', Real.exp (fX i j' - m) :=
    Finset.sum_pos (fun l _ => Real.exp_pos _) (Finset.univ_nonempty_iff.mpr ⟨⟨0, hd⟩⟩)
  refine ⟨Real.exp (fX i j - m) * (1 / ∑ j', Real.exp (fX i j' - m)), ?_⟩
  rw [softmax, hsum, Ideal.div_coe hpos.ne', hfX, hm, ← EReal.coe_sub, Ideal.exp_coe, EReal.coe_mul]

/-- The gated sum of real arrays is real. -/
theorem isReal_gated {x aug sw : Fin n → Fin C → EReal} (hx : IsReal x) (haug : IsReal aug) (hsw : IsReal sw) :
    IsReal (fun i j => x i j + sw i j * aug i j) := by
  intro i j
  obtain ⟨a, ha⟩ := hx i j
  obtain ⟨b, hb⟩ := haug i j
  obtain ⟨s, hs⟩ := hsw i j
  exact ⟨a + s * b, by simp only [ha, hb, hs, EReal.coe_add, EReal.coe_mul]⟩

/-! ### One batch norm, either way -/

/-- On a real array the batch norm over the accumulated statistics is the batch norm over the two-pass statistics. -/
theorem bnrelu_kstats_eq_rstats (hn : 0 < n) (X : Fin n → Fin d → EReal) (hX : IsReal X) (g b : Fin d → EReal)
    (eps : EReal) :
    bnrelu ((kstats (((1 / (n : ℝ) : ℝ)) : EReal)).mean X) ((kstats (((1 / (n : ℝ) : ℝ)) : EReal)).var X) g b eps X
      = bnrelu ((rstats (((n : ℝ)) : EReal)).mean X) ((rstats (((n : ℝ)) : EReal)).var X) g b eps X := by
  show bnrelu (kmean _ X) (kvar _ X) g b eps X = bnrelu (rmean _ X) (rvar _ X) g b eps X
  rw [kmean_eq_rmean hn X hX, kvar_eq_rvar hn X hX]

/-- The batch norm of a real array over the two-pass statistics, with a positive epsilon and real scale and shift,
    is real. -/
theorem isReal_bnrelu_rstats (hn : 0 < n) {X : Fin n → Fin d → EReal} (hX : IsReal X) {g b : Fin d → EReal}
    (hg : IsRealV g) (hb : IsRealV b) {eps : ℝ} (heps : 0 < eps) :
    IsReal (bnrelu ((rstats (((n : ℝ)) : EReal)).mean X) ((rstats (((n : ℝ)) : EReal)).var X) g b (eps : EReal) X) :=
  isReal_bnrelu heps (rmean_real hn X hX) (rvar_real_nonneg hn X hX) hg hb hX

/-- THE LAYER, EITHER WAY. With `n` rows, the kernels' scale `1/n` and the reference's divisor `n`, a positive real
    epsilon and real inputs, the layer computed from column sums and sums of squares is the layer computed from
    means and mean squared deviations. -/
theorem net_kstats_eq_rstats (hn : 0 < n) (hC : 0 < C) (eps : ℝ) (heps : 0 < eps)
    (x aug : Fin n → Fin C → EReal) (Wlin : Fin C → Fin C → EReal)
    (g_main b_main g_a b_a : Fin C → EReal) (W1 : Fin H → Fin C → EReal) (b1 g_b b_b : Fin H → EReal)
    (W2 : Fin C → Fin H → EReal) (b2 : Fin C → EReal)
    (hx : IsReal x) (haug : IsReal aug) (hWlin : IsReal Wlin) (hgm : IsRealV g_main) (hbm : IsRealV b_main)
    (hga : IsRealV g_a) (hba : IsRealV b_a) (hW1 : IsReal W1) (hb1 : IsRealV b1) (hgb : IsRealV g_b) (hbb : IsRealV b_b)
    (hW2 : IsReal W2) (hb2 : IsRealV b2) :
    net (kstats (((1 / (n : ℝ) : ℝ)) : EReal)) (eps : EReal) x aug Wlin g_main b_main g_a b_a W1 b1 g_b b_b W2 b2
      = net (rstats (((n : ℝ)) : EReal)) (eps : EReal) x aug Wlin g_main b_main g_a b_a W1 b1 g_b b_b W2 b2 := by
  -- the relation is real, so the first batch norm agrees and the hidden layer is real
  have hrel : IsReal (rel x aug) := isReal_rel hx haug
  have hhid : hid (kstats (((1 / (n : ℝ) : ℝ)) : EReal)) (eps : EReal) x aug g_a b_a W1 b1
      = hid (rstats (((n : ℝ)) : EReal)) (eps : EReal) x aug g_a b_a W1 b1 := by
    unfold hid
    rw [bnrelu_kstats_eq_rstats hn _ hrel]
  have hhidR : IsReal (hid (rstats (((n : ℝ)) : EReal)) (eps : EReal) x aug g_a b_a W1 b1) :=
    isReal_lin (isReal_bnrelu_rstats hn hrel hga hba heps) hW1 hb1
  -- so the second batch norm agrees and the logits are real
  have hlog : logits (kstats (((1 / (n : ℝ) : ℝ)) : EReal)) (eps : EReal) x aug g_a b_a W1 b1 g_b b_b W2 b2
      = logits (rstats (((n : ℝ)) : EReal)) (eps : EReal) x aug g_a b_a W1 b1 g_b b_b W2 b2 := by
    unfold logits
    rw [hhid, bnrelu_kstats_eq_rstats hn _ hhidR]
  have hlogR : IsReal (logits (rstats (((n : ℝ)) : EReal)) (eps : EReal) x aug g_a b_a W1 b1 g_b b_b W2 b2) :=
    isReal_lin (isReal_bnrelu_rstats hn hhidR hgb hbb heps) hW2 hb2
  -- so the gated sums agree and are real
  have hmix : mixed (kstats (((1 / (n : ℝ) : ℝ)) : EReal)) (eps : EReal) x aug Wlin g_a b_a W1 b1 g_b b_b W2 b2
      = mixed (rstats (((n : ℝ)) : EReal)) (eps : EReal) x aug Wlin g_a b_a W1 b1 g_b b_b W2 b2 := by
    unfold mixed
    rw [hlog]
  have hmixR : IsReal (mixed (rstats (((n : ℝ)) : EReal)) (eps : EReal) x aug Wlin g_a b_a W1 b1 g_b b_b W2 b2) :=
    isReal_mm (isReal_gated hx haug (isReal_softmax hC hlogR)) hWlin
  -- and the third batch norm agrees
  unfold net
  rw [hmix, bnrelu_kstats_eq_rstats hn _ hmixR]

end Cert.Spec

end
-- ==== Proof.Bridge.lean ====
/-
  The layer on the programs' own arrays and literals, either way. The kernels' scale 2⁻¹⁸ is 1/262144, the reference's
  divisor is 262144, and the epsilon is a positive real number, so on real arrays the layer at the accumulated
  statistics (column sums and sums of squares) is the layer at the two-pass statistics (means and mean squared deviations).
-/
import proofs.«145083_j84052509982728_1_alg».proof.Proof.SpecNet
import proofs.«145083_j84052509982728_1_alg».proof.Proof.Consts
import proofs.«145083_j84052509982728_1_alg».proof.Proof.Iface

noncomputable section

namespace Cert.Bridge

open Cert.Spec Cert.Iface Idealize.ShloMosaic Idealize.ShloMosaic.ValueIdx

/-- On real arrays the layer at the kernels' statistics (scale 2⁻¹⁸) is the layer at the reference's (divisor 262144). -/
theorem net_two_ways
    (x aug : (⟨2, ![262144, 256]⟩ : Shape).Idx → EReal) (Wlin : (⟨2, ![256, 256]⟩ : Shape).Idx → EReal)
    (gm bm ga ba : (⟨1, ![256]⟩ : Shape).Idx → EReal) (W1 : (⟨2, ![32, 256]⟩ : Shape).Idx → EReal)
    (b1 gb bb : (⟨1, ![32]⟩ : Shape).Idx → EReal) (W2 : (⟨2, ![256, 32]⟩ : Shape).Idx → EReal) (b2 : (⟨1, ![256]⟩ : Shape).Idx → EReal)
    (hx : ∀ i, ∃ r : ℝ, x i = (r : EReal)) (haug : ∀ i, ∃ r : ℝ, aug i = (r : EReal)) (hWlin : ∀ i, ∃ r : ℝ, Wlin i = (r : EReal))
    (hgm : ∀ i, ∃ r : ℝ, gm i = (r : EReal)) (hbm : ∀ i, ∃ r : ℝ, bm i = (r : EReal)) (hga : ∀ i, ∃ r : ℝ, ga i = (r : EReal))
    (hba : ∀ i, ∃ r : ℝ, ba i = (r : EReal)) (hW1 : ∀ i, ∃ r : ℝ, W1 i = (r : EReal)) (hb1 : ∀ i, ∃ r : ℝ, b1 i = (r : EReal))
    (hgb : ∀ i, ∃ r : ℝ, gb i = (r : EReal)) (hbb : ∀ i, ∃ r : ℝ, bb i = (r : EReal)) (hW2 : ∀ i, ∃ r : ℝ, W2 i = (r : EReal))
    (hb2 : ∀ i, ∃ r : ℝ, b2 i = (r : EReal)) :
    Spec.net (kstats c0) eps0 (cur2 x) (cur2 aug) (cur2 Wlin) (cur1 gm) (cur1 bm) (cur1 ga) (cur1 ba) (cur2 W1) (cur1 b1) (cur1 gb) (cur1 bb) (cur2 W2) (cur1 b2)
      = Spec.net (rstats N0) eps0 (cur2 x) (cur2 aug) (cur2 Wlin) (cur1 gm) (cur1 bm) (cur1 ga) (cur1 ba) (cur2 W1) (cur1 b1) (cur1 gb) (cur1 bb) (cur2 W2) (cur1 b2) := by
  -- the three literals as real numbers: 1/262144, 262144, and a positive epsilon
  rw [Cert.Consts.c0_eq, Cert.Consts.N0_eq]
  obtain ⟨e, he, heq⟩ := Cert.Consts.eps0_pos
  rw [heq]
  -- an array read by row and column (or by its one coordinate) is real entry by entry
  exact net_kstats_eq_rstats (n := 262144) (C := 256) (H := 32) (by norm_num) (by norm_num) e he
    (cur2 x) (cur2 aug) (cur2 Wlin) (cur1 gm) (cur1 bm) (cur1 ga) (cur1 ba) (cur2 W1) (cur1 b1) (cur1 gb) (cur1 bb) (cur2 W2) (cur1 b2)
    (fun i j => hx (ix2 i j)) (fun i j => haug (ix2 i j)) (fun i j => hWlin (ix2 i j)) (fun j => hgm (ix1 j)) (fun j => hbm (ix1 j))
    (fun j => hga (ix1 j)) (fun j => hba (ix1 j)) (fun i j => hW1 (ix2 i j)) (fun j => hb1 (ix1 j)) (fun j => hgb (ix1 j))
    (fun j => hbb (ix1 j)) (fun i j => hW2 (ix2 i j)) (fun j => hb2 (ix1 j))

end Cert.Bridge

end
-- ==== Proof.Finite.lean ====
/-
  From the precondition to "every entry of every float argument is a real number". The precondition is a
  conjunction, over the float arguments, of "every entry has absolute value below +∞". An extended real whose
  absolute value max x (−x) lies strictly below ⊤ is neither ⊤ nor ⊥, hence is the cast of a real.
-/
import proofs.«145083_j84052509982728_1_alg».proof.Pre_finite_inputs
import proofs.«145083_j84052509982728_1_alg».proof.Proof.Gen.Pre_finite_inputs
import Idealize.ShloMosaic.Lib.ReduceAll
import Idealize.ShloMosaic.Lib.IdealHost
import Idealize.ShloMosaic.Lib.ValueIdx

noncomputable section

namespace Cert.Finite

open Idealize.ShloMosaic Idealize.ShloMosaic.ValueIdx
open Cert.Pre_finite_inputs

/-- A rank-0 array has one index. -/
instance : Subsingleton S_.Idx := ⟨fun a b => funext fun d => d.elim0⟩

/-- The float +∞ denotes ⊤. -/
theorem pinf_eq : Ideal.ofBits .f32 0x7F800000#32 = (⊤ : EReal) := by
  simp [Ideal.ofBits, Ideal.ieee]

/-- An extended real whose absolute value max x (−x) is strictly below +∞ is a real: ⊤ fails on x itself,
    ⊥ fails on −x = ⊤. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [pinf_eq] at h
  have hlt : max x (-x) < (⊤ : EReal) := by
    by_contra hn
    rw [show Ideal.cmp .olt (max x (-x)) (⊤ : EReal) = BitVec.ofBool (decide (max x (-x) < (⊤ : EReal))) from rfl,
      decide_eq_false hn] at h
    exact absurd h (by decide)
  induction x using EReal.rec with
  | bot => exact absurd hlt (by simp)
  | coe r => exact ⟨r, rfl⟩
  | top => exact absurd hlt (by simp)

/-- One conjunct of the precondition: a reduction by `and`, over all axes, of the entrywise test "|a| < +∞"
    that came out 1 says every entry of `a` is a real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) :
    ∀ i, ∃ r : ℝ, a i = (r : EReal) := by
  intro i
  have e1 := Host.reduce_andi_all _ _ hr hu ix0 e i
  have e2 : FloatOps.cmpf (F := Ideal) (φ := .f32) .olt (FloatOps.hostAbsf (F := Ideal) (φ := .f32) (a i))
      (broadcastInDim s ![] hb (constant (F := Ideal) S_ .f32 0x7F800000#32) i) = 1#1 := e1
  rw [broadcastInDim_scalar_apply] at e2
  exact real_of_abs_lt (a i) e2

/-- The precondition gives, for every float argument the programs read, that each entry is a real. -/
theorem real_of_pre [Cert.Pre_finite_inputs.Facts]
    (a0 : FVec Ideal S262144x3 .f32) (a1 : FVec Ideal S262144x256 .f32) (a2 : FVec Ideal S131072x256 .f32)
    (a3 : IVec S262144 32) (a4 : FVec Ideal S256x256 .f32) (a5 : FVec Ideal S256 .f32) (a6 : FVec Ideal S256 .f32)
    (a7 : FVec Ideal S256 .f32) (a8 : FVec Ideal S256 .f32) (a9 : FVec Ideal S32x256 .f32) (a10 : FVec Ideal S32 .f32)
    (a11 : FVec Ideal S32 .f32) (a12 : FVec Ideal S32 .f32) (a13 : FVec Ideal S256x32 .f32) (a14 : FVec Ideal S256 .f32)
    (h : Cert.Pre_finite_inputs.fn (F := Ideal) a0 a1 a2 a3 a4 a5 a6 a7 a8 a9 a10 a11 a12 a13 a14 = fun _ => 1#1) :
    (∀ i, ∃ r : ℝ, a1 i = (r : EReal)) ∧ (∀ i, ∃ r : ℝ, a2 i = (r : EReal)) ∧ (∀ i, ∃ r : ℝ, a4 i = (r : EReal)) ∧
    (∀ i, ∃ r : ℝ, a5 i = (r : EReal)) ∧ (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧ (∀ i, ∃ r : ℝ, a10 i = (r : EReal)) ∧
    (∀ i, ∃ r : ℝ, a11 i = (r : EReal)) ∧ (∀ i, ∃ r : ℝ, a12 i = (r : EReal)) ∧ (∀ i, ∃ r : ℝ, a13 i = (r : EReal)) ∧
    (∀ i, ∃ r : ℝ, a14 i = (r : EReal)) := by
  have h0 := congrFun h ix0
  dsimp only [fn, fn_part1, fn_part2, fn_part3, fn_part4, andi] at h0
  simp only [IntOp.andi_eq_one] at h0
  obtain ⟨⟨⟨⟨⟨⟨⟨⟨⟨⟨⟨⟨⟨h_0, h_1⟩, h_2⟩, h_4⟩, h_5⟩, h_6⟩, h_7⟩, h_8⟩, h_9⟩, h_10⟩, h_11⟩, h_12⟩, h_13⟩, h_14⟩ := h0
  exact ⟨all_real a1 _ _ _ h_1, all_real a2 _ _ _ h_2, all_real a4 _ _ _ h_4, all_real a5 _ _ _ h_5,
    all_real a6 _ _ _ h_6, all_real a7 _ _ _ h_7, all_real a8 _ _ _ h_8, all_real a9 _ _ _ h_9,
    all_real a10 _ _ _ h_10, all_real a11 _ _ _ h_11, all_real a12 _ _ _ h_12, all_real a13 _ _ _ h_13,
    all_real a14 _ _ _ h_14⟩

end Cert.Finite

end
-- ==== Proof.lean ====
/-
  The certificate of a point-cloud gating layer computed by four tiled kernels against its whole-array reference.

  Both programs gather the neighbour rows `aug = gx[idx]` on the host and compute, from the relation `x - aug`, a
  gate (batch norm, ReLU, a linear map to 32 channels, batch norm, ReLU, a linear map back to 256 channels, softmax
  along the channels), add the gated neighbour to `x`, apply a square linear map and a third batch norm with ReLU.
  The reference does this on whole arrays. The kernels stream tiles of 2048 rows four times: each pass folds the
  column sums and sums of squares of what the NEXT batch norm normalises into two accumulators and turns them, at
  the last tile, into the mean `S·2⁻¹⁸` and the variance `Q·2⁻¹⁸ - mean²`; the reference takes the mean `S/262144`
  and the mean of the squared deviations.

  At the ideal values the two agree: a sum over 262144 rows is the sum over 128 tiles of the sums over their 2048
  rows; `2⁻¹⁸` is the reciprocal of 262144 exactly; and on real data `E[X²] - E[X]²` is the mean squared deviation.
  The last law needs every array a batch norm sees to be real, which follows from the inputs being finite: each
  variance is a nonnegative real, epsilon is a positive real, so each reciprocal square root is a real, and the
  exponentials of the shifted logits are positive reals with a positive row sum. A change of float format is the
  identity at the ideal values, so the kernels' bf16 matrix operands are the f32 ones.

  The frames: the kernels' program is one stretch of host operations and four kernel regions, each region's
  obligation proved per control case (first tile: reset; middle tiles; last tile: the statistics' epilogue) and
  chained through the valuations between the items; the reference is a host program run operation by operation.
-/
import proofs.«145083_j84052509982728_1_alg».proof.Defs
import proofs.«145083_j84052509982728_1_alg».proof.Proof.Gen.Kernel
import proofs.«145083_j84052509982728_1_alg».proof.Proof.Gen.KernelIdeal
import proofs.«145083_j84052509982728_1_alg».proof.Proof.Gen.ReferenceIdeal
import proofs.«145083_j84052509982728_1_alg».proof.Proof.Gen.Pre_finite_inputs
import proofs.«145083_j84052509982728_1_alg».proof.Proof.K.Main
import proofs.«145083_j84052509982728_1_alg».proof.Proof.KI.Main
import proofs.«145083_j84052509982728_1_alg».proof.Proof.KI.Value
import proofs.«145083_j84052509982728_1_alg».proof.Proof.RefRun
import proofs.«145083_j84052509982728_1_alg».proof.Proof.RefD
import proofs.«145083_j84052509982728_1_alg».proof.Proof.Bridge
import proofs.«145083_j84052509982728_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and leaves its arguments unchanged: its run, the result's conjunct dropped. -/
theorem frame_k : Cert.frame_Kernel := fun m ρ _ =>
  (θ_run Cert.Kernel.defs _ _).mono (fun _ h c => (h c).2) (Cert.Kernel.Hand.run_main (F := Bits) m ρ)

/-- The idealized program likewise. -/
theorem frame_ki : Cert.frame_KernelIdeal := fun m ρ _ =>
  (θ_run Cert.KernelIdeal.defs _ _).mono (fun _ h c => (h c).2) (Cert.KernelIdeal.Hand.run_main (F := Ideal) m ρ)

/-- The reference runs and leaves its arguments unchanged. -/
theorem frame_ri : Cert.frame_ReferenceIdeal := fun m ρ _ =>
  (θ_run Cert.ReferenceIdeal.defs _ _).mono (fun _ h c => (h c).2) (Cert.RefRun.run (F := Ideal) m ρ)

/-- The ideal pass rewrote nothing. -/
theorem preserves : Cert.preserves_Kernel_KernelIdeal := trivial

/-- At the ideal values, from memories agreeing on finite arguments, both programs end with the layer's output: the
    kernels' at the accumulated statistics, the reference's at the two-pass statistics, which agree on real data. -/
theorem algebraic : Cert.algebraic_KernelIdeal_ReferenceIdeal := by
  intro m ρ m' ρ' hpre hagree
  refine ⟨fun c => Cert.KernelIdeal.Gen.V5 m (Cert.KernelIdeal.Hand.outs m) c Cert.KernelIdeal.main_v24,
    Cert.KernelIdeal.Hand.run_main (F := Ideal) m ρ, ?_⟩
  refine (θ_run Cert.ReferenceIdeal.defs _ _).mono (fun _ h c => ⟨(h c).1.trans ?_, (h c).2⟩)
    (Cert.RefRun.run (F := Ideal) m' ρ')
  obtain ⟨h1, h2, h4, h5, h6, h7, h8, h9, h10, h11, h12, h13, h14⟩ :=
    Cert.Finite.real_of_pre (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (hpre c)
  obtain ⟨e0, e1, e2, e3, e4, e5, e6, e7, e8, e9, e10, e11, e12, e13, e14⟩ := hagree c
  rw [e1, e2, e3, e4, e5, e6, e7, e8, e9, e10, e11, e12, e13, e14]
  funext idx
  obtain ⟨i, j, rfl⟩ : ∃ (i : Fin 262144) (j : Fin 256), idx = ix2 i j := ⟨idx 0, idx 1, eq_ix2 idx⟩
  refine (Cert.RefValue.ref_is_net _ _ _ _ _ _ _ _ _ _ _ _ _ _ i j).trans ?_
  refine Eq.trans ?_ (Cert.KernelIdeal.HandValue.kernel_is_net m c i j).symm
  have haug : ∀ q, ∃ r : ℝ, Cert.KernelIdeal.HandValue.augOf (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) q = (r : EReal) :=
    Cert.KernelIdeal.HandValue.augOf_real _ _ h2
  exact (congrFun (congrFun (Cert.Bridge.net_two_ways _ _ _ _ _ _ _ _ _ _ _ _ _ h1 haug h4 h5 h6 h7 h8 h9 h10 h11 h12 h13 h14) i) j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
